-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S640000 : S_.BroadcastsInDim S640000 (![] : Fin 0 → Fin S640000.rank)
  reducesTo_S640000_S_d0 : S640000.ReducesTo [0] S_

variable [Facts]

def fn_part4 {F : FTy → Type} [FloatOps F] (main_arg1 : IVec S640000 32) (main_arg2 : IVec S640000 32) (main_v63 : IVec S_ 1) (main_v67 : IVec S_ 1) : IVec S_ 1 :=
  let main_v68 : IVec S_ 1 := andi main_v63 main_v67
  let main_c_26 : IVec S_ 32 := constantI S_ 32 0#32
  let main_v69 : IVec S640000 32 := broadcastInDim S640000 ![] bcast_S_S640000 main_c_26
  let main_v70 : IVec S640000 1 := cmpi .sge main_arg1 main_v69
  let main_c_27 : IVec S_ 32 := constantI S_ 32 50000#32
  let main_v71 : IVec S640000 32 := broadcastInDim S640000 ![] bcast_S_S640000 main_c_27
  let main_v72 : IVec S640000 1 := cmpi .slt main_arg1 main_v71
  let main_v73 : IVec S640000 1 := andi main_v70 main_v72
  let main_c_28 : IVec S_ 1 := constantI S_ 1 1#1
  let main_v74 : IVec S_ 1 := (fun x v => Host.reduce IntOp.andi x v reducesTo_S640000_S_d0 h_S_) main_v73 main_c_28
  let main_v75 : IVec S_ 1 := andi main_v68 main_v74
  let main_c_29 : IVec S_ 32 := constantI S_ 32 0#32
  let main_v76 : IVec S640000 32 := broadcastInDim S640000 ![] bcast_S_S640000 main_c_29
  let main_v77 : IVec S640000 1 := cmpi .sge main_arg2 main_v76
  let main_c_30 : IVec S_ 32 := constantI S_ 32 50000#32
  let main_v78 : IVec S640000 32 := broadcastInDim S640000 ![] bcast_S_S640000 main_c_30
  let main_v79 : IVec S640000 1 := cmpi .slt main_arg2 main_v78
  let main_v80 : IVec S640000 1 := andi main_v77 main_v79
  let main_c_31 : IVec S_ 1 := constantI S_ 1 1#1
  let main_v81 : IVec S_ 1 := (fun x v => Host.reduce IntOp.andi x v reducesTo_S640000_S_d0 h_S_) main_v80 main_c_31
  let main_v82 : IVec S_ 1 := andi main_v75 main_v81
  main_v82

def fn_part3 {F : FTy → Type} [FloatOps F] (main_arg1 : IVec S640000 32) (main_arg2 : IVec S640000 32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg2 main_v63 main_v67

def fn_part2 {F : FTy → Type} [FloatOps F] (main_arg1 : IVec S640000 32) (main_arg2 : IVec S640000 32) (main_arg9 : FVec F S256 .f32) (main_arg10 : FVec F S128x256 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg2 main_arg13 main_arg14 main_arg15 main_v48 main_v49 main_v50

def fn_part1 {F : FTy → Type} [FloatOps F] (main_arg1 : IVec S640000 32) (main_arg2 : IVec S640000 32) (main_arg6 : FVec F S128x128 .f32) (main_arg7 : FVec F S128 .f32) (main_arg8 : FVec F S256x128 .f32) (main_arg9 : FVec F S256 .f32) (main_arg10 : FVec F S128x256 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg1 main_arg2 main_arg9 main_arg10 main_arg11 main_arg12 main_arg13 main_arg14 main_arg15 main_v33

def fn {F : FTy → Type} [FloatOps F] (main_arg0 : FVec F S50000x128 .f32) (main_arg1 : IVec S640000 32) (main_arg2 : IVec S640000 32) (main_arg3 : FVec F S128x128 .f32) (main_arg4 : FVec F S128x128 .f32) (main_arg5 : FVec F S128x128 .f32) (main_arg6 : FVec F S128x128 .f32) (main_arg7 : FVec F S128 .f32) (main_arg8 : FVec F S256x128 .f32) (main_arg9 : FVec F S256 .f32) (main_arg10 : FVec F S128x256 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_arg6 main_arg7 main_arg8 main_arg9 main_arg10 main_arg11 main_arg12 main_arg13 main_arg14 main_arg15 main_v13 main_v16
-- ==== Kernel.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S128x256 : Shape := ⟨2, ![128, 256]⟩
abbrev S128x8 : Shape := ⟨2, ![128, 8]⟩
abbrev S8x128 : Shape := ⟨2, ![8, 128]⟩
abbrev S128x384 : Shape := ⟨2, ![128, 384]⟩
abbrev S50000x384 : Shape := ⟨2, ![50000, 384]⟩
abbrev S1000x128 : Shape := ⟨2, ![1000, 128]⟩
abbrev S1000x384 : Shape := ⟨2, ![1000, 384]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S4000x128 : Shape := ⟨2, ![4000, 128]⟩
abbrev S4000x8 : Shape := ⟨2, ![4000, 8]⟩
abbrev S1x128 : Shape := ⟨2, ![1, 128]⟩
abbrev S1000x256 : Shape := ⟨2, ![1000, 256]⟩
abbrev S1x256 : Shape := ⟨2, ![1, 256]⟩

abbrev nBuf : Space → Nat
  | .hbm => 140
  | .vmem => 45
  | .smem => 0
  | _ => 0

abbrev hbmTy0_0 (i : Nat) : BufTy := match i % 128 with
  | 0 => ⟨S50000x128, .f32⟩
  | 1 => ⟨S640000, .i32⟩
  | 2 => ⟨S640000, .i32⟩
  | 3 => ⟨S128x128, .f32⟩
  | 4 => ⟨S128x128, .f32⟩
  | 5 => ⟨S128x128, .f32⟩
  | 6 => ⟨S128x128, .f32⟩
  | 7 => ⟨S128, .f32⟩
  | 8 => ⟨S256x128, .f32⟩
  | 9 => ⟨S256, .f32⟩
  | 10 => ⟨S128x256, .f32⟩
  | 11 => ⟨S128, .f32⟩
  | 12 => ⟨S128, .f32⟩
  | 13 => ⟨S128, .f32⟩
  | 14 => ⟨S128, .f32⟩
  | 15 => ⟨S128, .f32⟩
  | 16 => ⟨S128x8, .f32⟩
  | 17 => ⟨S8x128, .f32⟩
  | 18 => ⟨S128x128, .f32⟩
  | 19 => ⟨S128x128, .f32⟩
  | 20 => ⟨S128x128, .f32⟩
  | 21 => ⟨S128x384, .f32⟩
  | 22 => ⟨S50000x384, .f32⟩
  | 23 => ⟨S50000x128, .f32⟩
  | 24 => ⟨S50000x128, .f32⟩
  | 25 => ⟨S50000x128, .f32⟩
  | 26 => ⟨S_, .i32⟩
  | 27 => ⟨S640000, .i32⟩
  | 28 => ⟨S640000, .i1⟩
  | 29 => ⟨S_, .i32⟩
  | 30 => ⟨S640000, .i32⟩
  | 31 => ⟨S640000, .i32⟩
  | 32 => ⟨S640000, .i32⟩
  | 33 => ⟨S640000x1, .i32⟩
  | 34 => ⟨S1, .i32⟩
  | 35 => ⟨S_, .i32⟩
  | 36 => ⟨S640000x1, .i32⟩
  | 37 => ⟨S640000x1, .i1⟩
  | 38 => ⟨S1x1, .i32⟩
  | 39 => ⟨S640000x1, .i32⟩
  | 40 => ⟨S640000x1, .i1⟩
  | 41 => ⟨S640000x1, .i1⟩
  | 42 => ⟨S_, .i1⟩
  | 43 => ⟨S640000, .i1⟩
  | 44 => ⟨S640000x128, .f32⟩
  | 45 => ⟨S640000x128, .i1⟩
  | 46 => ⟨S_, .f32⟩
  | 47 => ⟨S640000x128, .f32⟩
  | 48 => ⟨S640000x128, .f32⟩
  | 49 => ⟨S_, .i32⟩
  | 50 => ⟨S640000, .i32⟩
  | 51 => ⟨S640000, .i1⟩
  | 52 => ⟨S_, .i32⟩
  | 53 => ⟨S640000, .i32⟩
  | 54 => ⟨S640000, .i32⟩
  | 55 => ⟨S640000, .i32⟩
  | 56 => ⟨S640000x1, .i32⟩
  | 57 => ⟨S1, .i32⟩
  | 58 => ⟨S_, .i32⟩
  | 59 => ⟨S640000x1, .i32⟩
  | 60 => ⟨S640000x1, .i1⟩
  | 61 => ⟨S1x1, .i32⟩
  | 62 => ⟨S640000x1, .i32⟩
  | 63 => ⟨S640000x1, .i1⟩
  | 64 => ⟨S640000x1, .i1⟩
  | 65 => ⟨S_, .i1⟩
  | 66 => ⟨S640000, .i1⟩
  | 67 => ⟨S640000x128, .f32⟩
  | 68 => ⟨S640000x128, .i1⟩
  | 69 => ⟨S_, .f32⟩
  | 70 => ⟨S640000x128, .f32⟩
  | 71 => ⟨S640000x128, .f32⟩
  | 72 => ⟨S_, .i32⟩
  | 73 => ⟨S640000, .i32⟩
  | 74 => ⟨S640000, .i1⟩
  | 75 => ⟨S_, .i32⟩
  | 76 => ⟨S640000, .i32⟩
  | 77 => ⟨S640000, .i32⟩
  | 78 => ⟨S640000, .i32⟩
  | 79 => ⟨S640000x1, .i32⟩
  | 80 => ⟨S1, .i32⟩
  | 81 => ⟨S_, .i32⟩
  | 82 => ⟨S640000x1, .i32⟩
  | 83 => ⟨S640000x1, .i1⟩
  | 84 => ⟨S1x1, .i32⟩
  | 85 => ⟨S640000x1, .i32⟩
  | 86 => ⟨S640000x1, .i1⟩
  | 87 => ⟨S640000x1, .i1⟩
  | 88 => ⟨S_, .i1⟩
  | 89 => ⟨S640000, .i1⟩
  | 90 => ⟨S640000x128, .f32⟩
  | 91 => ⟨S640000x128, .i1⟩
  | 92 => ⟨S_, .f32⟩
  | 93 => ⟨S640000x128, .f32⟩
  | 94 => ⟨S640000x128, .f32⟩
  | 95 => ⟨S640000x128, .f32⟩
  | 96 => ⟨S640000x128, .f32⟩
  | 97 => ⟨S_, .f32⟩
  | 98 => ⟨S50000x128, .f32⟩
  | 99 => ⟨S640000x1, .i32⟩
  | 100 => ⟨S50000x128, .f32⟩
  | 101 => ⟨S_, .f32⟩
  | 102 => ⟨S50000x128, .f32⟩
  | 103 => ⟨S640000x1, .i32⟩
  | 104 => ⟨S50000x128, .f32⟩
  | 105 => ⟨S50000x128, .f32⟩
  | 106 => ⟨S128x128, .f32⟩
  | 107 => ⟨S50000x128, .f32⟩
  | 108 => ⟨S_, .f32⟩
  | 109 => ⟨S128, .f32⟩
  | 110 => ⟨S_, .f32⟩
  | 111 => ⟨S128, .f32⟩
  | 112 => ⟨S128, .f32⟩
  | 113 => ⟨S1x128, .f32⟩
  | 114 => ⟨S50000x128, .f32⟩
  | 115 => ⟨S50000x128, .f32⟩
  | 116 => ⟨S50000x128, .f32⟩
  | 117 => ⟨S_, .f32⟩
  | 118 => ⟨S128, .f32⟩
  | 119 => ⟨S_, .f32⟩
  | 120 => ⟨S128, .f32⟩
  | 121 => ⟨S128, .f32⟩
  | 122 => ⟨S128x256, .f32⟩
  | 123 => ⟨S256x128, .f32⟩
  | 124 => ⟨S50000x128, .f32⟩
  | 125 => ⟨S_, .f32⟩
  | 126 => ⟨S128, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S50000x128, .f32⟩
  | 6 => ⟨S_, .f32⟩
  | 7 => ⟨S128, .f32⟩
  | 8 => ⟨S_, .f32⟩
  | 9 => ⟨S128, .f32⟩
  | 10 => ⟨S128, .f32⟩
  | 11 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x384, .f32⟩
  | .local _ .vmem, ⟨3, _⟩ => ⟨S1000x384, .f32⟩
  | .local _ .vmem, ⟨4, _⟩ => ⟨S1000x384, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S128x8, .f32⟩
  | .local _ .vmem, ⟨12, _⟩ => ⟨S8x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S128x128, .f32⟩
  | .local _ .vmem, ⟨22, _⟩ => ⟨S128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S128, .f32⟩
  | .local _ .vmem, ⟨31, _⟩ => ⟨S128x256, .f32⟩
  | .local _ .vmem, ⟨32, _⟩ => ⟨S256, .f32⟩
  | .local _ .vmem, ⟨33, _⟩ => ⟨S256x128, .f32⟩
  | .local _ .vmem, ⟨34, _⟩ => ⟨S128, .f32⟩
  | .local _ .vmem, ⟨35, _⟩ => ⟨S1000x128, .f32⟩
  | .local _ .vmem, ⟨36, _⟩ => ⟨S1000x128, .f32⟩
  | .local _ .vmem, ⟨37, _⟩ => ⟨S1000x128, .f32⟩
  | .local _ .vmem, ⟨38, _⟩ => ⟨S1000x128, .f32⟩
  | .local _ .vmem, ⟨39, _⟩ => ⟨S128, .f32⟩
  | .local _ .vmem, ⟨40, _⟩ => ⟨S128, .f32⟩
  | .local _ .vmem, ⟨41, _⟩ => ⟨S128, .f32⟩
  | .local _ .vmem, ⟨42, _⟩ => ⟨S128, .f32⟩
  | .local _ .vmem, ⟨43, _⟩ => ⟨S1000x128, .f32⟩
  | .local _ .vmem, ⟨44, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_cst_0 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v8 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v9 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v10 : Ref sig .tc := ⟨.hbm, 94, rfl⟩
abbrev main_v11_0 : Ref sig .tc := ⟨.hbm, 95, rfl⟩
abbrev main_v11_1 : Ref sig .tc := ⟨.hbm, 96, rfl⟩
abbrev main_cst_1 : Ref sig .tc := ⟨.hbm, 97, rfl⟩
abbrev main_v12 : Ref sig .tc := ⟨.hbm, 98, rfl⟩
abbrev main_v13 : Ref sig .tc := ⟨.hbm, 99, rfl⟩
abbrev main_v14 : Ref sig .tc := ⟨.hbm, 100, rfl⟩
abbrev main_cst_2 : Ref sig .tc := ⟨.hbm, 101, rfl⟩
abbrev main_v15 : Ref sig .tc := ⟨.hbm, 102, rfl⟩
abbrev main_v16 : Ref sig .tc := ⟨.hbm, 103, rfl⟩
abbrev main_v17 : Ref sig .tc := ⟨.hbm, 104, rfl⟩
abbrev main_v18 : Ref sig .tc := ⟨.hbm, 105, rfl⟩
abbrev main_v19 : Ref sig .tc := ⟨.hbm, 106, rfl⟩
abbrev main_v20 : Ref sig .tc := ⟨.hbm, 107, rfl⟩
abbrev main_cst_3 : Ref sig .tc := ⟨.hbm, 108, rfl⟩
abbrev main_v21 : Ref sig .tc := ⟨.hbm, 109, rfl⟩
abbrev main_cst_4 : Ref sig .tc := ⟨.hbm, 110, rfl⟩
abbrev main_v22 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_v26 : Ref sig .tc := ⟨.hbm, 115, rfl⟩
abbrev main_v27 : Ref sig .tc := ⟨.hbm, 116, rfl⟩
abbrev main_cst_5 : Ref sig .tc := ⟨.hbm, 117, rfl⟩
abbrev main_v28 : Ref sig .tc := ⟨.hbm, 118, rfl⟩
abbrev main_cst_6 : Ref sig .tc := ⟨.hbm, 119, rfl⟩
abbrev main_v29 : Ref sig .tc := ⟨.hbm, 120, rfl⟩
abbrev main_v30 : Ref sig .tc := ⟨.hbm, 121, rfl⟩
abbrev main_v31 : Ref sig .tc := ⟨.hbm, 122, rfl⟩
abbrev main_v32 : Ref sig .tc := ⟨.hbm, 123, rfl⟩
abbrev main_v33 : Ref sig .tc := ⟨.hbm, 124, rfl⟩
abbrev main_cst_7 : Ref sig .tc := ⟨.hbm, 125, rfl⟩
abbrev main_v34 : Ref sig .tc := ⟨.hbm, 126, rfl⟩
abbrev main_cst_8 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_cst_9 : Ref sig .tc := ⟨.hbm, 134, rfl⟩
abbrev main_v41 : Ref sig .tc := ⟨.hbm, 135, rfl⟩
abbrev main_cst_10 : Ref sig .tc := ⟨.hbm, 136, rfl⟩
abbrev main_v42 : Ref sig .tc := ⟨.hbm, 137, rfl⟩
abbrev main_v43 : Ref sig .tc := ⟨.hbm, 138, rfl⟩
abbrev main_v44 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg9_0 : Ref sig .tc := ⟨.vmem, 35, rfl⟩
abbrev cc3_stg9_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem9_0 : DmaSem sig := 35
abbrev cc3_sem9_1 : DmaSem sig := 36
abbrev cc4_sem0_0 : DmaSem sig := 37
abbrev cc4_sem0_1 : DmaSem sig := 38
abbrev cc4_sem1_0 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  transposes_S128x128_S128x128_1_0 : S128x128.Transposes [1, 0] S128x128
  concatenates_S128x128_S128x128_S128x128_S128x384_d1 : Shape.Concatenates [S128x128, S128x128, S128x128] S128x384 1
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1000x384_S1000x384_0_0 : ∀ a, (![0, 0] : Fin 2 → Nat) a + S1000x384.size a ≤ S1000x384.size a
  h_S1000x384 : 0 < S1000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x8_S128x8_0_0 : ∀ a, (![0, 0] : Fin 2 → Nat) a + S128x8.size a ≤ S128x8.size a
  h_S128x8 : 0 < S128x8.numel
  inb_S8x128_S8x128_0_0 : ∀ a, (![0, 0] : Fin 2 → Nat) a + S8x128.size a ≤ S8x128.size a
  h_S8x128 : 0 < S8x128.numel
  bcast_S_S50000x128 : S_.BroadcastsInDim S50000x128 (![] : Fin 0 → Fin S50000x128.rank)
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S256x128_S128x256_1_0 : S256x128.Transposes [1, 0] S128x256
  transposes_S128x256_S256x128_1_0 : S128x256.Transposes [1, 0] S256x128
  shapeCasts_S128_S128 : S128.ShapeCasts S128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  dot_S1000x128_S128x384_S1000x384_1_0_0_1_n_n_wf : DotDims.WF S1000x128 S128x384 S1000x384 [1] [0] [0] [1] [] []
  gather_S50000x128_S640000x1_S640000x128_1_0_n_n_0_1_1128_wf : GatherDims.WF S50000x128 S640000x1 S640000x128 [1] [0] [] [0] [] 1 ![1, 128]
  dot_S4000x128_S128x8_S4000x8_1_0_0_1_n_n_wf : DotDims.WF S4000x128 S128x8 S4000x8 [1] [0] [0] [1] [] []
  dot_S4000x8_S8x128_S4000x128_1_0_0_1_n_n_wf : DotDims.WF S4000x8 S8x128 S4000x128 [1] [0] [0] [1] [] []
  scatter_S50000x128_S640000x1_S640000x128_1_0_0_1_wf : ScatterDims.WF S50000x128 S640000x1 S640000x128 [1] [0] [0] 1
  dot_S1000x128_S128x128_S1000x128_1_0_0_1_n_n_wf : DotDims.WF S1000x128 S128x128 S1000x128 [1] [0] [0] [1] [] []
  dot_S1000x128_S128x256_S1000x256_1_0_0_1_n_n_wf : DotDims.WF S1000x128 S128x256 S1000x256 [1] [0] [0] [1] [] []
  dot_S1000x256_S256x128_S1000x128_1_0_0_1_n_n_wf : DotDims.WF S1000x256 S256x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x384.size a ≤ S50000x384.size a
  hwx0_2 : ∀ i : grid0.Coords, EltTy.bits .f32 = 32 ∨ (Rect.block (s := S50000x384) S1000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S640000x128.size a
  hwx1_0 : ∀ i : grid1.Coords, EltTy.bits .f32 = 32 ∨ (Rect.block (s := S640000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S640000x128.size a
  hwx1_1 : ∀ i : grid1.Coords, EltTy.bits .f32 = 32 ∨ (Rect.block (s := S640000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S640000x128.size a
  hwx1_2 : ∀ i : grid1.Coords, EltTy.bits .f32 = 32 ∨ (Rect.block (s := S640000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x8.size a ≤ S128x8.size a
  hwx1_3 : ∀ i : grid1.Coords, EltTy.bits .f32 = 32 ∨ (Rect.block (s := S128x8) S128x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S8x128.size a
  hwx1_4 : ∀ i : grid1.Coords, EltTy.bits .f32 = 32 ∨ (Rect.block (s := S8x128) S8x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S640000x128.size a
  hwx1_5 : ∀ i : grid1.Coords, EltTy.bits .f32 = 32 ∨ (Rect.block (s := S640000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S640000x128.size a
  hwx1_6 : ∀ i : grid1.Coords, EltTy.bits .f32 = 32 ∨ (Rect.block (s := S640000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .f32 = 32 ∨ (Rect.block (s := S50000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x128.size a ≤ S50000x128.size a
  hwx2_4 : ∀ i : grid2.Coords, EltTy.bits .f32 = 32 ∨ (Rect.block (s := S50000x128) S1000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x256.size a ≤ S128x256.size a
  hwx3_5 : ∀ i : grid3.Coords, EltTy.bits .f32 = 32 ∨ (Rect.block (s := S128x256) S128x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256.size a ≤ S256.size a
  hwx3_6 : ∀ i : grid3.Coords, EltTy.bits .f32 = 32 ∨ (Rect.block (s := S256) S256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x128.size a ≤ S256x128.size a
  hwx3_7 : ∀ i : grid3.Coords, EltTy.bits .f32 = 32 ∨ (Rect.block (s := S256x128) S256x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128.size a ≤ S128.size a
  hwx3_8 : ∀ i : grid3.Coords, EltTy.bits .f32 = 32 ∨ (Rect.block (s := S128) S128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1000x128.size a ≤ S50000x128.size a
  hwx3_9 : ∀ i : grid3.Coords, EltTy.bits .f32 = 32 ∨ (Rect.block (s := S50000x128) S1000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x128.size a ≤ S50000x128.size a
  hwx4_5 : ∀ i : grid4.Coords, EltTy.bits .f32 = 32 ∨ (Rect.block (s := S50000x128) S1000x128.size (cc4_transform_5 i) (hinb4_5 i)).WholeWords (EltTy.packing .f32)

variable [Facts₀]

def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S4000x128_S128x8_S4000x8_1_0_0_1_n_n : DotDims S4000x128 S128x8 S4000x8 where
  lhsContracting := [1]
  rhsContracting := [0]
  lhsNonContracting := [0]
  rhsNonContracting := [1]
  lhsBatch := []
  rhsBatch := []
  wf := dot_S4000x128_S128x8_S4000x8_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_cst) S128x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_cst_0) S8x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11_1) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v20) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v31) S128x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg9) S256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v32) S256x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg11) S128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v33) S1000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v33) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v43) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v44) S1000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S128x256 : Shape := ⟨2, ![128, 256]⟩
abbrev S50000x8x16 : Shape := ⟨3, ![50000, 8, 16]⟩
abbrev S_ : Shape := ⟨0, ![]⟩
abbrev S640000x1 : Shape := ⟨2, ![640000, 1]⟩
abbrev S640000x8x16 : Shape := ⟨3, ![640000, 8, 16]⟩
abbrev S640000x8 : Shape := ⟨2, ![640000, 8]⟩
abbrev S640000x8x1 : Shape := ⟨3, ![640000, 8, 1]⟩
abbrev S50000x8 : Shape := ⟨2, ![50000, 8]⟩
abbrev S50000x8x1 : Shape := ⟨3, ![50000, 8, 1]⟩
abbrev S1x128 : Shape := ⟨2, ![1, 128]⟩
abbrev S50000x256 : Shape := ⟨2, ![50000, 256]⟩
abbrev S1x256 : Shape := ⟨2, ![1, 256]⟩

abbrev nBuf : Space → Nat
  | .hbm => 162
  | .vmem => 0
  | .smem => 0
  | _ => 0

abbrev hbmTy0_0 (i : Nat) : BufTy := match i % 128 with
  | 0 => ⟨S50000x128, .f32⟩
  | 1 => ⟨S640000, .i32⟩
  | 2 => ⟨S640000, .i32⟩
  | 3 => ⟨S128x128, .f32⟩
  | 4 => ⟨S128x128, .f32⟩
  | 5 => ⟨S128x128, .f32⟩
  | 6 => ⟨S128x128, .f32⟩
  | 7 => ⟨S128, .f32⟩
  | 8 => ⟨S256x128, .f32⟩
  | 9 => ⟨S256, .f32⟩
  | 10 => ⟨S128x256, .f32⟩
  | 11 => ⟨S128, .f32⟩
  | 12 => ⟨S128, .f32⟩
  | 13 => ⟨S128, .f32⟩
  | 14 => ⟨S128, .f32⟩
  | 15 => ⟨S128, .f32⟩
  | 16 => ⟨S128x128, .f32⟩
  | 17 => ⟨S50000x128, .f32⟩
  | 18 => ⟨S50000x8x16, .f32⟩
  | 19 => ⟨S128x128, .f32⟩
  | 20 => ⟨S50000x128, .f32⟩
  | 21 => ⟨S50000x8x16, .f32⟩
  | 22 => ⟨S128x128, .f32⟩
  | 23 => ⟨S50000x128, .f32⟩
  | 24 => ⟨S50000x8x16, .f32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S640000x8x16, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000x8x16, .f32⟩
  | 43 => ⟨S640000x8x16, .f32⟩
  | 44 => ⟨S_, .f32⟩
  | 45 => ⟨S640000x8, .f32⟩
  | 46 => ⟨S_, .f32⟩
  | 47 => ⟨S640000x8, .f32⟩
  | 48 => ⟨S640000x8, .f32⟩
  | 49 => ⟨S_, .f32⟩
  | 50 => ⟨S_, .f32⟩
  | 51 => ⟨S_, .f32⟩
  | 52 => ⟨S640000x8, .f32⟩
  | 53 => ⟨S640000x8, .f32⟩
  | 54 => ⟨S_, .f32⟩
  | 55 => ⟨S640000x8, .f32⟩
  | 56 => ⟨S640000x8, .f32⟩
  | 57 => ⟨S640000x8, .f32⟩
  | 58 => ⟨S_, .i32⟩
  | 59 => ⟨S640000, .i32⟩
  | 60 => ⟨S640000, .i1⟩
  | 61 => ⟨S_, .i32⟩
  | 62 => ⟨S640000, .i32⟩
  | 63 => ⟨S640000, .i32⟩
  | 64 => ⟨S640000, .i32⟩
  | 65 => ⟨S640000x1, .i32⟩
  | 66 => ⟨S640000x8x16, .f32⟩
  | 67 => ⟨S640000x8x1, .f32⟩
  | 68 => ⟨S640000x8x16, .f32⟩
  | 69 => ⟨S640000x8x16, .f32⟩
  | 70 => ⟨S_, .f32⟩
  | 71 => ⟨S50000x8x16, .f32⟩
  | 72 => ⟨S640000x1, .i32⟩
  | 73 => ⟨S50000x8x16, .f32⟩
  | 74 => ⟨S_, .f32⟩
  | 75 => ⟨S50000x8, .f32⟩
  | 76 => ⟨S640000x1, .i32⟩
  | 77 => ⟨S50000x8, .f32⟩
  | 78 => ⟨S50000x8x1, .f32⟩
  | 79 => ⟨S50000x8x16, .f32⟩
  | 80 => ⟨S50000x8x16, .f32⟩
  | 81 => ⟨S50000x128, .f32⟩
  | 82 => ⟨S128x128, .f32⟩
  | 83 => ⟨S50000x128, .f32⟩
  | 84 => ⟨S1x128, .f32⟩
  | 85 => ⟨S50000x128, .f32⟩
  | 86 => ⟨S50000x128, .f32⟩
  | 87 => ⟨S50000x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S128, .f32⟩
  | 99 => ⟨S_, .f32⟩
  | 100 => ⟨S128, .f32⟩
  | 101 => ⟨S128, .f32⟩
  | 102 => ⟨S1x128, .f32⟩
  | 103 => ⟨S50000x128, .f32⟩
  | 104 => ⟨S50000x128, .f32⟩
  | 105 => ⟨S_, .f32⟩
  | 106 => ⟨S128, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S128x256, .f32⟩
  | 119 => ⟨S50000x256, .f32⟩
  | 120 => ⟨S1x256, .f32⟩
  | 121 => ⟨S50000x256, .f32⟩
  | 122 => ⟨S50000x256, .f32⟩
  | 123 => ⟨S_, .f32⟩
  | 124 => ⟨S50000x256, .f32⟩
  | 125 => ⟨S50000x256, .f32⟩
  | 126 => ⟨S256x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S50000x128, .f32⟩
  | 4 => ⟨S_, .f32⟩
  | 5 => ⟨S128, .f32⟩
  | 6 => ⟨S_, .f32⟩
  | 7 => ⟨S128, .f32⟩
  | 8 => ⟨S128, .f32⟩
  | 9 => ⟨S1x128, .f32⟩
  | 10 => ⟨S50000x128, .f32⟩
  | 11 => ⟨S50000x128, .f32⟩
  | 12 => ⟨S50000x128, .f32⟩
  | 13 => ⟨S_, .f32⟩
  | 14 => ⟨S128, .f32⟩
  | 15 => ⟨S_, .f32⟩
  | 16 => ⟨S128, .f32⟩
  | 17 => ⟨S128, .f32⟩
  | 18 => ⟨S1x128, .f32⟩
  | 19 => ⟨S50000x128, .f32⟩
  | 20 => ⟨S50000x128, .f32⟩
  | 21 => ⟨S_, .f32⟩
  | 22 => ⟨S128, .f32⟩
  | 23 => ⟨S128, .f32⟩
  | 24 => ⟨S128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_cst_5 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v27 : Ref sig .tc := ⟨.hbm, 56, rfl⟩
abbrev main_v28 : Ref sig .tc := ⟨.hbm, 57, rfl⟩
abbrev main_c_6 : Ref sig .tc := ⟨.hbm, 58, rfl⟩
abbrev main_v29 : Ref sig .tc := ⟨.hbm, 59, rfl⟩
abbrev main_v30 : Ref sig .tc := ⟨.hbm, 60, rfl⟩
abbrev main_c_7 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_8 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_cst_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_12 : Ref sig .tc := ⟨.hbm, 97, rfl⟩
abbrev main_v62 : Ref sig .tc := ⟨.hbm, 98, rfl⟩
abbrev main_cst_13 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_14 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_call1_cst : Ref sig .tc := ⟨.hbm, 123, rfl⟩
abbrev main_call1_v0 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_15 : Ref sig .tc := ⟨.hbm, 132, rfl⟩
abbrev main_v92 : Ref sig .tc := ⟨.hbm, 133, rfl⟩
abbrev main_cst_16 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_17 : Ref sig .tc := ⟨.hbm, 141, rfl⟩
abbrev main_v99 : Ref sig .tc := ⟨.hbm, 142, rfl⟩
abbrev main_cst_18 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_19 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩

abbrev nD : Nat := 1
abbrev τ : Topo := Topo.v7x

variable {F : FTy → Type} [FloatOps F]

class Facts₀ : Prop where
  transposes_S128x128_S128x128_1_0 : S128x128.Transposes [1, 0] S128x128
  shapeCasts_S50000x128_S50000x8x16 : S50000x128.ShapeCasts S50000x8x16
  bcast_S_S640000 : S_.BroadcastsInDim S640000 (![] : Fin 0 → Fin S640000.rank)
  bcast_S640000_S640000x1_0 : S640000.BroadcastsInDim S640000x1 (![0] : Fin 1 → Fin S640000x1.rank)
  reducesTo_S640000x8x16_S640000x8_d2 : S640000x8x16.ReducesTo [2] S640000x8
  h_S_ : 0 < S_.numel
  bcast_S_S640000x8 : S_.BroadcastsInDim S640000x8 (![] : Fin 0 → Fin S640000x8.rank)
  bcast_S640000x8_S640000x8x1_0_1 : S640000x8.BroadcastsInDim S640000x8x1 (![0, 1] : Fin 2 → Fin S640000x8x1.rank)
  bcast_S640000x8x1_S640000x8x16_0_1_2 : S640000x8x1.BroadcastsInDim S640000x8x16 (![0, 1, 2] : Fin 3 → Fin S640000x8x16.rank)
  bcast_S_S50000x8x16 : S_.BroadcastsInDim S50000x8x16 (![] : Fin 0 → Fin S50000x8x16.rank)
  bcast_S_S50000x8 : S_.BroadcastsInDim S50000x8 (![] : Fin 0 → Fin S50000x8.rank)
  bcast_S50000x8_S50000x8x1_0_1 : S50000x8.BroadcastsInDim S50000x8x1 (![0, 1] : Fin 2 → Fin S50000x8x1.rank)
  bcast_S50000x8x1_S50000x8x16_0_1_2 : S50000x8x1.BroadcastsInDim S50000x8x16 (![0, 1, 2] : Fin 3 → Fin S50000x8x16.rank)
  shapeCasts_S50000x8x16_S50000x128 : S50000x8x16.ShapeCasts S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S128x256_S256x128_1_0 : S128x256.Transposes [1, 0] S256x128
  dot_S50000x128_S128x128_S50000x128_1_0_0_1_n_n_wf : DotDims.WF S50000x128 S128x128 S50000x128 [1] [0] [0] [1] [] []
  gather_S50000x8x16_S640000x1_S640000x8x16_12_0_n_n_0_1_1816_wf : GatherDims.WF S50000x8x16 S640000x1 S640000x8x16 [1, 2] [0] [] [0] [] 1 ![1, 8, 16]
  scatter_S50000x8x16_S640000x1_S640000x8x16_12_0_0_1_wf : ScatterDims.WF S50000x8x16 S640000x1 S640000x8x16 [1, 2] [0] [0] 1
  scatter_S50000x8_S640000x1_S640000x8_1_0_0_1_wf : ScatterDims.WF S50000x8 S640000x1 S640000x8 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x8x16_S640000x1_S640000x8x16_12_0_n_n_0_1_1816 : GatherDims S50000x8x16 S640000x1 S640000x8x16 where
  offsetDims := [1, 2]
  collapsedSliceDims := [0]
  operandBatchingDims := []
  startIndicesBatchingDims := []
  startIndexMap := [0]
  indexVectorDim := 1
  sliceSizes := ![1, 8, 16]
  wf := gather_S50000x8x16_S640000x1_S640000x8x16_12_0_n_n_0_1_1816_wf
def scatter_S50000x8x16_S640000x1_S640000x8x16_12_0_0_1 : ScatterDims S50000x8x16 S640000x1 S640000x8x16 where
  updateWindowDims := [1, 2]
  insertedWindowDims := [0]
  scatterDimsToOperandDims := [0]
  indexVectorDim := 1
  wf := scatter_S50000x8x16_S640000x1_S640000x8x16_12_0_0_1_wf
def scatter_S50000x8_S640000x1_S640000x8_1_0_0_1 : ScatterDims S50000x8 S640000x1 S640000x8 where
  updateWindowDims := [1]
  insertedWindowDims := [0]
  scatterDimsToOperandDims := [0]
  indexVectorDim := 1
  wf := scatter_S50000x8_S640000x1_S640000x8_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KB.Reg0.lean ====
import proofs.«420532_j35407710388433_1_alg».proof.Proof.Gen.Kernel.Launch
import proofs.«420532_j35407710388433_1_alg».proof.Proof.Gen.Kernel.Skeleton
import proofs.«420532_j35407710388433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 (the q/k/v projection): the body's triple and the pipeline's proof data

The first kernel multiplies a 1000-row block of the node features by the whole stacked weight matrix
and stores the 1000x384 product block. Here, at any float family and at any contents `V` of the core's
buffers when the region is entered: the block each window holds at a grid point, what the body leaves in
the output window's buffer (its one store, of the payload of the two loaded blocks), the body's triple,
the pipeline's proof data and its body obligation. -/

-- membership in a rectangle of 1000 x 384 cells: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its block at every point, for any proof data whose array is
    `V`'s and whose body leaves the block in place: the window is an input, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's block is the whole array at every point (a constant index map): fetched once, and at the
    later points the buffer still holds it, the index not having moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of each window's buffer: the rectangles of the body's two loads and of its one store. -/
abbrev r0_0 : Rect S1000x128 := Rect.unit (s := S1000x128) ![0, 0] S1000x128.size inb_S1000x128_S1000x128_0_0
abbrev r0_1 : Rect S128x384 := Rect.unit (s := S128x384) ![0, 0] S128x384.size inb_S128x384_S128x384_0_0
abbrev r0_2 : Rect S1000x384 := Rect.unit (s := S1000x384) ![0, 0] S1000x384.size inb_S1000x384_S1000x384_0_0

/-! ## What the body leaves in the output window's buffer -/

/-- The output window's staging buffer after the body, from the input windows' blocks: its one store, of the
    product payload of the feature block `x0` and the weights `x1`, over the whole buffer. -/
def out0_2 (x0 : Vec F S1000x128 .f32) (x1 : Vec F S128x384 .f32) : Vec F S1000x384 .f32 :=
  View.canon [⟨r0_2, k0_pay1 (View.ld x0 r0_0) (View.ld x1 r0_1)⟩]

/-- The one store covers the buffer: its rectangle is the whole of it. -/
theorem cover0_2 (p0 : Vec F S1000x384 .f32) (y : S1000x384.Idx) :
    ∃ pc ∈ ([⟨r0_2, p0⟩] : List (View.Piece (Elt F) S1000x384 .f32)), y ∈ pc.1.set :=
  View.cover_of_tiled [⟨r0_2, p0⟩] S1000x384.size (by rfl) y

/-! ## The body's triple -/

set_option maxHeartbeats 1000000 in
/-- The kernel body on whole staging memrefs, the inputs' at read contents `x0`, `x1` and the output's at anything
    (the body loads it before storing and never uses the value), runs to the continuation holding the inputs' as
    they were and the output's at `out0_2` of the inputs'. -/
theorem sound_kernel0 (c : Dev nD) (E : Set ℕ) (i : grid0.Coords) (arg0 : Memref sig .tc .vmem S1000x128 .f32) (harg0 : arg0.IsWhole) (arg1 : Memref sig .tc .vmem S128x384 .f32) (harg1 : arg1.IsWhole) (arg2 : Memref sig .tc .vmem S1000x384 .f32) (harg2 : arg2.IsWhole)
    (x0 : Vec F S1000x128 .f32) (x1 : Vec F S128x384 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__qkv_kernel i arg0 harg0 arg1 harg1 arg2 harg2) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/- Region 1 (custom_call 1, the per-edge attention kernel) at a parameter `V`, the buffer contents when the
   region is entered: each window's block at a grid point, what the body leaves in the two output windows' staging
   buffers as a function of the five input blocks, the body's triple, the pipeline's proof data and its body
   obligation. Generic in the float family. -/
import proofs.«420532_j35407710388433_1_alg».proof.Proof.Gen.Kernel.Launch
import proofs.«420532_j35407710388433_1_alg».proof.Proof.Gen.Kernel.Skeleton
import proofs.«420532_j35407710388433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 x 128 extents: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved
    (the row-block index follows the grid point, and every point fetches); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s and whose body leaves the block in place: unfetched, the block index has not moved
    (the row-block index follows the grid point, and every point fetches); the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s and whose body leaves the block in place: unfetched, the block index has not moved
    (the row-block index follows the grid point, and every point fetches); the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s and whose body leaves the block in place: unfetched, the block index has not moved
    (the index map is constant, the block is the whole array); the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s and whose body leaves the block in place: unfetched, the block index has not moved
    (the index map is constant, the block is the whole array); the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_0 : Rect S4000x128 := Rect.unit (s := S4000x128) ![0, 0] S4000x128.size inb_S4000x128_S4000x128_0_0
abbrev r1_1 : Rect S128x8 := Rect.unit (s := S128x8) ![0, 0] S128x8.size inb_S128x8_S128x8_0_0
abbrev r1_2 : Rect S8x128 := Rect.unit (s := S8x128) ![0, 0] S8x128.size inb_S8x128_S8x128_0_0

/-! ## What the body leaves in each output window's buffer -/

/-- Window 5's staging buffer (the weighted values) after the body, from the input windows' blocks: its one store. -/
def out1_5 (x0 : Vec F S4000x128 .f32) (x1 : Vec F S4000x128 .f32) (x2 : Vec F S4000x128 .f32) (x3 : Vec F S128x8 .f32) (x4 : Vec F S8x128 .f32) : Vec F S4000x128 .f32 :=
  View.canon [⟨r1_0, k1_pay2 (View.ld x0 r1_0) (View.ld x1 r1_0) (View.ld x2 r1_0) (View.ld x3 r1_1) (View.ld x4 r1_2)⟩]

/-- Window 6's staging buffer (the replicated scores) after the body, from the input windows' blocks: its one store. -/
def out1_6 (x0 : Vec F S4000x128 .f32) (x1 : Vec F S4000x128 .f32) (x3 : Vec F S128x8 .f32) (x4 : Vec F S8x128 .f32) : Vec F S4000x128 .f32 :=
  View.canon [⟨r1_0, k1_pay1 (View.ld x0 r1_0) (View.ld x1 r1_0) (View.ld x3 r1_1) (View.ld x4 r1_2)⟩]

/-- The one store of each output window is of the whole buffer, so it covers it. -/
theorem cover1_5 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y
theorem cover1_6 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y

/-! ## The body's triple -/

set_option maxHeartbeats 1000000 in
/-- The kernel body on whole staging memrefs, the inputs' at read contents `xW` and the outputs' at anything, runs to
    the continuation holding the inputs' as they were and each output's at `out1_W` of the inputs'. Each output
    buffer is read once before its store; the value read is never used. -/
theorem sound_kernel1 (c : Dev nD) (E : Set ℕ) (i : grid1.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x8 .f32) (harg4 : arg4.IsWhole) (arg5 : Memref sig .tc .vmem S8x128 .f32) (harg5 : arg5.IsWhole) (arg6 : Memref sig .tc .vmem S4000x128 .f32) (harg6 : arg6.IsWhole) (arg7 : Memref sig .tc .vmem S4000x128 .f32) (harg7 : arg7.IsWhole)
    (x0 : Vec F S4000x128 .f32) (x1 : Vec F S4000x128 .f32) (x2 : Vec F S4000x128 .f32) (x3 : Vec F S128x8 .f32) (x4 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x3 x4)) -∗ K ⟨⟩))
      ⊢ wp frame (wpE (defs₀ (F := F)) Variants.none c none) E (cc1__edge_kernel i arg1 harg1 arg2 harg2 arg3 harg3 arg4 harg4 arg5 harg5 arg6 harg6 arg7 harg7) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and each output's at `out1_W` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KB.Reg2.lean ====
/- REGION 2 of @main (custom_call 2: the output projection of the attention rows, plus the residual and the
   bias), at a parameter V — the TensorCore's buffer contents when the region is entered. Each window's block at a
   grid point, what the body leaves in the output window's staging buffer as a function of the input blocks, the
   body's triple, the pipeline's proof data and its body obligation. Generic in the float family. -/
import proofs.«420532_j35407710388433_1_alg».proof.Proof.Gen.Kernel.Launch
import proofs.«420532_j35407710388433_1_alg».proof.Proof.Gen.Kernel.Skeleton
import proofs.«420532_j35407710388433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1000 x 128 extents: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window w's block at point t, read off its array as the region finds it. Windows 0, 1 and 4 are 1000-row
    blocks of 50000 x 128 arrays; windows 2 and 3 are whole arrays (the weight and the bias), the same at every
    point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    V's and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for input window 2, whose block is the whole array: fetched at the first point only, and the
    index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The same for input window 3, whose block is the whole array. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1000x128 := Rect.unit (s := S1000x128) ![0, 0] S1000x128.size inb_S1000x128_S1000x128_0_0
abbrev r2_1 : Rect S128x128 := Rect.unit (s := S128x128) ![0, 0] S128x128.size inb_S128x128_S128x128_0_0
abbrev r2_2 : Rect S128 := Rect.unit (s := S128) ![0] S128.size inb_S128_S128_0

/-! ## What the body leaves in the output window's buffer -/

/-- Window 4's staging buffer after the body, from the input windows' blocks (x0 the rows of the layer input, x1
    the attention rows, x2 the projection weight, x3 the bias): its one store, of the whole block. -/
def out2_4 (x0 : Vec F S1000x128 .f32) (x1 : Vec F S1000x128 .f32) (x2 : Vec F S128x128 .f32) (x3 : Vec F S128 .f32) : Vec F S1000x128 .f32 :=
  View.canon [⟨r2_0, k2_pay1 (View.ld x1 r2_0) (View.ld x2 r2_1) (View.ld x0 r2_0) (View.ld x3 r2_2)⟩]

/-- The store tiles the buffer, so it covers it. -/
theorem cover2_4 (p0 : Vec F S1000x128 .f32) (y : S1000x128.Idx) :
    ∃ pc ∈ ([⟨r2_0, p0⟩] : List (View.Piece (Elt F) S1000x128 .f32)), y ∈ pc.1.set :=
  View.cover_of_tiled [⟨r2_0, p0⟩] S1000x128.size (by rfl) y

/-! ## The body's triple -/

set_option maxHeartbeats 1000000 in
/-- The kernel body on whole staging memrefs, the inputs' at read contents and the output's at anything, runs to
    the continuation holding the inputs' as they were and the output's at out2_4 of the inputs'. -/
theorem sound_kernel2 (c : Dev nD) (E : Set ℕ) (i : grid2.Coords)
    (arg0 : Memref sig .tc .vmem S1000x128 .f32) (harg0 : arg0.IsWhole) (arg1 : Memref sig .tc .vmem S1000x128 .f32) (harg1 : arg1.IsWhole)
    (arg2 : Memref sig .tc .vmem S128x128 .f32) (harg2 : arg2.IsWhole) (arg3 : Memref sig .tc .vmem S128 .f32) (harg3 : arg3.IsWhole)
    (arg4 : Memref sig .tc .vmem S1000x128 .f32) (harg4 : arg4.IsWhole)
    (x0 : Vec F S1000x128 .f32) (x1 : Vec F S1000x128 .f32) (x2 : Vec F S128x128 .f32) (x3 : Vec F S128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__post_attn_kernel i arg0 harg0 arg1 harg1 arg2 harg2 arg3 harg3 arg4 harg4) K := by
  simp only [cc2__post_attn_kernel_eq_skeleton]; unfold cc2__post_attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core c: the arrays as the region finds them; after the body at point t each
    input's buffer at its block and the output's at out2_4 of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand
-- ==== Proof.KB.Reg3.lean ====
/- Region 3 (the normalisation and feed-forward kernel): the region half of the frame, at a parameter `V` — the
   TensorCore's buffer contents when the region is entered. Each window's block at a grid point, what the body
   leaves in the output window's staging buffer as a function of the input blocks, the body's triple, the
   pipeline's proof data and its body obligation. Generic in the float family. -/
import proofs.«420532_j35407710388433_1_alg».proof.Proof.Gen.Kernel.Launch
import proofs.«420532_j35407710388433_1_alg».proof.Proof.Gen.Kernel.Skeleton
import proofs.«420532_j35407710388433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s and whose body leaves the block in place: unfetched, the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not, for any proof
    data whose array is `V`'s and whose body leaves the block in place: unfetched, the block index has not moved. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not, for any proof
    data whose array is `V`'s and whose body leaves the block in place: unfetched, the block index has not moved. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every one the whole staging buffer -/

abbrev r3_0 : Rect S1000x128 := Rect.unit (s := S1000x128) ![0, 0] S1000x128.size inb_S1000x128_S1000x128_0_0
abbrev r3_1 : Rect S128 := Rect.unit (s := S128) ![0] S128.size inb_S128_S128_0
abbrev r3_2 : Rect S128x256 := Rect.unit (s := S128x256) ![0, 0] S128x256.size inb_S128x256_S128x256_0_0
abbrev r3_3 : Rect S256 := Rect.unit (s := S256) ![0] S256.size inb_S256_S256_0
abbrev r3_4 : Rect S256x128 := Rect.unit (s := S256x128) ![0, 0] S256x128.size inb_S256x128_S256x128_0_0

/-! ## What the body leaves in the output window's buffer -/

/-- Window 9's staging buffer after the body, from the input windows' blocks: its one store, of the residual sum of
    the normalised block and the feed-forward of it. -/
def out3_9 (x0 : Vec F S1000x128 .f32) (x1 : Vec F S128 .f32) (x2 : Vec F S128 .f32) (x3 : Vec F S128 .f32) (x4 : Vec F S128 .f32) (x5 : Vec F S128x256 .f32) (x6 : Vec F S256 .f32) (x7 : Vec F S256x128 .f32) (x8 : Vec F S128 .f32) : Vec F S1000x128 .f32 :=
  View.canon [⟨r3_0, k3_pay1 (k3_pay2 (View.ld x0 r3_0) (View.ld x1 r3_1) (View.ld x2 r3_1) (View.ld x3 r3_1) (View.ld x4 r3_1)) (k3_pay3 (View.ld x0 r3_0) (View.ld x1 r3_1) (View.ld x2 r3_1) (View.ld x3 r3_1) (View.ld x4 r3_1) (View.ld x5 r3_2) (View.ld x6 r3_3) (View.ld x7 r3_4) (View.ld x8 r3_1))⟩]

/-- The one store is of the whole buffer, so it covers it. -/
theorem cover3_9 (p0 : Vec F S1000x128 .f32) (y : S1000x128.Idx) :
    ∃ pc ∈ ([⟨r3_0, p0⟩] : List (View.Piece (Elt F) S1000x128 .f32)), y ∈ pc.1.set :=
  View.cover_of_tiled [⟨r3_0, p0⟩] S1000x128.size (by rfl) y

/-! ## The body's triple -/

set_option maxHeartbeats 4000000 in
/-- The kernel body on whole staging memrefs, the inputs' at read contents `xW` and the output's at anything, runs to
    the continuation holding the inputs' as they were and the output's at `out3_9` of the inputs'. -/
theorem sound_kernel3 (c : Dev nD) (E : Set ℕ) (i : grid3.Coords) (arg1 : Memref sig .tc .vmem S1000x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x256 .f32) (harg6 : arg6.IsWhole) (arg7 : Memref sig .tc .vmem S256 .f32) (harg7 : arg7.IsWhole) (arg8 : Memref sig .tc .vmem S256x128 .f32) (harg8 : arg8.IsWhole) (arg9 : Memref sig .tc .vmem S128 .f32) (harg9 : arg9.IsWhole) (arg10 : Memref sig .tc .vmem S1000x128 .f32) (harg10 : arg10.IsWhole)
    (x0 : Vec F S1000x128 .f32) (x1 : Vec F S128 .f32) (x2 : Vec F S128 .f32) (x3 : Vec F S128 .f32) (x4 : Vec F S128 .f32) (x5 : Vec F S128x256 .f32) (x6 : Vec F S256 .f32) (x7 : Vec F S256x128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 x0 x1 x2 x3 x4 x5 x6 x7 x8)) -∗ K ⟨⟩))
      ⊢ wp frame (wpE (defs₀ (F := F)) Variants.none c none) E (cc3__bn1_ffn_kernel i arg1 harg1 arg2 harg2 arg3 harg3 arg4 harg4 arg5 harg5 arg6 harg6 arg7 harg7 arg8 harg8 arg9 harg9 arg10 harg10) K := by
  simp only [cc3__bn1_ffn_kernel_eq_skeleton]; unfold cc3__bn1_ffn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3_9 _)

/-! ## The pipeline's proof data -/

/-- The proof data of the region's pipeline on core `c`: the arrays as the region finds them (`V`); after the body at
    point `t` each input's buffer at its block and the output's at `out3_9` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Hand

end
-- ==== Proof.KB.Reg4.lean ====
/- Region 4 (the second batch normalisation) of the graph-transformer layer, at any float family F: the windows'
   blocks, what the body leaves in the output window's buffer, the body's triple, the pipeline's proof data at
   the buffer contents V the region is entered with, and the body obligation at every grid point. -/
import proofs.«420532_j35407710388433_1_alg».proof.Proof.Gen.Kernel.Launch
import proofs.«420532_j35407710388433_1_alg».proof.Proof.Gen.Kernel.Skeleton
import proofs.«420532_j35407710388433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window w's block at point t, read off its array as the region finds it (V). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the rows to normalise, one block of 1000 rows per point): its current staging buffer holds its
    block at every point, for any proof data whose array is V's and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the column means, the whole vector at every point: a constant index map), likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (the column variances, whole), likewise. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3 (the scale, whole), likewise. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4 (the shift, whole), likewise. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 1000 x 128 buffer, -/
abbrev r4_0 : Rect S1000x128 := Rect.unit (s := S1000x128) ![0, 0] S1000x128.size inb_S1000x128_S1000x128_0_0
/-- and the whole 128-vector. -/
abbrev r4_1 : Rect S128 := Rect.unit (s := S128) ![0] S128.size inb_S128_S128_0

/-! ## What the body leaves in the output window's buffer -/

/-- Window 5's staging buffer after the body, from the input windows' blocks: its one store as a piece. -/
def out4_5 (x0 : Vec F S1000x128 .f32) (x1 x2 x3 x4 : Vec F S128 .f32) : Vec F S1000x128 .f32 :=
  View.canon [⟨r4_0, k4_pay1 (View.ld x0 r4_0) (View.ld x1 r4_1) (View.ld x2 r4_1) (View.ld x3 r4_1) (View.ld x4 r4_1)⟩]

/-- The one store is of the whole buffer, so it covers it. -/
theorem cover4_5 (p0 : Vec F S1000x128 .f32) (y : S1000x128.Idx) :
    ∃ pc ∈ ([⟨r4_0, p0⟩] : List (View.Piece (Elt F) S1000x128 .f32)), y ∈ pc.1.set :=
  View.cover_of_tiled [⟨r4_0, p0⟩] S1000x128.size (by rfl) y

/-! ## The body's triple -/

set_option maxHeartbeats 1000000 in
/-- The kernel body on whole staging memrefs, the inputs' at read contents and the output's at anything, runs to
    the continuation holding the inputs' as they were and the output's at out4_5 of the inputs'. -/
theorem sound_kernel4 (c : Dev nD) (E : Set ℕ) (i : grid4.Coords)
    (arg1 : Memref sig .tc .vmem S1000x128 .f32) (harg1 : arg1.IsWhole) (arg2 : Memref sig .tc .vmem S128 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S1000x128 .f32) (harg6 : arg6.IsWhole)
    (x0 : Vec F S1000x128 .f32) (x1 x2 x3 x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__bn2_kernel i arg1 harg1 arg2 harg2 arg3 harg3 arg4 harg4 arg5 harg5 arg6 harg6) K := by
  simp only [cc4__bn2_kernel_eq_skeleton]; unfold cc4__bn2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core c: the arrays as the region finds them (V); after the body at point t
    each input's buffer at its block and the output's at out4_5 of the input blocks; the scoped rest and the
    generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t
    = out4_5 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so sound_kernel4 applies; the invariant and the
    core's owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.KB.Run.lean ====
import proofs.«420532_j35407710388433_1_alg».proof.Proof.Gen.Kernel.Launch
import proofs.«420532_j35407710388433_1_alg».proof.Proof.Gen.Kernel.Skeleton
import proofs.«420532_j35407710388433_1_alg».proof.Proof.Gen.Kernel.Points
import proofs.«420532_j35407710388433_1_alg».proof.Proof.Gen.Kernel.Regions
import proofs.«420532_j35407710388433_1_alg».proof.Proof.KB.Reg0
import proofs.«420532_j35407710388433_1_alg».proof.Proof.KB.Reg1
import proofs.«420532_j35407710388433_1_alg».proof.Proof.KB.Reg2
import proofs.«420532_j35407710388433_1_alg».proof.Proof.KB.Reg3
import proofs.«420532_j35407710388433_1_alg».proof.Proof.KB.Reg4
import Idealize.ShloMosaic.Lib.Pipeline.FrameBody
import Idealize.ShloMosaic.Lib.Pipeline.RegionsLoop
import Idealize.ShloMosaic.Lib.Pipeline.FrameSuffix
import Idealize.ShloMosaic.Lib.Tactic

/-! # The run of @main: thirteen items from the launch to the return

@main is eight stretches of host operations and five kernel regions. The contents of a core's buffers at each of
the fourteen boundaries between items are a fold from the launch memory: a host stretch maps them by its
operations' results; a region leaves its arrays at what its write-backs fold to and every other buffer as entered.
Over the thread state "every unscoped buffer at the boundary's contents, the generator register at some state,
nothing owed" each item is a segment, the segments chain, and the run ends with every unscoped buffer at the fold's
last valuation; no item writes an argument, so each argument's buffer ends as launched. -/

-- decided memberships among 185 references recurse past the default depth
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- A reference `hostOps0` does not write holds after it what it held before. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered: no write-back touches it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- A reference `hostOps1` does not write holds after it what it held before. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- After `hostOps1_1`. -/
abbrev W4 : Dev nD → Valuation τ sig (Elt F) := fun c => StableHlo.after hostOps1_1 (W3 m ρ c)
/-- The same read at the TensorCore's references. -/
abbrev V4 : (c : Dev nD) → (b : Ref sig .tc) → Buf (Elt F) ((c : Thread nD τ).loc b) := fun c b => W4 m ρ c b
/-- A reference `hostOps1_1` does not write holds after it what it held before. -/
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h

/-- After `hostOps1_2`. -/
abbrev W5 : Dev nD → Valuation τ sig (Elt F) := fun c => StableHlo.after hostOps1_2 (W4 m ρ c)
/-- The same read at the TensorCore's references. -/
abbrev V5 : (c : Dev nD) → (b : Ref sig .tc) → Buf (Elt F) ((c : Thread nD τ).loc b) := fun c b => W5 m ρ c b
/-- A reference `hostOps1_2` does not write holds after it what it held before. -/
theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h

/-- After `hostOps1_3`. -/
abbrev W6 : Dev nD → Valuation τ sig (Elt F) := fun c => StableHlo.after hostOps1_3 (W5 m ρ c)
/-- The same read at the TensorCore's references. -/
abbrev V6 : (c : Dev nD) → (b : Ref sig .tc) → Buf (Elt F) ((c : Thread nD τ).loc b) := fun c b => W6 m ρ c b
/-- A reference `hostOps1_3` does not write holds after it what it held before. -/
theorem W6_of (c : Dev nD) (r : Ref sig .tc) (h : r ∉ hostOps1_3_W) :
    W6 m ρ c (Proc.devRef .tc r) = W5 m ρ c (Proc.devRef .tc r) :=
  StableHlo.after_of_writes_sub hostOps1_3 _ hostOps1_3_writes h

/-- At region 1's exit: its arrays at what the pipeline leaves (the inputs as entered, each output's write-backs
    folded), every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- An input window's array leaves the region as it entered: no write-back touches it. -/
theorem W7_in (c : Dev nD) (w : Fin cfg1.W) (hin : (cfg1.win w).isOut = false) :
    W7 m ρ c (Proc.devRef .tc (Pipeline.arrRef spec1 w)) = W6 m ρ c (Proc.devRef .tc (Pipeline.arrRef spec1 w)) :=
  (W7_arr m ρ c w).trans (((dat1 (V6 m ρ) c).arrAt_in w hin _).trans (A_eq1 (V6 m ρ) c w))
/-- The same read at the TensorCore's references (region 1's exit contents). -/
abbrev V7 : (c : Dev nD) → (b : Ref sig .tc) → Buf (Elt F) ((c : Thread nD τ).loc b) := fun c b => W7 m ρ c b
/-- At region 1's exit each of its arrays holds what the pipeline leaves (`hF1`) and every other buffer what it
    held at entry (`hrest1`). -/
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After `hostOps2`. -/
abbrev W8 : Dev nD → Valuation τ sig (Elt F) := fun c => StableHlo.after hostOps2 (W7 m ρ c)
/-- The same read at the TensorCore's references. -/
abbrev V8 : (c : Dev nD) → (b : Ref sig .tc) → Buf (Elt F) ((c : Thread nD τ).loc b) := fun c b => W8 m ρ c b
/-- A reference `hostOps2` does not write holds after it what it held before. -/
theorem W8_of (c : Dev nD) (r : Ref sig .tc) (h : r ∉ hostOps2_W) :
    W8 m ρ c (Proc.devRef .tc r) = W7 m ρ c (Proc.devRef .tc r) :=
  StableHlo.after_of_writes_sub hostOps2 _ hostOps2_writes h

/-- At region 2's exit: its arrays at what the pipeline leaves (the inputs as entered, each output's write-backs
    folded), every other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
/-- An input window's array leaves the region as it entered: no write-back touches it. -/
theorem W9_in (c : Dev nD) (w : Fin cfg2.W) (hin : (cfg2.win w).isOut = false) :
    W9 m ρ c (Proc.devRef .tc (Pipeline.arrRef spec2 w)) = W8 m ρ c (Proc.devRef .tc (Pipeline.arrRef spec2 w)) :=
  (W9_arr m ρ c w).trans (((dat2 (V8 m ρ) c).arrAt_in w hin _).trans (A_eq2 (V8 m ρ) c w))
/-- The same read at the TensorCore's references (region 2's exit contents). -/
abbrev V9 : (c : Dev nD) → (b : Ref sig .tc) → Buf (Elt F) ((c : Thread nD τ).loc b) := fun c b => W9 m ρ c b
/-- At region 2's exit each of its arrays holds what the pipeline leaves (`hF2`) and every other buffer what it
    held at entry (`hrest2`). -/
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After `hostOps3`. -/
abbrev W10 : Dev nD → Valuation τ sig (Elt F) := fun c => StableHlo.after hostOps3 (W9 m ρ c)
/-- The same read at the TensorCore's references. -/
abbrev V10 : (c : Dev nD) → (b : Ref sig .tc) → Buf (Elt F) ((c : Thread nD τ).loc b) := fun c b => W10 m ρ c b
/-- A reference `hostOps3` does not write holds after it what it held before. -/
theorem W10_of (c : Dev nD) (r : Ref sig .tc) (h : r ∉ hostOps3_W) :
    W10 m ρ c (Proc.devRef .tc r) = W9 m ρ c (Proc.devRef .tc r) :=
  StableHlo.after_of_writes_sub hostOps3 _ hostOps3_writes h

/-- At region 3's exit: its arrays at what the pipeline leaves (the inputs as entered, each output's write-backs
    folded), every other buffer as entered. -/
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
/-- An input window's array leaves the region as it entered: no write-back touches it. -/
theorem W11_in (c : Dev nD) (w : Fin cfg3.W) (hin : (cfg3.win w).isOut = false) :
    W11 m ρ c (Proc.devRef .tc (Pipeline.arrRef spec3 w)) = W10 m ρ c (Proc.devRef .tc (Pipeline.arrRef spec3 w)) :=
  (W11_arr m ρ c w).trans (((dat3 (V10 m ρ) c).arrAt_in w hin _).trans (A_eq3 (V10 m ρ) c w))
/-- The same read at the TensorCore's references (region 3's exit contents). -/
abbrev V11 : (c : Dev nD) → (b : Ref sig .tc) → Buf (Elt F) ((c : Thread nD τ).loc b) := fun c b => W11 m ρ c b
/-- At region 3's exit each of its arrays holds what the pipeline leaves (`hF3`) and every other buffer what it
    held at entry (`hrest3`). -/
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)

/-- After `hostOps4`. -/
abbrev W12 : Dev nD → Valuation τ sig (Elt F) := fun c => StableHlo.after hostOps4 (W11 m ρ c)
/-- The same read at the TensorCore's references. -/
abbrev V12 : (c : Dev nD) → (b : Ref sig .tc) → Buf (Elt F) ((c : Thread nD τ).loc b) := fun c b => W12 m ρ c b
/-- A reference `hostOps4` does not write holds after it what it held before. -/
theorem W12_of (c : Dev nD) (r : Ref sig .tc) (h : r ∉ hostOps4_W) :
    W12 m ρ c (Proc.devRef .tc r) = W11 m ρ c (Proc.devRef .tc r) :=
  StableHlo.after_of_writes_sub hostOps4 _ hostOps4_writes h

/-- At region 4's exit: its arrays at what the pipeline leaves (the inputs as entered, each output's write-backs
    folded), every other buffer as entered. -/
def W13 (c : Dev nD) : Valuation τ sig (Elt F) :=
  Pipeline.withArrays spec4 c (W12 m ρ c) fun w => (dat4 (V12 m ρ) c).arrAt w cfg4.N
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
/-- An input window's array leaves the region as it entered: no write-back touches it. -/
theorem W13_in (c : Dev nD) (w : Fin cfg4.W) (hin : (cfg4.win w).isOut = false) :
    W13 m ρ c (Proc.devRef .tc (Pipeline.arrRef spec4 w)) = W12 m ρ c (Proc.devRef .tc (Pipeline.arrRef spec4 w)) :=
  (W13_arr m ρ c w).trans (((dat4 (V12 m ρ) c).arrAt_in w hin _).trans (A_eq4 (V12 m ρ) c w))
/-- The same read at the TensorCore's references (region 4's exit contents). -/
abbrev V13 : (c : Dev nD) → (b : Ref sig .tc) → Buf (Elt F) ((c : Thread nD τ).loc b) := fun c b => W13 m ρ c b
/-- At region 4's exit each of its arrays holds what the pipeline leaves (`hF4`) and every other buffer what it
    held at entry (`hrest4`). -/
theorem hF4 (c : Dev nD) (w : Fin cfg4.W) : (dat4 (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)

/-! ### The arguments end as launched: no host operation writes one, and a region reads one through an input
    window or bypasses it, so the fold at an argument's buffer walks back to the launch memory -/

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_of_ne m ρ c main_arg0 (by decide)
    _ = W11 m ρ c (Proc.devRef .tc main_arg0) := W12_of m ρ c main_arg0 (by decide)
    _ = W10 m ρ c (Proc.devRef .tc main_arg0) := W11_of_ne m ρ c main_arg0 (by decide)
    _ = W9 m ρ c (Proc.devRef .tc main_arg0) := W10_of m ρ c main_arg0 (by decide)
    _ = W8 m ρ c (Proc.devRef .tc main_arg0) := W9_in m ρ c 0 rfl
    _ = W7 m ρ c (Proc.devRef .tc main_arg0) := W8_of m ρ c main_arg0 (by decide)
    _ = W6 m ρ c (Proc.devRef .tc main_arg0) := W7_of_ne m ρ c main_arg0 (by decide)
    _ = W5 m ρ c (Proc.devRef .tc main_arg0) := W6_of m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl

theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := W13_of_ne m ρ c main_arg1 (by decide)
    _ = W11 m ρ c (Proc.devRef .tc main_arg1) := W12_of m ρ c main_arg1 (by decide)
    _ = W10 m ρ c (Proc.devRef .tc main_arg1) := W11_of_ne m ρ c main_arg1 (by decide)
    _ = W9 m ρ c (Proc.devRef .tc main_arg1) := W10_of m ρ c main_arg1 (by decide)
    _ = W8 m ρ c (Proc.devRef .tc main_arg1) := W9_of_ne m ρ c main_arg1 (by decide)
    _ = W7 m ρ c (Proc.devRef .tc main_arg1) := W8_of m ρ c main_arg1 (by decide)
    _ = W6 m ρ c (Proc.devRef .tc main_arg1) := W7_of_ne m ρ c main_arg1 (by decide)
    _ = W5 m ρ c (Proc.devRef .tc main_arg1) := W6_of m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := W13_of_ne m ρ c main_arg2 (by decide)
    _ = W11 m ρ c (Proc.devRef .tc main_arg2) := W12_of m ρ c main_arg2 (by decide)
    _ = W10 m ρ c (Proc.devRef .tc main_arg2) := W11_of_ne m ρ c main_arg2 (by decide)
    _ = W9 m ρ c (Proc.devRef .tc main_arg2) := W10_of m ρ c main_arg2 (by decide)
    _ = W8 m ρ c (Proc.devRef .tc main_arg2) := W9_of_ne m ρ c main_arg2 (by decide)
    _ = W7 m ρ c (Proc.devRef .tc main_arg2) := W8_of m ρ c main_arg2 (by decide)
    _ = W6 m ρ c (Proc.devRef .tc main_arg2) := W7_of_ne m ρ c main_arg2 (by decide)
    _ = W5 m ρ c (Proc.devRef .tc main_arg2) := W6_of m ρ c main_arg2 (by decide)
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := W13_of_ne m ρ c main_arg3 (by decide)
    _ = W11 m ρ c (Proc.devRef .tc main_arg3) := W12_of m ρ c main_arg3 (by decide)
    _ = W10 m ρ c (Proc.devRef .tc main_arg3) := W11_of_ne m ρ c main_arg3 (by decide)
    _ = W9 m ρ c (Proc.devRef .tc main_arg3) := W10_of m ρ c main_arg3 (by decide)
    _ = W8 m ρ c (Proc.devRef .tc main_arg3) := W9_of_ne m ρ c main_arg3 (by decide)
    _ = W7 m ρ c (Proc.devRef .tc main_arg3) := W8_of m ρ c main_arg3 (by decide)
    _ = W6 m ρ c (Proc.devRef .tc main_arg3) := W7_of_ne m ρ c main_arg3 (by decide)
    _ = W5 m ρ c (Proc.devRef .tc main_arg3) := W6_of m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := W13_of_ne m ρ c main_arg4 (by decide)
    _ = W11 m ρ c (Proc.devRef .tc main_arg4) := W12_of m ρ c main_arg4 (by decide)
    _ = W10 m ρ c (Proc.devRef .tc main_arg4) := W11_of_ne m ρ c main_arg4 (by decide)
    _ = W9 m ρ c (Proc.devRef .tc main_arg4) := W10_of m ρ c main_arg4 (by decide)
    _ = W8 m ρ c (Proc.devRef .tc main_arg4) := W9_of_ne m ρ c main_arg4 (by decide)
    _ = W7 m ρ c (Proc.devRef .tc main_arg4) := W8_of m ρ c main_arg4 (by decide)
    _ = W6 m ρ c (Proc.devRef .tc main_arg4) := W7_of_ne m ρ c main_arg4 (by decide)
    _ = W5 m ρ c (Proc.devRef .tc main_arg4) := W6_of m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := W13_of_ne m ρ c main_arg5 (by decide)
    _ = W11 m ρ c (Proc.devRef .tc main_arg5) := W12_of m ρ c main_arg5 (by decide)
    _ = W10 m ρ c (Proc.devRef .tc main_arg5) := W11_of_ne m ρ c main_arg5 (by decide)
    _ = W9 m ρ c (Proc.devRef .tc main_arg5) := W10_of m ρ c main_arg5 (by decide)
    _ = W8 m ρ c (Proc.devRef .tc main_arg5) := W9_of_ne m ρ c main_arg5 (by decide)
    _ = W7 m ρ c (Proc.devRef .tc main_arg5) := W8_of m ρ c main_arg5 (by decide)
    _ = W6 m ρ c (Proc.devRef .tc main_arg5) := W7_of_ne m ρ c main_arg5 (by decide)
    _ = W5 m ρ c (Proc.devRef .tc main_arg5) := W6_of m ρ c main_arg5 (by decide)
    _ = W4 m ρ c (Proc.devRef .tc main_arg5) := W5_of m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W13_main_arg6 (c : Dev nD) : W13 m ρ c (Proc.devRef .tc main_arg6) = m ((c : Thread nD τ).loc main_arg6) :=
  calc W13 m ρ c (Proc.devRef .tc main_arg6)
    _ = W12 m ρ c (Proc.devRef .tc main_arg6) := W13_of_ne m ρ c main_arg6 (by decide)
    _ = W11 m ρ c (Proc.devRef .tc main_arg6) := W12_of m ρ c main_arg6 (by decide)
    _ = W10 m ρ c (Proc.devRef .tc main_arg6) := W11_of_ne m ρ c main_arg6 (by decide)
    _ = W9 m ρ c (Proc.devRef .tc main_arg6) := W10_of m ρ c main_arg6 (by decide)
    _ = W8 m ρ c (Proc.devRef .tc main_arg6) := W9_of_ne m ρ c main_arg6 (by decide)
    _ = W7 m ρ c (Proc.devRef .tc main_arg6) := W8_of m ρ c main_arg6 (by decide)
    _ = W6 m ρ c (Proc.devRef .tc main_arg6) := W7_of_ne m ρ c main_arg6 (by decide)
    _ = W5 m ρ c (Proc.devRef .tc main_arg6) := W6_of m ρ c main_arg6 (by decide)
    _ = W4 m ρ c (Proc.devRef .tc main_arg6) := W5_of m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W13_main_arg7 (c : Dev nD) : W13 m ρ c (Proc.devRef .tc main_arg7) = m ((c : Thread nD τ).loc main_arg7) :=
  calc W13 m ρ c (Proc.devRef .tc main_arg7)
    _ = W12 m ρ c (Proc.devRef .tc main_arg7) := W13_of_ne m ρ c main_arg7 (by decide)
    _ = W11 m ρ c (Proc.devRef .tc main_arg7) := W12_of m ρ c main_arg7 (by decide)
    _ = W10 m ρ c (Proc.devRef .tc main_arg7) := W11_of_ne m ρ c main_arg7 (by decide)
    _ = W9 m ρ c (Proc.devRef .tc main_arg7) := W10_of m ρ c main_arg7 (by decide)
    _ = W8 m ρ c (Proc.devRef .tc main_arg7) := W9_in m ρ c 3 rfl
    _ = W7 m ρ c (Proc.devRef .tc main_arg7) := W8_of m ρ c main_arg7 (by decide)
    _ = W6 m ρ c (Proc.devRef .tc main_arg7) := W7_of_ne m ρ c main_arg7 (by decide)
    _ = W5 m ρ c (Proc.devRef .tc main_arg7) := W6_of m ρ c main_arg7 (by decide)
    _ = W4 m ρ c (Proc.devRef .tc main_arg7) := W5_of m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W13_main_arg8 (c : Dev nD) : W13 m ρ c (Proc.devRef .tc main_arg8) = m ((c : Thread nD τ).loc main_arg8) :=
  calc W13 m ρ c (Proc.devRef .tc main_arg8)
    _ = W12 m ρ c (Proc.devRef .tc main_arg8) := W13_of_ne m ρ c main_arg8 (by decide)
    _ = W11 m ρ c (Proc.devRef .tc main_arg8) := W12_of m ρ c main_arg8 (by decide)
    _ = W10 m ρ c (Proc.devRef .tc main_arg8) := W11_of_ne m ρ c main_arg8 (by decide)
    _ = W9 m ρ c (Proc.devRef .tc main_arg8) := W10_of m ρ c main_arg8 (by decide)
    _ = W8 m ρ c (Proc.devRef .tc main_arg8) := W9_of_ne m ρ c main_arg8 (by decide)
    _ = W7 m ρ c (Proc.devRef .tc main_arg8) := W8_of m ρ c main_arg8 (by decide)
    _ = W6 m ρ c (Proc.devRef .tc main_arg8) := W7_of_ne m ρ c main_arg8 (by decide)
    _ = W5 m ρ c (Proc.devRef .tc main_arg8) := W6_of m ρ c main_arg8 (by decide)
    _ = W4 m ρ c (Proc.devRef .tc main_arg8) := W5_of m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

theorem W13_main_arg9 (c : Dev nD) : W13 m ρ c (Proc.devRef .tc main_arg9) = m ((c : Thread nD τ).loc main_arg9) :=
  calc W13 m ρ c (Proc.devRef .tc main_arg9)
    _ = W12 m ρ c (Proc.devRef .tc main_arg9) := W13_of_ne m ρ c main_arg9 (by decide)
    _ = W11 m ρ c (Proc.devRef .tc main_arg9) := W12_of m ρ c main_arg9 (by decide)
    _ = W10 m ρ c (Proc.devRef .tc main_arg9) := W11_in m ρ c 6 rfl
    _ = W9 m ρ c (Proc.devRef .tc main_arg9) := W10_of m ρ c main_arg9 (by decide)
    _ = W8 m ρ c (Proc.devRef .tc main_arg9) := W9_of_ne m ρ c main_arg9 (by decide)
    _ = W7 m ρ c (Proc.devRef .tc main_arg9) := W8_of m ρ c main_arg9 (by decide)
    _ = W6 m ρ c (Proc.devRef .tc main_arg9) := W7_of_ne m ρ c main_arg9 (by decide)
    _ = W5 m ρ c (Proc.devRef .tc main_arg9) := W6_of m ρ c main_arg9 (by decide)
    _ = W4 m ρ c (Proc.devRef .tc main_arg9) := W5_of m ρ c main_arg9 (by decide)
    _ = W3 m ρ c (Proc.devRef .tc main_arg9) := W4_of m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

theorem W13_main_arg10 (c : Dev nD) : W13 m ρ c (Proc.devRef .tc main_arg10) = m ((c : Thread nD τ).loc main_arg10) :=
  calc W13 m ρ c (Proc.devRef .tc main_arg10)
    _ = W12 m ρ c (Proc.devRef .tc main_arg10) := W13_of_ne m ρ c main_arg10 (by decide)
    _ = W11 m ρ c (Proc.devRef .tc main_arg10) := W12_of m ρ c main_arg10 (by decide)
    _ = W10 m ρ c (Proc.devRef .tc main_arg10) := W11_of_ne m ρ c main_arg10 (by decide)
    _ = W9 m ρ c (Proc.devRef .tc main_arg10) := W10_of m ρ c main_arg10 (by decide)
    _ = W8 m ρ c (Proc.devRef .tc main_arg10) := W9_of_ne m ρ c main_arg10 (by decide)
    _ = W7 m ρ c (Proc.devRef .tc main_arg10) := W8_of m ρ c main_arg10 (by decide)
    _ = W6 m ρ c (Proc.devRef .tc main_arg10) := W7_of_ne m ρ c main_arg10 (by decide)
    _ = W5 m ρ c (Proc.devRef .tc main_arg10) := W6_of m ρ c main_arg10 (by decide)
    _ = W4 m ρ c (Proc.devRef .tc main_arg10) := W5_of m ρ c main_arg10 (by decide)
    _ = W3 m ρ c (Proc.devRef .tc main_arg10) := W4_of m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

theorem W13_main_arg11 (c : Dev nD) : W13 m ρ c (Proc.devRef .tc main_arg11) = m ((c : Thread nD τ).loc main_arg11) :=
  calc W13 m ρ c (Proc.devRef .tc main_arg11)
    _ = W12 m ρ c (Proc.devRef .tc main_arg11) := W13_of_ne m ρ c main_arg11 (by decide)
    _ = W11 m ρ c (Proc.devRef .tc main_arg11) := W12_of m ρ c main_arg11 (by decide)
    _ = W10 m ρ c (Proc.devRef .tc main_arg11) := W11_in m ρ c 8 rfl
    _ = W9 m ρ c (Proc.devRef .tc main_arg11) := W10_of m ρ c main_arg11 (by decide)
    _ = W8 m ρ c (Proc.devRef .tc main_arg11) := W9_of_ne m ρ c main_arg11 (by decide)
    _ = W7 m ρ c (Proc.devRef .tc main_arg11) := W8_of m ρ c main_arg11 (by decide)
    _ = W6 m ρ c (Proc.devRef .tc main_arg11) := W7_of_ne m ρ c main_arg11 (by decide)
    _ = W5 m ρ c (Proc.devRef .tc main_arg11) := W6_of m ρ c main_arg11 (by decide)
    _ = W4 m ρ c (Proc.devRef .tc main_arg11) := W5_of m ρ c main_arg11 (by decide)
    _ = W3 m ρ c (Proc.devRef .tc main_arg11) := W4_of m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

theorem W13_main_arg12 (c : Dev nD) : W13 m ρ c (Proc.devRef .tc main_arg12) = m ((c : Thread nD τ).loc main_arg12) :=
  calc W13 m ρ c (Proc.devRef .tc main_arg12)
    _ = W12 m ρ c (Proc.devRef .tc main_arg12) := W13_of_ne m ρ c main_arg12 (by decide)
    _ = W11 m ρ c (Proc.devRef .tc main_arg12) := W12_of m ρ c main_arg12 (by decide)
    _ = W10 m ρ c (Proc.devRef .tc main_arg12) := W11_in m ρ c 3 rfl
    _ = W9 m ρ c (Proc.devRef .tc main_arg12) := W10_of m ρ c main_arg12 (by decide)
    _ = W8 m ρ c (Proc.devRef .tc main_arg12) := W9_of_ne m ρ c main_arg12 (by decide)
    _ = W7 m ρ c (Proc.devRef .tc main_arg12) := W8_of m ρ c main_arg12 (by decide)
    _ = W6 m ρ c (Proc.devRef .tc main_arg12) := W7_of_ne m ρ c main_arg12 (by decide)
    _ = W5 m ρ c (Proc.devRef .tc main_arg12) := W6_of m ρ c main_arg12 (by decide)
    _ = W4 m ρ c (Proc.devRef .tc main_arg12) := W5_of m ρ c main_arg12 (by decide)
    _ = W3 m ρ c (Proc.devRef .tc main_arg12) := W4_of m ρ c main_arg12 (by decide)
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl

theorem W13_main_arg13 (c : Dev nD) : W13 m ρ c (Proc.devRef .tc main_arg13) = m ((c : Thread nD τ).loc main_arg13) :=
  calc W13 m ρ c (Proc.devRef .tc main_arg13)
    _ = W12 m ρ c (Proc.devRef .tc main_arg13) := W13_of_ne m ρ c main_arg13 (by decide)
    _ = W11 m ρ c (Proc.devRef .tc main_arg13) := W12_of m ρ c main_arg13 (by decide)
    _ = W10 m ρ c (Proc.devRef .tc main_arg13) := W11_in m ρ c 4 rfl
    _ = W9 m ρ c (Proc.devRef .tc main_arg13) := W10_of m ρ c main_arg13 (by decide)
    _ = W8 m ρ c (Proc.devRef .tc main_arg13) := W9_of_ne m ρ c main_arg13 (by decide)
    _ = W7 m ρ c (Proc.devRef .tc main_arg13) := W8_of m ρ c main_arg13 (by decide)
    _ = W6 m ρ c (Proc.devRef .tc main_arg13) := W7_of_ne m ρ c main_arg13 (by decide)
    _ = W5 m ρ c (Proc.devRef .tc main_arg13) := W6_of m ρ c main_arg13 (by decide)
    _ = W4 m ρ c (Proc.devRef .tc main_arg13) := W5_of m ρ c main_arg13 (by decide)
    _ = W3 m ρ c (Proc.devRef .tc main_arg13) := W4_of m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl

theorem W13_main_arg14 (c : Dev nD) : W13 m ρ c (Proc.devRef .tc main_arg14) = m ((c : Thread nD τ).loc main_arg14) :=
  calc W13 m ρ c (Proc.devRef .tc main_arg14)
    _ = W12 m ρ c (Proc.devRef .tc main_arg14) := W13_in m ρ c 3 rfl
    _ = W11 m ρ c (Proc.devRef .tc main_arg14) := W12_of m ρ c main_arg14 (by decide)
    _ = W10 m ρ c (Proc.devRef .tc main_arg14) := W11_of_ne m ρ c main_arg14 (by decide)
    _ = W9 m ρ c (Proc.devRef .tc main_arg14) := W10_of m ρ c main_arg14 (by decide)
    _ = W8 m ρ c (Proc.devRef .tc main_arg14) := W9_of_ne m ρ c main_arg14 (by decide)
    _ = W7 m ρ c (Proc.devRef .tc main_arg14) := W8_of m ρ c main_arg14 (by decide)
    _ = W6 m ρ c (Proc.devRef .tc main_arg14) := W7_of_ne m ρ c main_arg14 (by decide)
    _ = W5 m ρ c (Proc.devRef .tc main_arg14) := W6_of m ρ c main_arg14 (by decide)
    _ = W4 m ρ c (Proc.devRef .tc main_arg14) := W5_of m ρ c main_arg14 (by decide)
    _ = W3 m ρ c (Proc.devRef .tc main_arg14) := W4_of m ρ c main_arg14 (by decide)
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl

theorem W13_main_arg15 (c : Dev nD) : W13 m ρ c (Proc.devRef .tc main_arg15) = m ((c : Thread nD τ).loc main_arg15) :=
  calc W13 m ρ c (Proc.devRef .tc main_arg15)
    _ = W12 m ρ c (Proc.devRef .tc main_arg15) := W13_in m ρ c 4 rfl
    _ = W11 m ρ c (Proc.devRef .tc main_arg15) := W12_of m ρ c main_arg15 (by decide)
    _ = W10 m ρ c (Proc.devRef .tc main_arg15) := W11_of_ne m ρ c main_arg15 (by decide)
    _ = W9 m ρ c (Proc.devRef .tc main_arg15) := W10_of m ρ c main_arg15 (by decide)
    _ = W8 m ρ c (Proc.devRef .tc main_arg15) := W9_of_ne m ρ c main_arg15 (by decide)
    _ = W7 m ρ c (Proc.devRef .tc main_arg15) := W8_of m ρ c main_arg15 (by decide)
    _ = W6 m ρ c (Proc.devRef .tc main_arg15) := W7_of_ne m ρ c main_arg15 (by decide)
    _ = W5 m ρ c (Proc.devRef .tc main_arg15) := W6_of m ρ c main_arg15 (by decide)
    _ = W4 m ρ c (Proc.devRef .tc main_arg15) := W5_of m ρ c main_arg15 (by decide)
    _ = W3 m ρ c (Proc.devRef .tc main_arg15) := W4_of m ρ c main_arg15 (by decide)
    _ = W2 m ρ c (Proc.devRef .tc main_arg15) := W3_of m ρ c main_arg15 (by decide)
    _ = W1 m ρ c (Proc.devRef .tc main_arg15) := W2_of_ne m ρ c main_arg15 (by decide)
    _ = W0 m ρ c (Proc.devRef .tc main_arg15) := W1_of m ρ c main_arg15 (by decide)
    _ = m ((c : Thread nD τ).loc main_arg15) := rfl

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
  | ⟨2, _⟩ => fun c => dat2 (V8 m ρ) c
  | ⟨3, _⟩ => fun c => dat3 (V10 m ρ) c
  | ⟨4, _⟩ => fun c => dat4 (V12 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at the stretch's result on `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W13`, the
    generator register at some state. -/
abbrev Tₙ (c : Dev nD) : sProp 𝕄 := iprop(StableHlo.held (c : Thread nD τ) (Pipeline.ucRefs τ sig) (W13 m ρ c) ∗ ∃ r, prngReg c r)

/-! ## The regions as segments -/

-- a library lemma stated over the pinned configuration unifies with the printed one only when unification may unfold
-- plain definitions in a metavariable's type
set_option backward.isDefEq.respectTransparency.types false in
/-- REGION 0 over the thread state: entered from every unscoped buffer at `W1`, left at `W2`. Its arrays split
    out of the unscoped buffers and put back at the exit contents; the generator register into the class invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W6`, left at `W7`. Its arrays split
    out of the unscoped buffers and put back at the exit contents; the generator register into the class invariant
    and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `W8`, left at `W9`. Its arrays split
    out of the unscoped buffers and put back at the exit contents; the generator register into the class invariant
    and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 over the thread state: entered from every unscoped buffer at `W10`, left at `W11`. Its arrays split
    out of the unscoped buffers and put back at the exit contents; the generator register into the class invariant
    and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 4 over the thread state: entered from every unscoped buffer at `W12`, left at `W13`. Its arrays split
    out of the unscoped buffers and put back at the exit contents; the generator register into the class invariant
    and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's thirteen segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .region (reg1 m ρ),
    .host (hseg hostOps2 hostOps2_sub hostOps2_fresh (W7 m ρ)),
    .region (reg2 m ρ),
    .host (hseg hostOps3 hostOps3_sub hostOps3_fresh (W9 m ρ)),
    .region (reg3 m ρ),
    .host (hseg hostOps4 hostOps4_sub hostOps4_fresh (W11 m ρ)),
    .region (reg4 m ρ) ]

/-- @main IS the run of the segments: @main is the chain of its items, and the segments' run is the chain of their
    fragments, item by item the same. -/
theorem main_run (c : Dev nD) : main (F := F) c = Pipeline.Seg.run (segs m ρ) := by
  rw [main_chain c, Pipeline.Seg.run_eq_chain,
    show (segs m ρ).map Pipeline.Seg.prog = [
      StableHlo.seq hostOps0,
      Prog.lift (.customCall (Pipeline.entry 0) ()),
      StableHlo.seq hostOps1,
      StableHlo.seq hostOps1_1,
      StableHlo.seq hostOps1_2,
      StableHlo.seq hostOps1_3,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()) ] from rfl]

-- the launch kit's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at the fold's last
    valuation `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- THE FRAME: every weakly fair execution of @main terminates, nothing faulting, and every final state has the
    sixteen argument arrays as launched: each is an unscoped buffer, read at the fold's last valuation, which walks
    back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c),
     (h c _ (mem_uc main_arg12 (by decide))).trans (W13_main_arg12 m ρ c),
     (h c _ (mem_uc main_arg13 (by decide))).trans (W13_main_arg13 m ρ c),
     (h c _ (mem_uc main_arg14 (by decide))).trans (W13_main_arg14 m ρ c),
     (h c _ (mem_uc main_arg15 (by decide))).trans (W13_main_arg15 m ρ c)⟩) (run_all m ρ)

end Cert.Kernel.Hand

end
-- ==== Proof.KI.Reg0.lean ====
import proofs.«420532_j35407710388433_1_alg».proof.Proof.Gen.KernelIdeal.Launch
import proofs.«420532_j35407710388433_1_alg».proof.Proof.Gen.KernelIdeal.Skeleton
import proofs.«420532_j35407710388433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 (the q/k/v projection): the body's triple and the pipeline's proof data

The first kernel multiplies a 1000-row block of the node features by the whole stacked weight matrix
and stores the 1000x384 product block. Here, at any float family and at any contents `V` of the core's
buffers when the region is entered: the block each window holds at a grid point, what the body leaves in
the output window's buffer (its one store, of the payload of the two loaded blocks), the body's triple,
the pipeline's proof data and its body obligation. -/

-- membership in a rectangle of 1000 x 384 cells: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its block at every point, for any proof data whose array is
    `V`'s and whose body leaves the block in place: the window is an input, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's block is the whole array at every point (a constant index map): fetched once, and at the
    later points the buffer still holds it, the index not having moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of each window's buffer: the rectangles of the body's two loads and of its one store. -/
abbrev r0_0 : Rect S1000x128 := Rect.unit (s := S1000x128) ![0, 0] S1000x128.size inb_S1000x128_S1000x128_0_0
abbrev r0_1 : Rect S128x384 := Rect.unit (s := S128x384) ![0, 0] S128x384.size inb_S128x384_S128x384_0_0
abbrev r0_2 : Rect S1000x384 := Rect.unit (s := S1000x384) ![0, 0] S1000x384.size inb_S1000x384_S1000x384_0_0

/-! ## What the body leaves in the output window's buffer -/

/-- The output window's staging buffer after the body, from the input windows' blocks: its one store, of the
    product payload of the feature block `x0` and the weights `x1`, over the whole buffer. -/
def out0_2 (x0 : Vec F S1000x128 .f32) (x1 : Vec F S128x384 .f32) : Vec F S1000x384 .f32 :=
  View.canon [⟨r0_2, k0_pay1 (View.ld x0 r0_0) (View.ld x1 r0_1)⟩]

/-- The one store covers the buffer: its rectangle is the whole of it. -/
theorem cover0_2 (p0 : Vec F S1000x384 .f32) (y : S1000x384.Idx) :
    ∃ pc ∈ ([⟨r0_2, p0⟩] : List (View.Piece (Elt F) S1000x384 .f32)), y ∈ pc.1.set :=
  View.cover_of_tiled [⟨r0_2, p0⟩] S1000x384.size (by rfl) y

/-! ## The body's triple -/

set_option maxHeartbeats 1000000 in
/-- The kernel body on whole staging memrefs, the inputs' at read contents `x0`, `x1` and the output's at anything
    (the body loads it before storing and never uses the value), runs to the continuation holding the inputs' as
    they were and the output's at `out0_2` of the inputs'. -/
theorem sound_kernel0 (c : Dev nD) (E : Set ℕ) (i : grid0.Coords) (arg0 : Memref sig .tc .vmem S1000x128 .f32) (harg0 : arg0.IsWhole) (arg1 : Memref sig .tc .vmem S128x384 .f32) (harg1 : arg1.IsWhole) (arg2 : Memref sig .tc .vmem S1000x384 .f32) (harg2 : arg2.IsWhole)
    (x0 : Vec F S1000x128 .f32) (x1 : Vec F S128x384 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__qkv_kernel i arg0 harg0 arg1 harg1 arg2 harg2) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/- Region 1 (custom_call 1, the per-edge attention kernel) at a parameter `V`, the buffer contents when the
   region is entered: each window's block at a grid point, what the body leaves in the two output windows' staging
   buffers as a function of the five input blocks, the body's triple, the pipeline's proof data and its body
   obligation. Generic in the float family. -/
import proofs.«420532_j35407710388433_1_alg».proof.Proof.Gen.KernelIdeal.Launch
import proofs.«420532_j35407710388433_1_alg».proof.Proof.Gen.KernelIdeal.Skeleton
import proofs.«420532_j35407710388433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 x 128 extents: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved
    (the row-block index follows the grid point, and every point fetches); the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s and whose body leaves the block in place: unfetched, the block index has not moved
    (the row-block index follows the grid point, and every point fetches); the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s and whose body leaves the block in place: unfetched, the block index has not moved
    (the row-block index follows the grid point, and every point fetches); the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s and whose body leaves the block in place: unfetched, the block index has not moved
    (the index map is constant, the block is the whole array); the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s and whose body leaves the block in place: unfetched, the block index has not moved
    (the index map is constant, the block is the whole array); the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_0 : Rect S4000x128 := Rect.unit (s := S4000x128) ![0, 0] S4000x128.size inb_S4000x128_S4000x128_0_0
abbrev r1_1 : Rect S128x8 := Rect.unit (s := S128x8) ![0, 0] S128x8.size inb_S128x8_S128x8_0_0
abbrev r1_2 : Rect S8x128 := Rect.unit (s := S8x128) ![0, 0] S8x128.size inb_S8x128_S8x128_0_0

/-! ## What the body leaves in each output window's buffer -/

/-- Window 5's staging buffer (the weighted values) after the body, from the input windows' blocks: its one store. -/
def out1_5 (x0 : Vec F S4000x128 .f32) (x1 : Vec F S4000x128 .f32) (x2 : Vec F S4000x128 .f32) (x3 : Vec F S128x8 .f32) (x4 : Vec F S8x128 .f32) : Vec F S4000x128 .f32 :=
  View.canon [⟨r1_0, k1_pay2 (View.ld x0 r1_0) (View.ld x1 r1_0) (View.ld x2 r1_0) (View.ld x3 r1_1) (View.ld x4 r1_2)⟩]

/-- Window 6's staging buffer (the replicated scores) after the body, from the input windows' blocks: its one store. -/
def out1_6 (x0 : Vec F S4000x128 .f32) (x1 : Vec F S4000x128 .f32) (x3 : Vec F S128x8 .f32) (x4 : Vec F S8x128 .f32) : Vec F S4000x128 .f32 :=
  View.canon [⟨r1_0, k1_pay1 (View.ld x0 r1_0) (View.ld x1 r1_0) (View.ld x3 r1_1) (View.ld x4 r1_2)⟩]

/-- The one store of each output window is of the whole buffer, so it covers it. -/
theorem cover1_5 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y
theorem cover1_6 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y

/-! ## The body's triple -/

set_option maxHeartbeats 1000000 in
/-- The kernel body on whole staging memrefs, the inputs' at read contents `xW` and the outputs' at anything, runs to
    the continuation holding the inputs' as they were and each output's at `out1_W` of the inputs'. Each output
    buffer is read once before its store; the value read is never used. -/
theorem sound_kernel1 (c : Dev nD) (E : Set ℕ) (i : grid1.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S128x8 .f32) (harg4 : arg4.IsWhole) (arg5 : Memref sig .tc .vmem S8x128 .f32) (harg5 : arg5.IsWhole) (arg6 : Memref sig .tc .vmem S4000x128 .f32) (harg6 : arg6.IsWhole) (arg7 : Memref sig .tc .vmem S4000x128 .f32) (harg7 : arg7.IsWhole)
    (x0 : Vec F S4000x128 .f32) (x1 : Vec F S4000x128 .f32) (x2 : Vec F S4000x128 .f32) (x3 : Vec F S128x8 .f32) (x4 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x3 x4)) -∗ K ⟨⟩))
      ⊢ wp frame (wpE (defs₀ (F := F)) Variants.none c none) E (cc1__edge_kernel i arg1 harg1 arg2 harg2 arg3 harg3 arg4 harg4 arg5 harg5 arg6 harg6 arg7 harg7) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and each output's at `out1_W` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Reg2.lean ====
/- REGION 2 of @main (custom_call 2: the output projection of the attention rows, plus the residual and the
   bias), at a parameter V — the TensorCore's buffer contents when the region is entered. Each window's block at a
   grid point, what the body leaves in the output window's staging buffer as a function of the input blocks, the
   body's triple, the pipeline's proof data and its body obligation. Generic in the float family. -/
import proofs.«420532_j35407710388433_1_alg».proof.Proof.Gen.KernelIdeal.Launch
import proofs.«420532_j35407710388433_1_alg».proof.Proof.Gen.KernelIdeal.Skeleton
import proofs.«420532_j35407710388433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1000 x 128 extents: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window w's block at point t, read off its array as the region finds it. Windows 0, 1 and 4 are 1000-row
    blocks of 50000 x 128 arrays; windows 2 and 3 are whole arrays (the weight and the bias), the same at every
    point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    V's and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for input window 2, whose block is the whole array: fetched at the first point only, and the
    index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The same for input window 3, whose block is the whole array. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1000x128 := Rect.unit (s := S1000x128) ![0, 0] S1000x128.size inb_S1000x128_S1000x128_0_0
abbrev r2_1 : Rect S128x128 := Rect.unit (s := S128x128) ![0, 0] S128x128.size inb_S128x128_S128x128_0_0
abbrev r2_2 : Rect S128 := Rect.unit (s := S128) ![0] S128.size inb_S128_S128_0

/-! ## What the body leaves in the output window's buffer -/

/-- Window 4's staging buffer after the body, from the input windows' blocks (x0 the rows of the layer input, x1
    the attention rows, x2 the projection weight, x3 the bias): its one store, of the whole block. -/
def out2_4 (x0 : Vec F S1000x128 .f32) (x1 : Vec F S1000x128 .f32) (x2 : Vec F S128x128 .f32) (x3 : Vec F S128 .f32) : Vec F S1000x128 .f32 :=
  View.canon [⟨r2_0, k2_pay1 (View.ld x1 r2_0) (View.ld x2 r2_1) (View.ld x0 r2_0) (View.ld x3 r2_2)⟩]

/-- The store tiles the buffer, so it covers it. -/
theorem cover2_4 (p0 : Vec F S1000x128 .f32) (y : S1000x128.Idx) :
    ∃ pc ∈ ([⟨r2_0, p0⟩] : List (View.Piece (Elt F) S1000x128 .f32)), y ∈ pc.1.set :=
  View.cover_of_tiled [⟨r2_0, p0⟩] S1000x128.size (by rfl) y

/-! ## The body's triple -/

set_option maxHeartbeats 1000000 in
/-- The kernel body on whole staging memrefs, the inputs' at read contents and the output's at anything, runs to
    the continuation holding the inputs' as they were and the output's at out2_4 of the inputs'. -/
theorem sound_kernel2 (c : Dev nD) (E : Set ℕ) (i : grid2.Coords)
    (arg0 : Memref sig .tc .vmem S1000x128 .f32) (harg0 : arg0.IsWhole) (arg1 : Memref sig .tc .vmem S1000x128 .f32) (harg1 : arg1.IsWhole)
    (arg2 : Memref sig .tc .vmem S128x128 .f32) (harg2 : arg2.IsWhole) (arg3 : Memref sig .tc .vmem S128 .f32) (harg3 : arg3.IsWhole)
    (arg4 : Memref sig .tc .vmem S1000x128 .f32) (harg4 : arg4.IsWhole)
    (x0 : Vec F S1000x128 .f32) (x1 : Vec F S1000x128 .f32) (x2 : Vec F S128x128 .f32) (x3 : Vec F S128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__post_attn_kernel i arg0 harg0 arg1 harg1 arg2 harg2 arg3 harg3 arg4 harg4) K := by
  simp only [cc2__post_attn_kernel_eq_skeleton]; unfold cc2__post_attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core c: the arrays as the region finds them; after the body at point t each
    input's buffer at its block and the output's at out2_4 of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand
-- ==== Proof.KI.Reg3.lean ====
/- Region 3 (the normalisation and feed-forward kernel): the region half of the frame, at a parameter `V` — the
   TensorCore's buffer contents when the region is entered. Each window's block at a grid point, what the body
   leaves in the output window's staging buffer as a function of the input blocks, the body's triple, the
   pipeline's proof data and its body obligation. Generic in the float family. -/
import proofs.«420532_j35407710388433_1_alg».proof.Proof.Gen.KernelIdeal.Launch
import proofs.«420532_j35407710388433_1_alg».proof.Proof.Gen.KernelIdeal.Skeleton
import proofs.«420532_j35407710388433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s and whose body leaves the block in place: unfetched, the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not, for any proof
    data whose array is `V`'s and whose body leaves the block in place: unfetched, the block index has not moved. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not, for any proof
    data whose array is `V`'s and whose body leaves the block in place: unfetched, the block index has not moved. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every one the whole staging buffer -/

abbrev r3_0 : Rect S1000x128 := Rect.unit (s := S1000x128) ![0, 0] S1000x128.size inb_S1000x128_S1000x128_0_0
abbrev r3_1 : Rect S128 := Rect.unit (s := S128) ![0] S128.size inb_S128_S128_0
abbrev r3_2 : Rect S128x256 := Rect.unit (s := S128x256) ![0, 0] S128x256.size inb_S128x256_S128x256_0_0
abbrev r3_3 : Rect S256 := Rect.unit (s := S256) ![0] S256.size inb_S256_S256_0
abbrev r3_4 : Rect S256x128 := Rect.unit (s := S256x128) ![0, 0] S256x128.size inb_S256x128_S256x128_0_0

/-! ## What the body leaves in the output window's buffer -/

/-- Window 9's staging buffer after the body, from the input windows' blocks: its one store, of the residual sum of
    the normalised block and the feed-forward of it. -/
def out3_9 (x0 : Vec F S1000x128 .f32) (x1 : Vec F S128 .f32) (x2 : Vec F S128 .f32) (x3 : Vec F S128 .f32) (x4 : Vec F S128 .f32) (x5 : Vec F S128x256 .f32) (x6 : Vec F S256 .f32) (x7 : Vec F S256x128 .f32) (x8 : Vec F S128 .f32) : Vec F S1000x128 .f32 :=
  View.canon [⟨r3_0, k3_pay1 (k3_pay2 (View.ld x0 r3_0) (View.ld x1 r3_1) (View.ld x2 r3_1) (View.ld x3 r3_1) (View.ld x4 r3_1)) (k3_pay3 (View.ld x0 r3_0) (View.ld x1 r3_1) (View.ld x2 r3_1) (View.ld x3 r3_1) (View.ld x4 r3_1) (View.ld x5 r3_2) (View.ld x6 r3_3) (View.ld x7 r3_4) (View.ld x8 r3_1))⟩]

/-- The one store is of the whole buffer, so it covers it. -/
theorem cover3_9 (p0 : Vec F S1000x128 .f32) (y : S1000x128.Idx) :
    ∃ pc ∈ ([⟨r3_0, p0⟩] : List (View.Piece (Elt F) S1000x128 .f32)), y ∈ pc.1.set :=
  View.cover_of_tiled [⟨r3_0, p0⟩] S1000x128.size (by rfl) y

/-! ## The body's triple -/

set_option maxHeartbeats 4000000 in
/-- The kernel body on whole staging memrefs, the inputs' at read contents `xW` and the output's at anything, runs to
    the continuation holding the inputs' as they were and the output's at `out3_9` of the inputs'. -/
theorem sound_kernel3 (c : Dev nD) (E : Set ℕ) (i : grid3.Coords) (arg1 : Memref sig .tc .vmem S1000x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x256 .f32) (harg6 : arg6.IsWhole) (arg7 : Memref sig .tc .vmem S256 .f32) (harg7 : arg7.IsWhole) (arg8 : Memref sig .tc .vmem S256x128 .f32) (harg8 : arg8.IsWhole) (arg9 : Memref sig .tc .vmem S128 .f32) (harg9 : arg9.IsWhole) (arg10 : Memref sig .tc .vmem S1000x128 .f32) (harg10 : arg10.IsWhole)
    (x0 : Vec F S1000x128 .f32) (x1 : Vec F S128 .f32) (x2 : Vec F S128 .f32) (x3 : Vec F S128 .f32) (x4 : Vec F S128 .f32) (x5 : Vec F S128x256 .f32) (x6 : Vec F S256 .f32) (x7 : Vec F S256x128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 x0 x1 x2 x3 x4 x5 x6 x7 x8)) -∗ K ⟨⟩))
      ⊢ wp frame (wpE (defs₀ (F := F)) Variants.none c none) E (cc3__bn1_ffn_kernel i arg1 harg1 arg2 harg2 arg3 harg3 arg4 harg4 arg5 harg5 arg6 harg6 arg7 harg7 arg8 harg8 arg9 harg9 arg10 harg10) K := by
  simp only [cc3__bn1_ffn_kernel_eq_skeleton]; unfold cc3__bn1_ffn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3_9 _)

/-! ## The pipeline's proof data -/

/-- The proof data of the region's pipeline on core `c`: the arrays as the region finds them (`V`); after the body at
    point `t` each input's buffer at its block and the output's at `out3_9` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Hand

end
-- ==== Proof.KI.Reg4.lean ====
/- Region 4 (the second batch normalisation) of the graph-transformer layer, at any float family F: the windows'
   blocks, what the body leaves in the output window's buffer, the body's triple, the pipeline's proof data at
   the buffer contents V the region is entered with, and the body obligation at every grid point. -/
import proofs.«420532_j35407710388433_1_alg».proof.Proof.Gen.KernelIdeal.Launch
import proofs.«420532_j35407710388433_1_alg».proof.Proof.Gen.KernelIdeal.Skeleton
import proofs.«420532_j35407710388433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window w's block at point t, read off its array as the region finds it (V). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the rows to normalise, one block of 1000 rows per point): its current staging buffer holds its
    block at every point, for any proof data whose array is V's and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the column means, the whole vector at every point: a constant index map), likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (the column variances, whole), likewise. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3 (the scale, whole), likewise. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4 (the shift, whole), likewise. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 1000 x 128 buffer, -/
abbrev r4_0 : Rect S1000x128 := Rect.unit (s := S1000x128) ![0, 0] S1000x128.size inb_S1000x128_S1000x128_0_0
/-- and the whole 128-vector. -/
abbrev r4_1 : Rect S128 := Rect.unit (s := S128) ![0] S128.size inb_S128_S128_0

/-! ## What the body leaves in the output window's buffer -/

/-- Window 5's staging buffer after the body, from the input windows' blocks: its one store as a piece. -/
def out4_5 (x0 : Vec F S1000x128 .f32) (x1 x2 x3 x4 : Vec F S128 .f32) : Vec F S1000x128 .f32 :=
  View.canon [⟨r4_0, k4_pay1 (View.ld x0 r4_0) (View.ld x1 r4_1) (View.ld x2 r4_1) (View.ld x3 r4_1) (View.ld x4 r4_1)⟩]

/-- The one store is of the whole buffer, so it covers it. -/
theorem cover4_5 (p0 : Vec F S1000x128 .f32) (y : S1000x128.Idx) :
    ∃ pc ∈ ([⟨r4_0, p0⟩] : List (View.Piece (Elt F) S1000x128 .f32)), y ∈ pc.1.set :=
  View.cover_of_tiled [⟨r4_0, p0⟩] S1000x128.size (by rfl) y

/-! ## The body's triple -/

set_option maxHeartbeats 1000000 in
/-- The kernel body on whole staging memrefs, the inputs' at read contents and the output's at anything, runs to
    the continuation holding the inputs' as they were and the output's at out4_5 of the inputs'. -/
theorem sound_kernel4 (c : Dev nD) (E : Set ℕ) (i : grid4.Coords)
    (arg1 : Memref sig .tc .vmem S1000x128 .f32) (harg1 : arg1.IsWhole) (arg2 : Memref sig .tc .vmem S128 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S1000x128 .f32) (harg6 : arg6.IsWhole)
    (x0 : Vec F S1000x128 .f32) (x1 x2 x3 x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__bn2_kernel i arg1 harg1 arg2 harg2 arg3 harg3 arg4 harg4 arg5 harg5 arg6 harg6) K := by
  simp only [cc4__bn2_kernel_eq_skeleton]; unfold cc4__bn2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core c: the arrays as the region finds them (V); after the body at point t
    each input's buffer at its block and the output's at out4_5 of the input blocks; the scoped rest and the
    generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t
    = out4_5 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so sound_kernel4 applies; the invariant and the
    core's owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KI.Run.lean ====
import proofs.«420532_j35407710388433_1_alg».proof.Proof.Gen.KernelIdeal.Launch
import proofs.«420532_j35407710388433_1_alg».proof.Proof.Gen.KernelIdeal.Skeleton
import proofs.«420532_j35407710388433_1_alg».proof.Proof.Gen.KernelIdeal.Points
import proofs.«420532_j35407710388433_1_alg».proof.Proof.Gen.KernelIdeal.Regions
import proofs.«420532_j35407710388433_1_alg».proof.Proof.KI.Reg0
import proofs.«420532_j35407710388433_1_alg».proof.Proof.KI.Reg1
import proofs.«420532_j35407710388433_1_alg».proof.Proof.KI.Reg2
import proofs.«420532_j35407710388433_1_alg».proof.Proof.KI.Reg3
import proofs.«420532_j35407710388433_1_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Tactic

/-! # The run of @main: thirteen items from the launch to the return

@main is eight stretches of host operations and five kernel regions. The contents of a core's buffers at each of
the fourteen boundaries between items are a fold from the launch memory: a host stretch maps them by its
operations' results; a region leaves its arrays at what its write-backs fold to and every other buffer as entered.
Over the thread state "every unscoped buffer at the boundary's contents, the generator register at some state,
nothing owed" each item is a segment, the segments chain, and the run ends with every unscoped buffer at the fold's
last valuation; no item writes an argument, so each argument's buffer ends as launched. -/

-- decided memberships among 185 references recurse past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- A reference `hostOps0` does not write holds after it what it held before. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered: no write-back touches it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- A reference `hostOps1` does not write holds after it what it held before. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- After `hostOps1_1`. -/
abbrev W4 : Dev nD → Valuation τ sig (Elt F) := fun c => StableHlo.after hostOps1_1 (W3 m ρ c)
/-- The same read at the TensorCore's references. -/
abbrev V4 : (c : Dev nD) → (b : Ref sig .tc) → Buf (Elt F) ((c : Thread nD τ).loc b) := fun c b => W4 m ρ c b
/-- A reference `hostOps1_1` does not write holds after it what it held before. -/
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h

/-- After `hostOps1_2`. -/
abbrev W5 : Dev nD → Valuation τ sig (Elt F) := fun c => StableHlo.after hostOps1_2 (W4 m ρ c)
/-- The same read at the TensorCore's references. -/
abbrev V5 : (c : Dev nD) → (b : Ref sig .tc) → Buf (Elt F) ((c : Thread nD τ).loc b) := fun c b => W5 m ρ c b
/-- A reference `hostOps1_2` does not write holds after it what it held before. -/
theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h

/-- After `hostOps1_3`. -/
abbrev W6 : Dev nD → Valuation τ sig (Elt F) := fun c => StableHlo.after hostOps1_3 (W5 m ρ c)
/-- The same read at the TensorCore's references. -/
abbrev V6 : (c : Dev nD) → (b : Ref sig .tc) → Buf (Elt F) ((c : Thread nD τ).loc b) := fun c b => W6 m ρ c b
/-- A reference `hostOps1_3` does not write holds after it what it held before. -/
theorem W6_of (c : Dev nD) (r : Ref sig .tc) (h : r ∉ hostOps1_3_W) :
    W6 m ρ c (Proc.devRef .tc r) = W5 m ρ c (Proc.devRef .tc r) :=
  StableHlo.after_of_writes_sub hostOps1_3 _ hostOps1_3_writes h

/-- At region 1's exit: its arrays at what the pipeline leaves (the inputs as entered, each output's write-backs
    folded), every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- An input window's array leaves the region as it entered: no write-back touches it. -/
theorem W7_in (c : Dev nD) (w : Fin cfg1.W) (hin : (cfg1.win w).isOut = false) :
    W7 m ρ c (Proc.devRef .tc (Pipeline.arrRef spec1 w)) = W6 m ρ c (Proc.devRef .tc (Pipeline.arrRef spec1 w)) :=
  (W7_arr m ρ c w).trans (((dat1 (V6 m ρ) c).arrAt_in w hin _).trans (A_eq1 (V6 m ρ) c w))
/-- The same read at the TensorCore's references (region 1's exit contents). -/
abbrev V7 : (c : Dev nD) → (b : Ref sig .tc) → Buf (Elt F) ((c : Thread nD τ).loc b) := fun c b => W7 m ρ c b
/-- At region 1's exit each of its arrays holds what the pipeline leaves (`hF1`) and every other buffer what it
    held at entry (`hrest1`). -/
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After `hostOps2`. -/
abbrev W8 : Dev nD → Valuation τ sig (Elt F) := fun c => StableHlo.after hostOps2 (W7 m ρ c)
/-- The same read at the TensorCore's references. -/
abbrev V8 : (c : Dev nD) → (b : Ref sig .tc) → Buf (Elt F) ((c : Thread nD τ).loc b) := fun c b => W8 m ρ c b
/-- A reference `hostOps2` does not write holds after it what it held before. -/
theorem W8_of (c : Dev nD) (r : Ref sig .tc) (h : r ∉ hostOps2_W) :
    W8 m ρ c (Proc.devRef .tc r) = W7 m ρ c (Proc.devRef .tc r) :=
  StableHlo.after_of_writes_sub hostOps2 _ hostOps2_writes h

/-- At region 2's exit: its arrays at what the pipeline leaves (the inputs as entered, each output's write-backs
    folded), every other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
/-- An input window's array leaves the region as it entered: no write-back touches it. -/
theorem W9_in (c : Dev nD) (w : Fin cfg2.W) (hin : (cfg2.win w).isOut = false) :
    W9 m ρ c (Proc.devRef .tc (Pipeline.arrRef spec2 w)) = W8 m ρ c (Proc.devRef .tc (Pipeline.arrRef spec2 w)) :=
  (W9_arr m ρ c w).trans (((dat2 (V8 m ρ) c).arrAt_in w hin _).trans (A_eq2 (V8 m ρ) c w))
/-- The same read at the TensorCore's references (region 2's exit contents). -/
abbrev V9 : (c : Dev nD) → (b : Ref sig .tc) → Buf (Elt F) ((c : Thread nD τ).loc b) := fun c b => W9 m ρ c b
/-- At region 2's exit each of its arrays holds what the pipeline leaves (`hF2`) and every other buffer what it
    held at entry (`hrest2`). -/
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After `hostOps3`. -/
abbrev W10 : Dev nD → Valuation τ sig (Elt F) := fun c => StableHlo.after hostOps3 (W9 m ρ c)
/-- The same read at the TensorCore's references. -/
abbrev V10 : (c : Dev nD) → (b : Ref sig .tc) → Buf (Elt F) ((c : Thread nD τ).loc b) := fun c b => W10 m ρ c b
/-- A reference `hostOps3` does not write holds after it what it held before. -/
theorem W10_of (c : Dev nD) (r : Ref sig .tc) (h : r ∉ hostOps3_W) :
    W10 m ρ c (Proc.devRef .tc r) = W9 m ρ c (Proc.devRef .tc r) :=
  StableHlo.after_of_writes_sub hostOps3 _ hostOps3_writes h

/-- At region 3's exit: its arrays at what the pipeline leaves (the inputs as entered, each output's write-backs
    folded), every other buffer as entered. -/
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
/-- An input window's array leaves the region as it entered: no write-back touches it. -/
theorem W11_in (c : Dev nD) (w : Fin cfg3.W) (hin : (cfg3.win w).isOut = false) :
    W11 m ρ c (Proc.devRef .tc (Pipeline.arrRef spec3 w)) = W10 m ρ c (Proc.devRef .tc (Pipeline.arrRef spec3 w)) :=
  (W11_arr m ρ c w).trans (((dat3 (V10 m ρ) c).arrAt_in w hin _).trans (A_eq3 (V10 m ρ) c w))
/-- The same read at the TensorCore's references (region 3's exit contents). -/
abbrev V11 : (c : Dev nD) → (b : Ref sig .tc) → Buf (Elt F) ((c : Thread nD τ).loc b) := fun c b => W11 m ρ c b
/-- At region 3's exit each of its arrays holds what the pipeline leaves (`hF3`) and every other buffer what it
    held at entry (`hrest3`). -/
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)

/-- After `hostOps4`. -/
abbrev W12 : Dev nD → Valuation τ sig (Elt F) := fun c => StableHlo.after hostOps4 (W11 m ρ c)
/-- The same read at the TensorCore's references. -/
abbrev V12 : (c : Dev nD) → (b : Ref sig .tc) → Buf (Elt F) ((c : Thread nD τ).loc b) := fun c b => W12 m ρ c b
/-- A reference `hostOps4` does not write holds after it what it held before. -/
theorem W12_of (c : Dev nD) (r : Ref sig .tc) (h : r ∉ hostOps4_W) :
    W12 m ρ c (Proc.devRef .tc r) = W11 m ρ c (Proc.devRef .tc r) :=
  StableHlo.after_of_writes_sub hostOps4 _ hostOps4_writes h

/-- At region 4's exit: its arrays at what the pipeline leaves (the inputs as entered, each output's write-backs
    folded), every other buffer as entered. -/
def W13 (c : Dev nD) : Valuation τ sig (Elt F) :=
  Pipeline.withArrays spec4 c (W12 m ρ c) fun w => (dat4 (V12 m ρ) c).arrAt w cfg4.N
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
/-- An input window's array leaves the region as it entered: no write-back touches it. -/
theorem W13_in (c : Dev nD) (w : Fin cfg4.W) (hin : (cfg4.win w).isOut = false) :
    W13 m ρ c (Proc.devRef .tc (Pipeline.arrRef spec4 w)) = W12 m ρ c (Proc.devRef .tc (Pipeline.arrRef spec4 w)) :=
  (W13_arr m ρ c w).trans (((dat4 (V12 m ρ) c).arrAt_in w hin _).trans (A_eq4 (V12 m ρ) c w))
/-- The same read at the TensorCore's references (region 4's exit contents). -/
abbrev V13 : (c : Dev nD) → (b : Ref sig .tc) → Buf (Elt F) ((c : Thread nD τ).loc b) := fun c b => W13 m ρ c b
/-- At region 4's exit each of its arrays holds what the pipeline leaves (`hF4`) and every other buffer what it
    held at entry (`hrest4`). -/
theorem hF4 (c : Dev nD) (w : Fin cfg4.W) : (dat4 (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)

/-! ### The arguments end as launched: no host operation writes one, and a region reads one through an input
    window or bypasses it, so the fold at an argument's buffer walks back to the launch memory -/

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_of_ne m ρ c main_arg0 (by decide)
    _ = W11 m ρ c (Proc.devRef .tc main_arg0) := W12_of m ρ c main_arg0 (by decide)
    _ = W10 m ρ c (Proc.devRef .tc main_arg0) := W11_of_ne m ρ c main_arg0 (by decide)
    _ = W9 m ρ c (Proc.devRef .tc main_arg0) := W10_of m ρ c main_arg0 (by decide)
    _ = W8 m ρ c (Proc.devRef .tc main_arg0) := W9_in m ρ c 0 rfl
    _ = W7 m ρ c (Proc.devRef .tc main_arg0) := W8_of m ρ c main_arg0 (by decide)
    _ = W6 m ρ c (Proc.devRef .tc main_arg0) := W7_of_ne m ρ c main_arg0 (by decide)
    _ = W5 m ρ c (Proc.devRef .tc main_arg0) := W6_of m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl

theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := W13_of_ne m ρ c main_arg1 (by decide)
    _ = W11 m ρ c (Proc.devRef .tc main_arg1) := W12_of m ρ c main_arg1 (by decide)
    _ = W10 m ρ c (Proc.devRef .tc main_arg1) := W11_of_ne m ρ c main_arg1 (by decide)
    _ = W9 m ρ c (Proc.devRef .tc main_arg1) := W10_of m ρ c main_arg1 (by decide)
    _ = W8 m ρ c (Proc.devRef .tc main_arg1) := W9_of_ne m ρ c main_arg1 (by decide)
    _ = W7 m ρ c (Proc.devRef .tc main_arg1) := W8_of m ρ c main_arg1 (by decide)
    _ = W6 m ρ c (Proc.devRef .tc main_arg1) := W7_of_ne m ρ c main_arg1 (by decide)
    _ = W5 m ρ c (Proc.devRef .tc main_arg1) := W6_of m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := W13_of_ne m ρ c main_arg2 (by decide)
    _ = W11 m ρ c (Proc.devRef .tc main_arg2) := W12_of m ρ c main_arg2 (by decide)
    _ = W10 m ρ c (Proc.devRef .tc main_arg2) := W11_of_ne m ρ c main_arg2 (by decide)
    _ = W9 m ρ c (Proc.devRef .tc main_arg2) := W10_of m ρ c main_arg2 (by decide)
    _ = W8 m ρ c (Proc.devRef .tc main_arg2) := W9_of_ne m ρ c main_arg2 (by decide)
    _ = W7 m ρ c (Proc.devRef .tc main_arg2) := W8_of m ρ c main_arg2 (by decide)
    _ = W6 m ρ c (Proc.devRef .tc main_arg2) := W7_of_ne m ρ c main_arg2 (by decide)
    _ = W5 m ρ c (Proc.devRef .tc main_arg2) := W6_of m ρ c main_arg2 (by decide)
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := W13_of_ne m ρ c main_arg3 (by decide)
    _ = W11 m ρ c (Proc.devRef .tc main_arg3) := W12_of m ρ c main_arg3 (by decide)
    _ = W10 m ρ c (Proc.devRef .tc main_arg3) := W11_of_ne m ρ c main_arg3 (by decide)
    _ = W9 m ρ c (Proc.devRef .tc main_arg3) := W10_of m ρ c main_arg3 (by decide)
    _ = W8 m ρ c (Proc.devRef .tc main_arg3) := W9_of_ne m ρ c main_arg3 (by decide)
    _ = W7 m ρ c (Proc.devRef .tc main_arg3) := W8_of m ρ c main_arg3 (by decide)
    _ = W6 m ρ c (Proc.devRef .tc main_arg3) := W7_of_ne m ρ c main_arg3 (by decide)
    _ = W5 m ρ c (Proc.devRef .tc main_arg3) := W6_of m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := W13_of_ne m ρ c main_arg4 (by decide)
    _ = W11 m ρ c (Proc.devRef .tc main_arg4) := W12_of m ρ c main_arg4 (by decide)
    _ = W10 m ρ c (Proc.devRef .tc main_arg4) := W11_of_ne m ρ c main_arg4 (by decide)
    _ = W9 m ρ c (Proc.devRef .tc main_arg4) := W10_of m ρ c main_arg4 (by decide)
    _ = W8 m ρ c (Proc.devRef .tc main_arg4) := W9_of_ne m ρ c main_arg4 (by decide)
    _ = W7 m ρ c (Proc.devRef .tc main_arg4) := W8_of m ρ c main_arg4 (by decide)
    _ = W6 m ρ c (Proc.devRef .tc main_arg4) := W7_of_ne m ρ c main_arg4 (by decide)
    _ = W5 m ρ c (Proc.devRef .tc main_arg4) := W6_of m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := W13_of_ne m ρ c main_arg5 (by decide)
    _ = W11 m ρ c (Proc.devRef .tc main_arg5) := W12_of m ρ c main_arg5 (by decide)
    _ = W10 m ρ c (Proc.devRef .tc main_arg5) := W11_of_ne m ρ c main_arg5 (by decide)
    _ = W9 m ρ c (Proc.devRef .tc main_arg5) := W10_of m ρ c main_arg5 (by decide)
    _ = W8 m ρ c (Proc.devRef .tc main_arg5) := W9_of_ne m ρ c main_arg5 (by decide)
    _ = W7 m ρ c (Proc.devRef .tc main_arg5) := W8_of m ρ c main_arg5 (by decide)
    _ = W6 m ρ c (Proc.devRef .tc main_arg5) := W7_of_ne m ρ c main_arg5 (by decide)
    _ = W5 m ρ c (Proc.devRef .tc main_arg5) := W6_of m ρ c main_arg5 (by decide)
    _ = W4 m ρ c (Proc.devRef .tc main_arg5) := W5_of m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W13_main_arg6 (c : Dev nD) : W13 m ρ c (Proc.devRef .tc main_arg6) = m ((c : Thread nD τ).loc main_arg6) :=
  calc W13 m ρ c (Proc.devRef .tc main_arg6)
    _ = W12 m ρ c (Proc.devRef .tc main_arg6) := W13_of_ne m ρ c main_arg6 (by decide)
    _ = W11 m ρ c (Proc.devRef .tc main_arg6) := W12_of m ρ c main_arg6 (by decide)
    _ = W10 m ρ c (Proc.devRef .tc main_arg6) := W11_of_ne m ρ c main_arg6 (by decide)
    _ = W9 m ρ c (Proc.devRef .tc main_arg6) := W10_of m ρ c main_arg6 (by decide)
    _ = W8 m ρ c (Proc.devRef .tc main_arg6) := W9_of_ne m ρ c main_arg6 (by decide)
    _ = W7 m ρ c (Proc.devRef .tc main_arg6) := W8_of m ρ c main_arg6 (by decide)
    _ = W6 m ρ c (Proc.devRef .tc main_arg6) := W7_of_ne m ρ c main_arg6 (by decide)
    _ = W5 m ρ c (Proc.devRef .tc main_arg6) := W6_of m ρ c main_arg6 (by decide)
    _ = W4 m ρ c (Proc.devRef .tc main_arg6) := W5_of m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W13_main_arg7 (c : Dev nD) : W13 m ρ c (Proc.devRef .tc main_arg7) = m ((c : Thread nD τ).loc main_arg7) :=
  calc W13 m ρ c (Proc.devRef .tc main_arg7)
    _ = W12 m ρ c (Proc.devRef .tc main_arg7) := W13_of_ne m ρ c main_arg7 (by decide)
    _ = W11 m ρ c (Proc.devRef .tc main_arg7) := W12_of m ρ c main_arg7 (by decide)
    _ = W10 m ρ c (Proc.devRef .tc main_arg7) := W11_of_ne m ρ c main_arg7 (by decide)
    _ = W9 m ρ c (Proc.devRef .tc main_arg7) := W10_of m ρ c main_arg7 (by decide)
    _ = W8 m ρ c (Proc.devRef .tc main_arg7) := W9_in m ρ c 3 rfl
    _ = W7 m ρ c (Proc.devRef .tc main_arg7) := W8_of m ρ c main_arg7 (by decide)
    _ = W6 m ρ c (Proc.devRef .tc main_arg7) := W7_of_ne m ρ c main_arg7 (by decide)
    _ = W5 m ρ c (Proc.devRef .tc main_arg7) := W6_of m ρ c main_arg7 (by decide)
    _ = W4 m ρ c (Proc.devRef .tc main_arg7) := W5_of m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W13_main_arg8 (c : Dev nD) : W13 m ρ c (Proc.devRef .tc main_arg8) = m ((c : Thread nD τ).loc main_arg8) :=
  calc W13 m ρ c (Proc.devRef .tc main_arg8)
    _ = W12 m ρ c (Proc.devRef .tc main_arg8) := W13_of_ne m ρ c main_arg8 (by decide)
    _ = W11 m ρ c (Proc.devRef .tc main_arg8) := W12_of m ρ c main_arg8 (by decide)
    _ = W10 m ρ c (Proc.devRef .tc main_arg8) := W11_of_ne m ρ c main_arg8 (by decide)
    _ = W9 m ρ c (Proc.devRef .tc main_arg8) := W10_of m ρ c main_arg8 (by decide)
    _ = W8 m ρ c (Proc.devRef .tc main_arg8) := W9_of_ne m ρ c main_arg8 (by decide)
    _ = W7 m ρ c (Proc.devRef .tc main_arg8) := W8_of m ρ c main_arg8 (by decide)
    _ = W6 m ρ c (Proc.devRef .tc main_arg8) := W7_of_ne m ρ c main_arg8 (by decide)
    _ = W5 m ρ c (Proc.devRef .tc main_arg8) := W6_of m ρ c main_arg8 (by decide)
    _ = W4 m ρ c (Proc.devRef .tc main_arg8) := W5_of m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

theorem W13_main_arg9 (c : Dev nD) : W13 m ρ c (Proc.devRef .tc main_arg9) = m ((c : Thread nD τ).loc main_arg9) :=
  calc W13 m ρ c (Proc.devRef .tc main_arg9)
    _ = W12 m ρ c (Proc.devRef .tc main_arg9) := W13_of_ne m ρ c main_arg9 (by decide)
    _ = W11 m ρ c (Proc.devRef .tc main_arg9) := W12_of m ρ c main_arg9 (by decide)
    _ = W10 m ρ c (Proc.devRef .tc main_arg9) := W11_in m ρ c 6 rfl
    _ = W9 m ρ c (Proc.devRef .tc main_arg9) := W10_of m ρ c main_arg9 (by decide)
    _ = W8 m ρ c (Proc.devRef .tc main_arg9) := W9_of_ne m ρ c main_arg9 (by decide)
    _ = W7 m ρ c (Proc.devRef .tc main_arg9) := W8_of m ρ c main_arg9 (by decide)
    _ = W6 m ρ c (Proc.devRef .tc main_arg9) := W7_of_ne m ρ c main_arg9 (by decide)
    _ = W5 m ρ c (Proc.devRef .tc main_arg9) := W6_of m ρ c main_arg9 (by decide)
    _ = W4 m ρ c (Proc.devRef .tc main_arg9) := W5_of m ρ c main_arg9 (by decide)
    _ = W3 m ρ c (Proc.devRef .tc main_arg9) := W4_of m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

theorem W13_main_arg10 (c : Dev nD) : W13 m ρ c (Proc.devRef .tc main_arg10) = m ((c : Thread nD τ).loc main_arg10) :=
  calc W13 m ρ c (Proc.devRef .tc main_arg10)
    _ = W12 m ρ c (Proc.devRef .tc main_arg10) := W13_of_ne m ρ c main_arg10 (by decide)
    _ = W11 m ρ c (Proc.devRef .tc main_arg10) := W12_of m ρ c main_arg10 (by decide)
    _ = W10 m ρ c (Proc.devRef .tc main_arg10) := W11_of_ne m ρ c main_arg10 (by decide)
    _ = W9 m ρ c (Proc.devRef .tc main_arg10) := W10_of m ρ c main_arg10 (by decide)
    _ = W8 m ρ c (Proc.devRef .tc main_arg10) := W9_of_ne m ρ c main_arg10 (by decide)
    _ = W7 m ρ c (Proc.devRef .tc main_arg10) := W8_of m ρ c main_arg10 (by decide)
    _ = W6 m ρ c (Proc.devRef .tc main_arg10) := W7_of_ne m ρ c main_arg10 (by decide)
    _ = W5 m ρ c (Proc.devRef .tc main_arg10) := W6_of m ρ c main_arg10 (by decide)
    _ = W4 m ρ c (Proc.devRef .tc main_arg10) := W5_of m ρ c main_arg10 (by decide)
    _ = W3 m ρ c (Proc.devRef .tc main_arg10) := W4_of m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

theorem W13_main_arg11 (c : Dev nD) : W13 m ρ c (Proc.devRef .tc main_arg11) = m ((c : Thread nD τ).loc main_arg11) :=
  calc W13 m ρ c (Proc.devRef .tc main_arg11)
    _ = W12 m ρ c (Proc.devRef .tc main_arg11) := W13_of_ne m ρ c main_arg11 (by decide)
    _ = W11 m ρ c (Proc.devRef .tc main_arg11) := W12_of m ρ c main_arg11 (by decide)
    _ = W10 m ρ c (Proc.devRef .tc main_arg11) := W11_in m ρ c 8 rfl
    _ = W9 m ρ c (Proc.devRef .tc main_arg11) := W10_of m ρ c main_arg11 (by decide)
    _ = W8 m ρ c (Proc.devRef .tc main_arg11) := W9_of_ne m ρ c main_arg11 (by decide)
    _ = W7 m ρ c (Proc.devRef .tc main_arg11) := W8_of m ρ c main_arg11 (by decide)
    _ = W6 m ρ c (Proc.devRef .tc main_arg11) := W7_of_ne m ρ c main_arg11 (by decide)
    _ = W5 m ρ c (Proc.devRef .tc main_arg11) := W6_of m ρ c main_arg11 (by decide)
    _ = W4 m ρ c (Proc.devRef .tc main_arg11) := W5_of m ρ c main_arg11 (by decide)
    _ = W3 m ρ c (Proc.devRef .tc main_arg11) := W4_of m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

theorem W13_main_arg12 (c : Dev nD) : W13 m ρ c (Proc.devRef .tc main_arg12) = m ((c : Thread nD τ).loc main_arg12) :=
  calc W13 m ρ c (Proc.devRef .tc main_arg12)
    _ = W12 m ρ c (Proc.devRef .tc main_arg12) := W13_of_ne m ρ c main_arg12 (by decide)
    _ = W11 m ρ c (Proc.devRef .tc main_arg12) := W12_of m ρ c main_arg12 (by decide)
    _ = W10 m ρ c (Proc.devRef .tc main_arg12) := W11_in m ρ c 3 rfl
    _ = W9 m ρ c (Proc.devRef .tc main_arg12) := W10_of m ρ c main_arg12 (by decide)
    _ = W8 m ρ c (Proc.devRef .tc main_arg12) := W9_of_ne m ρ c main_arg12 (by decide)
    _ = W7 m ρ c (Proc.devRef .tc main_arg12) := W8_of m ρ c main_arg12 (by decide)
    _ = W6 m ρ c (Proc.devRef .tc main_arg12) := W7_of_ne m ρ c main_arg12 (by decide)
    _ = W5 m ρ c (Proc.devRef .tc main_arg12) := W6_of m ρ c main_arg12 (by decide)
    _ = W4 m ρ c (Proc.devRef .tc main_arg12) := W5_of m ρ c main_arg12 (by decide)
    _ = W3 m ρ c (Proc.devRef .tc main_arg12) := W4_of m ρ c main_arg12 (by decide)
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl

theorem W13_main_arg13 (c : Dev nD) : W13 m ρ c (Proc.devRef .tc main_arg13) = m ((c : Thread nD τ).loc main_arg13) :=
  calc W13 m ρ c (Proc.devRef .tc main_arg13)
    _ = W12 m ρ c (Proc.devRef .tc main_arg13) := W13_of_ne m ρ c main_arg13 (by decide)
    _ = W11 m ρ c (Proc.devRef .tc main_arg13) := W12_of m ρ c main_arg13 (by decide)
    _ = W10 m ρ c (Proc.devRef .tc main_arg13) := W11_in m ρ c 4 rfl
    _ = W9 m ρ c (Proc.devRef .tc main_arg13) := W10_of m ρ c main_arg13 (by decide)
    _ = W8 m ρ c (Proc.devRef .tc main_arg13) := W9_of_ne m ρ c main_arg13 (by decide)
    _ = W7 m ρ c (Proc.devRef .tc main_arg13) := W8_of m ρ c main_arg13 (by decide)
    _ = W6 m ρ c (Proc.devRef .tc main_arg13) := W7_of_ne m ρ c main_arg13 (by decide)
    _ = W5 m ρ c (Proc.devRef .tc main_arg13) := W6_of m ρ c main_arg13 (by decide)
    _ = W4 m ρ c (Proc.devRef .tc main_arg13) := W5_of m ρ c main_arg13 (by decide)
    _ = W3 m ρ c (Proc.devRef .tc main_arg13) := W4_of m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl

theorem W13_main_arg14 (c : Dev nD) : W13 m ρ c (Proc.devRef .tc main_arg14) = m ((c : Thread nD τ).loc main_arg14) :=
  calc W13 m ρ c (Proc.devRef .tc main_arg14)
    _ = W12 m ρ c (Proc.devRef .tc main_arg14) := W13_in m ρ c 3 rfl
    _ = W11 m ρ c (Proc.devRef .tc main_arg14) := W12_of m ρ c main_arg14 (by decide)
    _ = W10 m ρ c (Proc.devRef .tc main_arg14) := W11_of_ne m ρ c main_arg14 (by decide)
    _ = W9 m ρ c (Proc.devRef .tc main_arg14) := W10_of m ρ c main_arg14 (by decide)
    _ = W8 m ρ c (Proc.devRef .tc main_arg14) := W9_of_ne m ρ c main_arg14 (by decide)
    _ = W7 m ρ c (Proc.devRef .tc main_arg14) := W8_of m ρ c main_arg14 (by decide)
    _ = W6 m ρ c (Proc.devRef .tc main_arg14) := W7_of_ne m ρ c main_arg14 (by decide)
    _ = W5 m ρ c (Proc.devRef .tc main_arg14) := W6_of m ρ c main_arg14 (by decide)
    _ = W4 m ρ c (Proc.devRef .tc main_arg14) := W5_of m ρ c main_arg14 (by decide)
    _ = W3 m ρ c (Proc.devRef .tc main_arg14) := W4_of m ρ c main_arg14 (by decide)
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl

theorem W13_main_arg15 (c : Dev nD) : W13 m ρ c (Proc.devRef .tc main_arg15) = m ((c : Thread nD τ).loc main_arg15) :=
  calc W13 m ρ c (Proc.devRef .tc main_arg15)
    _ = W12 m ρ c (Proc.devRef .tc main_arg15) := W13_in m ρ c 4 rfl
    _ = W11 m ρ c (Proc.devRef .tc main_arg15) := W12_of m ρ c main_arg15 (by decide)
    _ = W10 m ρ c (Proc.devRef .tc main_arg15) := W11_of_ne m ρ c main_arg15 (by decide)
    _ = W9 m ρ c (Proc.devRef .tc main_arg15) := W10_of m ρ c main_arg15 (by decide)
    _ = W8 m ρ c (Proc.devRef .tc main_arg15) := W9_of_ne m ρ c main_arg15 (by decide)
    _ = W7 m ρ c (Proc.devRef .tc main_arg15) := W8_of m ρ c main_arg15 (by decide)
    _ = W6 m ρ c (Proc.devRef .tc main_arg15) := W7_of_ne m ρ c main_arg15 (by decide)
    _ = W5 m ρ c (Proc.devRef .tc main_arg15) := W6_of m ρ c main_arg15 (by decide)
    _ = W4 m ρ c (Proc.devRef .tc main_arg15) := W5_of m ρ c main_arg15 (by decide)
    _ = W3 m ρ c (Proc.devRef .tc main_arg15) := W4_of m ρ c main_arg15 (by decide)
    _ = W2 m ρ c (Proc.devRef .tc main_arg15) := W3_of m ρ c main_arg15 (by decide)
    _ = W1 m ρ c (Proc.devRef .tc main_arg15) := W2_of_ne m ρ c main_arg15 (by decide)
    _ = W0 m ρ c (Proc.devRef .tc main_arg15) := W1_of m ρ c main_arg15 (by decide)
    _ = m ((c : Thread nD τ).loc main_arg15) := rfl

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
  | ⟨2, _⟩ => fun c => dat2 (V8 m ρ) c
  | ⟨3, _⟩ => fun c => dat3 (V10 m ρ) c
  | ⟨4, _⟩ => fun c => dat4 (V12 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at the stretch's result on `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W13`, the
    generator register at some state. -/
abbrev Tₙ (c : Dev nD) : sProp 𝕄 := iprop(StableHlo.held (c : Thread nD τ) (Pipeline.ucRefs τ sig) (W13 m ρ c) ∗ ∃ r, prngReg c r)

/-! ## The regions as segments -/

-- a library lemma stated over the pinned configuration unifies with the printed one only when unification may unfold
-- plain definitions in a metavariable's type
set_option backward.isDefEq.respectTransparency.types false in
/-- REGION 0 over the thread state: entered from every unscoped buffer at `W1`, left at `W2`. Its arrays split
    out of the unscoped buffers and put back at the exit contents; the generator register into the class invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W6`, left at `W7`. Its arrays split
    out of the unscoped buffers and put back at the exit contents; the generator register into the class invariant
    and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `W8`, left at `W9`. Its arrays split
    out of the unscoped buffers and put back at the exit contents; the generator register into the class invariant
    and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 over the thread state: entered from every unscoped buffer at `W10`, left at `W11`. Its arrays split
    out of the unscoped buffers and put back at the exit contents; the generator register into the class invariant
    and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 4 over the thread state: entered from every unscoped buffer at `W12`, left at `W13`. Its arrays split
    out of the unscoped buffers and put back at the exit contents; the generator register into the class invariant
    and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's thirteen segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .region (reg1 m ρ),
    .host (hseg hostOps2 hostOps2_sub hostOps2_fresh (W7 m ρ)),
    .region (reg2 m ρ),
    .host (hseg hostOps3 hostOps3_sub hostOps3_fresh (W9 m ρ)),
    .region (reg3 m ρ),
    .host (hseg hostOps4 hostOps4_sub hostOps4_fresh (W11 m ρ)),
    .region (reg4 m ρ) ]

/-- @main IS the run of the segments: @main is the chain of its items, and the segments' run is the chain of their
    fragments, item by item the same. -/
theorem main_run (c : Dev nD) : main (F := F) c = Pipeline.Seg.run (segs m ρ) := by
  rw [main_chain c, Pipeline.Seg.run_eq_chain,
    show (segs m ρ).map Pipeline.Seg.prog = [
      StableHlo.seq hostOps0,
      Prog.lift (.customCall (Pipeline.entry 0) ()),
      StableHlo.seq hostOps1,
      StableHlo.seq hostOps1_1,
      StableHlo.seq hostOps1_2,
      StableHlo.seq hostOps1_3,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()) ] from rfl]

-- the launch kit's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at the fold's last
    valuation `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- THE FRAME: every weakly fair execution of @main terminates, nothing faulting, and every final state has the
    sixteen argument arrays as launched: each is an unscoped buffer, read at the fold's last valuation, which walks
    back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c),
     (h c _ (mem_uc main_arg12 (by decide))).trans (W13_main_arg12 m ρ c),
     (h c _ (mem_uc main_arg13 (by decide))).trans (W13_main_arg13 m ρ c),
     (h c _ (mem_uc main_arg14 (by decide))).trans (W13_main_arg14 m ρ c),
     (h c _ (mem_uc main_arg15 (by decide))).trans (W13_main_arg15 m ρ c)⟩) (run_all m ρ)

end Cert.KernelIdeal.Hand

end
-- ==== Proof.Spec.lean ====
/-
  The kernel's five regions as whole-array functions on the extended reals, index by index, over literal shapes.
  A row-blocked matrix product reads one row of its left operand and one column of its right operand; the edge
  scores are the per-head dot products (through a 0/1 grouping matrix), scaled by 1/4, clipped to [-5, 5] and
  exponentiated; batch normalisation is (x - mean) * rsqrt(var + eps) * gamma + beta, column by column.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev A2 (a b : Nat) : Type := (⟨2, ![a, b]⟩ : Shape).Idx → EReal
/-- A rank-1 array of extended reals. -/
abbrev A1 (a : Nat) : Type := (⟨1, ![a]⟩ : Shape).Idx → EReal

/-- The matrix product: entry (n, j) is the sum over k of x[n, k] * w[k, j]. -/
def mm {N K J : Nat} (x : A2 N K) (w : A2 K J) : A2 N J :=
  fun i => ∑ k : Fin K, x (ix2 (i 0) k) * w (ix2 k (i 1))

theorem mm_apply {N K J : Nat} (x : A2 N K) (w : A2 K J) (n : Fin N) (j : Fin J) :
    mm x w (ix2 n j) = ∑ k : Fin K, x (ix2 n k) * w (ix2 k j) := rfl

/-- Region 0: the fused projection, nodes by the three stacked weight matrices. -/
def G0 (x : A2 50000 128) (w : A2 128 384) : A2 50000 384 := mm x w

/-- The per-edge, per-head score: exp (clip (sum_c k[e,c] q[e,c] g[c,h] * 1/4, -5, 5)). -/
def scoreE (k q : A2 640000 128) (g : A2 128 8) : A2 640000 8 := fun i =>
  Ideal.exp (min (Ideal.ofBits .f32 0x40A00000#32) (max (Ideal.ofBits .f32 0xC0A00000#32)
    (mm (fun j => k j * q j) g i * Ideal.ofBits .f32 0x3E800000#32)))

/-- Region 1, second output: the score repeated over its head's sixteen columns (through the transposed grouping matrix). -/
def G1s (k q : A2 640000 128) (g : A2 128 8) (gt : A2 8 128) : A2 640000 128 := mm (scoreE k q g) gt

/-- Region 1, first output: the gathered value row times the repeated score. -/
def G1w (k q v : A2 640000 128) (g : A2 128 8) (gt : A2 8 128) : A2 640000 128 :=
  fun i => v i * G1s k q g gt i

/-- Region 2: the residual plus the output projection plus its bias, (x + attn·wo) + bo. -/
def G2 (x attn : A2 50000 128) (wo : A2 128 128) (bo : A1 128) : A2 50000 128 :=
  fun i => (x i + mm attn wo i) + bo (ix1 (i 1))

/-- Batch normalisation with given column statistics. -/
def bn (x : A2 50000 128) (mu var g b : A1 128) : A2 50000 128 := fun i =>
  (x i - mu (ix1 (i 1))) * Ideal.rsqrt (var (ix1 (i 1)) + Ideal.ofBits .f32 0x3727C5AC#32) * g (ix1 (i 1)) + b (ix1 (i 1))

/-- The feed-forward block: relu (h·w1 + b1)·w2 + b2. -/
def ffn (h : A2 50000 128) (w1 : A2 128 256) (b1 : A1 256) (w2 : A2 256 128) (b2 : A1 128) : A2 50000 128 := fun i =>
  mm (fun j => max (mm h w1 j + b1 (ix1 (j 1))) (Ideal.ofBits .f32 0x00000000#32)) w2 i + b2 (ix1 (i 1))

/-- Region 3: normalise, then add the feed-forward block of the normalised rows. -/
def G3 (x : A2 50000 128) (mu var g b : A1 128) (w1 : A2 128 256) (b1 : A1 256) (w2 : A2 256 128) (b2 : A1 128) :
    A2 50000 128 := fun i => bn x mu var g b i + ffn (bn x mu var g b) w1 b1 w2 b2 i

/-- Region 4: the second batch normalisation. -/
def G4 (x : A2 50000 128) (mu var g b : A1 128) : A2 50000 128 := bn x mu var g b

end Cert.Spec

end
-- ==== Proof.BridgeTerms.lean ====
/-
  The host operations of the kernel's program between its five regions, named as functions of their operands at the
  ideal instance: the stacked transposed weights, the three column slices of the fused projection, the filling row
  gather (jnp.take: a negative index wraps once, an index outside [0, 50000) reads a fill value), the segment sum
  (a scatter-add of rows into zeros), the attention quotient, and the column mean and variance over the 50000 rows.
-/
import proofs.«420532_j35407710388433_1_alg».proof.Proof.Gen.KernelIdeal
import proofs.«420532_j35407710388433_1_alg».proof.Proof.Spec

noncomputable section

namespace Cert.Bridge

open Idealize.ShloMosaic Idealize.ShloMosaic.TcCoe Cert.KernelIdeal Cert.KernelIdeal.Facts₀

/-- The 0/1 grouping matrix (column c belongs to head c / 16), as the program's dense constant. -/
def gmat : FVec Ideal S128x8 .f32 := fun i => FloatOps.ofBits .f32 (lit0 (S128x8.rowMajor i))
/-- Its transpose, as the program's second dense constant. -/
def gtmat : FVec Ideal S8x128 .f32 := fun i => FloatOps.ofBits .f32 (lit1 (S8x128.rowMajor i))

/-- A 128x128 matrix transposed. -/
def tr128 (x : FVec Ideal S128x128 .f32) : FVec Ideal S128x128 .f32 :=
  transpose S128x128 [1, 0] x transposes_S128x128_S128x128_1_0
/-- [256,128] transposed to [128,256]. -/
def trW1 (x : FVec Ideal S256x128 .f32) : FVec Ideal S128x256 .f32 :=
  transpose S128x256 [1, 0] x transposes_S256x128_S128x256_1_0
/-- [128,256] transposed to [256,128]. -/
def trW2 (x : FVec Ideal S128x256 .f32) : FVec Ideal S256x128 .f32 :=
  transpose S256x128 [1, 0] x transposes_S128x256_S256x128_1_0

/-- The three transposed projection weights side by side: columns 0-127, 128-255, 256-383. -/
def wcat (x3 x4 x5 : FVec Ideal S128x128 .f32) : FVec Ideal S128x384 .f32 :=
  concatenate S128x384 1 [⟨S128x128, tr128 x3⟩, ⟨S128x128, tr128 x4⟩, ⟨S128x128, tr128 x5⟩]
    concatenates_S128x128_S128x128_S128x128_S128x384_d1

/-- Columns 0-127 of the fused projection. -/
def slice0 (y : FVec Ideal S50000x384 .f32) : FVec Ideal S50000x128 .f32 :=
  extractStridedSlice S50000x128 ![0, 0] y slices_S50000x384_S50000x128_0_0
/-- Columns 128-255. -/
def slice1 (y : FVec Ideal S50000x384 .f32) : FVec Ideal S50000x128 .f32 :=
  extractStridedSlice S50000x128 ![0, 128] y slices_S50000x384_S50000x128_0_128
/-- Columns 256-383. -/
def slice2 (y : FVec Ideal S50000x384 .f32) : FVec Ideal S50000x128 .f32 :=
  extractStridedSlice S50000x128 ![0, 256] y slices_S50000x384_S50000x128_0_256

/-- An index vector with its negative entries wrapped once (i + 50000), as a column. -/
def wrapCol (s : IVec S640000 32) : IVec S640000x1 32 :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 50000#32))) s)

/-- The filling row gather: row s[e] of x where the wrapped index lies in [0, 49999], a fill value elsewhere. -/
def takeF (x : FVec Ideal S50000x128 .f32) (s : IVec S640000 32) : FVec Ideal S640000x128 .f32 :=
  select
    (broadcastInDim S640000x128 ![0] bcast_S640000_S640000x128_0
      (Host.reduce IntOp.andi
        (andi (cmpi .sge (wrapCol s) (broadcastInDim S640000x1 ![] bcast_S_S640000x1 (constantI S_ 32 0#32)))
          (cmpi .sle (wrapCol s)
            (broadcastInDim S640000x1 ![0, 1] bcast_S1x1_S640000x1_0_1
              (broadcastInDim S1x1 ![1] bcast_S1_S1x1_1 (constantI S1 32 49999#32)))))
        (constantI S_ 1 1#1) reducesTo_S640000x1_S640000_d1 h_S_))
    (Host.gather gather_S50000x128_S640000x1_S640000x128_1_0_n_n_0_1_1128 x (wrapCol s))
    (broadcastInDim S640000x128 ![] bcast_S_S640000x128 (constant S_ .f32 0x7FC00000#32))

/-- The segment sum: the rows of u added into zeros at the rows their ids name. -/
def segsum (d : IVec S640000 32) (u : FVec Ideal S640000x128 .f32) : FVec Ideal S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 d) u

/-- The attention output of the kernel's program: the segment sum of the weighted values over the segment sum of the
    repeated scores, from the three projections and the two index vectors. -/
def attnK (kp qp vp : FVec Ideal S50000x128 .f32) (s d : IVec S640000 32) : FVec Ideal S50000x128 .f32 :=
  Host.divf (segsum d (Cert.Spec.G1w (takeF kp s) (takeF qp d) (takeF vp s) gmat gtmat))
    (segsum d (Cert.Spec.G1s (takeF kp s) (takeF qp d) gmat gtmat))

/-- The column mean over the 50000 rows. -/
def colMean (x : FVec Ideal S50000x128 .f32) : FVec Ideal S128 .f32 :=
  Host.divf (Host.reduceAdd x (constant S_ .f32 0x00000000#32) reducesTo_S50000x128_S128_d0 h_S_)
    (broadcastInDim S128 ![] bcast_S_S128 (constant S_ .f32 0x47435000#32))

/-- A column vector repeated over the 50000 rows. -/
def rowsOf (v : FVec Ideal S128 .f32) : FVec Ideal S50000x128 .f32 :=
  broadcastInDim S50000x128 ![0, 1] bcast_S1x128_S50000x128_0_1 (broadcastInDim S1x128 ![1] bcast_S128_S1x128_1 v)

/-- The (biased) column variance over the 50000 rows, about a given column mean. -/
def colVar (x : FVec Ideal S50000x128 .f32) (mu : FVec Ideal S128 .f32) : FVec Ideal S128 .f32 :=
  Host.divf
    (Host.reduceAdd (mulf (subf x (rowsOf mu)) (subf x (rowsOf mu))) (constant S_ .f32 0x00000000#32)
      reducesTo_S50000x128_S128_d0 h_S_)
    (broadcastInDim S128 ![] bcast_S_S128 (constant S_ .f32 0x47435000#32))

end Cert.Bridge

end
-- ==== Proof.KI.HostRead.lean ====
/-
  The host stretches of the kernel's program between its regions, read at the buffers the regions take: each such
  buffer after a stretch is one named function (the stacked weights, a column slice, the filling row gather, the
  attention quotient of two segment sums, a transpose, the column mean and variance) of what the stretch found.
-/
import proofs.«420532_j35407710388433_1_alg».proof.Proof.Gen.KernelIdeal.Launch
import proofs.«420532_j35407710388433_1_alg».proof.Proof.BridgeTerms
import Idealize.ShloMosaic.Lib.StableHlo.Run

noncomputable section

namespace Cert.KernelIdeal.Hand

open Idealize.ShloMosaic Idealize.ShloMosaic.TcCoe Idealize.ShloMosaic.StableHlo Cert.KernelIdeal Cert.KernelIdeal.Gen Cert.Bridge

variable (W : Valuation τ sig (Elt Ideal))

/-! ### Before region 0: the two grouping constants and the stacked transposed weights -/

theorem read0_cst : after hostOps0 W (Proc.devRef .tc main_cst) = gmat := by
  after_results; rfl
theorem read0_cst_0 : after hostOps0 W (Proc.devRef .tc main_cst_0) = gtmat := by
  after_results; rfl
theorem read0_v3 : after hostOps0 W (Proc.devRef .tc main_v3)
    = wcat (W (Proc.devRef .tc main_arg3)) (W (Proc.devRef .tc main_arg4)) (W (Proc.devRef .tc main_arg5)) := by
  after_results; rfl

/-! ### After region 0: the three column slices -/

theorem read1_v5 : after hostOps1 W (Proc.devRef .tc main_v5) = slice0 (W (Proc.devRef .tc main_v4)) := by
  after_results; rfl
theorem read1_v6 : after hostOps1 W (Proc.devRef .tc main_v6) = slice1 (W (Proc.devRef .tc main_v4)) := by
  after_results; rfl
theorem read1_v7 : after hostOps1 W (Proc.devRef .tc main_v7) = slice2 (W (Proc.devRef .tc main_v4)) := by
  after_results; rfl

/-! ### The three filling gathers -/

theorem read11_v8 : after hostOps1_1 W (Proc.devRef .tc main_v8)
    = takeF (W (Proc.devRef .tc main_v6)) (W (Proc.devRef .tc main_arg1)) := by
  after_results_simp
  simp only [TRef.ofBuf, TRef.toBuf, cast_eq]
  rfl
theorem read12_v9 : after hostOps1_2 W (Proc.devRef .tc main_v9)
    = takeF (W (Proc.devRef .tc main_v5)) (W (Proc.devRef .tc main_arg2)) := by
  after_results_simp
  simp only [TRef.ofBuf, TRef.toBuf, cast_eq]
  rfl
theorem read13_v10 : after hostOps1_3 W (Proc.devRef .tc main_v10)
    = takeF (W (Proc.devRef .tc main_v7)) (W (Proc.devRef .tc main_arg1)) := by
  after_results_simp
  simp only [TRef.ofBuf, TRef.toBuf, cast_eq]
  rfl

/-! ### After region 1: the attention quotient and the transposed output weights -/

theorem read2_v18 : after hostOps2 W (Proc.devRef .tc main_v18)
    = Host.divf (segsum (W (Proc.devRef .tc main_arg2)) (W (Proc.devRef .tc main_v11_0)))
        (segsum (W (Proc.devRef .tc main_arg2)) (W (Proc.devRef .tc main_v11_1))) := by
  after_results; rfl
theorem read2_v19 : after hostOps2 W (Proc.devRef .tc main_v19) = tr128 (W (Proc.devRef .tc main_arg6)) := by
  after_results; rfl

/-! ### After region 2: the first column statistics and the transposed feed-forward weights -/

theorem read3_v23 : after hostOps3 W (Proc.devRef .tc main_v23) = colMean (W (Proc.devRef .tc main_v20)) := by
  after_results; rfl
theorem read3_v30 : after hostOps3 W (Proc.devRef .tc main_v30)
    = colVar (W (Proc.devRef .tc main_v20)) (colMean (W (Proc.devRef .tc main_v20))) := by
  after_results; rfl
theorem read3_v31 : after hostOps3 W (Proc.devRef .tc main_v31) = trW1 (W (Proc.devRef .tc main_arg8)) := by
  after_results; rfl
theorem read3_v32 : after hostOps3 W (Proc.devRef .tc main_v32) = trW2 (W (Proc.devRef .tc main_arg10)) := by
  after_results; rfl

/-! ### After region 3: the second column statistics -/

theorem read4_v36 : after hostOps4 W (Proc.devRef .tc main_v36) = colMean (W (Proc.devRef .tc main_v33)) := by
  after_results; rfl
theorem read4_v43 : after hostOps4 W (Proc.devRef .tc main_v43)
    = colVar (W (Proc.devRef .tc main_v33)) (colMean (W (Proc.devRef .tc main_v33))) := by
  after_results; rfl

end Cert.KernelIdeal.Hand

end
-- ==== Proof.BridgeChainTerms.lean ====
/-
  The kernel program's result as one closed term of its sixteen arguments: the fused projection, the attention
  quotient, the residual after the output projection, the residual after the first normalisation and the feed-forward
  block, and the second normalisation, each from the one before and the column statistics.
-/
import proofs.«420532_j35407710388433_1_alg».proof.Proof.BridgeTerms

noncomputable section

namespace Cert.Bridge

open Idealize.ShloMosaic Cert.KernelIdeal Cert.Spec

/-- The fused projection of the nodes by the three stacked transposed weights. -/
def qkvT (x0 : FVec Ideal S50000x128 .f32) (x3 x4 x5 : FVec Ideal S128x128 .f32) : FVec Ideal S50000x384 .f32 :=
  G0 x0 (wcat x3 x4 x5)

/-- The attention output from the sliced projections and the two index vectors. -/
def attnT (x0 : FVec Ideal S50000x128 .f32) (x1 x2 : IVec S640000 32) (x3 x4 x5 : FVec Ideal S128x128 .f32) :
    FVec Ideal S50000x128 .f32 :=
  attnK (slice1 (qkvT x0 x3 x4 x5)) (slice0 (qkvT x0 x3 x4 x5)) (slice2 (qkvT x0 x3 x4 x5)) x1 x2

/-- The residual stream after the output projection. -/
def h1T (x0 : FVec Ideal S50000x128 .f32) (x1 x2 : IVec S640000 32) (x3 x4 x5 x6 : FVec Ideal S128x128 .f32)
    (x7 : FVec Ideal S128 .f32) : FVec Ideal S50000x128 .f32 :=
  G2 x0 (attnT x0 x1 x2 x3 x4 x5) (tr128 x6) x7

/-- The residual stream after the first normalisation and the feed-forward block. -/
def h2T (x0 : FVec Ideal S50000x128 .f32) (x1 x2 : IVec S640000 32) (x3 x4 x5 x6 : FVec Ideal S128x128 .f32)
    (x7 : FVec Ideal S128 .f32) (x8 : FVec Ideal S256x128 .f32) (x9 : FVec Ideal S256 .f32) (x10 : FVec Ideal S128x256 .f32)
    (x11 x12 x13 : FVec Ideal S128 .f32) : FVec Ideal S50000x128 .f32 :=
  G3 (h1T x0 x1 x2 x3 x4 x5 x6 x7) (colMean (h1T x0 x1 x2 x3 x4 x5 x6 x7))
    (colVar (h1T x0 x1 x2 x3 x4 x5 x6 x7) (colMean (h1T x0 x1 x2 x3 x4 x5 x6 x7))) x12 x13 (trW1 x8) x9 (trW2 x10) x11

/-- The kernel program's result: the second normalisation. -/
def outT (x0 : FVec Ideal S50000x128 .f32) (x1 x2 : IVec S640000 32) (x3 x4 x5 x6 : FVec Ideal S128x128 .f32)
    (x7 : FVec Ideal S128 .f32) (x8 : FVec Ideal S256x128 .f32) (x9 : FVec Ideal S256 .f32) (x10 : FVec Ideal S128x256 .f32)
    (x11 x12 x13 x14 x15 : FVec Ideal S128 .f32) : FVec Ideal S50000x128 .f32 :=
  G4 (h2T x0 x1 x2 x3 x4 x5 x6 x7 x8 x9 x10 x11 x12 x13) (colMean (h2T x0 x1 x2 x3 x4 x5 x6 x7 x8 x9 x10 x11 x12 x13))
    (colVar (h2T x0 x1 x2 x3 x4 x5 x6 x7 x8 x9 x10 x11 x12 x13) (colMean (h2T x0 x1 x2 x3 x4 x5 x6 x7 x8 x9 x10 x11 x12 x13)))
    x14 x15

end Cert.Bridge

end
-- ==== Proof.KI.Chain.lean ====
/-
  The value of the kernel's program at the ideal instance, followed through @main: each region's output array is its
  whole-array function of what the region found (the five hypotheses below, one per output window), each host stretch's
  results are the named host functions of what the stretch found, and an argument array is never written. So the last
  region leaves in the result buffer one closed term of the sixteen arguments.
-/
import proofs.«420532_j35407710388433_1_alg».proof.Proof.KI.Run
import proofs.«420532_j35407710388433_1_alg».proof.Proof.KI.HostRead
import proofs.«420532_j35407710388433_1_alg».proof.Proof.BridgeChainTerms

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen Cert.Bridge Cert.Spec

variable (m : (ℓ : Loc nD τ sig) → Buf (Elt Ideal) ℓ) (ρ : Dev nD → PrngReg) (c : Dev nD)

/-- Region K's output array as the whole-array function of what the region found, for any entry contents. -/
abbrev VT : Type := (c : Dev nD) → (b : Ref sig .tc) → Buf (Elt Ideal) ((c : Thread nD τ).loc b)

variable
  (hf0 : ∀ (V : VT) (c : Dev nD), (dat0 (F := Ideal) V c).arrAt 2 cfg0.N = G0 (V c main_arg0) (V c main_v3))
  (hf1w : ∀ (V : VT) (c : Dev nD), (dat1 (F := Ideal) V c).arrAt 5 cfg1.N
    = G1w (V c main_v8) (V c main_v9) (V c main_v10) (V c main_cst) (V c main_cst_0))
  (hf1s : ∀ (V : VT) (c : Dev nD), (dat1 (F := Ideal) V c).arrAt 6 cfg1.N
    = G1s (V c main_v8) (V c main_v9) (V c main_cst) (V c main_cst_0))
  (hf2 : ∀ (V : VT) (c : Dev nD), (dat2 (F := Ideal) V c).arrAt 4 cfg2.N
    = G2 (V c main_arg0) (V c main_v18) (V c main_v19) (V c main_arg7))
  (hf3 : ∀ (V : VT) (c : Dev nD), (dat3 (F := Ideal) V c).arrAt 9 cfg3.N
    = G3 (V c main_v20) (V c main_v23) (V c main_v30) (V c main_arg12) (V c main_arg13) (V c main_v31) (V c main_arg9)
        (V c main_v32) (V c main_arg11))
  (hf4 : ∀ (V : VT) (c : Dev nD), (dat4 (F := Ideal) V c).arrAt 5 cfg4.N
    = G4 (V c main_v33) (V c main_v36) (V c main_v43) (V c main_arg14) (V c main_arg15))

/-! ### An argument array is as launched at every boundary -/

theorem k0 (r : Ref sig .tc) : W0 m ρ c (Proc.devRef .tc r) = m ((c : Thread nD τ).loc r) := rfl
theorem k1 (r : Ref sig .tc) (h0 : r ∉ hostOps0_W) : W1 m ρ c (Proc.devRef .tc r) = m ((c : Thread nD τ).loc r) :=
  (W1_of m ρ c r h0).trans (k0 m ρ c r)
theorem k2 (r : Ref sig .tc) (h0 : r ∉ hostOps0_W) (h1 : ∀ w, Pipeline.arrRef spec0 w ≠ r) :
    W2 m ρ c (Proc.devRef .tc r) = m ((c : Thread nD τ).loc r) :=
  (W2_of_ne m ρ c r h1).trans (k1 m ρ c r h0)
theorem k3 (r : Ref sig .tc) (h0 : r ∉ hostOps0_W) (h1 : ∀ w, Pipeline.arrRef spec0 w ≠ r) (h2 : r ∉ hostOps1_W) :
    W3 m ρ c (Proc.devRef .tc r) = m ((c : Thread nD τ).loc r) :=
  (W3_of m ρ c r h2).trans (k2 m ρ c r h0 h1)
theorem k4 (r : Ref sig .tc) (h0 : r ∉ hostOps0_W) (h1 : ∀ w, Pipeline.arrRef spec0 w ≠ r) (h2 : r ∉ hostOps1_W)
    (h3 : r ∉ hostOps1_1_W) : W4 m ρ c (Proc.devRef .tc r) = m ((c : Thread nD τ).loc r) :=
  (W4_of m ρ c r h3).trans (k3 m ρ c r h0 h1 h2)
theorem k5 (r : Ref sig .tc) (h0 : r ∉ hostOps0_W) (h1 : ∀ w, Pipeline.arrRef spec0 w ≠ r) (h2 : r ∉ hostOps1_W)
    (h3 : r ∉ hostOps1_1_W) (h4 : r ∉ hostOps1_2_W) : W5 m ρ c (Proc.devRef .tc r) = m ((c : Thread nD τ).loc r) :=
  (W5_of m ρ c r h4).trans (k4 m ρ c r h0 h1 h2 h3)
theorem k6 (r : Ref sig .tc) (h0 : r ∉ hostOps0_W) (h1 : ∀ w, Pipeline.arrRef spec0 w ≠ r) (h2 : r ∉ hostOps1_W)
    (h3 : r ∉ hostOps1_1_W) (h4 : r ∉ hostOps1_2_W) (h5 : r ∉ hostOps1_3_W) :
    W6 m ρ c (Proc.devRef .tc r) = m ((c : Thread nD τ).loc r) :=
  (W6_of m ρ c r h5).trans (k5 m ρ c r h0 h1 h2 h3 h4)
theorem k7 (r : Ref sig .tc) (h0 : r ∉ hostOps0_W) (h1 : ∀ w, Pipeline.arrRef spec0 w ≠ r) (h2 : r ∉ hostOps1_W)
    (h3 : r ∉ hostOps1_1_W) (h4 : r ∉ hostOps1_2_W) (h5 : r ∉ hostOps1_3_W) (h6 : ∀ w, Pipeline.arrRef spec1 w ≠ r) :
    W7 m ρ c (Proc.devRef .tc r) = m ((c : Thread nD τ).loc r) :=
  (W7_of_ne m ρ c r h6).trans (k6 m ρ c r h0 h1 h2 h3 h4 h5)
theorem k8 (r : Ref sig .tc) (h0 : r ∉ hostOps0_W) (h1 : ∀ w, Pipeline.arrRef spec0 w ≠ r) (h2 : r ∉ hostOps1_W)
    (h3 : r ∉ hostOps1_1_W) (h4 : r ∉ hostOps1_2_W) (h5 : r ∉ hostOps1_3_W) (h6 : ∀ w, Pipeline.arrRef spec1 w ≠ r)
    (h7 : r ∉ hostOps2_W) : W8 m ρ c (Proc.devRef .tc r) = m ((c : Thread nD τ).loc r) :=
  (W8_of m ρ c r h7).trans (k7 m ρ c r h0 h1 h2 h3 h4 h5 h6)
theorem k9 (r : Ref sig .tc) (h0 : r ∉ hostOps0_W) (h1 : ∀ w, Pipeline.arrRef spec0 w ≠ r) (h2 : r ∉ hostOps1_W)
    (h3 : r ∉ hostOps1_1_W) (h4 : r ∉ hostOps1_2_W) (h5 : r ∉ hostOps1_3_W) (h6 : ∀ w, Pipeline.arrRef spec1 w ≠ r)
    (h7 : r ∉ hostOps2_W) (h8 : ∀ w, Pipeline.arrRef spec2 w ≠ r) :
    W9 m ρ c (Proc.devRef .tc r) = m ((c : Thread nD τ).loc r) :=
  (W9_of_ne m ρ c r h8).trans (k8 m ρ c r h0 h1 h2 h3 h4 h5 h6 h7)
theorem k10 (r : Ref sig .tc) (h0 : r ∉ hostOps0_W) (h1 : ∀ w, Pipeline.arrRef spec0 w ≠ r) (h2 : r ∉ hostOps1_W)
    (h3 : r ∉ hostOps1_1_W) (h4 : r ∉ hostOps1_2_W) (h5 : r ∉ hostOps1_3_W) (h6 : ∀ w, Pipeline.arrRef spec1 w ≠ r)
    (h7 : r ∉ hostOps2_W) (h8 : ∀ w, Pipeline.arrRef spec2 w ≠ r) (h9 : r ∉ hostOps3_W) :
    W10 m ρ c (Proc.devRef .tc r) = m ((c : Thread nD τ).loc r) :=
  (W10_of m ρ c r h9).trans (k9 m ρ c r h0 h1 h2 h3 h4 h5 h6 h7 h8)
theorem k11 (r : Ref sig .tc) (h0 : r ∉ hostOps0_W) (h1 : ∀ w, Pipeline.arrRef spec0 w ≠ r) (h2 : r ∉ hostOps1_W)
    (h3 : r ∉ hostOps1_1_W) (h4 : r ∉ hostOps1_2_W) (h5 : r ∉ hostOps1_3_W) (h6 : ∀ w, Pipeline.arrRef spec1 w ≠ r)
    (h7 : r ∉ hostOps2_W) (h8 : ∀ w, Pipeline.arrRef spec2 w ≠ r) (h9 : r ∉ hostOps3_W)
    (h10 : ∀ w, Pipeline.arrRef spec3 w ≠ r) : W11 m ρ c (Proc.devRef .tc r) = m ((c : Thread nD τ).loc r) :=
  (W11_of_ne m ρ c r h10).trans (k10 m ρ c r h0 h1 h2 h3 h4 h5 h6 h7 h8 h9)
theorem k12 (r : Ref sig .tc) (h0 : r ∉ hostOps0_W) (h1 : ∀ w, Pipeline.arrRef spec0 w ≠ r) (h2 : r ∉ hostOps1_W)
    (h3 : r ∉ hostOps1_1_W) (h4 : r ∉ hostOps1_2_W) (h5 : r ∉ hostOps1_3_W) (h6 : ∀ w, Pipeline.arrRef spec1 w ≠ r)
    (h7 : r ∉ hostOps2_W) (h8 : ∀ w, Pipeline.arrRef spec2 w ≠ r) (h9 : r ∉ hostOps3_W)
    (h10 : ∀ w, Pipeline.arrRef spec3 w ≠ r) (h11 : r ∉ hostOps4_W) :
    W12 m ρ c (Proc.devRef .tc r) = m ((c : Thread nD τ).loc r) :=
  (W12_of m ρ c r h11).trans (k11 m ρ c r h0 h1 h2 h3 h4 h5 h6 h7 h8 h9 h10)

/-- The node features are an input window of region 0, which hands them back as entered; nothing else on the way to
    region 2 writes them. -/
theorem arg0_at8 : W8 m ρ c (Proc.devRef .tc main_arg0) = m ((c : Thread nD τ).loc main_arg0) := by
  rw [W8_of m ρ c main_arg0 (by decide), W7_of_ne m ρ c main_arg0 (by decide), W6_of m ρ c main_arg0 (by decide),
    W5_of m ρ c main_arg0 (by decide), W4_of m ρ c main_arg0 (by decide), W3_of m ρ c main_arg0 (by decide),
    show W2 m ρ c (Proc.devRef .tc main_arg0) = W1 m ρ c (Proc.devRef .tc main_arg0) from W2_in m ρ c 0 rfl,
    W1_of m ρ c main_arg0 (by decide)]

/-! ### The buffers the regions read, boundary by boundary -/

include hf0 hf1w hf1s hf2 hf3 hf4

/-- The fused projection after region 0. -/
theorem v4_eq : W2 m ρ c (Proc.devRef .tc main_v4) = qkvT (m ((c : Thread nD τ).loc main_arg0)) (m ((c : Thread nD τ).loc main_arg3)) (m ((c : Thread nD τ).loc main_arg4)) (m ((c : Thread nD τ).loc main_arg5)) := by
  refine (W2_arr m ρ c 2).trans ((hf0 (V1 m ρ) c).trans ?_)
  show G0 (W1 m ρ c (Proc.devRef .tc main_arg0)) (W1 m ρ c (Proc.devRef .tc main_v3)) = _
  rw [k1 m ρ c main_arg0 (by decide), show W1 m ρ c (Proc.devRef .tc main_v3) = _ from read0_v3 (W0 m ρ c)]
  rfl

/-- The three projections, sliced out of the fused one. -/
theorem v5_eq : W3 m ρ c (Proc.devRef .tc main_v5) = slice0 (qkvT (m ((c : Thread nD τ).loc main_arg0)) (m ((c : Thread nD τ).loc main_arg3)) (m ((c : Thread nD τ).loc main_arg4)) (m ((c : Thread nD τ).loc main_arg5))) := by
  rw [show W3 m ρ c (Proc.devRef .tc main_v5) = _ from read1_v5 (W2 m ρ c), v4_eq m ρ c hf0 hf1w hf1s hf2 hf3 hf4]
theorem v6_eq : W3 m ρ c (Proc.devRef .tc main_v6) = slice1 (qkvT (m ((c : Thread nD τ).loc main_arg0)) (m ((c : Thread nD τ).loc main_arg3)) (m ((c : Thread nD τ).loc main_arg4)) (m ((c : Thread nD τ).loc main_arg5))) := by
  rw [show W3 m ρ c (Proc.devRef .tc main_v6) = _ from read1_v6 (W2 m ρ c), v4_eq m ρ c hf0 hf1w hf1s hf2 hf3 hf4]
theorem v7_eq : W3 m ρ c (Proc.devRef .tc main_v7) = slice2 (qkvT (m ((c : Thread nD τ).loc main_arg0)) (m ((c : Thread nD τ).loc main_arg3)) (m ((c : Thread nD τ).loc main_arg4)) (m ((c : Thread nD τ).loc main_arg5))) := by
  rw [show W3 m ρ c (Proc.devRef .tc main_v7) = _ from read1_v7 (W2 m ρ c), v4_eq m ρ c hf0 hf1w hf1s hf2 hf3 hf4]

/-- The gathered rows: keys and values by source, queries by destination. -/
theorem v8_eq : W4 m ρ c (Proc.devRef .tc main_v8) = (takeF (slice1 (qkvT (m ((c : Thread nD τ).loc main_arg0)) (m ((c : Thread nD τ).loc main_arg3)) (m ((c : Thread nD τ).loc main_arg4)) (m ((c : Thread nD τ).loc main_arg5)))) (m ((c : Thread nD τ).loc main_arg1))) := by
  rw [show W4 m ρ c (Proc.devRef .tc main_v8) = _ from read11_v8 (W3 m ρ c), v6_eq m ρ c hf0 hf1w hf1s hf2 hf3 hf4, k3 m ρ c main_arg1 (by decide) (by decide) (by decide)]
theorem v9_eq : W5 m ρ c (Proc.devRef .tc main_v9) = (takeF (slice0 (qkvT (m ((c : Thread nD τ).loc main_arg0)) (m ((c : Thread nD τ).loc main_arg3)) (m ((c : Thread nD τ).loc main_arg4)) (m ((c : Thread nD τ).loc main_arg5)))) (m ((c : Thread nD τ).loc main_arg2))) := by
  rw [show W5 m ρ c (Proc.devRef .tc main_v9) = _ from read12_v9 (W4 m ρ c), W4_of m ρ c main_v5 (by decide), v5_eq m ρ c hf0 hf1w hf1s hf2 hf3 hf4,
    k4 m ρ c main_arg2 (by decide) (by decide) (by decide) (by decide)]
theorem v10_eq : W6 m ρ c (Proc.devRef .tc main_v10) = (takeF (slice2 (qkvT (m ((c : Thread nD τ).loc main_arg0)) (m ((c : Thread nD τ).loc main_arg3)) (m ((c : Thread nD τ).loc main_arg4)) (m ((c : Thread nD τ).loc main_arg5)))) (m ((c : Thread nD τ).loc main_arg1))) := by
  rw [show W6 m ρ c (Proc.devRef .tc main_v10) = _ from read13_v10 (W5 m ρ c), W5_of m ρ c main_v7 (by decide),
    W4_of m ρ c main_v7 (by decide), v7_eq m ρ c hf0 hf1w hf1s hf2 hf3 hf4, k5 m ρ c main_arg1 (by decide) (by decide) (by decide) (by decide) (by decide)]

theorem v8_at6 : W6 m ρ c (Proc.devRef .tc main_v8) = (takeF (slice1 (qkvT (m ((c : Thread nD τ).loc main_arg0)) (m ((c : Thread nD τ).loc main_arg3)) (m ((c : Thread nD τ).loc main_arg4)) (m ((c : Thread nD τ).loc main_arg5)))) (m ((c : Thread nD τ).loc main_arg1))) := by
  rw [W6_of m ρ c main_v8 (by decide), W5_of m ρ c main_v8 (by decide), v8_eq m ρ c hf0 hf1w hf1s hf2 hf3 hf4]
theorem v9_at6 : W6 m ρ c (Proc.devRef .tc main_v9) = (takeF (slice0 (qkvT (m ((c : Thread nD τ).loc main_arg0)) (m ((c : Thread nD τ).loc main_arg3)) (m ((c : Thread nD τ).loc main_arg4)) (m ((c : Thread nD τ).loc main_arg5)))) (m ((c : Thread nD τ).loc main_arg2))) := by
  rw [W6_of m ρ c main_v9 (by decide), v9_eq m ρ c hf0 hf1w hf1s hf2 hf3 hf4]
theorem cst_at6 : W6 m ρ c (Proc.devRef .tc main_cst) = gmat := by
  rw [W6_of m ρ c main_cst (by decide), W5_of m ρ c main_cst (by decide), W4_of m ρ c main_cst (by decide),
    W3_of m ρ c main_cst (by decide), W2_of_ne m ρ c main_cst (by decide)]
  exact read0_cst (W0 m ρ c)
theorem cst0_at6 : W6 m ρ c (Proc.devRef .tc main_cst_0) = gtmat := by
  rw [W6_of m ρ c main_cst_0 (by decide), W5_of m ρ c main_cst_0 (by decide), W4_of m ρ c main_cst_0 (by decide),
    W3_of m ρ c main_cst_0 (by decide), W2_of_ne m ρ c main_cst_0 (by decide)]
  exact read0_cst_0 (W0 m ρ c)

/-- The two outputs of the edge region. -/
theorem v11_0_eq : W7 m ρ c (Proc.devRef .tc main_v11_0) = G1w (takeF (slice1 (qkvT (m ((c : Thread nD τ).loc main_arg0)) (m ((c : Thread nD τ).loc main_arg3)) (m ((c : Thread nD τ).loc main_arg4)) (m ((c : Thread nD τ).loc main_arg5)))) (m ((c : Thread nD τ).loc main_arg1))) (takeF (slice0 (qkvT (m ((c : Thread nD τ).loc main_arg0)) (m ((c : Thread nD τ).loc main_arg3)) (m ((c : Thread nD τ).loc main_arg4)) (m ((c : Thread nD τ).loc main_arg5)))) (m ((c : Thread nD τ).loc main_arg2))) (takeF (slice2 (qkvT (m ((c : Thread nD τ).loc main_arg0)) (m ((c : Thread nD τ).loc main_arg3)) (m ((c : Thread nD τ).loc main_arg4)) (m ((c : Thread nD τ).loc main_arg5)))) (m ((c : Thread nD τ).loc main_arg1))) gmat gtmat := by
  refine (W7_arr m ρ c 5).trans ((hf1w (V6 m ρ) c).trans ?_)
  show G1w (W6 m ρ c (Proc.devRef .tc main_v8)) (W6 m ρ c (Proc.devRef .tc main_v9)) (W6 m ρ c (Proc.devRef .tc main_v10))
    (W6 m ρ c (Proc.devRef .tc main_cst)) (W6 m ρ c (Proc.devRef .tc main_cst_0)) = _
  rw [v8_at6 m ρ c hf0 hf1w hf1s hf2 hf3 hf4, v9_at6 m ρ c hf0 hf1w hf1s hf2 hf3 hf4, v10_eq m ρ c hf0 hf1w hf1s hf2 hf3 hf4, cst_at6 m ρ c hf0 hf1w hf1s hf2 hf3 hf4, cst0_at6 m ρ c hf0 hf1w hf1s hf2 hf3 hf4]
theorem v11_1_eq : W7 m ρ c (Proc.devRef .tc main_v11_1) = G1s (takeF (slice1 (qkvT (m ((c : Thread nD τ).loc main_arg0)) (m ((c : Thread nD τ).loc main_arg3)) (m ((c : Thread nD τ).loc main_arg4)) (m ((c : Thread nD τ).loc main_arg5)))) (m ((c : Thread nD τ).loc main_arg1))) (takeF (slice0 (qkvT (m ((c : Thread nD τ).loc main_arg0)) (m ((c : Thread nD τ).loc main_arg3)) (m ((c : Thread nD τ).loc main_arg4)) (m ((c : Thread nD τ).loc main_arg5)))) (m ((c : Thread nD τ).loc main_arg2))) gmat gtmat := by
  refine (W7_arr m ρ c 6).trans ((hf1s (V6 m ρ) c).trans ?_)
  show G1s (W6 m ρ c (Proc.devRef .tc main_v8)) (W6 m ρ c (Proc.devRef .tc main_v9))
    (W6 m ρ c (Proc.devRef .tc main_cst)) (W6 m ρ c (Proc.devRef .tc main_cst_0)) = _
  rw [v8_at6 m ρ c hf0 hf1w hf1s hf2 hf3 hf4, v9_at6 m ρ c hf0 hf1w hf1s hf2 hf3 hf4, cst_at6 m ρ c hf0 hf1w hf1s hf2 hf3 hf4, cst0_at6 m ρ c hf0 hf1w hf1s hf2 hf3 hf4]

/-- The attention quotient and the transposed output weights. -/
theorem v18_eq : W8 m ρ c (Proc.devRef .tc main_v18) = (attnT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [show W8 m ρ c (Proc.devRef .tc main_v18) = _ from read2_v18 (W7 m ρ c), k7 m ρ c main_arg2 (by decide) (by decide) (by decide) (by decide) (by decide) (by decide) (by decide),
    v11_0_eq m ρ c hf0 hf1w hf1s hf2 hf3 hf4, v11_1_eq m ρ c hf0 hf1w hf1s hf2 hf3 hf4]
  rfl
theorem v19_eq : W8 m ρ c (Proc.devRef .tc main_v19) = tr128 (m ((c : Thread nD τ).loc main_arg6)) := by
  rw [show W8 m ρ c (Proc.devRef .tc main_v19) = _ from read2_v19 (W7 m ρ c), k7 m ρ c main_arg6 (by decide) (by decide) (by decide) (by decide) (by decide) (by decide) (by decide)]

/-- The residual stream after region 2. -/
theorem v20_eq : W9 m ρ c (Proc.devRef .tc main_v20) = (h1T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W9_arr m ρ c 4).trans ((hf2 (V8 m ρ) c).trans ?_)
  show G2 (W8 m ρ c (Proc.devRef .tc main_arg0)) (W8 m ρ c (Proc.devRef .tc main_v18)) (W8 m ρ c (Proc.devRef .tc main_v19))
    (W8 m ρ c (Proc.devRef .tc main_arg7)) = _
  rw [arg0_at8 m ρ c, v18_eq m ρ c hf0 hf1w hf1s hf2 hf3 hf4, v19_eq m ρ c hf0 hf1w hf1s hf2 hf3 hf4, k8 m ρ c main_arg7 (by decide) (by decide) (by decide) (by decide) (by decide) (by decide) (by decide) (by decide)]
  rfl

/-- The first column statistics and the transposed feed-forward weights. -/
theorem v23_eq : W10 m ρ c (Proc.devRef .tc main_v23) = colMean (h1T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [show W10 m ρ c (Proc.devRef .tc main_v23) = _ from read3_v23 (W9 m ρ c), v20_eq m ρ c hf0 hf1w hf1s hf2 hf3 hf4]
theorem v30_eq : W10 m ρ c (Proc.devRef .tc main_v30) = colVar (h1T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (colMean (h1T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) := by
  rw [show W10 m ρ c (Proc.devRef .tc main_v30) = _ from read3_v30 (W9 m ρ c), v20_eq m ρ c hf0 hf1w hf1s hf2 hf3 hf4]
theorem v31_eq : W10 m ρ c (Proc.devRef .tc main_v31) = trW1 (m ((c : Thread nD τ).loc main_arg8)) := by
  rw [show W10 m ρ c (Proc.devRef .tc main_v31) = _ from read3_v31 (W9 m ρ c), k9 m ρ c main_arg8 (by decide) (by decide) (by decide) (by decide) (by decide) (by decide) (by decide) (by decide) (by decide)]
theorem v32_eq : W10 m ρ c (Proc.devRef .tc main_v32) = trW2 (m ((c : Thread nD τ).loc main_arg10)) := by
  rw [show W10 m ρ c (Proc.devRef .tc main_v32) = _ from read3_v32 (W9 m ρ c), k9 m ρ c main_arg10 (by decide) (by decide) (by decide) (by decide) (by decide) (by decide) (by decide) (by decide) (by decide)]

/-- The residual stream after region 3. -/
theorem v33_eq : W11 m ρ c (Proc.devRef .tc main_v33) = (h2T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  refine (W11_arr m ρ c 9).trans ((hf3 (V10 m ρ) c).trans ?_)
  show G3 (W10 m ρ c (Proc.devRef .tc main_v20)) (W10 m ρ c (Proc.devRef .tc main_v23)) (W10 m ρ c (Proc.devRef .tc main_v30))
    (W10 m ρ c (Proc.devRef .tc main_arg12)) (W10 m ρ c (Proc.devRef .tc main_arg13)) (W10 m ρ c (Proc.devRef .tc main_v31))
    (W10 m ρ c (Proc.devRef .tc main_arg9)) (W10 m ρ c (Proc.devRef .tc main_v32)) (W10 m ρ c (Proc.devRef .tc main_arg11)) = _
  rw [W10_of m ρ c main_v20 (by decide), v20_eq m ρ c hf0 hf1w hf1s hf2 hf3 hf4, v23_eq m ρ c hf0 hf1w hf1s hf2 hf3 hf4,
    v30_eq m ρ c hf0 hf1w hf1s hf2 hf3 hf4, k10 m ρ c main_arg12 (by decide) (by decide) (by decide) (by decide) (by decide) (by decide) (by decide) (by decide) (by decide) (by decide), k10 m ρ c main_arg13 (by decide) (by decide) (by decide) (by decide) (by decide) (by decide) (by decide) (by decide) (by decide) (by decide), v31_eq m ρ c hf0 hf1w hf1s hf2 hf3 hf4,
    k10 m ρ c main_arg9 (by decide) (by decide) (by decide) (by decide) (by decide) (by decide) (by decide) (by decide) (by decide) (by decide), v32_eq m ρ c hf0 hf1w hf1s hf2 hf3 hf4, k10 m ρ c main_arg11 (by decide) (by decide) (by decide) (by decide) (by decide) (by decide) (by decide) (by decide) (by decide) (by decide)]
  rfl

/-- The second column statistics. -/
theorem v36_eq : W12 m ρ c (Proc.devRef .tc main_v36) = colMean (h2T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  rw [show W12 m ρ c (Proc.devRef .tc main_v36) = _ from read4_v36 (W11 m ρ c), v33_eq m ρ c hf0 hf1w hf1s hf2 hf3 hf4]
theorem v43_eq : W12 m ρ c (Proc.devRef .tc main_v43) = colVar (h2T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (colMean (h2T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))) := by
  rw [show W12 m ρ c (Proc.devRef .tc main_v43) = _ from read4_v43 (W11 m ρ c), v33_eq m ρ c hf0 hf1w hf1s hf2 hf3 hf4]

/-- THE RESULT: what the last region leaves in the result buffer is the closed term of the sixteen arguments. -/
theorem v44_eq : W13 m ρ c (Proc.devRef .tc main_v44) = (outT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  refine (W13_arr m ρ c 5).trans ((hf4 (V12 m ρ) c).trans ?_)
  show G4 (W12 m ρ c (Proc.devRef .tc main_v33)) (W12 m ρ c (Proc.devRef .tc main_v36)) (W12 m ρ c (Proc.devRef .tc main_v43))
    (W12 m ρ c (Proc.devRef .tc main_arg14)) (W12 m ρ c (Proc.devRef .tc main_arg15)) = _
  rw [W12_of m ρ c main_v33 (by decide), v33_eq m ρ c hf0 hf1w hf1s hf2 hf3 hf4, v36_eq m ρ c hf0 hf1w hf1s hf2 hf3 hf4,
    v43_eq m ρ c hf0 hf1w hf1s hf2 hf3 hf4, k12 m ρ c main_arg14 (by decide) (by decide) (by decide) (by decide) (by decide) (by decide) (by decide) (by decide) (by decide) (by decide) (by decide) (by decide), k12 m ρ c main_arg15 (by decide) (by decide) (by decide) (by decide) (by decide) (by decide) (by decide) (by decide) (by decide) (by decide) (by decide) (by decide)]
  rfl

end Cert.KernelIdeal.Hand

end
-- ==== Proof.KI.Val0.lean ====
import proofs.«420532_j35407710388433_1_alg».proof.Proof.KI.Reg0
import proofs.«420532_j35407710388433_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! # Region 0 on the extended reals: the projected array is the matrix product

At the extended reals the first kernel leaves in its output array the product of the node features by the
stacked weights, entry by entry: the body's payload at an entry of a block is the row-by-column sum (the two
narrowings are the identity and the accumulator is zero); grid point `t` writes back rows 1000 t … 1000 t + 999,
where its feature block is the same rows of the features and its weight block is the whole weight matrix; and row
`r` lies in the block of point `r / 1000`, so the fifty blocks cover the array. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The contraction's index maps, axis by axis -/

theorem lhs_qkv_0 (i : S1000x384.Idx) (q : dot_S1000x128_S128x384_S1000x384_1_0_0_1_n_n.contr.Idx) :
    (dot_S1000x128_S128x384_S1000x384_1_0_0_1_n_n.lhsIdx i q 0).val = (i 0).val := by
  unfold DotDims.lhsIdx
  rw [dif_neg (show ¬(0 : Fin S1000x128.rank) ∈ dot_S1000x128_S128x384_S1000x384_1_0_0_1_n_n.lhsBatch by decide), dif_pos (show (0 : Fin S1000x128.rank) ∈ dot_S1000x128_S128x384_S1000x384_1_0_0_1_n_n.lhsNonContracting by decide)]
  rfl
theorem lhs_qkv_1 (i : S1000x384.Idx) (q : dot_S1000x128_S128x384_S1000x384_1_0_0_1_n_n.contr.Idx) :
    (dot_S1000x128_S128x384_S1000x384_1_0_0_1_n_n.lhsIdx i q 1).val = (q ⟨0, by decide⟩).val :=
  dot_S1000x128_S128x384_S1000x384_1_0_0_1_n_n.lhsIdx_val_of_single rfl i q
theorem rhs_qkv_0 (i : S1000x384.Idx) (q : dot_S1000x128_S128x384_S1000x384_1_0_0_1_n_n.contr.Idx) :
    (dot_S1000x128_S128x384_S1000x384_1_0_0_1_n_n.rhsIdx i q 0).val = (q ⟨0, by decide⟩).val :=
  dot_S1000x128_S128x384_S1000x384_1_0_0_1_n_n.rhsIdx_val_of_single rfl i q
theorem rhs_qkv_1 (i : S1000x384.Idx) (q : dot_S1000x128_S128x384_S1000x384_1_0_0_1_n_n.contr.Idx) :
    (dot_S1000x128_S128x384_S1000x384_1_0_0_1_n_n.rhsIdx i q 1).val = (i 1).val := by
  unfold DotDims.rhsIdx
  rw [dif_neg (show ¬(1 : Fin S128x384.rank) ∈ dot_S1000x128_S128x384_S1000x384_1_0_0_1_n_n.rhsBatch by decide), dif_pos (show (1 : Fin S128x384.rank) ∈ dot_S1000x128_S128x384_S1000x384_1_0_0_1_n_n.rhsNonContracting by decide)]
  rfl

/-- The payload at an index: entry (p, q) of the product block is the sum over k of x[p, k] * w[k, q]
    (the narrowing of both operands is the identity on extended reals, and the accumulator is zero). -/
theorem k0_pay1_apply (x : Vec Ideal S1000x128 .f32) (w : Vec Ideal S128x384 .f32) (p : Fin 1000) (q : Fin 384) :
    k0_pay1 (F := Ideal) x w (ix2 p q) = ∑ k : Fin 128, x (ix2 p k) * w (ix2 k q) := by
  unfold k0_pay1
  refine (Ideal.matmul_constant_zero_apply dot_S1000x128_S128x384_S1000x384_1_0_0_1_n_n none _ _ (ix2 p q)).trans ?_
  rw [← Equiv.sum_comp (contrEquiv1 dot_S1000x128_S128x384_S1000x384_1_0_0_1_n_n 128 rfl rfl).symm]
  refine Finset.sum_congr rfl fun k _ => ?_
  have hk := contrEquiv1_symm_val dot_S1000x128_S128x384_S1000x384_1_0_0_1_n_n 128 rfl rfl k
  have el : dot_S1000x128_S128x384_S1000x384_1_0_0_1_n_n.lhsIdx (ix2 p q) ((contrEquiv1 dot_S1000x128_S128x384_S1000x384_1_0_0_1_n_n 128 rfl rfl).symm k) = ix2 p k := funext fun a => Fin.ext (by
    match a with
    | ⟨0, _⟩ => exact lhs_qkv_0 _ _
    | ⟨1, _⟩ => exact (lhs_qkv_1 _ _).trans hk)
  have er : dot_S1000x128_S128x384_S1000x384_1_0_0_1_n_n.rhsIdx (ix2 p q) ((contrEquiv1 dot_S1000x128_S128x384_S1000x384_1_0_0_1_n_n 128 rfl rfl).symm k) = ix2 k q := funext fun a => Fin.ext (by
    match a with
    | ⟨0, _⟩ => exact (rhs_qkv_0 _ _).trans hk
    | ⟨1, _⟩ => exact rhs_qkv_1 _ _)
  rw [el, er, truncf_apply, truncf_apply, shapeCast_self]

/-! ## One entry of a block against one entry of the whole product -/

/-- If row `j 0` of the feature block is row `i 0` of the features and column `j 1` of the weight block is column
    `i 1` of the weights, the payload at `j` is the product at `i`. -/
theorem pay_eq_G0 (X : Cert.Spec.A2 50000 128) (W : Cert.Spec.A2 128 384) (x : Vec Ideal S1000x128 .f32) (w : Vec Ideal S128x384 .f32)
    (j : S1000x384.Idx) (i : S50000x384.Idx)
    (hx : ∀ k : Fin 128, x (ix2 (j 0) k) = X (ix2 (i 0) k))
    (hw : ∀ k : Fin 128, w (ix2 k (j 1)) = W (ix2 k (i 1))) :
    k0_pay1 (F := Ideal) x w j = Cert.Spec.G0 X W i := by
  obtain ⟨p, q, rfl⟩ : ∃ (p : Fin 1000) (q : Fin 384), j = ix2 p q := ⟨j 0, j 1, eq_ix2 j⟩
  rw [k0_pay1_apply]
  show _ = ∑ k : Fin 128, X (ix2 (i 0) k) * W (ix2 k (i 1))
  exact Finset.sum_congr rfl fun k _ => congrArg₂ (· * ·) (hx k) (hw k)

/-! ## From the blocks to the array -/

theorem zero_offsets : (![0, 0] : Fin 2 → Nat) = fun _ => 0 := funext fun a => by fin_cases a <;> rfl

/-- The printed index maps, decided over the fifty grid points: the feature and output windows are on row block `t`,
    the weight window on its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays as the region finds them. -/
theorem flushed0_2_eq (c : Dev nD) (t : Fin cfg0.N) :
    (dat0 (F := Ideal) V c).flushed 2 t
      = ((cfg0.win 2).blk t).view.read (Elt Ideal) (Cert.Spec.G0 (V c main_arg0) (V c main_v3)) := by
  show (cfg0.win 2).cut (grid0.coords t) ((dat0 V c).after 2 t) = _
  rw [after0_2]
  unfold out0_2
  rw [View.canon_unit_zero zero_offsets]
  simp only [View.ld_unit_zero (S := S1000x128) zero_offsets, View.ld_unit_zero (S := S128x384) zero_offsets]
  obtain ⟨e0, e1, e2, e3, e4, e5⟩ := idx_facts0 t
  funext j
  refine pay_eq_G0 (V c main_arg0) (V c main_v3) (iblk0 V c 0 t) (iblk0 V c 1 t) j (((cfg0.win 2).blk t).view.emb j)
    (fun k => ?_) (fun k => ?_)
  · show V c main_arg0 (((cfg0.win 0).blk t).view.emb (ix2 (j 0) k))
      = V c main_arg0 (ix2 ((((cfg0.win 2).blk t).view.emb j) 0) k)
    refine congrArg _ (funext fun a => Fin.ext ?_)
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 128 + 1 * k.val = k.val; omega
  · show V c main_v3 (((cfg0.win 1).blk t).view.emb (ix2 k (j 1)))
      = V c main_v3 (ix2 k ((((cfg0.win 2).blk t).view.emb j) 1))
    refine congrArg _ (funext fun a => Fin.ext ?_)
    match a with
    | ⟨0, _⟩ => show win0_1.index t (0 : Fin 2) * 128 + 1 * k.val = k.val; omega
    | ⟨1, _⟩ => show win0_1.index t (1 : Fin 2) * 384 + 1 * (j 1).val = win0_2.index t (1 : Fin 2) * 384 + 1 * (j 1).val; omega

/-- An index of the array is in point `t`'s block iff each coordinate is in the block's range on its axis. -/
theorem mem_blk0_2 (t : Fin cfg0.N) (i : S50000x384.Idx) :
    i ∈ ((cfg0.win 2).blk t).view.set ↔ ∀ a : Fin 2, win0_2.index t a * S1000x384.size a ≤ (i a).val ∧ (i a).val < win0_2.index t a * S1000x384.size a + S1000x384.size a := by
  show i ∈ ((View.whole main_v4).slice (win0_2.rect t)).set ↔ _
  rw [View.set_slice_whole, Rect.mem_set_unit]
  exact Iff.rfl

/-- Every index of the array is in some point's block: row `r` in that of point `r / 1000`. -/
theorem blocks_cover0_2 (i : S50000x384.Idx) :
    ∃ t : Fin cfg0.N, (cfg0.win 2).flush t = true ∧ i ∈ ((cfg0.win 2).blk t).view.set := by
  have hi0 : (i 0).val < 50000 := (i 0).isLt
  have hi1 : (i 1).val < 384 := (i 1).isLt
  obtain ⟨t, ht⟩ : ∃ t : Fin cfg0.N, t.val = (i 0).val / 1000 :=
    ⟨⟨(i 0).val / 1000, by rw [show cfg0.N = 50 from N_0]; omega⟩, rfl⟩
  obtain ⟨e0, e1, e2, e3, e4, e5⟩ := idx_facts0 t
  refine ⟨t, flush0_2 t, ?_⟩
  rw [mem_blk0_2]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 384 ≤ (i 1).val ∧ (i 1).val < win0_2.index t (1 : Fin 2) * 384 + 384; omega

/-- THE ARRAY after the region: the product of the features by the stacked weights, as the region finds them. -/
theorem final0_2 (c : Dev nD) :
    (dat0 (F := Ideal) V c).arrAt 2 cfg0.N = Cert.Spec.G0 (V c main_arg0) (V c main_v3) :=
  (dat0 V c).arrAt_eq_of_cover 2 (Cert.Spec.G0 (V c main_arg0) (V c main_v3)) (fun t _ => flushed0_2_eq V c t) blocks_cover0_2

end Cert.KernelIdeal.Hand

end
-- ==== Proof.KI.Val1.lean ====
/- Region 1 at the ideal values: each of the two output arrays after the region is one whole-array function of the
   region's input arrays. The two payloads are read at an index (two matrix products into zero accumulators, with
   pointwise scaling, clipping and exponentiation between them; the format changes are the identity on the extended
   reals); each write-back is the matching row block of the specification's function; the 160 row blocks cover the
   640000 rows. -/
import proofs.«420532_j35407710388433_1_alg».proof.Proof.KI.Reg1
import proofs.«420532_j35407710388433_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
/-! ## The two matrix products of the body, read at an index -/

theorem lhs_scores1_0 (i : S4000x8.Idx) (q : dot_S4000x128_S128x8_S4000x8_1_0_0_1_n_n.contr.Idx) :
    (dot_S4000x128_S128x8_S4000x8_1_0_0_1_n_n.lhsIdx i q 0).val = (i 0).val := by
  unfold DotDims.lhsIdx
  rw [dif_neg (show ¬(0 : Fin S4000x128.rank) ∈ dot_S4000x128_S128x8_S4000x8_1_0_0_1_n_n.lhsBatch by decide), dif_pos (show (0 : Fin S4000x128.rank) ∈ dot_S4000x128_S128x8_S4000x8_1_0_0_1_n_n.lhsNonContracting by decide)]
  rfl
theorem lhs_scores1_1 (i : S4000x8.Idx) (q : dot_S4000x128_S128x8_S4000x8_1_0_0_1_n_n.contr.Idx) :
    (dot_S4000x128_S128x8_S4000x8_1_0_0_1_n_n.lhsIdx i q 1).val = (q ⟨0, by decide⟩).val :=
  dot_S4000x128_S128x8_S4000x8_1_0_0_1_n_n.lhsIdx_val_of_single rfl i q
theorem rhs_scores1_0 (i : S4000x8.Idx) (q : dot_S4000x128_S128x8_S4000x8_1_0_0_1_n_n.contr.Idx) :
    (dot_S4000x128_S128x8_S4000x8_1_0_0_1_n_n.rhsIdx i q 0).val = (q ⟨0, by decide⟩).val :=
  dot_S4000x128_S128x8_S4000x8_1_0_0_1_n_n.rhsIdx_val_of_single rfl i q
theorem rhs_scores1_1 (i : S4000x8.Idx) (q : dot_S4000x128_S128x8_S4000x8_1_0_0_1_n_n.contr.Idx) :
    (dot_S4000x128_S128x8_S4000x8_1_0_0_1_n_n.rhsIdx i q 1).val = (i 1).val := by
  unfold DotDims.rhsIdx
  rw [dif_neg (show ¬(1 : Fin S128x8.rank) ∈ dot_S4000x128_S128x8_S4000x8_1_0_0_1_n_n.rhsBatch by decide), dif_pos (show (1 : Fin S128x8.rank) ∈ dot_S4000x128_S128x8_S4000x8_1_0_0_1_n_n.rhsNonContracting by decide)]
  rfl

/-- The first product (edge rows by the grouping matrix) into a zero accumulator: entry (n, j) is the sum over the
    128 feature columns. -/
theorem scores1_apply (a : FVec Ideal S4000x128 .bf16) (b : FVec Ideal S128x8 .bf16) (n : Fin 4000) (j : Fin 8) :
    matmul dot_S4000x128_S128x8_S4000x8_1_0_0_1_n_n none a b (constant (F := Ideal) S4000x8 .f32 0x00000000#32) (ix2 n j) = ∑ k : Fin 128, a (ix2 n k) * b (ix2 k j) := by
  simp only [matmul]
  rw [Ideal.matmul_constant_zero_apply, ← Equiv.sum_comp (ValueIdx.contrEquiv1 dot_S4000x128_S128x8_S4000x8_1_0_0_1_n_n 128 rfl rfl).symm]
  refine Finset.sum_congr rfl fun k _ => ?_
  have hk := ValueIdx.contrEquiv1_symm_val dot_S4000x128_S128x8_S4000x8_1_0_0_1_n_n 128 rfl rfl k
  have el : dot_S4000x128_S128x8_S4000x8_1_0_0_1_n_n.lhsIdx (ix2 n j) ((ValueIdx.contrEquiv1 dot_S4000x128_S128x8_S4000x8_1_0_0_1_n_n 128 rfl rfl).symm k) = ix2 n k := funext fun a => Fin.ext (by
    match a with
    | ⟨0, _⟩ => exact lhs_scores1_0 _ _
    | ⟨1, _⟩ => exact (lhs_scores1_1 _ _).trans hk)
  have er : dot_S4000x128_S128x8_S4000x8_1_0_0_1_n_n.rhsIdx (ix2 n j) ((ValueIdx.contrEquiv1 dot_S4000x128_S128x8_S4000x8_1_0_0_1_n_n 128 rfl rfl).symm k) = ix2 k j := funext fun a => Fin.ext (by
    match a with
    | ⟨0, _⟩ => exact (rhs_scores1_0 _ _).trans hk
    | ⟨1, _⟩ => exact rhs_scores1_1 _ _)
  rw [el, er]

theorem lhs_spread1_0 (i : S4000x128.Idx) (q : dot_S4000x8_S8x128_S4000x128_1_0_0_1_n_n.contr.Idx) :
    (dot_S4000x8_S8x128_S4000x128_1_0_0_1_n_n.lhsIdx i q 0).val = (i 0).val := by
  unfold DotDims.lhsIdx
  rw [dif_neg (show ¬(0 : Fin S4000x8.rank) ∈ dot_S4000x8_S8x128_S4000x128_1_0_0_1_n_n.lhsBatch by decide), dif_pos (show (0 : Fin S4000x8.rank) ∈ dot_S4000x8_S8x128_S4000x128_1_0_0_1_n_n.lhsNonContracting by decide)]
  rfl
theorem lhs_spread1_1 (i : S4000x128.Idx) (q : dot_S4000x8_S8x128_S4000x128_1_0_0_1_n_n.contr.Idx) :
    (dot_S4000x8_S8x128_S4000x128_1_0_0_1_n_n.lhsIdx i q 1).val = (q ⟨0, by decide⟩).val :=
  dot_S4000x8_S8x128_S4000x128_1_0_0_1_n_n.lhsIdx_val_of_single rfl i q
theorem rhs_spread1_0 (i : S4000x128.Idx) (q : dot_S4000x8_S8x128_S4000x128_1_0_0_1_n_n.contr.Idx) :
    (dot_S4000x8_S8x128_S4000x128_1_0_0_1_n_n.rhsIdx i q 0).val = (q ⟨0, by decide⟩).val :=
  dot_S4000x8_S8x128_S4000x128_1_0_0_1_n_n.rhsIdx_val_of_single rfl i q
theorem rhs_spread1_1 (i : S4000x128.Idx) (q : dot_S4000x8_S8x128_S4000x128_1_0_0_1_n_n.contr.Idx) :
    (dot_S4000x8_S8x128_S4000x128_1_0_0_1_n_n.rhsIdx i q 1).val = (i 1).val := by
  unfold DotDims.rhsIdx
  rw [dif_neg (show ¬(1 : Fin S8x128.rank) ∈ dot_S4000x8_S8x128_S4000x128_1_0_0_1_n_n.rhsBatch by decide), dif_pos (show (1 : Fin S8x128.rank) ∈ dot_S4000x8_S8x128_S4000x128_1_0_0_1_n_n.rhsNonContracting by decide)]
  rfl

/-- The second product (per-head scores by the transposed grouping matrix) into a zero accumulator: entry (n, j) is
    the sum over the 8 heads. -/
theorem spread1_apply (a : FVec Ideal S4000x8 .bf16) (b : FVec Ideal S8x128 .bf16) (n : Fin 4000) (j : Fin 128) :
    matmul dot_S4000x8_S8x128_S4000x128_1_0_0_1_n_n none a b (constant (F := Ideal) S4000x128 .f32 0x00000000#32) (ix2 n j) = ∑ k : Fin 8, a (ix2 n k) * b (ix2 k j) := by
  simp only [matmul]
  rw [Ideal.matmul_constant_zero_apply, ← Equiv.sum_comp (ValueIdx.contrEquiv1 dot_S4000x8_S8x128_S4000x128_1_0_0_1_n_n 8 rfl rfl).symm]
  refine Finset.sum_congr rfl fun k _ => ?_
  have hk := ValueIdx.contrEquiv1_symm_val dot_S4000x8_S8x128_S4000x128_1_0_0_1_n_n 8 rfl rfl k
  have el : dot_S4000x8_S8x128_S4000x128_1_0_0_1_n_n.lhsIdx (ix2 n j) ((ValueIdx.contrEquiv1 dot_S4000x8_S8x128_S4000x128_1_0_0_1_n_n 8 rfl rfl).symm k) = ix2 n k := funext fun a => Fin.ext (by
    match a with
    | ⟨0, _⟩ => exact lhs_spread1_0 _ _
    | ⟨1, _⟩ => exact (lhs_spread1_1 _ _).trans hk)
  have er : dot_S4000x8_S8x128_S4000x128_1_0_0_1_n_n.rhsIdx (ix2 n j) ((ValueIdx.contrEquiv1 dot_S4000x8_S8x128_S4000x128_1_0_0_1_n_n 8 rfl rfl).symm k) = ix2 k j := funext fun a => Fin.ext (by
    match a with
    | ⟨0, _⟩ => exact (rhs_spread1_0 _ _).trans hk
    | ⟨1, _⟩ => exact rhs_spread1_1 _ _)
  rw [el, er]

/-! ## The payloads at an index -/

/-- The score payload at row `p`, column `j` of a block: over the heads, the exponential of the clipped, scaled
    per-head dot product of the two rows, times the transposed grouping matrix's entry. The format changes are the
    identity on the extended reals. -/
theorem k1_pay1_apply (x0 x1 : Vec Ideal S4000x128 .f32) (x3 : Vec Ideal S128x8 .f32) (x4 : Vec Ideal S8x128 .f32) (p : Fin 4000) (j : Fin 128) :
    k1_pay1 (F := Ideal) x0 x1 x3 x4 (ix2 p j) = ∑ h : Fin 8, Ideal.exp (min (Ideal.ofBits .f32 0x40A00000#32) (max (Ideal.ofBits .f32 0xC0A00000#32)
      ((∑ k : Fin 128, (x0 (ix2 p k) * x1 (ix2 p k)) * x3 (ix2 k h)) * Ideal.ofBits .f32 0x3E800000#32))) * x4 (ix2 h j) := by
  unfold k1_pay1
  rw [spread1_apply]
  refine Finset.sum_congr rfl fun h _ => ?_
  rw [truncf_apply, truncf_apply]
  show Ideal.exp (min (Ideal.ofBits .f32 0x40A00000#32) (max (Ideal.ofBits .f32 0xC0A00000#32) (_ * Ideal.ofBits .f32 0x3E800000#32))) * _ = _
  rw [scores1_apply]
  simp only [truncf_apply, mulf_apply, shapeCast_self]

/-- The weighted-value payload: the value row's entry times the score payload's. -/
theorem k1_pay2_apply (x0 x1 x2 : Vec Ideal S4000x128 .f32) (x3 : Vec Ideal S128x8 .f32) (x4 : Vec Ideal S8x128 .f32) (p : Fin 4000) (j : Fin 128) :
    k1_pay2 (F := Ideal) x0 x1 x2 x3 x4 (ix2 p j) = x2 (ix2 p j) * k1_pay1 (F := Ideal) x0 x1 x3 x4 (ix2 p j) := by
  unfold k1_pay2
  rw [mulf_apply, shapeCast_self]

/-! ## The payloads against the specification, at one point -/

/-- The specification's score at an index, written out. -/
theorem scoreE1_apply (k q : Cert.Spec.A2 640000 128) (g : Cert.Spec.A2 128 8) (r : Fin 640000) (h : Fin 8) :
    Cert.Spec.scoreE k q g (ix2 r h) = Ideal.exp (min (Ideal.ofBits .f32 0x40A00000#32) (max (Ideal.ofBits .f32 0xC0A00000#32)
      ((∑ c : Fin 128, (k (ix2 r c) * q (ix2 r c)) * g (ix2 c h)) * Ideal.ofBits .f32 0x3E800000#32))) := rfl

/-- When the loaded blocks hold row `r` of the two gathered arrays (at block row `p`) and the two grouping
    matrices, the score payload at (p, j) is the specification's repeated score at (r, j). -/
theorem k1_pay1_pt (k q : Cert.Spec.A2 640000 128) (g : Cert.Spec.A2 128 8) (gt : Cert.Spec.A2 8 128)
    (x0 x1 : Vec Ideal S4000x128 .f32) (x3 : Vec Ideal S128x8 .f32) (x4 : Vec Ideal S8x128 .f32)
    (p : Fin 4000) (j : Fin 128) (r : Fin 640000)
    (h0 : ∀ c : Fin 128, x0 (ix2 p c) = k (ix2 r c)) (h1 : ∀ c : Fin 128, x1 (ix2 p c) = q (ix2 r c))
    (h3 : ∀ (c : Fin 128) (h : Fin 8), x3 (ix2 c h) = g (ix2 c h)) (h4 : ∀ h : Fin 8, x4 (ix2 h j) = gt (ix2 h j)) :
    k1_pay1 (F := Ideal) x0 x1 x3 x4 (ix2 p j) = Cert.Spec.G1s k q g gt (ix2 r j) := by
  rw [k1_pay1_apply]
  unfold Cert.Spec.G1s
  rw [Cert.Spec.mm_apply]
  refine Finset.sum_congr rfl fun h _ => ?_
  rw [scoreE1_apply, h4 h]
  simp only [h0, h1, h3]

/-- Likewise the weighted-value payload is the specification's weighted value. -/
theorem k1_pay2_pt (k q v : Cert.Spec.A2 640000 128) (g : Cert.Spec.A2 128 8) (gt : Cert.Spec.A2 8 128)
    (x0 x1 x2 : Vec Ideal S4000x128 .f32) (x3 : Vec Ideal S128x8 .f32) (x4 : Vec Ideal S8x128 .f32)
    (p : Fin 4000) (j : Fin 128) (r : Fin 640000)
    (h0 : ∀ c : Fin 128, x0 (ix2 p c) = k (ix2 r c)) (h1 : ∀ c : Fin 128, x1 (ix2 p c) = q (ix2 r c))
    (h2 : x2 (ix2 p j) = v (ix2 r j))
    (h3 : ∀ (c : Fin 128) (h : Fin 8), x3 (ix2 c h) = g (ix2 c h)) (h4 : ∀ h : Fin 8, x4 (ix2 h j) = gt (ix2 h j)) :
    k1_pay2 (F := Ideal) x0 x1 x2 x3 x4 (ix2 p j) = Cert.Spec.G1w k q v g gt (ix2 r j) := by
  rw [k1_pay2_apply, k1_pay1_pt k q g gt x0 x1 x3 x4 p j r h0 h1 h3 h4, h2]
  rfl

/-! ## From blocks to the arrays -/

section Blocks
-- the buffer contents when the region is entered, at the ideal values
variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: a row-blocked window's block index is (t, 0) at point `t`; -/
theorem idx_rows1_0 : ∀ t : Fin cfg1.N, win1_0.index t (0 : Fin 2) = t.val ∧ win1_0.index t (1 : Fin 2) = 0 :=
  (by decide +kernel : ∀ t : Fin grid1.N, _)
theorem idx_rows1_1 : ∀ t : Fin cfg1.N, win1_1.index t (0 : Fin 2) = t.val ∧ win1_1.index t (1 : Fin 2) = 0 :=
  (by decide +kernel : ∀ t : Fin grid1.N, _)
theorem idx_rows1_2 : ∀ t : Fin cfg1.N, win1_2.index t (0 : Fin 2) = t.val ∧ win1_2.index t (1 : Fin 2) = 0 :=
  (by decide +kernel : ∀ t : Fin grid1.N, _)
theorem idx_rows1_5 : ∀ t : Fin cfg1.N, win1_5.index t (0 : Fin 2) = t.val ∧ win1_5.index t (1 : Fin 2) = 0 :=
  (by decide +kernel : ∀ t : Fin grid1.N, _)
theorem idx_rows1_6 : ∀ t : Fin cfg1.N, win1_6.index t (0 : Fin 2) = t.val ∧ win1_6.index t (1 : Fin 2) = 0 :=
  (by decide +kernel : ∀ t : Fin grid1.N, _)
/-- a whole window's is (0, 0) at every point. -/
theorem idx_whole1_3 : ∀ t : Fin cfg1.N, win1_3.index t (0 : Fin 2) = 0 ∧ win1_3.index t (1 : Fin 2) = 0 :=
  (by decide +kernel : ∀ t : Fin grid1.N, _)
theorem idx_whole1_4 : ∀ t : Fin cfg1.N, win1_4.index t (0 : Fin 2) = 0 ∧ win1_4.index t (1 : Fin 2) = 0 :=
  (by decide +kernel : ∀ t : Fin grid1.N, _)

/-- Window 0's block at point `t` is rows `4000 t … 4000 t + 3999` of its array. -/
theorem iblk1_0_row (c : Dev nD) (t : Fin cfg1.N) (p : Fin 4000) (a : Fin 128) (r : Fin 640000) (hr : r.val = t.val * 4000 + p.val) :
    (iblk1 V c 0 t : Vec Ideal S4000x128 .f32) (ix2 p a) = (V c main_v8 : Cert.Spec.A2 640000 128) (ix2 r a) := by
  obtain ⟨e0, e1⟩ := idx_rows1_0 t
  unfold iblk1
  rw [View.read_apply]
  show V c main_v8 _ = V c main_v8 _
  congr 1
  funext d; apply Fin.ext
  match d with
  | ⟨0, _⟩ => show win1_0.index t (0 : Fin 2) * 4000 + 1 * p.val = r.val; rw [e0, hr]; omega
  | ⟨1, _⟩ => show win1_0.index t (1 : Fin 2) * 128 + 1 * a.val = a.val; rw [e1]; omega
/-- Window 1's block at point `t` is rows `4000 t … 4000 t + 3999` of its array. -/
theorem iblk1_1_row (c : Dev nD) (t : Fin cfg1.N) (p : Fin 4000) (a : Fin 128) (r : Fin 640000) (hr : r.val = t.val * 4000 + p.val) :
    (iblk1 V c 1 t : Vec Ideal S4000x128 .f32) (ix2 p a) = (V c main_v9 : Cert.Spec.A2 640000 128) (ix2 r a) := by
  obtain ⟨e0, e1⟩ := idx_rows1_1 t
  unfold iblk1
  rw [View.read_apply]
  show V c main_v9 _ = V c main_v9 _
  congr 1
  funext d; apply Fin.ext
  match d with
  | ⟨0, _⟩ => show win1_1.index t (0 : Fin 2) * 4000 + 1 * p.val = r.val; rw [e0, hr]; omega
  | ⟨1, _⟩ => show win1_1.index t (1 : Fin 2) * 128 + 1 * a.val = a.val; rw [e1]; omega
/-- Window 2's block at point `t` is rows `4000 t … 4000 t + 3999` of its array. -/
theorem iblk1_2_row (c : Dev nD) (t : Fin cfg1.N) (p : Fin 4000) (a : Fin 128) (r : Fin 640000) (hr : r.val = t.val * 4000 + p.val) :
    (iblk1 V c 2 t : Vec Ideal S4000x128 .f32) (ix2 p a) = (V c main_v10 : Cert.Spec.A2 640000 128) (ix2 r a) := by
  obtain ⟨e0, e1⟩ := idx_rows1_2 t
  unfold iblk1
  rw [View.read_apply]
  show V c main_v10 _ = V c main_v10 _
  congr 1
  funext d; apply Fin.ext
  match d with
  | ⟨0, _⟩ => show win1_2.index t (0 : Fin 2) * 4000 + 1 * p.val = r.val; rw [e0, hr]; omega
  | ⟨1, _⟩ => show win1_2.index t (1 : Fin 2) * 128 + 1 * a.val = a.val; rw [e1]; omega
/-- Window 3's block at every point is its whole array. -/
theorem iblk1_3_whole (c : Dev nD) (t : Fin cfg1.N) (a : Fin 128) (b : Fin 8) :
    (iblk1 V c 3 t : Vec Ideal S128x8 .f32) (ix2 a b) = (V c main_cst : Cert.Spec.A2 128 8) (ix2 a b) := by
  obtain ⟨e0, e1⟩ := idx_whole1_3 t
  unfold iblk1
  rw [View.read_apply]
  show V c main_cst _ = V c main_cst _
  congr 1
  funext d; apply Fin.ext
  match d with
  | ⟨0, _⟩ => show win1_3.index t (0 : Fin 2) * 128 + 1 * a.val = a.val; rw [e0]; omega
  | ⟨1, _⟩ => show win1_3.index t (1 : Fin 2) * 8 + 1 * b.val = b.val; rw [e1]; omega
/-- Window 4's block at every point is its whole array. -/
theorem iblk1_4_whole (c : Dev nD) (t : Fin cfg1.N) (a : Fin 8) (b : Fin 128) :
    (iblk1 V c 4 t : Vec Ideal S8x128 .f32) (ix2 a b) = (V c main_cst_0 : Cert.Spec.A2 8 128) (ix2 a b) := by
  obtain ⟨e0, e1⟩ := idx_whole1_4 t
  unfold iblk1
  rw [View.read_apply]
  show V c main_cst_0 _ = V c main_cst_0 _
  congr 1
  funext d; apply Fin.ext
  match d with
  | ⟨0, _⟩ => show win1_4.index t (0 : Fin 2) * 8 + 1 * a.val = a.val; rw [e0]; omega
  | ⟨1, _⟩ => show win1_4.index t (1 : Fin 2) * 128 + 1 * b.val = b.val; rw [e1]; omega

/-- What point `t` writes back through window 6 is block `t` of the specification's repeated scores. -/
theorem flushed1_6_eq (c : Dev nD) (t : Fin cfg1.N) :
    (dat1 (F := Ideal) V c).flushed 6 t = ((cfg1.win 6).blk t).view.read (Elt Ideal) (Cert.Spec.G1s (V c main_v8) (V c main_v9) (V c main_cst) (V c main_cst_0)) := by
  show (cfg1.win 6).cut (grid1.coords t) ((dat1 V c).after 6 t) = _
  rw [after1_6]
  unfold out1_6
  rw [View.canon_unit_zero hz1]
  simp only [View.ld_unit_zero (S := S4000x128) hz1, View.ld_unit_zero (S := S128x8) hz1, View.ld_unit_zero (S := S8x128) hz1]
  obtain ⟨e0, e1⟩ := idx_rows1_6 t
  have hN : cfg1.N = 160 := N_1
  have ht : t.val < 160 := Nat.lt_of_lt_of_eq t.isLt hN
  funext y
  obtain ⟨p, j, rfl⟩ : ∃ (p : Fin 4000) (j : Fin 128), y = ix2 p j := ⟨y 0, y 1, eq_ix2 y⟩
  have hp : p.val < 4000 := p.isLt
  have hemb : ((cfg1.win 6).blk t).view.emb (ix2 p j) = (ix2 (⟨t.val * 4000 + p.val, by omega⟩ : Fin 640000) j : S640000x128.Idx) := by
    funext d; apply Fin.ext
    match d with
    | ⟨0, _⟩ => show win1_6.index t (0 : Fin 2) * 4000 + 1 * p.val = t.val * 4000 + p.val; rw [e0]; omega
    | ⟨1, _⟩ => show win1_6.index t (1 : Fin 2) * 128 + 1 * j.val = j.val; rw [e1]; omega
  rw [View.read_apply]
  show k1_pay1 (F := Ideal) (iblk1 V c 0 t) (iblk1 V c 1 t) (iblk1 V c 3 t) (iblk1 V c 4 t) (ix2 p j) = (Cert.Spec.G1s (V c main_v8) (V c main_v9) (V c main_cst) (V c main_cst_0)) (((cfg1.win 6).blk t).view.emb (ix2 p j))
  rw [hemb]
  exact k1_pay1_pt (V c main_v8) (V c main_v9) (V c main_cst) (V c main_cst_0) (iblk1 V c 0 t) (iblk1 V c 1 t) (iblk1 V c 3 t) (iblk1 V c 4 t) p j (⟨t.val * 4000 + p.val, by omega⟩ : Fin 640000) (fun a => iblk1_0_row V c t p a _ rfl) (fun a => iblk1_1_row V c t p a _ rfl) (fun a h => iblk1_3_whole V c t a h) (fun h => iblk1_4_whole V c t h j)

/-- What point `t` writes back through window 5 is block `t` of the specification's weighted values. -/
theorem flushed1_5_eq (c : Dev nD) (t : Fin cfg1.N) :
    (dat1 (F := Ideal) V c).flushed 5 t = ((cfg1.win 5).blk t).view.read (Elt Ideal) (Cert.Spec.G1w (V c main_v8) (V c main_v9) (V c main_v10) (V c main_cst) (V c main_cst_0)) := by
  show (cfg1.win 5).cut (grid1.coords t) ((dat1 V c).after 5 t) = _
  rw [after1_5]
  unfold out1_5
  rw [View.canon_unit_zero hz1]
  simp only [View.ld_unit_zero (S := S4000x128) hz1, View.ld_unit_zero (S := S128x8) hz1, View.ld_unit_zero (S := S8x128) hz1]
  obtain ⟨e0, e1⟩ := idx_rows1_5 t
  have hN : cfg1.N = 160 := N_1
  have ht : t.val < 160 := Nat.lt_of_lt_of_eq t.isLt hN
  funext y
  obtain ⟨p, j, rfl⟩ : ∃ (p : Fin 4000) (j : Fin 128), y = ix2 p j := ⟨y 0, y 1, eq_ix2 y⟩
  have hp : p.val < 4000 := p.isLt
  have hemb : ((cfg1.win 5).blk t).view.emb (ix2 p j) = (ix2 (⟨t.val * 4000 + p.val, by omega⟩ : Fin 640000) j : S640000x128.Idx) := by
    funext d; apply Fin.ext
    match d with
    | ⟨0, _⟩ => show win1_5.index t (0 : Fin 2) * 4000 + 1 * p.val = t.val * 4000 + p.val; rw [e0]; omega
    | ⟨1, _⟩ => show win1_5.index t (1 : Fin 2) * 128 + 1 * j.val = j.val; rw [e1]; omega
  rw [View.read_apply]
  show k1_pay2 (F := Ideal) (iblk1 V c 0 t) (iblk1 V c 1 t) (iblk1 V c 2 t) (iblk1 V c 3 t) (iblk1 V c 4 t) (ix2 p j) = (Cert.Spec.G1w (V c main_v8) (V c main_v9) (V c main_v10) (V c main_cst) (V c main_cst_0)) (((cfg1.win 5).blk t).view.emb (ix2 p j))
  rw [hemb]
  exact k1_pay2_pt (V c main_v8) (V c main_v9) (V c main_v10) (V c main_cst) (V c main_cst_0) (iblk1 V c 0 t) (iblk1 V c 1 t) (iblk1 V c 2 t) (iblk1 V c 3 t) (iblk1 V c 4 t) p j (⟨t.val * 4000 + p.val, by omega⟩ : Fin 640000) (fun a => iblk1_0_row V c t p a _ rfl) (fun a => iblk1_1_row V c t p a _ rfl) (iblk1_2_row V c t p j _ rfl) (fun a h => iblk1_3_whole V c t a h) (fun h => iblk1_4_whole V c t h j)

/-- An index of the array is in point `t`'s block of window 5 iff each coordinate is in the block's range on its axis. -/
theorem mem_blk1_5 (t : Fin cfg1.N) (i : S640000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v11_0).slice (win1_5.rect t)).set ↔ _
  rw [View.set_slice_whole, Rect.mem_set_unit]
  exact Iff.rfl

/-- Row `r` lies in the block of point `r / 4000`: the 160 row blocks of window 5 cover its array. -/
theorem covered1_5 (i : S640000x128.Idx) :
    ∃ t : Fin cfg1.N, (cfg1.win 5).flush t = true ∧ i ∈ ((cfg1.win 5).blk t).view.set := by
  have hi0 : (i 0).val < 640000 := idx2_lt0 i
  have hi1 : (i 1).val < 128 := idx2_lt1 i
  have hN : cfg1.N = 160 := N_1
  let t : Fin cfg1.N := ⟨(i 0).val / 4000, by rw [hN]; omega⟩
  obtain ⟨e0, e1⟩ := idx_rows1_5 t
  have e0' : win1_5.index t (0 : Fin 2) = (i 0).val / 4000 := e0
  refine ⟨t, flush1_5 t, ?_⟩
  rw [mem_blk1_5]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- An index of the array is in point `t`'s block of window 6 iff each coordinate is in the block's range on its axis. -/
theorem mem_blk1_6 (t : Fin cfg1.N) (i : S640000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v11_1).slice (win1_6.rect t)).set ↔ _
  rw [View.set_slice_whole, Rect.mem_set_unit]
  exact Iff.rfl

/-- Row `r` lies in the block of point `r / 4000`: the 160 row blocks of window 6 cover its array. -/
theorem covered1_6 (i : S640000x128.Idx) :
    ∃ t : Fin cfg1.N, (cfg1.win 6).flush t = true ∧ i ∈ ((cfg1.win 6).blk t).view.set := by
  have hi0 : (i 0).val < 640000 := idx2_lt0 i
  have hi1 : (i 1).val < 128 := idx2_lt1 i
  have hN : cfg1.N = 160 := N_1
  let t : Fin cfg1.N := ⟨(i 0).val / 4000, by rw [hN]; omega⟩
  obtain ⟨e0, e1⟩ := idx_rows1_6 t
  have e0' : win1_6.index t (0 : Fin 2) = (i 0).val / 4000 := e0
  refine ⟨t, flush1_6 t, ?_⟩
  rw [mem_blk1_6]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- The first output array after the region: the specification's weighted values of the region's input arrays. -/
theorem final1_5 (c : Dev nD) : (dat1 (F := Ideal) V c).arrAt 5 cfg1.N = (Cert.Spec.G1w (V c main_v8) (V c main_v9) (V c main_v10) (V c main_cst) (V c main_cst_0)) :=
  (dat1 V c).arrAt_eq_of_cover 5 (Cert.Spec.G1w (V c main_v8) (V c main_v9) (V c main_v10) (V c main_cst) (V c main_cst_0)) (fun t _ => flushed1_5_eq V c t) covered1_5

/-- The second output array after the region: the specification's repeated scores of the region's input arrays. -/
theorem final1_6 (c : Dev nD) : (dat1 (F := Ideal) V c).arrAt 6 cfg1.N = (Cert.Spec.G1s (V c main_v8) (V c main_v9) (V c main_cst) (V c main_cst_0)) :=
  (dat1 V c).arrAt_eq_of_cover 6 (Cert.Spec.G1s (V c main_v8) (V c main_v9) (V c main_cst) (V c main_cst_0)) (fun t _ => flushed1_6_eq V c t) covered1_6

end Blocks

end Cert.KernelIdeal.Hand

end
-- ==== Proof.KI.Val2.lean ====
/- REGION 2 of @main at the extended reals: the output array after the region is ONE whole-array function of the
   region's input arrays, (x + attn·wo) + bo. The body's payload at an entry of the block; what a grid point writes
   back as a block of that function (row r of the output reads row r of the layer input, row r of the attention rows,
   the whole weight and the whole bias); the blocks cover the array (row r lies in block r / 1000). -/
import proofs.«420532_j35407710388433_1_alg».proof.Proof.KI.Reg2
import proofs.«420532_j35407710388433_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

theorem lhs_k2_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_k2_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhs_k2_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhs_k2_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The block product into a zero accumulator, entry (p, q): row p of the left block against column q of the
    right operand. -/
theorem matmul2_apply {φ₁ φ₂ : FTy} (l : FVec Ideal S1000x128 φ₁) (r : FVec Ideal S128x128 φ₂) (p : Fin 1000) (q : Fin 128) :
    matmul dot_S1000x128_S128x128_S1000x128_1_0_0_1_n_n none l r (constant S1000x128 .f32 0x00000000#32) (ix2 p q)
      = ∑ k : Fin 128, l (ix2 p k) * r (ix2 k q) := by
  show FloatOps.matmul dot_S1000x128_S128x128_S1000x128_1_0_0_1_n_n none l r (constant S1000x128 .f32 0x00000000#32) (ix2 p q) = _
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact lhs_k2_0 _ _
    | ⟨1, _⟩ => exact (lhs_k2_1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (rhs_k2_0 _ _).trans hk
    | ⟨1, _⟩ => exact rhs_k2_1 _ _)
  rw [el, er]

/-- The bias laid along every row of the block, entry (p, q): the bias at q. -/
theorem bias_row2_apply (b : Vec Ideal S128 .f32) (p : Fin 1000) (q : Fin 128) :
    broadcastTo S1000x128 (shapeCast S1x128 b shapeCasts_S128_S1x128) broadcasts_S1x128_S1000x128 (ix2 p q) = b (ix1 q) := by
  have e1 := broadcastTo_apply (shapeCast S1x128 b shapeCasts_S128_S1x128) broadcasts_S1x128_S1000x128 (ix2 p q) (ix2 (0 : Fin 1) q) (by
    intro a
    match a with
    | ⟨0, _⟩ => rfl
    | ⟨1, _⟩ => rfl)
  have e2 := shapeCast_apply b shapeCasts_S128_S1x128 (ix2 (0 : Fin 1) q) (ix1 q) (by
    rw [Shape.rowMajor_val_two, Shape.rowMajor_val_one]; show q.val = 0 * 128 + q.val; omega)
  exact e1.trans e2

/-- The body's payload at entry (p, q): the residual entry, plus row p of the attention block against column q of
    the weight, plus the bias at q. -/
theorem k2_pay1_apply (a : Vec Ideal S1000x128 .f32) (w : Vec Ideal S128x128 .f32) (x : Vec Ideal S1000x128 .f32)
    (b : Vec Ideal S128 .f32) (p : Fin 1000) (q : Fin 128) :
    k2_pay1 a w x b (ix2 p q) = (x (ix2 p q) + ∑ k : Fin 128, a (ix2 p k) * w (ix2 k q)) + b (ix1 q) := by
  unfold k2_pay1
  rw [addf_apply, addf_apply, bias_row2_apply, matmul2_apply]
  simp only [shapeCast_self, truncf_apply]

/-- The payload of blocks that are rows of whole arrays, at a block entry j that sits at array entry i: when the
    residual block's entry j is the array's entry i, the attention block's row j 0 is the array's row i 0, the weight
    and the bias are whole, and the column is kept, the payload there is the region's function at i. -/
theorem k2_pay1_eq_G2 (a x : Vec Ideal S1000x128 .f32) (w : Vec Ideal S128x128 .f32) (b : Vec Ideal S128 .f32)
    (X AT : Cert.Spec.A2 50000 128) (W : Cert.Spec.A2 128 128) (B : Cert.Spec.A1 128)
    (j : S1000x128.Idx) (i : S50000x128.Idx)
    (hx : x j = X i) (ha : ∀ k : Fin 128, a (ix2 (j 0) k) = AT (ix2 (i 0) k))
    (hw : w = W) (hb : b = B) (hi1 : i 1 = j 1) :
    k2_pay1 a w x b j = Cert.Spec.G2 X AT W B i := by
  obtain ⟨p, q, rfl⟩ : ∃ (p : Fin 1000) (q : Fin 128), j = ix2 p q := ⟨j 0, j 1, eq_ix2 j⟩
  rw [k2_pay1_apply, hx, hw, hb]
  unfold Cert.Spec.G2 Cert.Spec.mm
  rw [hi1]
  refine congrArg (fun s => (X i + s) + B (ix1 q)) (Finset.sum_congr rfl fun k _ => ?_)
  rw [ha k]

/-! ## What a grid point writes back -/

theorem zero_offsets2_rank2 : (![0, 0] : Fin 2 → Nat) = fun _ => 0 := funext fun a => by fin_cases a <;> rfl
theorem zero_offsets2_rank1 : (![0] : Fin 1 → Nat) = fun _ => 0 := funext fun a => by fin_cases a; rfl

/-- The printed index maps, decided over the grid: the two row-blocked inputs move with the output (block row t,
    block column 0); the weight and the bias stay at block 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- WHAT POINT t WRITES BACK is block t of the region's function of the arrays as the region finds them. -/
theorem flushed2_4_eq (c : Dev nD) (t : Fin cfg2.N) :
    (dat2 (F := Ideal) V c).flushed 4 t = ((cfg2.win 4).blk t).view.read (Elt Ideal)
      (Cert.Spec.G2 (V c main_arg0) (V c main_v18) (V c main_v19) (V c main_arg7)) := by
  show (cfg2.win 4).cut (grid2.coords t) ((dat2 V c).after 4 t) = _
  rw [after2_4]
  unfold out2_4
  rw [View.canon_unit_zero zero_offsets2_rank2]
  simp only [View.ld_unit_zero (S := S1000x128) zero_offsets2_rank2, View.ld_unit_zero (S := S128x128) zero_offsets2_rank2, View.ld_unit_zero (S := S128) zero_offsets2_rank1]
  obtain ⟨e00, e01, e10, e11, e20, e21, e30, e40, e41⟩ := idx_facts2 t
  funext j
  show k2_pay1 (iblk2 V c 1 t) (iblk2 V c 2 t) (iblk2 V c 0 t) (iblk2 V c 3 t) j
    = Cert.Spec.G2 (V c main_arg0) (V c main_v18) (V c main_v19) (V c main_arg7) (((cfg2.win 4).blk t).view.emb j)
  refine k2_pay1_eq_G2 _ _ _ _ _ _ _ _ j _ ?_ ?_ ?_ ?_ ?_
  · show V c main_arg0 (((cfg2.win 0).blk t).view.emb j) = V c main_arg0 (((cfg2.win 4).blk t).view.emb j)
    refine congrArg (V c main_arg0) (funext fun a => Fin.ext ?_)
    match a with
    | ⟨0, _⟩ => show win2_0.index t (0 : Fin 2) * 1000 + 1 * (j 0).val = win2_4.index t (0 : Fin 2) * 1000 + 1 * (j 0).val; omega
    | ⟨1, _⟩ => show win2_0.index t (1 : Fin 2) * 128 + 1 * (j 1).val = win2_4.index t (1 : Fin 2) * 128 + 1 * (j 1).val; omega
  · intro k
    show V c main_v18 (((cfg2.win 1).blk t).view.emb (ix2 (j 0) k)) = V c main_v18 (ix2 ((((cfg2.win 4).blk t).view.emb j) 0) k)
    refine congrArg (V c main_v18) (funext fun a => Fin.ext ?_)
    match a with
    | ⟨0, _⟩ => show win2_1.index t (0 : Fin 2) * 1000 + 1 * (j 0).val = win2_4.index t (0 : Fin 2) * 1000 + 1 * (j 0).val; omega
    | ⟨1, _⟩ => show win2_1.index t (1 : Fin 2) * 128 + 1 * k.val = k.val; omega
  · funext y
    show V c main_v19 (((cfg2.win 2).blk t).view.emb y) = V c main_v19 y
    refine congrArg (V c main_v19) (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · funext y
    show V c main_arg7 (((cfg2.win 3).blk t).view.emb y) = V c main_arg7 y
    refine congrArg (V c main_arg7) (funext fun a => Fin.ext ?_)
    match a with
    | ⟨0, _⟩ => show win2_3.index t (0 : Fin 1) * 128 + 1 * (y 0).val = (y 0).val; omega
  · refine Fin.ext ?_
    show win2_4.index t (1 : Fin 2) * 128 + 1 * (j 1).val = (j 1).val
    omega

/-! ## The blocks cover the array -/

/-- An index of the array is in point t's block iff each coordinate is in the block's range on its axis. -/
theorem mem_blk2_4 (t : Fin cfg2.N) (i : S50000x128.Idx) :
    i ∈ ((cfg2.win 4).blk t).view.set ↔ ∀ a : Fin 2, win2_4.index t a * S1000x128.size a ≤ (i a).val ∧ (i a).val < win2_4.index t a * S1000x128.size a + S1000x128.size a := by
  show i ∈ ((View.whole main_v20).slice (win2_4.rect t)).set ↔ _
  rw [View.set_slice_whole, Rect.mem_set_unit]
  exact Iff.rfl

/-- Row r of the array lies in the block of point r / 1000. -/
theorem cover2_4_arr (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 50 := N_2
  let t : Fin cfg2.N := ⟨(i 0).val / 1000, by rw [hN]; omega⟩
  have ht : t.val = (i 0).val / 1000 := rfl
  obtain ⟨-, -, -, -, -, -, -, e40, e41⟩ := idx_facts2 t
  refine ⟨t, flush2_4 t, ?_⟩
  rw [mem_blk2_4]
  intro a
  match a with
  | ⟨0, _⟩ => show win2_4.index t (0 : Fin 2) * 1000 ≤ (i 0).val ∧ (i 0).val < win2_4.index t (0 : Fin 2) * 1000 + 1000; omega
  | ⟨1, _⟩ => show win2_4.index t (1 : Fin 2) * 128 ≤ (i 1).val ∧ (i 1).val < win2_4.index t (1 : Fin 2) * 128 + 128; omega

/-- THE ARRAY after the region: the region's function of the arrays as the region finds them. -/
theorem final2_4 (c : Dev nD) :
    (dat2 (F := Ideal) V c).arrAt 4 cfg2.N = Cert.Spec.G2 (V c main_arg0) (V c main_v18) (V c main_v19) (V c main_arg7) :=
  (dat2 (F := Ideal) V c).arrAt_eq_of_cover 4 (Cert.Spec.G2 (V c main_arg0) (V c main_v18) (V c main_v19) (V c main_arg7))
    (fun t _ => flushed2_4_eq V c t) cover2_4_arr

end Cert.KernelIdeal.Hand

end
-- ==== Proof.KI.Val3.lean ====
/- Region 3 (the normalisation and feed-forward kernel) at the exact extended reals: the value of the region. The
   stored block read at an entry is the normalised row entry plus the feed-forward of the normalised row; block `t`
   holds rows `1000 t … 1000 t + 999`; the blocks cover the array, so the output array after the region is one
   whole-array function of the region's input arrays. -/
import proofs.«420532_j35407710388433_1_alg».proof.Proof.KI.Reg3
import proofs.«420532_j35407710388433_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The payloads at an entry -/

theorem lhs_mm3a_0 (i : S1000x256.Idx) (q : dot_S1000x128_S128x256_S1000x256_1_0_0_1_n_n.contr.Idx) :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
  rfl
theorem lhs_mm3a_1 (i : S1000x256.Idx) (q : dot_S1000x128_S128x256_S1000x256_1_0_0_1_n_n.contr.Idx) :
    (dot_S1000x128_S128x256_S1000x256_1_0_0_1_n_n.lhsIdx i q 1).val = (q ⟨0, by decide⟩).val :=
  dot_S1000x128_S128x256_S1000x256_1_0_0_1_n_n.lhsIdx_val_of_single rfl i q
theorem rhs_mm3a_0 (i : S1000x256.Idx) (q : dot_S1000x128_S128x256_S1000x256_1_0_0_1_n_n.contr.Idx) :
    (dot_S1000x128_S128x256_S1000x256_1_0_0_1_n_n.rhsIdx i q 0).val = (q ⟨0, by decide⟩).val :=
  dot_S1000x128_S128x256_S1000x256_1_0_0_1_n_n.rhsIdx_val_of_single rfl i q
theorem rhs_mm3a_1 (i : S1000x256.Idx) (q : dot_S1000x128_S128x256_S1000x256_1_0_0_1_n_n.contr.Idx) :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
  rfl

/-- The block product into a zero accumulator, at an entry: the row of the left operand against the column of the right. -/
theorem mm3a_apply {φ₁ φ₂ : FTy} (a : FVec Ideal S1000x128 φ₁) (b : FVec Ideal S128x256 φ₂) (p : Fin 1000) (q : Fin 256) :
    matmul dot_S1000x128_S128x256_S1000x256_1_0_0_1_n_n none a b (constant S1000x256 .f32 0x00000000#32) (ix2 p q) = ∑ k : Fin 128, a (ix2 p k) * b (ix2 k q) := by
  simp only [matmul]
  rw [Ideal.matmul_constant_zero_apply, ← Equiv.sum_comp (ValueIdx.contrEquiv1 dot_S1000x128_S128x256_S1000x256_1_0_0_1_n_n 128 rfl rfl).symm]
  refine Finset.sum_congr rfl fun k _ => ?_
  have hk := ValueIdx.contrEquiv1_symm_val dot_S1000x128_S128x256_S1000x256_1_0_0_1_n_n 128 rfl rfl k
  have el : dot_S1000x128_S128x256_S1000x256_1_0_0_1_n_n.lhsIdx (ix2 p q) ((ValueIdx.contrEquiv1 dot_S1000x128_S128x256_S1000x256_1_0_0_1_n_n 128 rfl rfl).symm k) = ix2 p k := funext fun a => Fin.ext (by
    match a with
    | ⟨0, _⟩ => exact lhs_mm3a_0 _ _
    | ⟨1, _⟩ => exact (lhs_mm3a_1 _ _).trans hk)
  have er : dot_S1000x128_S128x256_S1000x256_1_0_0_1_n_n.rhsIdx (ix2 p q) ((ValueIdx.contrEquiv1 dot_S1000x128_S128x256_S1000x256_1_0_0_1_n_n 128 rfl rfl).symm k) = ix2 k q := funext fun a => Fin.ext (by
    match a with
    | ⟨0, _⟩ => exact (rhs_mm3a_0 _ _).trans hk
    | ⟨1, _⟩ => exact rhs_mm3a_1 _ _)
  rw [el, er]

theorem lhs_mm3b_0 (i : S1000x128.Idx) (q : dot_S1000x256_S256x128_S1000x128_1_0_0_1_n_n.contr.Idx) :
    (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
theorem lhs_mm3b_1 (i : S1000x128.Idx) (q : dot_S1000x256_S256x128_S1000x128_1_0_0_1_n_n.contr.Idx) :
    (dot_S1000x256_S256x128_S1000x128_1_0_0_1_n_n.lhsIdx i q 1).val = (q ⟨0, by decide⟩).val :=
  dot_S1000x256_S256x128_S1000x128_1_0_0_1_n_n.lhsIdx_val_of_single rfl i q
theorem rhs_mm3b_0 (i : S1000x128.Idx) (q : dot_S1000x256_S256x128_S1000x128_1_0_0_1_n_n.contr.Idx) :
    (dot_S1000x256_S256x128_S1000x128_1_0_0_1_n_n.rhsIdx i q 0).val = (q ⟨0, by decide⟩).val :=
  dot_S1000x256_S256x128_S1000x128_1_0_0_1_n_n.rhsIdx_val_of_single rfl i q
theorem rhs_mm3b_1 (i : S1000x128.Idx) (q : dot_S1000x256_S256x128_S1000x128_1_0_0_1_n_n.contr.Idx) :
    (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

/-- The block product into a zero accumulator, at an entry: the row of the left operand against the column of the right. -/
theorem mm3b_apply {φ₁ φ₂ : FTy} (a : FVec Ideal S1000x256 φ₁) (b : FVec Ideal S256x128 φ₂) (p : Fin 1000) (q : Fin 128) :
    matmul dot_S1000x256_S256x128_S1000x128_1_0_0_1_n_n none a b (constant S1000x128 .f32 0x00000000#32) (ix2 p q) = ∑ k : Fin 256, a (ix2 p k) * b (ix2 k q) := by
  simp only [matmul]
  rw [Ideal.matmul_constant_zero_apply, ← Equiv.sum_comp (ValueIdx.contrEquiv1 dot_S1000x256_S256x128_S1000x128_1_0_0_1_n_n 256 rfl rfl).symm]
  refine Finset.sum_congr rfl fun k _ => ?_
  have hk := ValueIdx.contrEquiv1_symm_val dot_S1000x256_S256x128_S1000x128_1_0_0_1_n_n 256 rfl rfl k
  have el : dot_S1000x256_S256x128_S1000x128_1_0_0_1_n_n.lhsIdx (ix2 p q) ((ValueIdx.contrEquiv1 dot_S1000x256_S256x128_S1000x128_1_0_0_1_n_n 256 rfl rfl).symm k) = ix2 p k := funext fun a => Fin.ext (by
    match a with
    | ⟨0, _⟩ => exact lhs_mm3b_0 _ _
    | ⟨1, _⟩ => exact (lhs_mm3b_1 _ _).trans hk)
  have er : dot_S1000x256_S256x128_S1000x128_1_0_0_1_n_n.rhsIdx (ix2 p q) ((ValueIdx.contrEquiv1 dot_S1000x256_S256x128_S1000x128_1_0_0_1_n_n 256 rfl rfl).symm k) = ix2 k q := funext fun a => Fin.ext (by
    match a with
    | ⟨0, _⟩ => exact (rhs_mm3b_0 _ _).trans hk
    | ⟨1, _⟩ => exact rhs_mm3b_1 _ _)
  rw [el, er]

/-- The normalised block at an entry: (x - mean) * rsqrt (var + eps) * gamma + beta, the statistics and the affine
    parameters read at the entry's column. -/
theorem k3_pay2_apply (v0 : Vec Ideal S1000x128 .f32) (v2 v4 v6 v7 : Vec Ideal S128 .f32) (p : Fin 1000) (q : Fin 128) :
    k3_pay2 v0 v2 v4 v6 v7 (ix2 p q)
      = (v0 (ix2 p q) - v2 (ix1 q)) * Ideal.rsqrt (v4 (ix1 q) + Ideal.ofBits .f32 0x3727C5AC#32) * v6 (ix1 q) + v7 (ix1 q) := by
  unfold k3_pay2
  simp only [shapeCast_self]
  rw [addf_apply, mulf_apply, mulf_apply, subf_apply, broadcastTo_1b_ab_apply, broadcastTo_1b_ab_apply, broadcastTo_1b_ab_apply,
    broadcastTo_1b_ab_apply, shapeCast_a_1a_apply, shapeCast_a_1a_apply, shapeCast_a_1a_apply, shapeCast_a_1a_apply]
  rfl

/-- The feed-forward of the normalised block at an entry: relu (h·w1 + b1)·w2 + b2 with h the normalised block. -/
theorem k3_pay3_apply (v0 : Vec Ideal S1000x128 .f32) (v2 v4 v6 v7 : Vec Ideal S128 .f32) (v24 : Vec Ideal S128x256 .f32)
    (v28 : Vec Ideal S256 .f32) (v35 : Vec Ideal S256x128 .f32) (v39 : Vec Ideal S128 .f32) (p : Fin 1000) (q : Fin 128) :
    k3_pay3 v0 v2 v4 v6 v7 v24 v28 v35 v39 (ix2 p q)
      = (∑ k : Fin 256, max ((∑ j : Fin 128, k3_pay2 v0 v2 v4 v6 v7 (ix2 p j) * v24 (ix2 j k)) + v28 (ix1 k)) (Ideal.ofBits .f32 0x00000000#32)
          * v35 (ix2 k q)) + v39 (ix1 q) := by
  unfold k3_pay3
  simp only [shapeCast_self]
  rw [addf_apply, mm3b_apply, broadcastTo_1b_ab_apply, shapeCast_a_1a_apply]
  refine congrArg (· + v39 (ix1 q)) (Finset.sum_congr rfl fun k _ => ?_)
  rw [truncf_apply, truncf_apply, maximumf_apply, addf_apply, mm3a_apply, broadcastTo_1b_ab_apply, shapeCast_a_1a_apply]
  rfl

/-! ## From the blocks to the array -/

section Value
variable (V : (c : Dev nD) → (b : Ref sig .tc) → Buf (Elt Ideal) ((c : Thread nD τ).loc b))

theorem hz3_2 : (![0, 0] : Fin 2 → Nat) = fun _ => 0 := funext fun a => by fin_cases a <;> rfl
theorem hz3_1 : (![0] : Fin 1 → Nat) = fun _ => 0 := funext fun a => by fin_cases a <;> rfl

/-- The stored block at an entry is the region's function of the arrays at the entry's row of the array, whenever the
    row block read is rows `row p` of the array and the other operands are the whole arrays. -/
theorem k3_pay1_apply (X : Vec Ideal S50000x128 .f32) (mu var g b : Vec Ideal S128 .f32) (w1 : Vec Ideal S128x256 .f32)
    (b1 : Vec Ideal S256 .f32) (w2 : Vec Ideal S256x128 .f32) (b2 : Vec Ideal S128 .f32)
    (x0 : Vec Ideal S1000x128 .f32) (row : Fin 1000 → Fin 50000)
    (h0 : ∀ (p : Fin 1000) (q : Fin 128), x0 (ix2 p q) = X (ix2 (row p) q)) (p : Fin 1000) (q : Fin 128) :
    k3_pay1 (k3_pay2 x0 mu var g b) (k3_pay3 x0 mu var g b w1 b1 w2 b2) (ix2 p q)
      = Cert.Spec.G3 X mu var g b w1 b1 w2 b2 (ix2 (row p) q) := by
  have hbn : ∀ j : Fin 128, k3_pay2 x0 mu var g b (ix2 p j) = Cert.Spec.bn X mu var g b (ix2 (row p) j) := fun j => by
    rw [k3_pay2_apply, h0]; rfl
  unfold k3_pay1
  rw [addf_apply, k3_pay3_apply, hbn q]
  simp only [hbn]
  rfl

/-- The printed index maps, decided over the grid: the row-blocked windows sit at block `t` of the rows and block 0 of
    the columns; every other window is at block 0 on each axis. -/
theorem idx_facts3 : ∀ t : Fin cfg3.N, win3_9.index t (0 : Fin 2) = t.val
    ∧ win3_9.index t (1 : Fin 2) = 0
    ∧ win3_0.index t (0 : Fin 2) = t.val
    ∧ win3_0.index t (1 : Fin 2) = 0
    ∧ win3_1.index t (0 : Fin 1) = 0
    ∧ win3_2.index t (0 : Fin 1) = 0
    ∧ win3_3.index t (0 : Fin 1) = 0
    ∧ win3_4.index t (0 : Fin 1) = 0
    ∧ win3_5.index t (0 : Fin 2) = 0
    ∧ win3_5.index t (1 : Fin 2) = 0
    ∧ win3_6.index t (0 : Fin 1) = 0
    ∧ win3_7.index t (0 : Fin 2) = 0
    ∧ win3_7.index t (1 : Fin 2) = 0
    ∧ win3_8.index t (0 : Fin 1) = 0 :=
  (by decide +kernel : ∀ t : Fin grid3.N, _)

/-- Window 1 is its whole array: its block at any point is the array as the region finds it. -/
theorem iblk3_1_eq (c : Dev nD) (t : Fin cfg3.N) :
    (iblk3 V c 1 t : Vec Ideal S128 .f32) = (V c main_v23 : S128.Idx → Elt Ideal .f32) := by
  obtain ⟨e0, e1, e2, e3, e4, e5, e6, e7, e8, e9, e10, e11, e12, e13⟩ := idx_facts3 t
  funext y
  show V c main_v23 (((cfg3.win 1).blk t).view.emb y) = V c main_v23 y
  congr 1; funext a; apply Fin.ext
  match a with
  | ⟨0, _⟩ => show win3_1.index t (0 : Fin 1) * 128 + 1 * (y 0).val = (y 0).val; rw [e4]; omega

/-- Window 2 is its whole array: its block at any point is the array as the region finds it. -/
theorem iblk3_2_eq (c : Dev nD) (t : Fin cfg3.N) :
    (iblk3 V c 2 t : Vec Ideal S128 .f32) = (V c main_v30 : S128.Idx → Elt Ideal .f32) := by
  obtain ⟨e0, e1, e2, e3, e4, e5, e6, e7, e8, e9, e10, e11, e12, e13⟩ := idx_facts3 t
  funext y
  show V c main_v30 (((cfg3.win 2).blk t).view.emb y) = V c main_v30 y
  congr 1; funext a; apply Fin.ext
  match a with
  | ⟨0, _⟩ => show win3_2.index t (0 : Fin 1) * 128 + 1 * (y 0).val = (y 0).val; rw [e5]; omega

/-- Window 3 is its whole array: its block at any point is the array as the region finds it. -/
theorem iblk3_3_eq (c : Dev nD) (t : Fin cfg3.N) :
    (iblk3 V c 3 t : Vec Ideal S128 .f32) = (V c main_arg12 : S128.Idx → Elt Ideal .f32) := by
  obtain ⟨e0, e1, e2, e3, e4, e5, e6, e7, e8, e9, e10, e11, e12, e13⟩ := idx_facts3 t
  funext y
  show V c main_arg12 (((cfg3.win 3).blk t).view.emb y) = V c main_arg12 y
  congr 1; funext a; apply Fin.ext
  match a with
  | ⟨0, _⟩ => show win3_3.index t (0 : Fin 1) * 128 + 1 * (y 0).val = (y 0).val; rw [e6]; omega

/-- Window 4 is its whole array: its block at any point is the array as the region finds it. -/
theorem iblk3_4_eq (c : Dev nD) (t : Fin cfg3.N) :
    (iblk3 V c 4 t : Vec Ideal S128 .f32) = (V c main_arg13 : S128.Idx → Elt Ideal .f32) := by
  obtain ⟨e0, e1, e2, e3, e4, e5, e6, e7, e8, e9, e10, e11, e12, e13⟩ := idx_facts3 t
  funext y
  show V c main_arg13 (((cfg3.win 4).blk t).view.emb y) = V c main_arg13 y
  congr 1; funext a; apply Fin.ext
  match a with
  | ⟨0, _⟩ => show win3_4.index t (0 : Fin 1) * 128 + 1 * (y 0).val = (y 0).val; rw [e7]; omega

/-- Window 5 is its whole array: its block at any point is the array as the region finds it. -/
theorem iblk3_5_eq (c : Dev nD) (t : Fin cfg3.N) :
    (iblk3 V c 5 t : Vec Ideal S128x256 .f32) = (V c main_v31 : S128x256.Idx → Elt Ideal .f32) := by
  obtain ⟨e0, e1, e2, e3, e4, e5, e6, e7, e8, e9, e10, e11, e12, e13⟩ := idx_facts3 t
  funext y
  show V c main_v31 (((cfg3.win 5).blk t).view.emb y) = V c main_v31 y
  congr 1; funext a; apply Fin.ext
  match a with
  | ⟨0, _⟩ => show win3_5.index t (0 : Fin 2) * 128 + 1 * (y 0).val = (y 0).val; rw [e8]; omega
  | ⟨1, _⟩ => show win3_5.index t (1 : Fin 2) * 256 + 1 * (y 1).val = (y 1).val; rw [e9]; omega

/-- Window 6 is its whole array: its block at any point is the array as the region finds it. -/
theorem iblk3_6_eq (c : Dev nD) (t : Fin cfg3.N) :
    (iblk3 V c 6 t : Vec Ideal S256 .f32) = (V c main_arg9 : S256.Idx → Elt Ideal .f32) := by
  obtain ⟨e0, e1, e2, e3, e4, e5, e6, e7, e8, e9, e10, e11, e12, e13⟩ := idx_facts3 t
  funext y
  show V c main_arg9 (((cfg3.win 6).blk t).view.emb y) = V c main_arg9 y
  congr 1; funext a; apply Fin.ext
  match a with
  | ⟨0, _⟩ => show win3_6.index t (0 : Fin 1) * 256 + 1 * (y 0).val = (y 0).val; rw [e10]; omega

/-- Window 7 is its whole array: its block at any point is the array as the region finds it. -/
theorem iblk3_7_eq (c : Dev nD) (t : Fin cfg3.N) :
    (iblk3 V c 7 t : Vec Ideal S256x128 .f32) = (V c main_v32 : S256x128.Idx → Elt Ideal .f32) := by
  obtain ⟨e0, e1, e2, e3, e4, e5, e6, e7, e8, e9, e10, e11, e12, e13⟩ := idx_facts3 t
  funext y
  show V c main_v32 (((cfg3.win 7).blk t).view.emb y) = V c main_v32 y
  congr 1; funext a; apply Fin.ext
  match a with
  | ⟨0, _⟩ => show win3_7.index t (0 : Fin 2) * 256 + 1 * (y 0).val = (y 0).val; rw [e11]; omega
  | ⟨1, _⟩ => show win3_7.index t (1 : Fin 2) * 128 + 1 * (y 1).val = (y 1).val; rw [e12]; omega

/-- Window 8 is its whole array: its block at any point is the array as the region finds it. -/
theorem iblk3_8_eq (c : Dev nD) (t : Fin cfg3.N) :
    (iblk3 V c 8 t : Vec Ideal S128 .f32) = (V c main_arg11 : S128.Idx → Elt Ideal .f32) := by
  obtain ⟨e0, e1, e2, e3, e4, e5, e6, e7, e8, e9, e10, e11, e12, e13⟩ := idx_facts3 t
  funext y
  show V c main_arg11 (((cfg3.win 8).blk t).view.emb y) = V c main_arg11 y
  congr 1; funext a; apply Fin.ext
  match a with
  | ⟨0, _⟩ => show win3_8.index t (0 : Fin 1) * 128 + 1 * (y 0).val = (y 0).val; rw [e13]; omega

/-- Window 0's block at point `t` is rows `1000 t … 1000 t + 999` of its array. -/
theorem iblk3_0_apply (c : Dev nD) (t : Fin cfg3.N) (p : Fin 1000) (q : Fin 128) (hr : t.val * 1000 + p.val < 50000) :
    (iblk3 V c 0 t : Vec Ideal S1000x128 .f32) (ix2 p q) = (V c main_v20 : S50000x128.Idx → Elt Ideal .f32) (ix2 ⟨t.val * 1000 + p.val, hr⟩ q) := by
  obtain ⟨e0, e1, e2, e3, e4, e5, e6, e7, e8, e9, e10, e11, e12, e13⟩ := idx_facts3 t
  show V c main_v20 (((cfg3.win 0).blk t).view.emb (ix2 p q)) = V c main_v20 _
  congr 1; funext a; apply Fin.ext
  match a with
  | ⟨0, _⟩ => show win3_0.index t (0 : Fin 2) * 1000 + 1 * p.val = t.val * 1000 + p.val; rw [e2]; omega
  | ⟨1, _⟩ => show win3_0.index t (1 : Fin 2) * 128 + 1 * q.val = q.val; rw [e3]; omega

/-- What point `t` writes back is block `t` of the region's function of the arrays as the region finds them. -/
theorem flushed3_9_eq (c : Dev nD) (t : Fin cfg3.N) :
    (dat3 (F := Ideal) V c).flushed 9 t = ((cfg3.win 9).blk t).view.read (Elt Ideal)
      (Cert.Spec.G3 (V c main_v20 : S50000x128.Idx → Elt Ideal .f32) (V c main_v23 : S128.Idx → Elt Ideal .f32) (V c main_v30 : S128.Idx → Elt Ideal .f32) (V c main_arg12 : S128.Idx → Elt Ideal .f32) (V c main_arg13 : S128.Idx → Elt Ideal .f32) (V c main_v31 : S128x256.Idx → Elt Ideal .f32) (V c main_arg9 : S256.Idx → Elt Ideal .f32) (V c main_v32 : S256x128.Idx → Elt Ideal .f32) (V c main_arg11 : S128.Idx → Elt Ideal .f32)) := by
  show (cfg3.win 9).cut (grid3.coords t) ((dat3 V c).after 9 t) = _
  rw [after3_9]
  unfold out3_9
  rw [View.canon_unit_zero hz3_2]
  simp only [View.ld_unit_zero (S := S1000x128) hz3_2, View.ld_unit_zero (S := S128) hz3_1, View.ld_unit_zero (S := S128x256) hz3_2,
    View.ld_unit_zero (S := S256) hz3_1, View.ld_unit_zero (S := S256x128) hz3_2]
  rw [iblk3_1_eq, iblk3_2_eq, iblk3_3_eq, iblk3_4_eq, iblk3_5_eq, iblk3_6_eq, iblk3_7_eq, iblk3_8_eq]
  obtain ⟨e0, e1, e2, e3, e4, e5, e6, e7, e8, e9, e10, e11, e12, e13⟩ := idx_facts3 t
  have hN : t.val < 50 := t.isLt
  funext j
  obtain ⟨p, q, rfl⟩ : ∃ (p : Fin 1000) (q : Fin 128), j = ix2 p q := ⟨j 0, j 1, eq_ix2 j⟩
  have hp : t.val * 1000 + p.val < 50000 := by have := p.isLt; omega
  have hemb : ((cfg3.win 9).blk t).view.emb (ix2 p q) = (ix2 (⟨t.val * 1000 + p.val, hp⟩ : Fin 50000) q : S50000x128.Idx) := by
    funext a; apply Fin.ext
    match a with
    | ⟨0, _⟩ => show win3_9.index t (0 : Fin 2) * 1000 + 1 * p.val = t.val * 1000 + p.val; rw [e0]; omega
    | ⟨1, _⟩ => show win3_9.index t (1 : Fin 2) * 128 + 1 * q.val = q.val; rw [e1]; omega
  show _ = Cert.Spec.G3 (V c main_v20 : S50000x128.Idx → Elt Ideal .f32) (V c main_v23 : S128.Idx → Elt Ideal .f32) (V c main_v30 : S128.Idx → Elt Ideal .f32) (V c main_arg12 : S128.Idx → Elt Ideal .f32) (V c main_arg13 : S128.Idx → Elt Ideal .f32) (V c main_v31 : S128x256.Idx → Elt Ideal .f32) (V c main_arg9 : S256.Idx → Elt Ideal .f32) (V c main_v32 : S256x128.Idx → Elt Ideal .f32) (V c main_arg11 : S128.Idx → Elt Ideal .f32) (((cfg3.win 9).blk t).view.emb (ix2 p q))
  rw [hemb]
  exact k3_pay1_apply _ _ _ _ _ _ _ _ _ (iblk3 V c 0 t) (fun p => ⟨t.val * 1000 + p.val, by have := p.isLt; omega⟩)
    (fun p q => iblk3_0_apply V c t p q _) p q

/-- An index of the array is in point `t`'s block iff each coordinate is in the block's range on its axis. -/
theorem mem_blk3_9 (t : Fin cfg3.N) (i : S50000x128.Idx) :
    i ∈ ((cfg3.win 9).blk t).view.set ↔ ∀ a : Fin 2, win3_9.index t a * S1000x128.size a ≤ (i a).val ∧ (i a).val < win3_9.index t a * S1000x128.size a + S1000x128.size a := by
  show i ∈ ((View.whole main_v33).slice (win3_9.rect t)).set ↔ _
  rw [View.set_slice_whole, Rect.mem_set_unit]
  exact Iff.rfl

/-- Every row of the array is in the block of the point its row number divided by the block height names. -/
theorem cover3_9_arr (i : S50000x128.Idx) : ∃ t : Fin cfg3.N, (cfg3.win 9).flush t = true ∧ i ∈ ((cfg3.win 9).blk t).view.set := by
  have hi0 : (i 0).val < 50000 := (i 0).isLt
  have hi1 : (i 1).val < 128 := (i 1).isLt
  have ht : (i 0).val / 1000 < 50 := by omega
  refine ⟨⟨(i 0).val / 1000, ht⟩, flush3_9 _, ?_⟩
  obtain ⟨e0, e1, e2, e3, e4, e5, e6, e7, e8, e9, e10, e11, e12, e13⟩ := idx_facts3 ⟨(i 0).val / 1000, ht⟩
  rw [mem_blk3_9]
  intro a
  match a with
  | ⟨0, _⟩ => show win3_9.index ⟨(i 0).val / 1000, ht⟩ (0 : Fin 2) * 1000 ≤ (i 0).val ∧ (i 0).val < win3_9.index ⟨(i 0).val / 1000, ht⟩ (0 : Fin 2) * 1000 + 1000; rw [e0]; show (i 0).val / 1000 * 1000 ≤ (i 0).val ∧ (i 0).val < (i 0).val / 1000 * 1000 + 1000; omega
  | ⟨1, _⟩ => show win3_9.index ⟨(i 0).val / 1000, ht⟩ (1 : Fin 2) * 128 ≤ (i 1).val ∧ (i 1).val < win3_9.index ⟨(i 0).val / 1000, ht⟩ (1 : Fin 2) * 128 + 128; rw [e1]; omega

/-- The output array after the region: the region's function of the input arrays as the region finds them. -/
theorem final3_9 (c : Dev nD) : (dat3 (F := Ideal) V c).arrAt 9 cfg3.N
    = Cert.Spec.G3 (V c main_v20 : S50000x128.Idx → Elt Ideal .f32) (V c main_v23 : S128.Idx → Elt Ideal .f32) (V c main_v30 : S128.Idx → Elt Ideal .f32) (V c main_arg12 : S128.Idx → Elt Ideal .f32) (V c main_arg13 : S128.Idx → Elt Ideal .f32) (V c main_v31 : S128x256.Idx → Elt Ideal .f32) (V c main_arg9 : S256.Idx → Elt Ideal .f32) (V c main_v32 : S256x128.Idx → Elt Ideal .f32) (V c main_arg11 : S128.Idx → Elt Ideal .f32) :=
  (dat3 (F := Ideal) V c).arrAt_eq_of_cover 9 _ (fun t _ => flushed3_9_eq V c t) (cover3_9_arr)

end Value

end Cert.KernelIdeal.Hand

end
-- ==== Proof.KI.Val4.lean ====
/- The value of region 4 (the second batch normalisation) on the extended reals: the array the region's output
   window ends holding is, index by index, (x - mean) * rsqrt (var + eps) * gamma + beta of the arrays the region
   is entered with. First the body's payload read at one index of a block; then what a grid point writes back is
   that point's block of the whole-array function; the fifty blocks of 1000 rows cover the 50000 rows. -/
import proofs.«420532_j35407710388433_1_alg».proof.Proof.KI.Reg4
import proofs.«420532_j35407710388433_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## The payload at an index -/

/-- A 128-vector viewed as one row and repeated over 1000 rows reads, at (p, q), the vector at q. -/
theorem row_bcast4_apply {α : Type} (v : S128.Idx → α) (p : Fin 1000) (q : Fin 128) :
    broadcastTo S1000x128 (shapeCast S1x128 v shapeCasts_S128_S1x128) broadcasts_S1x128_S1000x128 (ix2 p q) = v (ix1 q) := by
  rw [broadcastTo_1b_ab_apply, shapeCast_a_1a_apply]

/-- The body's one stored value at (p, q) of the block: the normalised entry, column statistics and affine
    parameters read at column q. -/
theorem k4_pay1_apply (x : Vec Ideal S1000x128 .f32) (mu var g b : Vec Ideal S128 .f32) (p : Fin 1000) (q : Fin 128) :
    k4_pay1 x mu var g b (ix2 p q)
      = (x (ix2 p q) - mu (ix1 q)) * Ideal.rsqrt (var (ix1 q) + Ideal.ofBits .f32 0x3727C5AC#32) * g (ix1 q) + b (ix1 q) := by
  unfold k4_pay1
  simp only [shapeCast_self]
  rw [addf_apply, mulf_apply, mulf_apply, subf_apply, row_bcast4_apply, row_bcast4_apply, row_bcast4_apply, row_bcast4_apply]
  rfl

/-- The same at a point of the whole array: when the block's entry (p, q) is the array's entry i and the four
    vectors read at q are the array-level vectors read at i's column, the payload is the whole-array function at i. -/
theorem k4_pay1_eq_G4 (X : Cert.Spec.A2 50000 128) (Mu Var Ga Be : Cert.Spec.A1 128)
    (x : Vec Ideal S1000x128 .f32) (mu var g b : Vec Ideal S128 .f32) (p : Fin 1000) (q : Fin 128) (i : S50000x128.Idx)
    (hx : x (ix2 p q) = X i) (hmu : mu (ix1 q) = Mu (ix1 (i 1))) (hvar : var (ix1 q) = Var (ix1 (i 1)))
    (hg : g (ix1 q) = Ga (ix1 (i 1))) (hb : b (ix1 q) = Be (ix1 (i 1))) :
    k4_pay1 x mu var g b (ix2 p q) = Cert.Spec.G4 X Mu Var Ga Be i := by
  rw [k4_pay1_apply, hx, hmu, hvar, hg, hb]
  rfl

/-! ## From blocks to the array -/

section Blocks
variable (V : (c : Dev nD) → (b : Ref sig .tc) → Buf (Elt Ideal) ((c : Thread nD τ).loc b))

theorem hz4_2 : (![0, 0] : Fin 2 → Nat) = fun _ => 0 := funext fun a => by fin_cases a <;> rfl
theorem hz4_1 : (![0] : Fin 1 → Nat) = fun _ => 0 := funext fun a => by fin_cases a <;> rfl

/-- The printed index maps, decided over the fifty grid points: the row window moves with the output window; the
    four vector windows stay at block 0; the output's block index is (row block, 0) with the row block below 50. -/
theorem idx_facts4 : ∀ t : Fin cfg4.N, win4_0.index t (0 : Fin 2) = win4_5.index t (0 : Fin 2)
    ∧ win4_0.index t (1 : Fin 2) = win4_5.index t (1 : Fin 2)
    ∧ win4_1.index t (0 : Fin 1) = 0 ∧ win4_2.index t (0 : Fin 1) = 0
    ∧ win4_3.index t (0 : Fin 1) = 0 ∧ win4_4.index t (0 : Fin 1) = 0
    ∧ win4_5.index t (1 : Fin 2) = 0 ∧ win4_5.index t (0 : Fin 2) ≤ 49 :=
  (by decide +kernel : ∀ t : Fin grid4.N, _)

/-- Every row block is some grid point's. -/
theorem idx_onto4 : ∀ (q0 : Fin 50), ∃ t : Fin cfg4.N, win4_5.index t = ![q0.val, 0] :=
  (by decide +kernel : ∀ (q0 : Fin 50), ∃ t : Fin grid4.N, win4_5.index t = ![q0.val, 0])

/-- What grid point t writes back is block t of the whole-array function of the arrays the region is entered with. -/
theorem flushed4_5_eq (c : Dev nD) (t : Fin cfg4.N) :
    (dat4 V c).flushed 5 t = ((cfg4.win 5).blk t).view.read (Elt Ideal)
      (Cert.Spec.G4 (V c main_v33) (V c main_v36) (V c main_v43) (V c main_arg14) (V c main_arg15)) := by
  show (cfg4.win 5).cut (grid4.coords t) ((dat4 V c).after 5 t) = _
  rw [after4_5]
  unfold out4_5
  rw [View.canon_unit_zero hz4_2]
  simp only [View.ld_unit_zero (S := S1000x128) hz4_2, View.ld_unit_zero (S := S128) hz4_1]
  obtain ⟨e0, e1, e2, e3, e4, e5, e6, e7⟩ := idx_facts4 t
  funext j
  obtain ⟨p, q, rfl⟩ : ∃ (p : Fin 1000) (q : Fin 128), j = ix2 p q := ⟨j 0, j 1, eq_ix2 j⟩
  have hcol : ((((cfg4.win 5).blk t).view.emb (ix2 p q)) 1).val = q.val := by
    show win4_5.index t (1 : Fin 2) * 128 + 1 * q.val = q.val
    omega
  have hx : ((cfg4.win 0).blk t).view.emb (ix2 p q) = ((cfg4.win 5).blk t).view.emb (ix2 p q) := by
    funext a; apply Fin.ext
    match a with
    | ⟨0, _⟩ => show win4_0.index t (0 : Fin 2) * 1000 + 1 * p.val = win4_5.index t (0 : Fin 2) * 1000 + 1 * p.val; omega
    | ⟨1, _⟩ => show win4_0.index t (1 : Fin 2) * 128 + 1 * q.val = win4_5.index t (1 : Fin 2) * 128 + 1 * q.val; omega
  have h1 : ((cfg4.win 1).blk t).view.emb (ix1 q) = ix1 ((((cfg4.win 5).blk t).view.emb (ix2 p q)) 1) := by
    funext a; apply Fin.ext
    match a with
    | ⟨0, _⟩ => show win4_1.index t (0 : Fin 1) * 128 + 1 * q.val = _; rw [hcol]; omega
  have h2 : ((cfg4.win 2).blk t).view.emb (ix1 q) = ix1 ((((cfg4.win 5).blk t).view.emb (ix2 p q)) 1) := by
    funext a; apply Fin.ext
    match a with
    | ⟨0, _⟩ => show win4_2.index t (0 : Fin 1) * 128 + 1 * q.val = _; rw [hcol]; omega
  have h3 : ((cfg4.win 3).blk t).view.emb (ix1 q) = ix1 ((((cfg4.win 5).blk t).view.emb (ix2 p q)) 1) := by
    funext a; apply Fin.ext
    match a with
    | ⟨0, _⟩ => show win4_3.index t (0 : Fin 1) * 128 + 1 * q.val = _; rw [hcol]; omega
  have h4 : ((cfg4.win 4).blk t).view.emb (ix1 q) = ix1 ((((cfg4.win 5).blk t).view.emb (ix2 p q)) 1) := by
    funext a; apply Fin.ext
    match a with
    | ⟨0, _⟩ => show win4_4.index t (0 : Fin 1) * 128 + 1 * q.val = _; rw [hcol]; omega
  exact k4_pay1_eq_G4 _ _ _ _ _ _ _ _ _ _ p q (((cfg4.win 5).blk t).view.emb (ix2 p q))
    (show V c main_v33 (((cfg4.win 0).blk t).view.emb (ix2 p q)) = V c main_v33 (((cfg4.win 5).blk t).view.emb (ix2 p q)) from congrArg _ hx)
    (show V c main_v36 (((cfg4.win 1).blk t).view.emb (ix1 q)) = V c main_v36 _ from congrArg _ h1)
    (show V c main_v43 (((cfg4.win 2).blk t).view.emb (ix1 q)) = V c main_v43 _ from congrArg _ h2)
    (show V c main_arg14 (((cfg4.win 3).blk t).view.emb (ix1 q)) = V c main_arg14 _ from congrArg _ h3)
    (show V c main_arg15 (((cfg4.win 4).blk t).view.emb (ix1 q)) = V c main_arg15 _ from congrArg _ h4)

/-- An index of the array is in point t's block iff each coordinate is in the block's range on its axis. -/
theorem mem_blk4_5 (t : Fin cfg4.N) (i : S50000x128.Idx) :
    i ∈ ((cfg4.win 5).blk t).view.set ↔ ∀ a : Fin 2, win4_5.index t a * S1000x128.size a ≤ (i a).val ∧ (i a).val < win4_5.index t a * S1000x128.size a + S1000x128.size a := by
  show i ∈ ((View.whole main_v44).slice (win4_5.rect t)).set ↔ _
  rw [View.set_slice_whole, Rect.mem_set_unit]
  exact Iff.rfl

/-- Row r lies in the block of row block r / 1000: the fifty blocks cover the array. -/
theorem covered4_5 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ := idx_onto4 ⟨(i 0).val / 1000, by omega⟩
  have q0 : win4_5.index t (0 : Fin 2) = (i 0).val / 1000 := congrFun ht 0
  have q1 : win4_5.index t (1 : Fin 2) = 0 := congrFun ht 1
  refine ⟨t, flush4_5 t, ?_⟩
  rw [mem_blk4_5]
  intro a
  match a with
  | ⟨0, _⟩ => show win4_5.index t (0 : Fin 2) * 1000 ≤ (i 0).val ∧ (i 0).val < win4_5.index t (0 : Fin 2) * 1000 + 1000; omega
  | ⟨1, _⟩ => show win4_5.index t (1 : Fin 2) * 128 ≤ (i 1).val ∧ (i 1).val < win4_5.index t (1 : Fin 2) * 128 + 128; omega

/-- The output array after the region: the batch normalisation of the arrays the region is entered with. -/
theorem final4_5 (c : Dev nD) : (dat4 (F := Ideal) V c).arrAt 5 cfg4.N
    = Cert.Spec.G4 (V c main_v33) (V c main_v36) (V c main_v43) (V c main_arg14) (V c main_arg15) :=
  (dat4 V c).arrAt_eq_of_cover 5 _ (fun t _ => flushed4_5_eq V c t) covered4_5

end Blocks

end Cert.KernelIdeal.Hand

end
-- ==== Proof.BridgeQKV.lean ====
/-
  The fused projection read back by columns is the reference's three projections.

  The kernel's program multiplies the node features x (50000 x 128) by the three transposed weight matrices laid side
  by side, W = [WQ^T | WK^T | WV^T] (128 x 384), and cuts the product into its three bands of 128 columns. Entry (n, c)
  of band m is  sum_k x[n, k] * W[k, 128 m + c],  and column 128 m + c of W is row c of the m-th weight matrix, so the
  entry is  sum_k x[n, k] * Wm[c, k]:  the reference's product of x with the transposed m-th weight, term by term.
  No arithmetic law is used: the two sums have the same terms in the same order.
-/
import proofs.«420532_j35407710388433_1_alg».proof.Proof.BridgeTerms
import proofs.«420532_j35407710388433_1_alg».proof.Proof.Gen.ReferenceIdeal.Read
import Idealize.ShloMosaic.Lib.Pipeline.Value
import Idealize.ShloMosaic.Lib.ValueIdx

noncomputable section

namespace Cert.Bridge

open Idealize.ShloMosaic Idealize.ShloMosaic.ValueIdx

/-! The auxiliary lemmas live in `Cert.Bridge.QKV`; the three projections themselves in `Cert.Bridge`. -/
namespace QKV

/-- A 128 x 128 array of extended reals, as the reference's reader types its weight arguments. -/
abbrev W128 : Type := (⟨Cert.ReferenceIdeal.S128x128, .f32⟩ : BufTy).Contents (Elt Ideal)
/-- The node features, as the reference's reader types them. -/
abbrev X0 : Type := (⟨Cert.ReferenceIdeal.S50000x128, .f32⟩ : BufTy).Contents (Elt Ideal)

/-- The transposed matrix at (k, c) is the matrix at (c, k). -/
theorem tr128_apply (x : W128) (k c : Fin 128) : tr128 x (ix2 k c) = x (ix2 c k) := by
  unfold tr128
  exact transpose_apply [1, 0] x _ (ix2 k c) (ix2 c k) (fun b => match b with
    | ⟨0, _⟩ => rfl
    | ⟨1, _⟩ => rfl)

/-! ## The stacked weights, one band at a time

Column 128 m + c of the stacked matrix lies in the m-th piece (the pieces before it span 128 m columns), at that
piece's column c. -/

/-- Columns 0-127 of the stacked weights are the first transposed matrix. -/
theorem wcat_apply0 (x3 x4 x5 : W128) (k c : Fin 128) (hc : 0 + c.val < 384) :
    wcat x3 x4 x5 (ix2 k (⟨0 + c.val, hc⟩ : Fin 384)) = x3 (ix2 c k) := by
  unfold wcat
  refine (concatenate_apply_piece _ _ _ (ix2 k (⟨0 + c.val, hc⟩ : Fin 384)) 0 (by simp)
    Cert.KernelIdeal.S128x128 (tr128 x3) rfl rfl 0 rfl (ix2 k c) (fun b hb => ?_) rfl).trans (tr128_apply x3 k c)
  match b, hb with
  | ⟨0, _⟩, _ => rfl
  | ⟨1, _⟩, hb => exact absurd rfl hb

/-- Columns 128-255 of the stacked weights are the second transposed matrix. -/
theorem wcat_apply1 (x3 x4 x5 : W128) (k c : Fin 128) (hc : 128 + c.val < 384) :
    wcat x3 x4 x5 (ix2 k (⟨128 + c.val, hc⟩ : Fin 384)) = x4 (ix2 c k) := by
  unfold wcat
  refine (concatenate_apply_piece _ _ _ (ix2 k (⟨128 + c.val, hc⟩ : Fin 384)) 1 (by simp)
    Cert.KernelIdeal.S128x128 (tr128 x4) rfl rfl 128 rfl (ix2 k c) (fun b hb => ?_) rfl).trans (tr128_apply x4 k c)
  match b, hb with
  | ⟨0, _⟩, _ => rfl
  | ⟨1, _⟩, hb => exact absurd rfl hb

/-- Columns 256-383 of the stacked weights are the third transposed matrix. -/
theorem wcat_apply2 (x3 x4 x5 : W128) (k c : Fin 128) (hc : 256 + c.val < 384) :
    wcat x3 x4 x5 (ix2 k (⟨256 + c.val, hc⟩ : Fin 384)) = x5 (ix2 c k) := by
  unfold wcat
  refine (concatenate_apply_piece _ _ _ (ix2 k (⟨256 + c.val, hc⟩ : Fin 384)) 2 (by simp)
    Cert.KernelIdeal.S128x128 (tr128 x5) rfl rfl 256 rfl (ix2 k c) (fun b hb => ?_) rfl).trans (tr128_apply x5 k c)
  match b, hb with
  | ⟨0, _⟩, _ => rfl
  | ⟨1, _⟩, hb => exact absurd rfl hb

/-! ## The three bands of the product -/

/-- Band 0 of an array of 384 columns at (n, c) is the array at (n, 0 + c). -/
theorem slice0_apply (y : FVec Ideal Cert.KernelIdeal.S50000x384 .f32) (n : Fin 50000) (c : Fin 128)
    (hc : 0 + c.val < 384) : slice0 y (ix2 n c) = y (ix2 n (⟨0 + c.val, hc⟩ : Fin 384)) := by
  unfold slice0
  exact extractStridedSlice_apply _ y _ (ix2 n c) (ix2 n (⟨0 + c.val, hc⟩ : Fin 384)) (fun a => match a with
    | ⟨0, _⟩ => (Nat.zero_add _).symm
    | ⟨1, _⟩ => rfl)

/-- Band 1 at (n, c) is the array at (n, 128 + c). -/
theorem slice1_apply (y : FVec Ideal Cert.KernelIdeal.S50000x384 .f32) (n : Fin 50000) (c : Fin 128)
    (hc : 128 + c.val < 384) : slice1 y (ix2 n c) = y (ix2 n (⟨128 + c.val, hc⟩ : Fin 384)) := by
  unfold slice1
  exact extractStridedSlice_apply _ y _ (ix2 n c) (ix2 n (⟨128 + c.val, hc⟩ : Fin 384)) (fun a => match a with
    | ⟨0, _⟩ => (Nat.zero_add _).symm
    | ⟨1, _⟩ => rfl)

/-- Band 2 at (n, c) is the array at (n, 256 + c). -/
theorem slice2_apply (y : FVec Ideal Cert.KernelIdeal.S50000x384 .f32) (n : Fin 50000) (c : Fin 128)
    (hc : 256 + c.val < 384) : slice2 y (ix2 n c) = y (ix2 n (⟨256 + c.val, hc⟩ : Fin 384)) := by
  unfold slice2
  exact extractStridedSlice_apply _ y _ (ix2 n c) (ix2 n (⟨256 + c.val, hc⟩ : Fin 384)) (fun a => match a with
    | ⟨0, _⟩ => (Nat.zero_add _).symm
    | ⟨1, _⟩ => rfl)

/-! ## The reference's index functions, by coordinates

The reference's product reads its left operand at (n, k) and its transposed right operand at (k, c), that is the
weight at (c, k). The three products have the same dimension numbers, so the three pairs of equations read alike. -/

theorem lidx1 (n : Fin 50000) (c k : Fin 128) :
    Cert.ReferenceIdeal.Read.lidx_main_v1 (ix2 n c) k = ix2 n k :=
  funext fun a => Fin.ext (by match a with | ⟨0, _⟩ => rfl | ⟨1, _⟩ => rfl)
theorem ridx1 (n : Fin 50000) (c k : Fin 128) :
    Cert.ReferenceIdeal.Read.idx_main_v0 (Cert.ReferenceIdeal.Read.ridx_main_v1 (ix2 n c) k) = ix2 c k :=
  funext fun a => Fin.ext (by match a with | ⟨0, _⟩ => rfl | ⟨1, _⟩ => rfl)
theorem lidx4 (n : Fin 50000) (c k : Fin 128) :
    Cert.ReferenceIdeal.Read.lidx_main_v4 (ix2 n c) k = ix2 n k :=
  funext fun a => Fin.ext (by match a with | ⟨0, _⟩ => rfl | ⟨1, _⟩ => rfl)
theorem ridx4 (n : Fin 50000) (c k : Fin 128) :
    Cert.ReferenceIdeal.Read.idx_main_v3 (Cert.ReferenceIdeal.Read.ridx_main_v4 (ix2 n c) k) = ix2 c k :=
  funext fun a => Fin.ext (by match a with | ⟨0, _⟩ => rfl | ⟨1, _⟩ => rfl)
theorem lidx7 (n : Fin 50000) (c k : Fin 128) :
    Cert.ReferenceIdeal.Read.lidx_main_v7 (ix2 n c) k = ix2 n k :=
  funext fun a => Fin.ext (by match a with | ⟨0, _⟩ => rfl | ⟨1, _⟩ => rfl)
theorem ridx7 (n : Fin 50000) (c k : Fin 128) :
    Cert.ReferenceIdeal.Read.idx_main_v6 (Cert.ReferenceIdeal.Read.ridx_main_v7 (ix2 n c) k) = ix2 c k :=
  funext fun a => Fin.ext (by match a with | ⟨0, _⟩ => rfl | ⟨1, _⟩ => rfl)

end QKV

open QKV

/-! ## The three projections -/

/-- The query projection: band 0 of the fused product is x times the transposed query weight. -/
theorem q_eq (x0 : (⟨Cert.ReferenceIdeal.S50000x128, .f32⟩ : BufTy).Contents (Elt Ideal))
    (x3 x4 x5 : (⟨Cert.ReferenceIdeal.S128x128, .f32⟩ : BufTy).Contents (Elt Ideal)) :
    slice0 (Cert.Spec.G0 x0 (wcat x3 x4 x5)) = Cert.ReferenceIdeal.Read.val_main_v1 (F := Ideal) x0 x3 := by
  funext i
  obtain ⟨n, c, rfl⟩ : ∃ (n : Fin 50000) (c : Fin 128), i = ix2 n c := ⟨i 0, i 1, eq_ix2 i⟩
  have hc : 0 + c.val < 384 := by omega
  rw [Cert.ReferenceIdeal.Read.val_main_v1_apply, slice0_apply _ n c hc]
  unfold Cert.Spec.G0
  rw [Cert.Spec.mm_apply]
  refine Finset.sum_congr rfl fun k _ => ?_
  rw [wcat_apply0 x3 x4 x5 k c hc, Cert.ReferenceIdeal.Read.val_main_v0_apply, lidx1, ridx1]

/-- The key projection: band 1 of the fused product is x times the transposed key weight. -/
theorem k_eq (x0 : (⟨Cert.ReferenceIdeal.S50000x128, .f32⟩ : BufTy).Contents (Elt Ideal))
    (x3 x4 x5 : (⟨Cert.ReferenceIdeal.S128x128, .f32⟩ : BufTy).Contents (Elt Ideal)) :
    slice1 (Cert.Spec.G0 x0 (wcat x3 x4 x5)) = Cert.ReferenceIdeal.Read.val_main_v4 (F := Ideal) x0 x4 := by
  funext i
  obtain ⟨n, c, rfl⟩ : ∃ (n : Fin 50000) (c : Fin 128), i = ix2 n c := ⟨i 0, i 1, eq_ix2 i⟩
  have hc : 128 + c.val < 384 := by omega
  rw [Cert.ReferenceIdeal.Read.val_main_v4_apply, slice1_apply _ n c hc]
  unfold Cert.Spec.G0
  rw [Cert.Spec.mm_apply]
  refine Finset.sum_congr rfl fun k _ => ?_
  rw [wcat_apply1 x3 x4 x5 k c hc, Cert.ReferenceIdeal.Read.val_main_v3_apply, lidx4, ridx4]

/-- The value projection: band 2 of the fused product is x times the transposed value weight. -/
theorem v_eq (x0 : (⟨Cert.ReferenceIdeal.S50000x128, .f32⟩ : BufTy).Contents (Elt Ideal))
    (x3 x4 x5 : (⟨Cert.ReferenceIdeal.S128x128, .f32⟩ : BufTy).Contents (Elt Ideal)) :
    slice2 (Cert.Spec.G0 x0 (wcat x3 x4 x5)) = Cert.ReferenceIdeal.Read.val_main_v7 (F := Ideal) x0 x5 := by
  funext i
  obtain ⟨n, c, rfl⟩ : ∃ (n : Fin 50000) (c : Fin 128), i = ix2 n c := ⟨i 0, i 1, eq_ix2 i⟩
  have hc : 256 + c.val < 384 := by omega
  rw [Cert.ReferenceIdeal.Read.val_main_v7_apply, slice2_apply _ n c hc]
  unfold Cert.Spec.G0
  rw [Cert.Spec.mm_apply]
  refine Finset.sum_congr rfl fun k _ => ?_
  rw [wcat_apply2 x3 x4 x5 k c hc, Cert.ReferenceIdeal.Read.val_main_v6_apply, lidx7, ridx7]

end Cert.Bridge

end
-- ==== Proof.BridgeConsts.lean ====
/-
  The two grouping matrices the edge kernel multiplies by, and three scalar laws on the extended reals.
  The 128 columns of a row split into 8 heads of 16 columns each.  The matrix g (128 by 8) has a one at (c, h)
  exactly when column c lies in head h, that is when c / 16 = h, and zeros elsewhere; gt is its transpose.
  Multiplying by g sums each head's sixteen columns; multiplying by gt repeats a per-head number over the head's
  sixteen columns.  Both facts hold for every extended real, the infinities included, because 0 * x = 0 and
  x * 1 = x there.  The third law: a product with one quarter is the quotient by four.
-/
import proofs.«420532_j35407710388433_1_alg».proof.KernelIdeal
import proofs.«420532_j35407710388433_1_alg».proof.Proof.Spec
import proofs.«420532_j35407710388433_1_alg».proof.Proof.BridgeTerms
import Idealize.ShloMosaic.PureOps.Ideal
import Idealize.ShloMosaic.Lib.ValueIdx
import Idealize.ShloMosaic.Lib.IdealHost

noncomputable section

namespace Cert.Bridge

open Idealize.ShloMosaic Idealize.ShloMosaic.ValueIdx Cert.Spec

/-! ## The literal words -/

/-- The 128 by 8 table, read row-major: position k is row k / 8 and column k % 8, and holds the word of 1.0 when the
    row's head (row / 16) is the column, the word of 0.0 otherwise. -/
theorem lit0_words : ∀ k : Fin 1024,
    Cert.KernelIdeal.lit0 k = if k.val / 8 / 16 = k.val % 8 then 0x3F800000#32 else 0x00000000#32 := by
  decide +kernel

/-- The 8 by 128 table, read row-major: position k is row k / 128 and column k % 128, and holds the word of 1.0 when
    the column's head (column / 16) is the row, the word of 0.0 otherwise. -/
theorem lit1_words : ∀ k : Fin 1024,
    Cert.KernelIdeal.lit1 k = if k.val % 128 / 16 = k.val / 128 then 0x3F800000#32 else 0x00000000#32 := by
  decide +kernel

/-- The first table at the position of row c and column h. -/
theorem lit0_at (k : Fin 1024) (c h : Nat) (hk : k.val = c * 8 + h) (hh : h < 8) :
    Cert.KernelIdeal.lit0 k = if c / 16 = h then 0x3F800000#32 else 0x00000000#32 := by
  have h1 : (c * 8 + h) / 8 / 16 = c / 16 := by omega
  have h2 : (c * 8 + h) % 8 = h := by omega
  rw [lit0_words k, hk, h1, h2]

/-- The second table at the position of row h and column c. -/
theorem lit1_at (k : Fin 1024) (h c : Nat) (hk : k.val = h * 128 + c) (hc : c < 128) :
    Cert.KernelIdeal.lit1 k = if c / 16 = h then 0x3F800000#32 else 0x00000000#32 := by
  have h1 : (h * 128 + c) % 128 / 16 = c / 16 := by omega
  have h2 : (h * 128 + c) / 128 = h := by omega
  rw [lit1_words k, hk, h1, h2]

/-! ## The matrices as extended reals -/

/-! The grouping matrix gmat is the first table's words as extended reals, entry i the word at i's row-major position;
    gtmat is the second table's words likewise. -/

/-- Entry (c, h) of the grouping matrix is one when column c lies in head h, zero otherwise. -/
theorem gmat_apply (c : Fin 128) (h : Fin 8) :
    gmat (ix2 c h) = if c.val / 16 = h.val then (1 : EReal) else 0 := by
  have hk : (Cert.KernelIdeal.S128x8.rowMajor (ix2 c h)).val = c.val * 8 + h.val := by
    rw [Shape.rowMajor_val_two]; rfl
  have hw := lit0_at (Cert.KernelIdeal.S128x8.rowMajor (ix2 c h)) c.val h.val hk h.isLt
  unfold gmat
  rw [Ideal.ofBits_def, hw]
  by_cases e : c.val / 16 = h.val
  · rw [if_pos e, if_pos e, Ideal.ofBits_one_f32]
  · rw [if_neg e, if_neg e, Ideal.ofBits_zero_f32]

/-- Entry (h, c) of the transpose is one when column c lies in head h, zero otherwise. -/
theorem gtmat_apply (h : Fin 8) (c : Fin 128) :
    gtmat (ix2 h c) = if c.val / 16 = h.val then (1 : EReal) else 0 := by
  have hk : (Cert.KernelIdeal.S8x128.rowMajor (ix2 h c)).val = h.val * 128 + c.val := by
    rw [Shape.rowMajor_val_two]; rfl
  have hw := lit1_at (Cert.KernelIdeal.S8x128.rowMajor (ix2 h c)) h.val c.val hk c.isLt
  unfold gtmat
  rw [Ideal.ofBits_def, hw]
  by_cases e : c.val / 16 = h.val
  · rw [if_pos e, if_pos e, Ideal.ofBits_one_f32]
  · rw [if_neg e, if_neg e, Ideal.ofBits_zero_f32]

/-! ## Summing a head's columns, and repeating a head's number -/

/-- A column number is a head number and a place within the head: c = 16 h + d with h < 8 and d < 16. -/
def headSplit : Fin 8 × Fin 16 ≃ Fin 128 where
  toFun p := ⟨16 * p.1.val + p.2.val, by have := p.1.isLt; have := p.2.isLt; omega⟩
  invFun c := (⟨c.val / 16, by have := c.isLt; omega⟩, ⟨c.val % 16, Nat.mod_lt _ (by norm_num)⟩)
  left_inv p := by
    have h1 := p.1.isLt
    have h2 := p.2.isLt
    apply Prod.ext
    · apply Fin.ext; show (16 * p.1.val + p.2.val) / 16 = p.1.val; omega
    · apply Fin.ext; show (16 * p.1.val + p.2.val) % 16 = p.2.val; omega
  right_inv c := by
    apply Fin.ext; show 16 * (c.val / 16) + c.val % 16 = c.val; omega

/-- The product of a row with the grouping matrix's column h is the sum of the row over head h's sixteen columns:
    the terms outside the head are x * 0 = 0, the terms inside are x * 1 = x. -/
theorem sum_group (a : Fin 128 → EReal) (h : Fin 8) :
    ∑ c : Fin 128, a c * gmat (ix2 c h) = ∑ d : Fin 16, a ⟨16 * h.val + d.val, by have := h.isLt; have := d.isLt; omega⟩ := by
  rw [← Equiv.sum_comp headSplit (fun c => a c * gmat (ix2 c h)), Fintype.sum_prod_type]
  rw [Finset.sum_eq_single h]
  · refine Finset.sum_congr rfl fun d _ => ?_
    rw [gmat_apply, if_pos, mul_one]
    · rfl
    · show (16 * h.val + d.val) / 16 = h.val
      have := d.isLt; omega
  · intro h' _ hne
    refine Finset.sum_eq_zero fun d _ => ?_
    rw [gmat_apply, if_neg, mul_zero]
    show ¬ (16 * h'.val + d.val) / 16 = h.val
    intro he
    apply hne; apply Fin.ext
    have := d.isLt; omega
  · intro hn; exact absurd (Finset.mem_univ _) hn

/-- The product of a row of per-head numbers with the transpose's column c is the number of c's head: every other
    term is x * 0 = 0, and the head's own term is x * 1 = x. -/
theorem sum_rep (s : Fin 8 → EReal) (c : Fin 128) :
    ∑ h : Fin 8, s h * gtmat (ix2 h c) = s ⟨c.val / 16, by have := c.isLt; omega⟩ := by
  rw [Finset.sum_eq_single (⟨c.val / 16, by have := c.isLt; omega⟩ : Fin 8)]
  · rw [gtmat_apply, if_pos rfl, mul_one]
  · intro h _ hne
    rw [gtmat_apply, if_neg, mul_zero]
    intro he
    exact hne (Fin.ext he.symm)
  · intro hn; exact absurd (Finset.mem_univ _) hn

/-! ## One quarter and four -/

/-- The word 0x3E800000 denotes the real one quarter. -/
theorem ofBits_quarter : Ideal.ofBits .f32 0x3E800000#32 = (((1 : ℝ) / 4 : ℝ) : EReal) := by
  simp [Ideal.ofBits, Ideal.ieee, -EReal.coe_mul]; norm_num

/-- The word 0x40800000 denotes the real four. -/
theorem ofBits_four : Ideal.ofBits .f32 0x40800000#32 = ((4 : ℝ) : EReal) := by
  simp [Ideal.ofBits, Ideal.ieee, -EReal.coe_mul]; norm_num

/-- A product with one quarter is the quotient by four, on every extended real: four is a nonzero real, so the
    quotient by it is the product with its reciprocal, at the infinities too. -/
theorem quarter (x : EReal) :
    x * Ideal.ofBits .f32 0x3E800000#32 = Ideal.div x (Ideal.ofBits .f32 0x40800000#32) := by
  rw [ofBits_quarter, ofBits_four, Ideal.div_coe (by norm_num : (4 : ℝ) ≠ 0)]

end Cert.Bridge

end
-- ==== Proof.LibTakeFill.lean ====
/-
  A gather that fills out-of-range rows, when no row is out of range. `jnp.take(x, idx, axis=0)` lowers to: wrap a
  negative index by adding the extent `N`; test the wrapped index against `[0, N − 1]`; gather the rows (the start index
  clamped); and select, row by row, the gathered row where the test passed and a fill value where it did not. When every
  index word `i` satisfies `−N ≤ i < N` the wrapped index lies in `[0, N − 1]`, the test passes on every row, and the
  select returns the gathered rows: the fill value is never read.
-/
import Idealize.ShloMosaic.PureOps.Vector
import Idealize.ShloMosaic.PureOps.Contract
import Idealize.ShloMosaic.PureOps.ShapeOps
import Idealize.ShloMosaic.Lib.ValueIdx
import Idealize.ShloMosaic.Lib.Pipeline.Value
import Idealize.ShloMosaic.Lib.ReduceAll

noncomputable section

namespace Cert.LibTakeFill

open Idealize.ShloMosaic Idealize.ShloMosaic.ValueIdx

/-- The rank-0 shape. -/
abbrev Sc : Shape := ⟨0, ![]⟩
/-- A vector of `E` words. -/
abbrev V1 (E : Nat) : Shape := ⟨1, ![E]⟩
/-- A column of `E` words. -/
abbrev Col (E : Nat) : Shape := ⟨2, ![E, 1]⟩
/-- The `1 × 1` shape. -/
abbrev One2 : Shape := ⟨2, ![1, 1]⟩

/-- The index vector after the wrap of its negative words (`i < 0 ↦ i + N`), laid out as a column. -/
abbrev wrapCol {E : Nat} (hb0 : Sc.BroadcastsInDim (V1 E) (![] : Fin 0 → Fin 1))
    (hbc : (V1 E).BroadcastsInDim (Col E) (![0] : Fin 1 → Fin 2)) (Nw : BitVec 32) (idx : IVec (V1 E) 32) : IVec (Col E) 32 :=
  broadcastInDim (Col E) (![0] : Fin 1 → Fin 2) hbc
    (select (cmpi .slt idx (broadcastInDim (V1 E) (![] : Fin 0 → Fin 1) hb0 (constantI Sc 32 0#32)))
      (addi idx (broadcastInDim (V1 E) (![] : Fin 0 → Fin 1) hb0 (constantI Sc 32 Nw))) idx)

/-- The word of a natural number below `2³¹` reads, signed, as that number. -/
theorem toInt_ofNat_small (a : ℕ) (ha : a < 2 ^ 31) : (BitVec.ofNat 32 a).toInt = (a : ℤ) := by
  rw [BitVec.toInt_ofNat']
  exact Int.bmod_eq_of_le_mul_two (by omega) (by omega)

/-- One word: with `−N ≤ i < N`, the wrapped word `i'` (`i + N` when `i < 0`, else `i`) passes both tests
    `i' ≥ 0` and `i' ≤ N − 1` (signed compares on 32-bit words; `N` far below `2³¹`). -/
theorem wrap_word_in_range (N : Nat) (hN0 : 0 < N) (hN : N < 2 ^ 30) (i : BitVec 32)
    (hi : -(N : ℤ) ≤ i.toInt ∧ i.toInt < (N : ℤ)) :
    IntOp.andi
      (IntOp.cmpi .sge (Scalar.select (IntOp.cmpi .slt i 0#32) (IntOp.addi i (BitVec.ofNat 32 N)) i) 0#32)
      (IntOp.cmpi .sle (Scalar.select (IntOp.cmpi .slt i 0#32) (IntOp.addi i (BitVec.ofNat 32 N)) i) (BitVec.ofNat 32 (N - 1)))
      = 1#1 := by
  obtain ⟨h1, h2⟩ := hi
  have hNi : (BitVec.ofNat 32 N).toInt = (N : ℤ) := toInt_ofNat_small N (by omega)
  have hN1 : (BitVec.ofNat 32 (N - 1)).toInt = ((N - 1 : ℕ) : ℤ) := toInt_ofNat_small (N - 1) (by omega)
  have h0 : (0#32).toInt = 0 := BitVec.toInt_zero
  rw [IntOp.andi_eq_one, IntOp.cmpi_sge, IntOp.cmpi_sle, h0, hN1]
  by_cases hneg : i.toInt < 0
  · have hc : IntOp.cmpi .slt i 0#32 = 1#1 := IntOp.cmpi_slt.mpr (by rw [h0]; exact hneg)
    rw [hc, select_one]
    have hsum : (IntOp.addi i (BitVec.ofNat 32 N)).toInt = i.toInt + (N : ℤ) := by
      show (i + BitVec.ofNat 32 N).toInt = _
      rw [BitVec.toInt_add, hNi]
      exact Int.bmod_eq_of_le_mul_two (by omega) (by omega)
    rw [hsum]
    omega
  · have hc : ¬ IntOp.cmpi .slt i 0#32 = 1#1 := fun h => hneg (by have := IntOp.cmpi_slt.mp h; rwa [h0] at this)
    have hsel : Scalar.select (IntOp.cmpi .slt i 0#32) (IntOp.addi i (BitVec.ofNat 32 N)) i = i := if_neg hc
    rw [hsel]
    omega

/-- A broadcast of a vector that is `c` everywhere is `c` everywhere: the result at an index is the operand at some index. -/
theorem broadcastInDim_eq_const {α : Type} {s t : Shape} (dims : Fin s.rank → Fin t.rank) (h : s.BroadcastsInDim t dims)
    (x : s.Idx → α) (c : α) (hx : ∀ k, x k = c) (j : t.Idx) : broadcastInDim t dims h x j = c := hx _

/-- A fold of `and` from the bit `1` over bits that are all `1` is `1`. -/
theorem foldl_andi_ones {ι : Type} (x : ι → BitVec 1) (hx : ∀ n, x n = 1#1) (l : List ι) :
    l.foldl (fun r n => IntOp.andi r (x n)) 1#1 = 1#1 := by
  induction l with
  | nil => rfl
  | cons a l ih =>
    have h1 : IntOp.andi 1#1 (x a) = 1#1 := by rw [hx a]; decide
    simp only [List.foldl_cons, h1]
    exact ih

/-- A reduction by `and`, from an initial value that is `1`, of a vector of ones is all ones. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  exact foldl_andi_ones (fun n => x (s.rowMajor.symm n)) (fun n => hx _) _

/-- THE FILLING GATHER IS THE GATHER when every index word lies in `[−N, N)`: the row mask (the reduction by `and`, along
    the unit axis, of the two range tests of the wrapped column) is all ones, so the select keeps `g` everywhere. -/
theorem take_fill_eq {α : Type} {E C : Nat} (N : Nat) (Nw Nm1 : BitVec 32)
    (hb0 : Sc.BroadcastsInDim (V1 E) (![] : Fin 0 → Fin 1)) (hbc : (V1 E).BroadcastsInDim (Col E) (![0] : Fin 1 → Fin 2))
    (hb01 : Sc.BroadcastsInDim (Col E) (![] : Fin 0 → Fin 2)) (hb11 : (V1 1).BroadcastsInDim One2 (![1] : Fin 1 → Fin 2))
    (hb1E : One2.BroadcastsInDim (Col E) (![0, 1] : Fin 2 → Fin 2))
    (hr : (Col E).ReducesTo [1] (V1 E)) (h0 : 0 < Sc.numel)
    (hbEC : (V1 E).BroadcastsInDim (⟨2, ![E, C]⟩ : Shape) (![0] : Fin 1 → Fin 2))
    (hN0 : 0 < N) (hN : N < 2 ^ 30) (hNw : Nw = BitVec.ofNat 32 N) (hNm1 : Nm1 = BitVec.ofNat 32 (N - 1))
    (idx : IVec (V1 E) 32) (hidx : ∀ e : (V1 E).Idx, -(N : ℤ) ≤ (idx e).toInt ∧ (idx e).toInt < (N : ℤ))
    (g fill : (⟨2, ![E, C]⟩ : Shape).Idx → α) :
    select (broadcastInDim (⟨2, ![E, C]⟩ : Shape) (![0] : Fin 1 → Fin 2) hbEC
        (Host.reduce IntOp.andi
          (andi (cmpi .sge (wrapCol hb0 hbc Nw idx) (broadcastInDim (Col E) (![] : Fin 0 → Fin 2) hb01 (constantI Sc 32 0#32)))
            (cmpi .sle (wrapCol hb0 hbc Nw idx)
              (broadcastInDim (Col E) (![0, 1] : Fin 2 → Fin 2) hb1E
                (broadcastInDim One2 (![1] : Fin 1 → Fin 2) hb11 (constantI (V1 1) 32 Nm1)))))
          (constantI Sc 1 1#1) hr h0)) g fill = g := by
  subst hNw hNm1
  funext j
  rw [select_apply]
  have hmask : broadcastInDim (⟨2, ![E, C]⟩ : Shape) (![0] : Fin 1 → Fin 2) hbEC
        (Host.reduce IntOp.andi
          (andi (cmpi .sge (wrapCol hb0 hbc (BitVec.ofNat 32 N) idx) (broadcastInDim (Col E) (![] : Fin 0 → Fin 2) hb01 (constantI Sc 32 0#32)))
            (cmpi .sle (wrapCol hb0 hbc (BitVec.ofNat 32 N) idx)
              (broadcastInDim (Col E) (![0, 1] : Fin 2 → Fin 2) hb1E
                (broadcastInDim One2 (![1] : Fin 1 → Fin 2) hb11 (constantI (V1 1) 32 (BitVec.ofNat 32 (N - 1)))))))
          (constantI Sc 1 1#1) hr h0) j = 1#1 :=
    broadcastInDim_eq_const _ _ _ _
      (fun k => reduce_andi_ones _ _ _ _ (fun i => wrap_word_in_range N hN0 hN (idx _) (hidx _)) (fun _ => rfl) k) j
  rw [hmask, select_one]

end Cert.LibTakeFill

end
-- ==== Proof.LibGather.lean ====
/-
  Two gathers read at an index, and the words of a wrapped row number. What `x[idx]` lowers to when `idx` is a flat
  array of `E` row numbers reshaped to one column `[E, 1]`: a `stablehlo.gather` whose start index map names operand
  axis 0, whose index vector lies along axis 1 of the start indices and whose slice is one element of a flat operand
  `[N]` (result `[E]`) or one whole row of a matrix `[N, D]` (result `[E, D]`, the row along the one offset axis). Result
  element `e` (or `(e, k)`) is the operand at the row number `idx[e, 0]`, read as a signed integer and clamped into
  `[0, N − 1]` as StableHLO clamps every start index: a negative word reads row 0, a word past the end reads row
  `N − 1`. The column `k` passes through untouched. Then the words: the index wrap `x < 0 ? x + n : x` leaves a
  non-negative word alone, and a 32-bit word reads as the natural number `g < 2³¹` exactly when it is `g`'s word.
-/
import Idealize.ShloMosaic.PureOps.Ideal
import Idealize.ShloMosaic.PureOps.Contract
import Idealize.ShloMosaic.Lib.ValueIdx

noncomputable section

namespace Cert.LibGather

open Idealize.ShloMosaic Idealize.ShloMosaic.ValueIdx

/-! ## A flat operand: one element per row number -/

section Vec
variable {α : Type}

/-- The dimension numbers of an element gather: no offset axes, operand axis 0 collapsed and the one the single index
    component names, the index vector along axis 1 of the start indices, slices of one element. -/
abbrev vecGatherDims (N E : Nat)
    (wf : GatherDims.WF (⟨1, ![N]⟩ : Shape) (⟨2, ![E, 1]⟩ : Shape) (⟨1, ![E]⟩ : Shape) [] [0] [] [0] [] 1 ![1]) :
    GatherDims (⟨1, ![N]⟩ : Shape) (⟨2, ![E, 1]⟩ : Shape) (⟨1, ![E]⟩ : Shape) where
  offsetDims := []
  collapsedSliceDims := [0]
  operandBatchingDims := []
  startIndicesBatchingDims := []
  startIndexMap := [0]
  indexVectorDim := 1
  sliceSizes := ![1]
  wf := wf

/-- Result element `e` reads its start index at `[e, 0]`: its batch coordinate, and component 0 of the index vector. -/
private theorem vec_siIdx {N E : Nat}
    (wf : GatherDims.WF (⟨1, ![N]⟩ : Shape) (⟨2, ![E, 1]⟩ : Shape) (⟨1, ![E]⟩ : Shape) [] [0] [] [0] [] 1 ![1])
    (e : Fin E) (c : Fin (vecGatherDims N E wf).startIndexMap.length) :
    (vecGatherDims N E wf).siIdx (ix1 e) c = ix2 e (0 : Fin 1) := by
  have hc : c.val = 0 := Nat.lt_one_iff.mp c.isLt
  funext b; refine Fin.ext ?_
  match b with
  | ⟨0, _⟩ => rfl
  | ⟨1, _⟩ => exact hc

/-- On the operand's one axis the slice starts at row `e`'s index word, read signed and clamped into `[0, N − 1]`. -/
private theorem vec_start {N E w : Nat}
    (wf : GatherDims.WF (⟨1, ![N]⟩ : Shape) (⟨2, ![E, 1]⟩ : Shape) (⟨1, ![E]⟩ : Shape) [] [0] [] [0] [] 1 ![1])
    (idx : IVec (⟨2, ![E, 1]⟩ : Shape) w) (e : Fin E) :
    (vecGatherDims N E wf).start (ix1 e) idx 0 = min (idx (ix2 e (0 : Fin 1))).toInt.toNat (N - 1) := by
  unfold GatherDims.start
  rw [dif_pos (show (0 : Fin 1) ∈ (vecGatherDims N E wf).startIndexMap from List.mem_singleton.mpr rfl), vec_siIdx]
  rfl

/-- THE ELEMENT GATHER AT `e`: the operand at the row number `idx[e, 0]`, read signed and clamped into `[0, N − 1]`. -/
theorem vecGather_apply {N E w : Nat} (hN : 0 < N)
    (wf : GatherDims.WF (⟨1, ![N]⟩ : Shape) (⟨2, ![E, 1]⟩ : Shape) (⟨1, ![E]⟩ : Shape) [] [0] [] [0] [] 1 ![1])
    (x : (⟨1, ![N]⟩ : Shape).Idx → α) (idx : IVec (⟨2, ![E, 1]⟩ : Shape) w) (e : Fin E) :
    Host.gather (vecGatherDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl)),
    vec_start]
  rfl

end Vec

/-! ## A matrix operand: one whole row per row number -/

section Row
variable {α : Type}

/-- The dimension numbers of a row gather: result axis 1 is the offset axis (operand axis 1, taken whole), operand axis 0
    is collapsed and the one the single index component names, the index vector lies along axis 1 of the start indices,
    slices of one row. -/
abbrev rowGatherDims (N D E : Nat)
    (wf : GatherDims.WF (⟨2, ![N, D]⟩ : Shape) (⟨2, ![E, 1]⟩ : Shape) (⟨2, ![E, D]⟩ : Shape) [1] [0] [] [0] [] 1 ![1, D]) :
    GatherDims (⟨2, ![N, D]⟩ : Shape) (⟨2, ![E, 1]⟩ : Shape) (⟨2, ![E, D]⟩ : Shape) where
  offsetDims := [1]
  collapsedSliceDims := [0]
  operandBatchingDims := []
  startIndicesBatchingDims := []
  startIndexMap := [0]
  indexVectorDim := 1
  sliceSizes := ![1, D]
  wf := wf

/-- Result element `(e, k)` reads its start index at `[e, 0]`: its one batch coordinate `e`, and component 0 of the index
    vector; the column `k` plays no part. -/
private theorem row_siIdx {N D E : Nat}
    (wf : GatherDims.WF (⟨2, ![N, D]⟩ : Shape) (⟨2, ![E, 1]⟩ : Shape) (⟨2, ![E, D]⟩ : Shape) [1] [0] [] [0] [] 1 ![1, D])
    (e : Fin E) (k : Fin D) (c : Fin (rowGatherDims N D E wf).startIndexMap.length) :
    (rowGatherDims N D E wf).siIdx (ix2 e k) c = ix2 e (0 : Fin 1) := by
  have hc : c.val = 0 := Nat.lt_one_iff.mp c.isLt
  funext b; refine Fin.ext ?_
  match b with
  | ⟨0, _⟩ => rfl
  | ⟨1, _⟩ => exact hc

/-- On operand axis 0 the slice starts at row `e`'s index word, read signed and clamped into `[0, N − 1]`. -/
private theorem row_start_zero {N D E w : Nat}
    (wf : GatherDims.WF (⟨2, ![N, D]⟩ : Shape) (⟨2, ![E, 1]⟩ : Shape) (⟨2, ![E, D]⟩ : Shape) [1] [0] [] [0] [] 1 ![1, D])
    (idx : IVec (⟨2, ![E, 1]⟩ : Shape) w) (e : Fin E) (k : Fin D) :
    (rowGatherDims N D E wf).start (ix2 e k) idx 0 = min (idx (ix2 e (0 : Fin 1))).toInt.toNat (N - 1) := by
  unfold GatherDims.start
  rw [dif_pos (show (0 : Fin 2) ∈ (rowGatherDims N D E wf).startIndexMap from List.mem_singleton.mpr rfl), row_siIdx]
  rfl

/-- Operand axis 1 is not named by the index vector: the slice starts at 0 there. -/
private theorem row_start_one {N D E w : Nat}
    (wf : GatherDims.WF (⟨2, ![N, D]⟩ : Shape) (⟨2, ![E, 1]⟩ : Shape) (⟨2, ![E, D]⟩ : Shape) [1] [0] [] [0] [] 1 ![1, D])
    (idx : IVec (⟨2, ![E, 1]⟩ : Shape) w) (j : (⟨2, ![E, D]⟩ : Shape).Idx) :
    (rowGatherDims N D E wf).start j idx 1 = 0 := by
  unfold GatherDims.start
  rw [dif_neg (show ¬ (1 : Fin 2) ∈ (rowGatherDims N D E wf).startIndexMap from
    (by decide : ¬ (1 : Fin 2) ∈ ([0] : List (Fin 2))))]

/-- Operand axis 1 is the one kept axis, read by the result's one offset axis: the offset coordinate there is the
    result's column. -/
private theorem row_off_one {N D E : Nat}
    (wf : GatherDims.WF (⟨2, ![N, D]⟩ : Shape) (⟨2, ![E, 1]⟩ : Shape) (⟨2, ![E, D]⟩ : Shape) [1] [0] [] [0] [] 1 ![1, D])
    (e : Fin E) (k : Fin D) :
    (rowGatherDims N D E wf).offCoord (ix2 e k) 1 = k.val := by
  unfold GatherDims.offCoord
  rw [dif_pos ((GatherDims.mem_sKept _ _).mpr
    ⟨(by decide : ¬ (1 : Fin 2) ∈ ([0] : List (Fin 2))), List.not_mem_nil⟩)]
  rfl

/-- THE ROW GATHER AT `(e, k)`: column `k` of the operand's row `idx[e, 0]`, the row number read signed and clamped into
    `[0, N − 1]`. -/
theorem rowGather_apply {N D E w : Nat} (hN : 0 < N)
    (wf : GatherDims.WF (⟨2, ![N, D]⟩ : Shape) (⟨2, ![E, 1]⟩ : Shape) (⟨2, ![E, D]⟩ : Shape) [1] [0] [] [0] [] 1 ![1, D])
    (x : (⟨2, ![N, D]⟩ : Shape).Idx → α) (idx : IVec (⟨2, ![E, 1]⟩ : Shape) w) (e : Fin E) (k : Fin D) :
    Host.gather (rowGatherDims N D E wf) x idx (ix2 e k)
      = x (ix2 ⟨min (idx (ix2 e (0 : Fin 1))).toInt.toNat (N - 1), by omega⟩ k) := by
  unfold Host.gather
  congr 1
  funext a
  refine Fin.ext ?_
  revert a
  refine Fin.forall_fin_two.2 ⟨?_, ?_⟩
  · show (rowGatherDims N D E wf).start (ix2 e k) idx 0 + (rowGatherDims N D E wf).batchCoord (ix2 e k) 0
        + (rowGatherDims N D E wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl)),
      row_start_zero]
    rfl
  · show (rowGatherDims N D E wf).start (ix2 e k) idx 1 + (rowGatherDims N D E wf).batchCoord (ix2 e k) 1
        + (rowGatherDims N D E wf).offCoord (ix2 e k) 1 = k.val
    rw [GatherDims.batchCoord_eq_zero _ _ _ List.not_mem_nil, row_start_one, row_off_one]
    omega

end Row

/-! ## Words: the index wrap on a non-negative word, and a word read as a natural number -/

section Words

/-- A signed "less than zero" test on a word that reads non-negative answers the bit `0`, so a select on it is its
    second operand. -/
theorem select_slt_zero_of_nonneg {α : Type} (x : BitVec 32) (hx : 0 ≤ x.toInt) (a b : α) :
    Scalar.select (IntOp.cmpi .slt x 0#32) a b = b := by
  have h : x.slt 0#32 = false := by
    simp only [BitVec.slt, BitVec.toInt_zero, decide_eq_false_iff_not, not_lt]
    exact hx
  show Scalar.select (BitVec.ofBool (x.slt 0#32)) a b = b
  rw [h]
  exact select_zero a b

/-- The index wrap `x < 0 ? x + 50000 : x` leaves a word that reads non-negative alone. -/
theorem wrap_nonneg (x : BitVec 32) (hx : 0 ≤ x.toInt) :
    Scalar.select (IntOp.cmpi .slt x 0#32) (IntOp.addi x 50000#32) x = x :=
  select_slt_zero_of_nonneg x hx _ _

/-- The same on vectors, read at an index: where `v`'s word reads non-negative, `select (v < z) (v + c) v` with `z` the
    zero vector is `v`'s word, whatever the addend `c`. -/
theorem wrap_apply_of_nonneg {s : Shape} (v : IVec s 32) (z c : IVec s 32) (hz : ∀ i, z i = 0#32) (i : s.Idx)
    (hx : 0 ≤ (v i).toInt) : select (cmpi .slt v z) (addi v c) v i = v i := by
  show Scalar.select (IntOp.cmpi .slt (v i) (z i)) (IntOp.addi (v i) (c i)) (v i) = v i
  rw [hz i]
  exact select_slt_zero_of_nonneg (v i) hx _ _

/-- A 32-bit word reads, signed, as the natural number `g < 2³¹` exactly when it is `g`'s word. -/
theorem toInt_eq_iff_eq_ofNat (x : BitVec 32) (g : Nat) (hg : g < 2 ^ 31) :
    x.toInt = (g : ℤ) ↔ x = BitVec.ofNat 32 g := by
  have hgi : (BitVec.ofNat 32 g).toInt = (g : ℤ) := by
    rw [BitVec.toInt_eq_toNat_cond, BitVec.toNat_ofNat]
    have hm : g % 2 ^ 32 = g := Nat.mod_eq_of_lt (by omega)
    rw [hm, if_pos (by omega)]
  constructor
  · intro h
    exact BitVec.eq_of_toInt_eq (h.trans hgi.symm)
  · rintro rfl
    exact hgi

end Words

end Cert.LibGather

end
-- ==== Proof.LibSegmentSum.lean ====
/-
  A row scatter-add read at an index. A `stablehlo.scatter` with an `add` body whose scatter indices are one column
  `[E, 1]` of row numbers, whose updates are `E` rows of width `D` and whose operand has `M` rows of width `D`
  (what `jax.ops.segment_sum` of a rank-2 array lowers to) adds update row `e` onto operand row `idx e`: the element
  `(r, k)` of the result is the operand's plus the sum, over the update rows `e` whose index is `r`, of the update's
  element `(e, k)`. An index outside `[0, M)` names no row and its update row is dropped. The column `k` plays no part
  in which rows land, so a scatter of a wide update array restricted to some columns is the scatter of those columns.
-/
import Idealize.ShloMosaic.PureOps.Ideal
import Idealize.ShloMosaic.PureOps.Contract
import Idealize.ShloMosaic.Lib.ValueIdx

noncomputable section

open scoped BigOperators

namespace Cert.LibSegmentSum

open Idealize.ShloMosaic Idealize.ShloMosaic.ValueIdx

/-- The dimension numbers of a row scatter: update axis 1 is the window (operand axis 1), operand axis 0 is the
    inserted one and the one the single index component names, the index vector lies along axis 1 of the indices. -/
abbrev rowScatterDims (M D E : Nat)
    (wf : ScatterDims.WF (⟨2, ![M, D]⟩ : Shape) (⟨2, ![E, 1]⟩ : Shape) (⟨2, ![E, D]⟩ : Shape) [1] [0] [0] 1) :
    ScatterDims (⟨2, ![M, D]⟩ : Shape) (⟨2, ![E, 1]⟩ : Shape) (⟨2, ![E, D]⟩ : Shape) where
  updateWindowDims := [1]
  insertedWindowDims := [0]
  scatterDimsToOperandDims := [0]
  indexVectorDim := 1
  wf := wf

/-- On operand axis 0 the window starts at row `e`'s index word, read signed. -/
private theorem start_zero {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) :
    (rowScatterDims M D E wf).start (ix2 e k') idx 0 = (idx (ix2 e (0 : Fin 1))).toInt := by
  unfold ScatterDims.start
  rw [dif_pos (show (0 : Fin 2) ∈ (rowScatterDims M D E wf).scatterDimsToOperandDims from List.mem_singleton.mpr rfl)]
  have hsi : (rowScatterDims M D E wf).siIdx (ix2 e k') ⟨List.idxOf (0 : Fin 2) (rowScatterDims M D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Operand axis 1 is not named by the index vector: the window starts at 0 there. -/
private theorem start_one {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (j : (⟨2, ![E, D]⟩ : Shape).Idx) :
    (rowScatterDims M D E wf).start j idx 1 = 0 := by
  unfold ScatterDims.start
  rw [dif_neg (show ¬ (1 : Fin 2) ∈ (rowScatterDims M D E wf).scatterDimsToOperandDims from (by decide : ¬ (1 : Fin 2) ∈ ([0] : List (Fin 2))))]

/-- Operand axis 0 is inserted: the window coordinate there is 0. -/
private theorem window_zero {M D E : Nat}
    (wf : ScatterDims.WF (⟨2, ![M, D]⟩ : Shape) (⟨2, ![E, 1]⟩ : Shape) (⟨2, ![E, D]⟩ : Shape) [1] [0] [0] 1)
    (j : (⟨2, ![E, D]⟩ : Shape).Idx) :
    (rowScatterDims M D E wf).window j 0 = 0 := by
  unfold ScatterDims.window
  rw [dif_neg (show ¬ (0 : Fin 2) ∈ (rowScatterDims M D E wf).sKept from (by decide : ¬ (0 : Fin 2) ∈ (List.finRange 2).filter (· ∉ [(0 : Fin 2)])))]

/-- On operand axis 1 the window coordinate is the update's column. -/
private theorem window_one {M D E : Nat}
    (wf : ScatterDims.WF (⟨2, ![M, D]⟩ : Shape) (⟨2, ![E, 1]⟩ : Shape) (⟨2, ![E, D]⟩ : Shape) [1] [0] [0] 1)
    (e : Fin E) (k' : Fin D) :
    (rowScatterDims M D E wf).window (ix2 e k') 1 = k'.val := by
  unfold ScatterDims.window
  rw [dif_pos (show (1 : Fin 2) ∈ (rowScatterDims M D E wf).sKept from (by decide : (1 : Fin 2) ∈ (List.finRange 2).filter (· ∉ [(0 : Fin 2)])))]
  rfl

/-- Update element `(e, k')` lands on operand element `(r, k)` exactly when row `e`'s index is `r` and the columns agree. -/
theorem resultIdx?_eq_some_iff {M D E w : Nat}
    (wf : ScatterDims.WF (⟨2, ![M, D]⟩ : Shape) (⟨2, ![E, 1]⟩ : Shape) (⟨2, ![E, D]⟩ : Shape) [1] [0] [0] 1)
    (idx : IVec (⟨2, ![E, 1]⟩ : Shape) w) (e : Fin E) (k' : Fin D) (r : Fin M) (k : Fin D) :
    (rowScatterDims M D E wf).resultIdx? (ix2 e k') idx = some (ix2 r k)
      ↔ (idx (ix2 e (0 : Fin 1))).toInt = (r.val : ℤ) ∧ k' = k := by
  have hs0 := start_zero wf idx e k'
  have hs1 := start_one wf idx (ix2 e k')
  have hw0 := window_zero wf (ix2 e k')
  have hw1 := window_one wf e k'
  have hr := r.isLt
  have hk := k.isLt
  have hk' := k'.isLt
  constructor
  · intro hres
    unfold ScatterDims.resultIdx? at hres
    split_ifs at hres with h
    rw [Option.some.injEq] at hres
    have e0 : ((rowScatterDims M D E wf).start (ix2 e k') idx 0 + (rowScatterDims M D E wf).window (ix2 e k') 0).toNat = r.val :=
      congrArg Fin.val (congrFun hres 0)
    have e1 : ((rowScatterDims M D E wf).start (ix2 e k') idx 1 + (rowScatterDims M D E wf).window (ix2 e k') 1).toNat = k.val :=
      congrArg Fin.val (congrFun hres 1)
    have h0 := (h 0).1
    rw [hs0, hw0] at e0 h0
    rw [hs1, hw1] at e1
    exact ⟨by omega, Fin.ext (by omega)⟩
  · rintro ⟨hidx, rfl⟩
    unfold ScatterDims.resultIdx?
    have h : ∀ a, 0 ≤ (rowScatterDims M D E wf).start (ix2 e k') idx a + (rowScatterDims M D E wf).window (ix2 e k') a
        ∧ (rowScatterDims M D E wf).start (ix2 e k') idx a + (rowScatterDims M D E wf).window (ix2 e k') a
          < (⟨2, ![M, D]⟩ : Shape).size a := by
      refine Fin.forall_fin_two.2 ⟨?_, ?_⟩
      · rw [hs0, hw0]
        show 0 ≤ _ ∧ _ < (M : ℤ)
        omega
      · rw [hs1, hw1]
        show 0 ≤ _ ∧ _ < (D : ℤ)
        omega
    rw [dif_pos h, Option.some.injEq]
    funext a
    refine Fin.ext ?_
    revert a
    refine Fin.forall_fin_two.2 ⟨?_, ?_⟩
    · show ((rowScatterDims M D E wf).start (ix2 e k') idx 0 + (rowScatterDims M D E wf).window (ix2 e k') 0).toNat = r.val
      rw [hs0, hw0]; omega
    · show ((rowScatterDims M D E wf).start (ix2 e k') idx 1 + (rowScatterDims M D E wf).window (ix2 e k') 1).toNat = k'.val
      rw [hs1, hw1]; omega

/-- THE ROW SCATTER-ADD AT `(r, k)`: the operand's element plus the update rows whose index is `r`, at column `k`. -/
theorem rowScatterAdd_apply {M D E w : Nat}
    (wf : ScatterDims.WF (⟨2, ![M, D]⟩ : Shape) (⟨2, ![E, 1]⟩ : Shape) (⟨2, ![E, D]⟩ : Shape) [1] [0] [0] 1)
    (x : (⟨2, ![M, D]⟩ : Shape).Idx → EReal) (idx : IVec (⟨2, ![E, 1]⟩ : Shape) w)
    (u : (⟨2, ![E, D]⟩ : Shape).Idx → EReal) (r : Fin M) (k : Fin D) :
    Ideal.hostScatterAdd (rowScatterDims M D E wf) x idx u (ix2 r k)
      = x (ix2 r k) + ∑ e : Fin E, if (idx (ix2 e (0 : Fin 1))).toInt = (r.val : ℤ) then u (ix2 e k) else 0 := by
  unfold Ideal.hostScatterAdd
  congr 1
  rw [Finset.sum_filter, sum_idx2]
  refine Finset.sum_congr rfl fun e _ => ?_
  simp only [resultIdx?_eq_some_iff]
  by_cases hi : (idx (ix2 e (0 : Fin 1))).toInt = (r.val : ℤ)
  · simp only [hi, true_and, if_true]
    rw [Finset.sum_ite_eq']
    simp
  · simp only [hi, false_and, if_false, Finset.sum_const_zero]

end Cert.LibSegmentSum

end
-- ==== Proof.LibGather3.lean ====
/-
  A gather of whole slabs read at an index. What `x[idx]` lowers to when `x` is a rank-3 array `[N, H, D]` and `idx` is a
  flat array of `E` row numbers reshaped to one column `[E, 1]`: a `stablehlo.gather` whose start index map names operand
  axis 0, whose index vector lies along axis 1 of the start indices and whose slice is one whole slab `[1, H, D]` of the
  operand, its leading axis collapsed and its two trailing axes the result's two offset axes (result `[E, H, D]`). Result
  element `(e, h, d)` is the operand's element `(h, d)` of the slab numbered `idx[e, 0]`, that word read as a signed integer
  and clamped into `[0, N − 1]` as StableHLO clamps every start index: a negative word reads slab 0, a word past the end
  reads slab `N − 1`. The coordinates `h` and `d` pass through untouched.
-/
import Idealize.ShloMosaic.PureOps.Ideal
import Idealize.ShloMosaic.PureOps.Contract
import Idealize.ShloMosaic.Lib.ValueIdx

noncomputable section

namespace Cert.LibGather3

open Idealize.ShloMosaic Idealize.ShloMosaic.ValueIdx

variable {α : Type}

/-- The dimension numbers of a slab gather: result axes 1 and 2 are the offset axes (operand axes 1 and 2, taken whole),
    operand axis 0 is collapsed and the one the single index component names, the index vector lies along axis 1 of the
    start indices, slices of one slab. -/
abbrev slabGatherDims (N H D E : Nat)
    (wf : GatherDims.WF (⟨3, ![N, H, D]⟩ : Shape) (⟨2, ![E, 1]⟩ : Shape) (⟨3, ![E, H, D]⟩ : Shape) [1, 2] [0] [] [0] [] 1
      ![1, H, D]) :
    GatherDims (⟨3, ![N, H, D]⟩ : Shape) (⟨2, ![E, 1]⟩ : Shape) (⟨3, ![E, H, D]⟩ : Shape) where
  offsetDims := [1, 2]
  collapsedSliceDims := [0]
  operandBatchingDims := []
  startIndicesBatchingDims := []
  startIndexMap := [0]
  indexVectorDim := 1
  sliceSizes := ![1, H, D]
  wf := wf

/-- Result element `(e, h, d)` reads its start index at `[e, 0]`: its one batch coordinate `e`, and component 0 of the
    index vector; the coordinates `h` and `d` play no part. -/
private theorem slab_siIdx {N H D E : Nat}
    (wf : GatherDims.WF (⟨3, ![N, H, D]⟩ : Shape) (⟨2, ![E, 1]⟩ : Shape) (⟨3, ![E, H, D]⟩ : Shape) [1, 2] [0] [] [0] [] 1
      ![1, H, D])
    (e : Fin E) (h : Fin H) (d : Fin D) (c : Fin (slabGatherDims N H D E wf).startIndexMap.length) :
    (slabGatherDims N H D E wf).siIdx (ix3 e h d) c = ix2 e (0 : Fin 1) := by
  have hc : c.val = 0 := Nat.lt_one_iff.mp c.isLt
  funext b; refine Fin.ext ?_
  match b with
  | ⟨0, _⟩ => rfl
  | ⟨1, _⟩ => exact hc

/-- On operand axis 0 the slice starts at row `e`'s index word, read signed and clamped into `[0, N − 1]`. -/
private theorem slab_start_zero {N H D E w : Nat}
    (wf : GatherDims.WF (⟨3, ![N, H, D]⟩ : Shape) (⟨2, ![E, 1]⟩ : Shape) (⟨3, ![E, H, D]⟩ : Shape) [1, 2] [0] [] [0] [] 1
      ![1, H, D])
    (idx : IVec (⟨2, ![E, 1]⟩ : Shape) w) (e : Fin E) (h : Fin H) (d : Fin D) :
    (slabGatherDims N H D E wf).start (ix3 e h d) idx 0 = min (idx (ix2 e (0 : Fin 1))).toInt.toNat (N - 1) := by
  unfold GatherDims.start
  rw [dif_pos (show (0 : Fin 3) ∈ (slabGatherDims N H D E wf).startIndexMap from List.mem_singleton.mpr rfl), slab_siIdx]
  rfl

/-- Operand axes 1 and 2 are not named by the index vector: the slice starts at 0 there. -/
private theorem slab_start_of_ne_zero {N H D E w : Nat}
    (wf : GatherDims.WF (⟨3, ![N, H, D]⟩ : Shape) (⟨2, ![E, 1]⟩ : Shape) (⟨3, ![E, H, D]⟩ : Shape) [1, 2] [0] [] [0] [] 1
      ![1, H, D])
    (idx : IVec (⟨2, ![E, 1]⟩ : Shape) w) (j : (⟨3, ![E, H, D]⟩ : Shape).Idx) (a : Fin 3) (ha : a ≠ 0) :
    (slabGatherDims N H D E wf).start j idx a = 0 := by
  unfold GatherDims.start
  rw [dif_neg (show ¬ a ∈ (slabGatherDims N H D E wf).startIndexMap from fun hm => ha (List.mem_singleton.mp hm))]

/-- Operand axis 1 is the first kept axis, read by the result's first offset axis: the offset coordinate there is the
    result's middle coordinate. -/
private theorem slab_off_one {N H D E : Nat}
    (wf : GatherDims.WF (⟨3, ![N, H, D]⟩ : Shape) (⟨2, ![E, 1]⟩ : Shape) (⟨3, ![E, H, D]⟩ : Shape) [1, 2] [0] [] [0] [] 1
      ![1, H, D])
    (e : Fin E) (h : Fin H) (d : Fin D) :
    (slabGatherDims N H D E wf).offCoord (ix3 e h d) 1 = h.val := by
  unfold GatherDims.offCoord
  rw [dif_pos ((GatherDims.mem_sKept _ _).mpr
    ⟨(by decide : ¬ (1 : Fin 3) ∈ ([0] : List (Fin 3))), List.not_mem_nil⟩)]
  rfl

/-- Operand axis 2 is the second kept axis, read by the result's second offset axis: the offset coordinate there is the
    result's last coordinate. -/
private theorem slab_off_two {N H D E : Nat}
    (wf : GatherDims.WF (⟨3, ![N, H, D]⟩ : Shape) (⟨2, ![E, 1]⟩ : Shape) (⟨3, ![E, H, D]⟩ : Shape) [1, 2] [0] [] [0] [] 1
      ![1, H, D])
    (e : Fin E) (h : Fin H) (d : Fin D) :
    (slabGatherDims N H D E wf).offCoord (ix3 e h d) 2 = d.val := by
  unfold GatherDims.offCoord
  rw [dif_pos ((GatherDims.mem_sKept _ _).mpr
    ⟨(by decide : ¬ (2 : Fin 3) ∈ ([0] : List (Fin 3))), List.not_mem_nil⟩)]
  rfl

/-- THE SLAB GATHER AT `(e, h, d)`: element `(h, d)` of the operand's slab `idx[e, 0]`, the slab number read signed and
    clamped into `[0, N − 1]`. -/
theorem slabGather_apply {N H D E w : Nat} (hN : 0 < N)
    (wf : GatherDims.WF (⟨3, ![N, H, D]⟩ : Shape) (⟨2, ![E, 1]⟩ : Shape) (⟨3, ![E, H, D]⟩ : Shape) [1, 2] [0] [] [0] [] 1
      ![1, H, D])
    (x : (⟨3, ![N, H, D]⟩ : Shape).Idx → α) (idx : IVec (⟨2, ![E, 1]⟩ : Shape) w) (e : Fin E) (h : Fin H) (d : Fin D) :
    Host.gather (slabGatherDims N H D E wf) x idx (ix3 e h d)
      = x (ix3 ⟨min (idx (ix2 e (0 : Fin 1))).toInt.toNat (N - 1), by omega⟩ h d) := by
  unfold Host.gather
  congr 1
  funext a
  refine Fin.ext ?_
  match a with
  | ⟨0, _⟩ =>
    show (slabGatherDims N H D E wf).start (ix3 e h d) idx 0 + (slabGatherDims N H D E wf).batchCoord (ix3 e h d) 0
        + (slabGatherDims N H D E wf).offCoord (ix3 e h d) 0 = min (idx (ix2 e (0 : Fin 1))).toInt.toNat (N - 1)
    rw [GatherDims.batchCoord_eq_zero _ _ _ List.not_mem_nil,
      GatherDims.offCoord_eq_zero _ _ _ (fun hm => ((GatherDims.mem_sKept _ _).mp hm).1 (List.mem_singleton.mpr rfl)),
      slab_start_zero]
    rfl
  | ⟨1, _⟩ =>
    show (slabGatherDims N H D E wf).start (ix3 e h d) idx 1 + (slabGatherDims N H D E wf).batchCoord (ix3 e h d) 1
        + (slabGatherDims N H D E wf).offCoord (ix3 e h d) 1 = h.val
    rw [GatherDims.batchCoord_eq_zero _ _ _ List.not_mem_nil, slab_start_of_ne_zero wf idx _ 1 (by decide), slab_off_one]
    omega
  | ⟨2, _⟩ =>
    show (slabGatherDims N H D E wf).start (ix3 e h d) idx 2 + (slabGatherDims N H D E wf).batchCoord (ix3 e h d) 2
        + (slabGatherDims N H D E wf).offCoord (ix3 e h d) 2 = d.val
    rw [GatherDims.batchCoord_eq_zero _ _ _ List.not_mem_nil, slab_start_of_ne_zero wf idx _ 2 (by decide), slab_off_two]
    omega

end Cert.LibGather3

end
-- ==== Proof.LibScatter3.lean ====
/-
  A scatter-add of whole slabs read at an index. A `stablehlo.scatter` with an `add` body whose scatter indices are one
  column `[E, 1]` of row numbers, whose updates are `E` slabs `[H, D]` and whose operand has `M` slabs `[H, D]` (the
  segment sum of a rank-3 array along its leading axis: operand axis 0 the inserted one and the one the single index
  component names, update axes 1 and 2 the window) adds update slab `e` onto operand slab `idx e`: the element `(r, h, d)` of the result
  is the operand's plus the sum, over the update slabs `e` whose index is `r`, of the update's element `(e, h, d)`. An index
  outside `[0, M)` names no slab and its update slab is dropped. The coordinates `h` and `d` play no part in which slabs land.
  On the way: a sum over a rank-3 index set is the triple sum over its coordinates.
-/
import Idealize.ShloMosaic.PureOps.Ideal
import Idealize.ShloMosaic.PureOps.Contract
import Idealize.ShloMosaic.Lib.ValueIdx

noncomputable section

open scoped BigOperators

namespace Cert.LibScatter3

open Idealize.ShloMosaic Idealize.ShloMosaic.ValueIdx

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The slab scatter -/

/-- The dimension numbers of a slab scatter: update axes 1 and 2 are the window (operand axes 1 and 2), operand axis 0 is
    the inserted one and the one the single index component names, the index vector lies along axis 1 of the indices. -/
abbrev slabScatterDims (M H D E : Nat)
    (wf : ScatterDims.WF (⟨3, ![M, H, D]⟩ : Shape) (⟨2, ![E, 1]⟩ : Shape) (⟨3, ![E, H, D]⟩ : Shape) [1, 2] [0] [0] 1) :
    ScatterDims (⟨3, ![M, H, D]⟩ : Shape) (⟨2, ![E, 1]⟩ : Shape) (⟨3, ![E, H, D]⟩ : Shape) where
  updateWindowDims := [1, 2]
  insertedWindowDims := [0]
  scatterDimsToOperandDims := [0]
  indexVectorDim := 1
  wf := wf

/-- On operand axis 0 the window starts at slab `e`'s index word, read signed. -/
private theorem start_zero {M H D E w : Nat}
    (wf : ScatterDims.WF (⟨3, ![M, H, D]⟩ : Shape) (⟨2, ![E, 1]⟩ : Shape) (⟨3, ![E, H, D]⟩ : Shape) [1, 2] [0] [0] 1)
    (idx : IVec (⟨2, ![E, 1]⟩ : Shape) w) (e : Fin E) (h' : Fin H) (d' : Fin D) :
    (slabScatterDims M H D E wf).start (ix3 e h' d') idx 0 = (idx (ix2 e (0 : Fin 1))).toInt := by
  unfold ScatterDims.start
  rw [dif_pos (show (0 : Fin 3) ∈ (slabScatterDims M H D E wf).scatterDimsToOperandDims from List.mem_singleton.mpr rfl)]
  have hsi : (slabScatterDims M H D E wf).siIdx (ix3 e h' d')
      ⟨List.idxOf (0 : Fin 3) (slabScatterDims M H D E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Operand axes 1 and 2 are not named by the index vector: the window starts at 0 there. -/
private theorem start_of_ne_zero {M H D E w : Nat}
    (wf : ScatterDims.WF (⟨3, ![M, H, D]⟩ : Shape) (⟨2, ![E, 1]⟩ : Shape) (⟨3, ![E, H, D]⟩ : Shape) [1, 2] [0] [0] 1)
    (idx : IVec (⟨2, ![E, 1]⟩ : Shape) w) (j : (⟨3, ![E, H, D]⟩ : Shape).Idx) (a : Fin 3) (ha : a ≠ 0) :
    (slabScatterDims M H D E wf).start j idx a = 0 := by
  unfold ScatterDims.start
  rw [dif_neg (show ¬ a ∈ (slabScatterDims M H D E wf).scatterDimsToOperandDims from
    fun hm => ha (List.mem_singleton.mp hm))]

/-- Operand axis 0 is inserted: the window coordinate there is 0. -/
private theorem window_zero {M H D E : Nat}
    (wf : ScatterDims.WF (⟨3, ![M, H, D]⟩ : Shape) (⟨2, ![E, 1]⟩ : Shape) (⟨3, ![E, H, D]⟩ : Shape) [1, 2] [0] [0] 1)
    (j : (⟨3, ![E, H, D]⟩ : Shape).Idx) :
    (slabScatterDims M H D E wf).window j 0 = 0 := by
  unfold ScatterDims.window
  rw [dif_neg (show ¬ (0 : Fin 3) ∈ (slabScatterDims M H D E wf).sKept from
    (by decide : ¬ (0 : Fin 3) ∈ (List.finRange 3).filter (· ∉ [(0 : Fin 3)])))]

/-- On operand axis 1 the window coordinate is the update's middle coordinate. -/
private theorem window_one {M H D E : Nat}
    (wf : ScatterDims.WF (⟨3, ![M, H, D]⟩ : Shape) (⟨2, ![E, 1]⟩ : Shape) (⟨3, ![E, H, D]⟩ : Shape) [1, 2] [0] [0] 1)
    (e : Fin E) (h' : Fin H) (d' : Fin D) :
    (slabScatterDims M H D E wf).window (ix3 e h' d') 1 = h'.val := by
  unfold ScatterDims.window
  rw [dif_pos (show (1 : Fin 3) ∈ (slabScatterDims M H D E wf).sKept from
    (by decide : (1 : Fin 3) ∈ (List.finRange 3).filter (· ∉ [(0 : Fin 3)])))]
  rfl

/-- On operand axis 2 the window coordinate is the update's last coordinate. -/
private theorem window_two {M H D E : Nat}
    (wf : ScatterDims.WF (⟨3, ![M, H, D]⟩ : Shape) (⟨2, ![E, 1]⟩ : Shape) (⟨3, ![E, H, D]⟩ : Shape) [1, 2] [0] [0] 1)
    (e : Fin E) (h' : Fin H) (d' : Fin D) :
    (slabScatterDims M H D E wf).window (ix3 e h' d') 2 = d'.val := by
  unfold ScatterDims.window
  rw [dif_pos (show (2 : Fin 3) ∈ (slabScatterDims M H D E wf).sKept from
    (by decide : (2 : Fin 3) ∈ (List.finRange 3).filter (· ∉ [(0 : Fin 3)])))]
  rfl

/-- Update element `(e, h', d')` lands on operand element `(r, h, d)` exactly when slab `e`'s index is `r` and the two
    trailing coordinates agree. -/
theorem resultIdx?_eq_some_iff {M H D E w : Nat}
    (wf : ScatterDims.WF (⟨3, ![M, H, D]⟩ : Shape) (⟨2, ![E, 1]⟩ : Shape) (⟨3, ![E, H, D]⟩ : Shape) [1, 2] [0] [0] 1)
    (idx : IVec (⟨2, ![E, 1]⟩ : Shape) w) (e : Fin E) (h' : Fin H) (d' : Fin D) (r : Fin M) (h : Fin H) (d : Fin D) :
    (slabScatterDims M H D E wf).resultIdx? (ix3 e h' d') idx = some (ix3 r h d)
      ↔ (idx (ix2 e (0 : Fin 1))).toInt = (r.val : ℤ) ∧ h' = h ∧ d' = d := by
  have hs0 := start_zero wf idx e h' d'
  have hs1 := start_of_ne_zero wf idx (ix3 e h' d') 1 (by decide)
  have hs2 := start_of_ne_zero wf idx (ix3 e h' d') 2 (by decide)
  have hw0 := window_zero wf (ix3 e h' d')
  have hw1 := window_one wf e h' d'
  have hw2 := window_two wf e h' d'
  have hr := r.isLt
  have hh := h.isLt
  have hd := d.isLt
  have hh' := h'.isLt
  have hd' := d'.isLt
  constructor
  · intro hres
    unfold ScatterDims.resultIdx? at hres
    split_ifs at hres with hin
    rw [Option.some.injEq] at hres
    have e0 : ((slabScatterDims M H D E wf).start (ix3 e h' d') idx 0
        + (slabScatterDims M H D E wf).window (ix3 e h' d') 0).toNat = r.val :=
      congrArg Fin.val (congrFun hres 0)
    have e1 : ((slabScatterDims M H D E wf).start (ix3 e h' d') idx 1
        + (slabScatterDims M H D E wf).window (ix3 e h' d') 1).toNat = h.val :=
      congrArg Fin.val (congrFun hres 1)
    have e2 : ((slabScatterDims M H D E wf).start (ix3 e h' d') idx 2
        + (slabScatterDims M H D E wf).window (ix3 e h' d') 2).toNat = d.val :=
      congrArg Fin.val (congrFun hres 2)
    have h0 := (hin 0).1
    rw [hs0, hw0] at e0 h0
    rw [hs1, hw1] at e1
    rw [hs2, hw2] at e2
    exact ⟨by omega, Fin.ext (by omega), Fin.ext (by omega)⟩
  · rintro ⟨hidx, rfl, rfl⟩
    unfold ScatterDims.resultIdx?
    have hin : ∀ a, 0 ≤ (slabScatterDims M H D E wf).start (ix3 e h' d') idx a
          + (slabScatterDims M H D E wf).window (ix3 e h' d') a
        ∧ (slabScatterDims M H D E wf).start (ix3 e h' d') idx a + (slabScatterDims M H D E wf).window (ix3 e h' d') a
          < (⟨3, ![M, H, D]⟩ : Shape).size a := by
      intro a
      match a with
      | ⟨0, _⟩ =>
        show 0 ≤ (slabScatterDims M H D E wf).start (ix3 e h' d') idx 0
            + (slabScatterDims M H D E wf).window (ix3 e h' d') 0
          ∧ (slabScatterDims M H D E wf).start (ix3 e h' d') idx 0
            + (slabScatterDims M H D E wf).window (ix3 e h' d') 0 < (M : ℤ)
        rw [hs0, hw0]
        omega
      | ⟨1, _⟩ =>
        show 0 ≤ (slabScatterDims M H D E wf).start (ix3 e h' d') idx 1
            + (slabScatterDims M H D E wf).window (ix3 e h' d') 1
          ∧ (slabScatterDims M H D E wf).start (ix3 e h' d') idx 1
            + (slabScatterDims M H D E wf).window (ix3 e h' d') 1 < (H : ℤ)
        rw [hs1, hw1]
        omega
      | ⟨2, _⟩ =>
        show 0 ≤ (slabScatterDims M H D E wf).start (ix3 e h' d') idx 2
            + (slabScatterDims M H D E wf).window (ix3 e h' d') 2
          ∧ (slabScatterDims M H D E wf).start (ix3 e h' d') idx 2
            + (slabScatterDims M H D E wf).window (ix3 e h' d') 2 < (D : ℤ)
        rw [hs2, hw2]
        omega
    rw [dif_pos hin, Option.some.injEq]
    funext a
    refine Fin.ext ?_
    match a with
    | ⟨0, _⟩ =>
      show ((slabScatterDims M H D E wf).start (ix3 e h' d') idx 0
        + (slabScatterDims M H D E wf).window (ix3 e h' d') 0).toNat = r.val
      rw [hs0, hw0]; omega
    | ⟨1, _⟩ =>
      show ((slabScatterDims M H D E wf).start (ix3 e h' d') idx 1
        + (slabScatterDims M H D E wf).window (ix3 e h' d') 1).toNat = h'.val
      rw [hs1, hw1]; omega
    | ⟨2, _⟩ =>
      show ((slabScatterDims M H D E wf).start (ix3 e h' d') idx 2
        + (slabScatterDims M H D E wf).window (ix3 e h' d') 2).toNat = d'.val
      rw [hs2, hw2]; omega

/-- THE SLAB SCATTER-ADD AT `(r, h, d)`: the operand's element plus the update slabs whose index is `r`, at `(h, d)`. -/
theorem slabScatterAdd_apply {M H D E w : Nat}
    (wf : ScatterDims.WF (⟨3, ![M, H, D]⟩ : Shape) (⟨2, ![E, 1]⟩ : Shape) (⟨3, ![E, H, D]⟩ : Shape) [1, 2] [0] [0] 1)
    (x : (⟨3, ![M, H, D]⟩ : Shape).Idx → EReal) (idx : IVec (⟨2, ![E, 1]⟩ : Shape) w)
    (u : (⟨3, ![E, H, D]⟩ : Shape).Idx → EReal) (r : Fin M) (h : Fin H) (d : Fin D) :
    Ideal.hostScatterAdd (slabScatterDims M H D E wf) x idx u (ix3 r h d)
      = x (ix3 r h d)
        + ∑ e : Fin E, if (idx (ix2 e (0 : Fin 1))).toInt = (r.val : ℤ) then u (ix3 e h d) else 0 := by
  unfold Ideal.hostScatterAdd
  congr 1
  rw [Finset.sum_filter, sum_idx3]
  refine Finset.sum_congr rfl fun e _ => ?_
  simp only [resultIdx?_eq_some_iff]
  by_cases hi : (idx (ix2 e (0 : Fin 1))).toInt = (r.val : ℤ)
  · simp only [hi, true_and, if_true]
    rw [Finset.sum_eq_single h]
    · rw [Finset.sum_eq_single d]
      · simp
      · intro c _ hc
        simp [hc]
      · intro hn
        exact absurd (Finset.mem_univ d) hn
    · intro b _ hb
      simp [hb]
    · intro hn
      exact absurd (Finset.mem_univ h) hn
  · simp only [hi, false_and, if_false, Finset.sum_const_zero]

end Cert.LibScatter3

end
-- ==== Proof.BridgeAttnK.lean ====
/-
  The attention quotient in closed form; the kernel program's attention output equals it (through the 0/1 grouping
  matrices, the filling gathers and the two segment sums); and so does, over arbitrary arrays, the shape of the
  reference's computation (slab gathers of the reshaped projections, a slab scatter over a row scatter).
  At node n and column c (head h = c / 16) the attention output is the quotient of two sums over the edges e that
  point at n: the numerator adds V[src e, c] * s(e, h), the denominator adds s(e, h), where the score is
  s(e, h) = exp (min 5 (max (-5) (dot(e, h) / 4))) and dot(e, h) is the sum over the sixteen columns c' of head h of
  K[src e, c'] * Q[dst e, c'].  The rows src e and dst e are read through a gather, which clamps the row number into
  [0, 49999]; the edges that point at n are those whose scatter index reads n.
-/
import proofs.«420532_j35407710388433_1_alg».proof.Proof.BridgeTerms
import proofs.«420532_j35407710388433_1_alg».proof.Proof.BridgeConsts
import proofs.«420532_j35407710388433_1_alg».proof.Proof.LibTakeFill
import proofs.«420532_j35407710388433_1_alg».proof.Proof.LibGather
import proofs.«420532_j35407710388433_1_alg».proof.Proof.LibSegmentSum
import proofs.«420532_j35407710388433_1_alg».proof.Proof.LibGather3
import proofs.«420532_j35407710388433_1_alg».proof.Proof.LibScatter3
import Idealize.ShloMosaic.PureOps.Ideal
import Idealize.ShloMosaic.PureOps.Ideal.Laws
import Idealize.ShloMosaic.PureOps.Contract
import Idealize.ShloMosaic.Lib.ValueIdx

noncomputable section

open scoped BigOperators

namespace Cert.Bridge

open Idealize.ShloMosaic Idealize.ShloMosaic.ValueIdx Cert.Spec

/-- Column d of head h among the 128 columns: 16 h + d. -/
abbrev hcol (h : Fin 8) (d : Fin 16) : Fin 128 := ⟨16 * h.val + d.val, by have := h.isLt; have := d.isLt; omega⟩

/-- The head of a column: c / 16. -/
abbrev headOf (c : Fin 128) : Fin 8 := ⟨c.val / 16, by have := c.isLt; omega⟩

/-- A column of 640000 row numbers. -/
abbrev ICol : Type := IVec (⟨2, ![640000, 1]⟩ : Shape) 32

/-- The row a gather reads for edge e: the index word read signed and clamped into [0, 49999]. -/
abbrev gRow (I : ICol) (e : Fin 640000) : Fin 50000 :=
  ⟨min (I (ix2 e (0 : Fin 1))).toInt.toNat (50000 - 1), by omega⟩

/-- The rows of x gathered edge by edge. -/
def gat (x : A2 50000 128) (I : ICol) : A2 640000 128 := fun j => x (ix2 (gRow I (j 0)) (j 1))

theorem gat_apply (x : A2 50000 128) (I : ICol) (e : Fin 640000) (c : Fin 128) :
    gat x I (ix2 e c) = x (ix2 (gRow I e) c) := rfl

/-- The score of edge e and head h from the gathered key and query rows. -/
def score (K Q : A2 640000 128) (e : Fin 640000) (h : Fin 8) : EReal :=
  Ideal.exp (min (Ideal.ofBits .f32 0x40A00000#32) (max (Ideal.ofBits .f32 0xC0A00000#32)
    (Ideal.div (∑ d : Fin 16, K (ix2 e (hcol h d)) * Q (ix2 e (hcol h d))) (Ideal.ofBits .f32 0x40800000#32))))

/-- The attention quotient at node n and column c, from the gathered rows and the scatter's index column. -/
def attnForm (K Q V : A2 640000 128) (sc : ICol) (n : Fin 50000) (c : Fin 128) : EReal :=
  Ideal.div
    (∑ e : Fin 640000, if (sc (ix2 e (0 : Fin 1))).toInt = (n.val : ℤ) then V (ix2 e c) * score K Q e (headOf c) else 0)
    (∑ e : Fin 640000, if (sc (ix2 e (0 : Fin 1))).toInt = (n.val : ℤ) then score K Q e (headOf c) else 0)

/-! ## The kernel's two outputs at an index -/

section Kernel

variable (g : A2 128 8) (gt : A2 8 128)
  (hg : ∀ (a : Fin 128 → EReal) (h : Fin 8), ∑ c : Fin 128, a c * g (ix2 c h) = ∑ d : Fin 16, a (hcol h d))
  (hr : ∀ (s : Fin 8 → EReal) (c : Fin 128), ∑ h : Fin 8, s h * gt (ix2 h c) = s (headOf c))
  (hq : ∀ x : EReal, x * Ideal.ofBits .f32 0x3E800000#32 = Ideal.div x (Ideal.ofBits .f32 0x40800000#32))

include hg hq in
/-- The kernel's per-head score is the score: the grouping matrix sums a head's sixteen products, and the product with
    one quarter is the quotient by four. -/
theorem scoreE_apply (K Q : A2 640000 128) (e : Fin 640000) (h : Fin 8) :
    scoreE K Q g (ix2 e h) = score K Q e h := by
  show Ideal.exp (min _ (max _ (mm (fun j => K j * Q j) g (ix2 e h) * _))) = _
  rw [mm_apply, hg (fun c => K (ix2 e c) * Q (ix2 e c)) h, hq]
  rfl

include hg hr hq in
/-- The kernel's second output: the score of the column's head. -/
theorem G1s_apply (K Q : A2 640000 128) (e : Fin 640000) (c : Fin 128) :
    G1s K Q g gt (ix2 e c) = score K Q e (headOf c) := by
  show mm (scoreE K Q g) gt (ix2 e c) = _
  rw [mm_apply, hr (fun h => scoreE K Q g (ix2 e h)) c, scoreE_apply g hg hq]

include hg hr hq in
/-- The kernel's first output: the gathered value times the score of the column's head. -/
theorem G1w_apply (K Q V : A2 640000 128) (e : Fin 640000) (c : Fin 128) :
    G1w K Q V g gt (ix2 e c) = V (ix2 e c) * score K Q e (headOf c) := by
  show V (ix2 e c) * G1s K Q g gt (ix2 e c) = _
  rw [G1s_apply g gt hg hr hq]

include hg hr hq in
/-- THE KERNEL'S SIDE: the quotient of the two segment sums of the kernel's outputs over gathered rows is the attention
    quotient. The segment sums start from an array of zeros; the gather is a row gather and the scatter a row scatter. -/
theorem kernel_at (kp qp vp : A2 50000 128) (si di sc : ICol)
    (Gd : GatherDims (⟨2, ![50000, 128]⟩ : Shape) (⟨2, ![640000, 1]⟩ : Shape) (⟨2, ![640000, 128]⟩ : Shape))
    (wfG : GatherDims.WF (⟨2, ![50000, 128]⟩ : Shape) (⟨2, ![640000, 1]⟩ : Shape) (⟨2, ![640000, 128]⟩ : Shape) [1] [0] [] [0] [] 1 ![1, 128])
    (hGd : Gd = Cert.LibGather.rowGatherDims 50000 128 640000 wfG)
    (Sd : ScatterDims (⟨2, ![50000, 128]⟩ : Shape) (⟨2, ![640000, 1]⟩ : Shape) (⟨2, ![640000, 128]⟩ : Shape))
    (wfS : ScatterDims.WF (⟨2, ![50000, 128]⟩ : Shape) (⟨2, ![640000, 1]⟩ : Shape) (⟨2, ![640000, 128]⟩ : Shape) [1] [0] [0] 1)
    (hSd : Sd = Cert.LibSegmentSum.rowScatterDims 50000 128 640000 wfS)
    (z : A2 50000 128) (hz : ∀ j, z j = 0) (n : Fin 50000) (c : Fin 128) :
    Host.divf (F := Ideal) (φ := .f32)
      (Host.scatterAdd (F := Ideal) (φ := .f32) Sd z sc
        (G1w (Host.gather Gd kp si) (Host.gather Gd qp di) (Host.gather Gd vp si) g gt))
      (Host.scatterAdd (F := Ideal) (φ := .f32) Sd z sc (G1s (Host.gather Gd kp si) (Host.gather Gd qp di) g gt))
      (ix2 n c)
      = attnForm (gat kp si) (gat qp di) (gat vp si) sc n c := by
  subst hGd hSd
  have hgat : ∀ (x : A2 50000 128) (I : ICol),
      Host.gather (Cert.LibGather.rowGatherDims 50000 128 640000 wfG) x I = gat x I := by
    intro x I
    funext j
    obtain ⟨e, k, rfl⟩ : ∃ (e : Fin 640000) (k : Fin 128), j = ix2 e k := ⟨j 0, j 1, eq_ix2 j⟩
    rw [Cert.LibGather.rowGather_apply (by norm_num) wfG x I e k]
    rfl
  rw [hgat, hgat, hgat]
  show Ideal.div (Ideal.hostScatterAdd _ z sc _ (ix2 n c)) (Ideal.hostScatterAdd _ z sc _ (ix2 n c)) = _
  rw [Cert.LibSegmentSum.rowScatterAdd_apply, Cert.LibSegmentSum.rowScatterAdd_apply, hz, zero_add, zero_add]
  unfold attnForm
  refine congrArg₂ Ideal.div ?_ ?_
  · exact Finset.sum_congr rfl fun e _ => by rw [G1w_apply g gt hg hr hq]
  · exact Finset.sum_congr rfl fun e _ => by rw [G1s_apply g gt hg hr hq]

end Kernel

/-! ## The reference's side, over arrays -/

section Reference

/-- A gather of whole slabs of the projection reshaped to [50000, 8, 16] reads the gathered row at column 16 h + d. -/
theorem slab_gat (y : A2 50000 128) (y3 : (⟨3, ![50000, 8, 16]⟩ : Shape).Idx → EReal)
    (hy : ∀ (m : Fin 50000) (h : Fin 8) (d : Fin 16), y3 (ix3 m h d) = y (ix2 m (hcol h d)))
    (Gd : GatherDims (⟨3, ![50000, 8, 16]⟩ : Shape) (⟨2, ![640000, 1]⟩ : Shape) (⟨3, ![640000, 8, 16]⟩ : Shape))
    (wf : GatherDims.WF (⟨3, ![50000, 8, 16]⟩ : Shape) (⟨2, ![640000, 1]⟩ : Shape) (⟨3, ![640000, 8, 16]⟩ : Shape) [1, 2] [0] [] [0] [] 1
      ![1, 8, 16])
    (hGd : Gd = Cert.LibGather3.slabGatherDims 50000 8 16 640000 wf)
    (I : ICol) (e : Fin 640000) (h : Fin 8) (d : Fin 16) :
    Host.gather Gd y3 I (ix3 e h d) = gat y I (ix2 e (hcol h d)) := by
  subst hGd
  rw [Cert.LibGather3.slabGather_apply (by norm_num) wf y3 I e h d, hy]
  rfl

/-- A column is column (c % 16) of its head. -/
theorem hcol_headOf (c : Fin 128) : hcol (headOf c) ⟨c.val % 16, Nat.mod_lt _ (by norm_num)⟩ = c := by
  apply Fin.ext
  show 16 * (c.val / 16) + c.val % 16 = c.val
  omega

/-- THE REFERENCE'S SIDE, over arrays: the slab scatter of the weighted values over the row scatter of the scores, both
    into zeros, read at node n, head c / 16 and place c % 16, is the attention quotient. -/
theorem ref_form (K Q V : A2 640000 128) (sc : ICol) (S8 : A2 640000 8)
    (hS : ∀ (e : Fin 640000) (h : Fin 8), S8 (ix2 e h) = score K Q e h)
    (U3 : (⟨3, ![640000, 8, 16]⟩ : Shape).Idx → EReal)
    (hU : ∀ (e : Fin 640000) (h : Fin 8) (d : Fin 16), U3 (ix3 e h d) = V (ix2 e (hcol h d)) * S8 (ix2 e h))
    (z3 : (⟨3, ![50000, 8, 16]⟩ : Shape).Idx → EReal) (hz3 : ∀ j, z3 j = 0)
    (z2 : A2 50000 8) (hz2 : ∀ j, z2 j = 0)
    (Sd3 : ScatterDims (⟨3, ![50000, 8, 16]⟩ : Shape) (⟨2, ![640000, 1]⟩ : Shape) (⟨3, ![640000, 8, 16]⟩ : Shape))
    (wf3 : ScatterDims.WF (⟨3, ![50000, 8, 16]⟩ : Shape) (⟨2, ![640000, 1]⟩ : Shape) (⟨3, ![640000, 8, 16]⟩ : Shape) [1, 2] [0] [0] 1)
    (hSd3 : Sd3 = Cert.LibScatter3.slabScatterDims 50000 8 16 640000 wf3)
    (Sd2 : ScatterDims (⟨2, ![50000, 8]⟩ : Shape) (⟨2, ![640000, 1]⟩ : Shape) (⟨2, ![640000, 8]⟩ : Shape))
    (wf2 : ScatterDims.WF (⟨2, ![50000, 8]⟩ : Shape) (⟨2, ![640000, 1]⟩ : Shape) (⟨2, ![640000, 8]⟩ : Shape) [1] [0] [0] 1)
    (hSd2 : Sd2 = Cert.LibSegmentSum.rowScatterDims 50000 8 640000 wf2)
    (n : Fin 50000) (c : Fin 128) :
    Ideal.div
      (Host.scatterAdd (F := Ideal) (φ := .f32) Sd3 z3 sc U3 (ix3 n (headOf c) ⟨c.val % 16, Nat.mod_lt _ (by norm_num)⟩))
      (Host.scatterAdd (F := Ideal) (φ := .f32) Sd2 z2 sc S8 (ix2 n (headOf c)))
      = attnForm K Q V sc n c := by
  subst hSd3 hSd2
  show Ideal.div (Ideal.hostScatterAdd _ z3 sc U3 _) (Ideal.hostScatterAdd _ z2 sc S8 _) = _
  rw [Cert.LibScatter3.slabScatterAdd_apply, Cert.LibSegmentSum.rowScatterAdd_apply, hz3, hz2, zero_add, zero_add]
  unfold attnForm
  refine congrArg₂ Ideal.div ?_ ?_
  · exact Finset.sum_congr rfl fun e _ => by rw [hU, hS, hcol_headOf]
  · exact Finset.sum_congr rfl fun e _ => by rw [hS]

end Reference

/-! ## The kernel program's attention output -/

section KMain

/-- With every index in [0, 50000) the filling gather reads no fill value: it is the row gather at the wrapped column. -/
theorem takeF_eq (x : FVec Ideal Cert.KernelIdeal.S50000x128 .f32) (s : IVec Cert.KernelIdeal.S640000 32)
    (h : ∀ e, 0 ≤ (s e).toInt ∧ (s e).toInt < 50000) :
    takeF x s
      = Host.gather Cert.KernelIdeal.gather_S50000x128_S640000x1_S640000x128_1_0_n_n_0_1_1128 x (wrapCol s) := by
  unfold takeF
  exact Cert.LibTakeFill.take_fill_eq 50000 50000#32 49999#32 _ _ _ _ _ _ _ _ (by norm_num) (by norm_num) rfl rfl s
    (fun e => ⟨by have := (h e).1; omega, by have := (h e).2; omega⟩) _ _

/-- The scatter's index column: the destination numbers as a column. -/
abbrev dstCol (d : IVec Cert.KernelIdeal.S640000 32) : ICol :=
  broadcastInDim Cert.KernelIdeal.S640000x1 ![0] Cert.KernelIdeal.Facts₀.bcast_S640000_S640000x1_0 d

/-- THE KERNEL PROGRAM'S ATTENTION OUTPUT at node n and column c is the attention quotient of the rows gathered at the
    wrapped source and destination columns, when every edge's two endpoints are node numbers. -/
theorem attnK_at (kp qp vp : FVec Ideal Cert.KernelIdeal.S50000x128 .f32) (s d : IVec Cert.KernelIdeal.S640000 32)
    (hs : ∀ e, 0 ≤ (s e).toInt ∧ (s e).toInt < 50000) (hd : ∀ e, 0 ≤ (d e).toInt ∧ (d e).toInt < 50000)
    (n : Fin 50000) (c : Fin 128) :
    attnK kp qp vp s d (ix2 n c)
      = attnForm (gat kp (wrapCol s)) (gat qp (wrapCol d)) (gat vp (wrapCol s)) (dstCol d) n c := by
  unfold attnK segsum
  rw [takeF_eq kp s hs, takeF_eq qp d hd, takeF_eq vp s hs]
  exact kernel_at gmat gtmat sum_group sum_rep quarter kp qp vp (wrapCol s) (wrapCol d) (dstCol d)
    Cert.KernelIdeal.gather_S50000x128_S640000x1_S640000x128_1_0_n_n_0_1_1128
    Cert.KernelIdeal.Facts₀.gather_S50000x128_S640000x1_S640000x128_1_0_n_n_0_1_1128_wf rfl
    Cert.KernelIdeal.scatter_S50000x128_S640000x1_S640000x128_1_0_0_1
    Cert.KernelIdeal.Facts₀.scatter_S50000x128_S640000x1_S640000x128_1_0_0_1_wf rfl
    _ (fun _ => Ideal.ofBits_zero_f32) n c

end KMain

end Cert.Bridge

end
-- ==== Proof.BridgeAttn.lean ====
/-
  The attention stage of the reference is the attention quotient, and so the kernel program's attention output is the
  reference's attention array.  The reference reshapes each projection to [50000, 8, 16], gathers whole slabs by the
  wrapped source and destination numbers, multiplies K and Q slabs and sums the sixteen places of each head, divides by
  four, clips to [-5, 5], exponentiates, multiplies the V slabs by the score, scatters the weighted slabs and the
  scores to the destination nodes, divides, and reshapes back: at node n and column c this is the same quotient of
  sums the kernel program computes, read at head c / 16 and place c % 16.  The wrapped index columns and the scatter's
  index column are the same arrays on both sides, so nothing about the clamp of a gather has to be decided.
-/
import proofs.«420532_j35407710388433_1_alg».proof.Proof.BridgeAttnK
import proofs.«420532_j35407710388433_1_alg».proof.Proof.Gen.ReferenceIdeal.Read
import Idealize.ShloMosaic.PureOps.Ideal
import Idealize.ShloMosaic.PureOps.Ideal.Laws
import Idealize.ShloMosaic.Lib.ValueIdx

noncomputable section

open scoped BigOperators

namespace Cert.Bridge

open Idealize.ShloMosaic Idealize.ShloMosaic.ValueIdx Cert.Spec Cert.ReferenceIdeal.Read

/-! ## The reference's operations -/

section Read

variable (x0 : (⟨Cert.ReferenceIdeal.S50000x128, .f32⟩ : BufTy).Contents (Elt Ideal))
  (x1 x2 : (⟨Cert.ReferenceIdeal.S640000, .i32⟩ : BufTy).Contents (Elt Ideal))
  (x3 x4 x5 : (⟨Cert.ReferenceIdeal.S128x128, .f32⟩ : BufTy).Contents (Elt Ideal))

/-- A reshaped projection at (m, h, d) is the projection at column 16 h + d of row m. -/
theorem idx_reshape (m : Fin 50000) (h : Fin 8) (d : Fin 16) : idx_main_v5 (ix3 m h d) = ix2 m (hcol h d) := by
  have := m.isLt; have := h.isLt; have := d.isLt
  funext a
  refine Fin.ext ?_
  match a with
  | ⟨0, _⟩ => show ((m.val * 8 + h.val) * 16 + d.val) / 128 = m.val; omega
  | ⟨1, _⟩ => show ((m.val * 8 + h.val) * 16 + d.val) % 128 = 16 * h.val + d.val; omega

theorem v5_at (m : Fin 50000) (h : Fin 8) (d : Fin 16) :
    val_main_v5 (F := Ideal) x0 x4 (ix3 m h d) = val_main_v4 (F := Ideal) x0 x4 (ix2 m (hcol h d)) := by
  rw [val_main_v5_apply, idx_reshape]

theorem v2_at (m : Fin 50000) (h : Fin 8) (d : Fin 16) :
    val_main_v2 (F := Ideal) x0 x3 (ix3 m h d) = val_main_v1 (F := Ideal) x0 x3 (ix2 m (hcol h d)) := by
  rw [val_main_v2_apply]
  exact congrArg _ (idx_reshape m h d)

theorem v8_at (m : Fin 50000) (h : Fin 8) (d : Fin 16) :
    val_main_v8 (F := Ideal) x0 x5 (ix3 m h d) = val_main_v7 (F := Ideal) x0 x5 (ix2 m (hcol h d)) := by
  rw [val_main_v8_apply]
  exact congrArg _ (idx_reshape m h d)

/-- The reference's products K * Q summed over the sixteen places of a head. -/
theorem ref_dot (e : Fin 640000) (h : Fin 8) :
    (∑ k : Fin 16, (val_main_v23 (F := Ideal) x0 x1 x2 x3 x4) (idx_main_v24 (ix2 e h) k))
      = ∑ d : Fin 16, gat (val_main_v4 (F := Ideal) x0 x4) (val_main_v14 (F := Ideal) x1) (ix2 e (hcol h d))
          * gat (val_main_v1 (F := Ideal) x0 x3) (val_main_v21 (F := Ideal) x2) (ix2 e (hcol h d)) := by
  refine Finset.sum_congr rfl fun k _ => ?_
  have hi : idx_main_v24 (ix2 e h) k = ix3 e h k :=
    funext fun a => Fin.ext (by match a with | ⟨0, _⟩ => rfl | ⟨1, _⟩ => rfl | ⟨2, _⟩ => rfl)
  rw [hi, val_main_v23_apply, Ideal.mulf_def]
  unfold val_main_v15 val_main_v22
  rw [slab_gat (val_main_v4 (F := Ideal) x0 x4) (val_main_v5 (F := Ideal) x0 x4) (v5_at x0 x4)
      Cert.ReferenceIdeal.gather_S50000x8x16_S640000x1_S640000x8x16_12_0_n_n_0_1_1816
      Cert.ReferenceIdeal.Facts₀.gather_S50000x8x16_S640000x1_S640000x8x16_12_0_n_n_0_1_1816_wf rfl,
    slab_gat (val_main_v1 (F := Ideal) x0 x3) (val_main_v2 (F := Ideal) x0 x3) (v2_at x0 x3)
      Cert.ReferenceIdeal.gather_S50000x8x16_S640000x1_S640000x8x16_12_0_n_n_0_1_1816
      Cert.ReferenceIdeal.Facts₀.gather_S50000x8x16_S640000x1_S640000x8x16_12_0_n_n_0_1_1816_wf rfl]

/-- The reference's score array is the score of the gathered K and Q projections: the sum starts from zero, the
    quotient by four, the clip (the larger of -5 and x, then the smaller of 5 and that) and the exponential follow. -/
theorem ref_score (e : Fin 640000) (h : Fin 8) :
    val_main_v28 (F := Ideal) x0 x1 x2 x3 x4 (ix2 e h)
      = score (gat (val_main_v4 (F := Ideal) x0 x4) (val_main_v14 (F := Ideal) x1))
          (gat (val_main_v1 (F := Ideal) x0 x3) (val_main_v21 (F := Ideal) x2)) e h := by
  rw [val_main_v28_apply, val_main_v27_apply, val_main_call0_v4_apply, val_main_call0_v3_apply,
    val_main_cst_5_apply, val_main_call0_v2_apply, val_main_call0_v1_apply, val_main_call0_v0_apply,
    val_main_cst_4_apply, val_main_v26_apply, val_main_v25_apply, val_main_cst_3_apply, val_main_v24_apply,
    val_main_cst_apply, ref_dot x0 x1 x2 x3 x4 e h]
  simp only [Ideal.hostUnary_exp_def, Ideal.minimumf_def, Ideal.maximumf_def, Ideal.hostDivf_def, Ideal.ofBits_def,
    Ideal.ofBits_zero_f32, zero_add]
  rfl

/-- The reference's weighted value at (e, h, d): the gathered V projection times the score. -/
theorem ref_weighted (e : Fin 640000) (h : Fin 8) (d : Fin 16) :
    val_main_v38 (F := Ideal) x0 x1 x2 x3 x4 x5 (ix3 e h d)
      = gat (val_main_v7 (F := Ideal) x0 x5) (val_main_v14 (F := Ideal) x1) (ix2 e (hcol h d))
          * val_main_v28 (F := Ideal) x0 x1 x2 x3 x4 (ix2 e h) := by
  have hi : idx_main_v36 (idx_main_v37 (ix3 e h d)) = ix2 e h :=
    funext fun a => Fin.ext (by match a with | ⟨0, _⟩ => rfl | ⟨1, _⟩ => rfl)
  rw [val_main_v38_apply, Ideal.mulf_def, val_main_v37_apply, val_main_v36_apply, hi]
  unfold val_main_v35
  rw [show val_main_v34 (F := Ideal) x1 = val_main_v14 (F := Ideal) x1 from rfl,
    slab_gat (val_main_v7 (F := Ideal) x0 x5) (val_main_v8 (F := Ideal) x0 x5) (v8_at x0 x5)
      Cert.ReferenceIdeal.gather_S50000x8x16_S640000x1_S640000x8x16_12_0_n_n_0_1_1816
      Cert.ReferenceIdeal.Facts₀.gather_S50000x8x16_S640000x1_S640000x8x16_12_0_n_n_0_1_1816_wf rfl]

/-- THE REFERENCE'S SIDE: its attention array at node n and column c is the attention quotient of the gathered
    projections. -/
theorem ref_at (n : Fin 50000) (c : Fin 128) :
    val_main_v48 (F := Ideal) x0 x1 x2 x3 x4 x5 (ix2 n c)
      = attnForm (gat (val_main_v4 (F := Ideal) x0 x4) (val_main_v14 (F := Ideal) x1))
          (gat (val_main_v1 (F := Ideal) x0 x3) (val_main_v21 (F := Ideal) x2))
          (gat (val_main_v7 (F := Ideal) x0 x5) (val_main_v14 (F := Ideal) x1))
          (val_main_v40 (F := Ideal) x2) n c := by
  have hc := c.isLt
  have hn := n.isLt
  have hi : idx_main_v48 (ix2 n c) = ix3 n (headOf c) ⟨c.val % 16, Nat.mod_lt _ (by norm_num)⟩ :=
    funext fun a => Fin.ext (by
      match a with
      | ⟨0, _⟩ => show (n.val * 128 + c.val) / 128 = n.val; omega
      | ⟨1, _⟩ => show (n.val * 128 + c.val) / 16 % 8 = c.val / 16; omega
      | ⟨2, _⟩ => show (n.val * 128 + c.val) % 16 = c.val % 16; omega)
  have hj : idx_main_v45 (idx_main_v46 (ix3 n (headOf c) ⟨c.val % 16, Nat.mod_lt _ (by norm_num)⟩)) = ix2 n (headOf c) :=
    funext fun a => Fin.ext (by match a with | ⟨0, _⟩ => rfl | ⟨1, _⟩ => rfl)
  rw [val_main_v48_apply, hi, val_main_v47_apply, Ideal.hostDivf_def, val_main_v46_apply, val_main_v45_apply, hj]
  unfold val_main_v41 val_main_v44
  rw [show val_main_v43 (F := Ideal) x2 = val_main_v40 (F := Ideal) x2 from rfl]
  exact ref_form _ _ _ (val_main_v40 (F := Ideal) x2) (val_main_v28 (F := Ideal) x0 x1 x2 x3 x4)
    (ref_score x0 x1 x2 x3 x4) (val_main_v38 (F := Ideal) x0 x1 x2 x3 x4 x5) (ref_weighted x0 x1 x2 x3 x4 x5)
    (val_main_v39 (F := Ideal)) (fun j => by rw [val_main_v39_apply, val_main_cst_8_apply]; exact Ideal.ofBits_zero_f32)
    (val_main_v42 (F := Ideal)) (fun j => by rw [val_main_v42_apply, val_main_cst_9_apply]; exact Ideal.ofBits_zero_f32)
    Cert.ReferenceIdeal.scatter_S50000x8x16_S640000x1_S640000x8x16_12_0_0_1
    Cert.ReferenceIdeal.Facts₀.scatter_S50000x8x16_S640000x1_S640000x8x16_12_0_0_1_wf rfl
    Cert.ReferenceIdeal.scatter_S50000x8_S640000x1_S640000x8_1_0_0_1
    Cert.ReferenceIdeal.Facts₀.scatter_S50000x8_S640000x1_S640000x8_1_0_0_1_wf rfl n c

end Read

/-! ## The two sides meet -/

section Main

variable (x0 : (⟨Cert.ReferenceIdeal.S50000x128, .f32⟩ : BufTy).Contents (Elt Ideal))
  (x1 x2 : (⟨Cert.ReferenceIdeal.S640000, .i32⟩ : BufTy).Contents (Elt Ideal))
  (x3 x4 x5 : (⟨Cert.ReferenceIdeal.S128x128, .f32⟩ : BufTy).Contents (Elt Ideal))

/-- The kernel program's wrapped source column is the reference's. -/
theorem wrapCol_src : wrapCol x1 = val_main_v14 (F := Ideal) x1 := rfl

/-- The kernel program's wrapped destination column is the reference's. -/
theorem wrapCol_dst : wrapCol x2 = val_main_v21 (F := Ideal) x2 := rfl

/-- The kernel program's scatter column is the reference's. -/
theorem dstCol_eq : dstCol x2 = val_main_v40 (F := Ideal) x2 := rfl

/-- THE ATTENTION STAGE: the kernel program's attention output, from the reference's three projections, is the
    reference's attention array, when every edge's two endpoints are node numbers. -/
theorem attn_eq (hs : ∀ e, 0 ≤ (x1 e).toInt ∧ (x1 e).toInt < 50000) (hd : ∀ e, 0 ≤ (x2 e).toInt ∧ (x2 e).toInt < 50000) :
    attnK (val_main_v4 (F := Ideal) x0 x4) (val_main_v1 (F := Ideal) x0 x3) (val_main_v7 (F := Ideal) x0 x5) x1 x2
      = val_main_v48 (F := Ideal) x0 x1 x2 x3 x4 x5 := by
  funext i
  obtain ⟨n, c, rfl⟩ : ∃ (n : Fin 50000) (c : Fin 128), i = ix2 n c := ⟨i 0, i 1, eq_ix2 i⟩
  rw [attnK_at _ _ _ x1 x2 hs hd n c, ref_at x0 x1 x2 x3 x4 x5 n c, wrapCol_src x1, wrapCol_dst x2, dstCol_eq x2]

end Main

end Cert.Bridge

end
-- ==== Proof.BridgeDense.lean ====
/-
  The dense tail of the layer, reference against kernel program, on the extended reals.
  The output projection with its residual and bias, the two column means and (biased) column variances over the
  50000 rows, and the final batch normalisation. The reference adds x + (A·WOᵀ + bO) where the kernel's program adds
  (x + A·WOᵀ) + bO: associativity of addition. The column statistics are the same host operations on both sides
  (a column sum into 0, a quotient by 50000, the subtraction of the repeated mean, a square, a column sum, a
  quotient), so those four equations hold by unfolding the names. The last batch normalisation is
  (x - mean) * rsqrt (var + eps) * gamma + beta on both sides, in the same association, read index by index.
-/
import proofs.«420532_j35407710388433_1_alg».proof.Proof.BridgeTerms
import proofs.«420532_j35407710388433_1_alg».proof.Proof.Gen.ReferenceIdeal.Read
import Idealize.ShloMosaic.PureOps.Ideal
import Idealize.ShloMosaic.Lib.ValueIdx
import Idealize.ShloMosaic.Lib.Pipeline.Value

noncomputable section

namespace Cert.Bridge

open Idealize.ShloMosaic Idealize.ShloMosaic.TcCoe Idealize.ShloMosaic.ValueIdx Cert.ReferenceIdeal.Read

variable (x0 : (⟨Cert.ReferenceIdeal.S50000x128, .f32⟩ : BufTy).Contents (Elt Ideal))
  (x1 x2 : (⟨Cert.ReferenceIdeal.S640000, .i32⟩ : BufTy).Contents (Elt Ideal))
  (x3 x4 x5 x6 : (⟨Cert.ReferenceIdeal.S128x128, .f32⟩ : BufTy).Contents (Elt Ideal))
  (x7 : (⟨Cert.ReferenceIdeal.S128, .f32⟩ : BufTy).Contents (Elt Ideal))
  (x8 : (⟨Cert.ReferenceIdeal.S256x128, .f32⟩ : BufTy).Contents (Elt Ideal))
  (x9 : (⟨Cert.ReferenceIdeal.S256, .f32⟩ : BufTy).Contents (Elt Ideal))
  (x10 : (⟨Cert.ReferenceIdeal.S128x256, .f32⟩ : BufTy).Contents (Elt Ideal))
  (x11 x12 x13 x14 x15 : (⟨Cert.ReferenceIdeal.S128, .f32⟩ : BufTy).Contents (Elt Ideal))

/-- The pre-normalisation rows: x + (A·WOᵀ + bO) = (x + A·WOᵀ) + bO, entry by entry. -/
theorem h1pre_eq :
    Cert.Spec.G2 x0 (val_main_v48 (F := Ideal) x0 x1 x2 x3 x4 x5) (tr128 x6) x7
      = val_main_v54 (F := Ideal) x0 x1 x2 x3 x4 x5 x6 x7 := by
  funext i
  obtain ⟨p, q, rfl⟩ : ∃ (p : Fin 50000) (q : Fin 128), i = ix2 p q := ⟨i 0, i 1, eq_ix2 i⟩
  rw [val_main_v54_apply, val_main_v53_apply, val_main_v50_apply, val_main_v52_apply, val_main_v51_apply]
  have hl : ∀ k : Fin 128, lidx_main_v50 (ix2 p q) k = ix2 p k := fun k =>
    funext fun a => Fin.ext (by match a with | ⟨0, _⟩ => rfl | ⟨1, _⟩ => rfl)
  have hr : ∀ k : Fin 128, ridx_main_v50 (ix2 p q) k = ix2 k q := fun k =>
    funext fun a => Fin.ext (by match a with | ⟨0, _⟩ => rfl | ⟨1, _⟩ => rfl)
  have hb : idx_main_v51 (idx_main_v52 (ix2 p q)) = ix1 q :=
    funext fun a => Fin.ext (by match a with | ⟨0, _⟩ => rfl)
  have hs : (∑ k : Fin 128, (val_main_v48 (F := Ideal) x0 x1 x2 x3 x4 x5) (lidx_main_v50 (ix2 p q) k)
        * (val_main_v49 (F := Ideal) x6) (ridx_main_v50 (ix2 p q) k))
      = Cert.Spec.mm (val_main_v48 (F := Ideal) x0 x1 x2 x3 x4 x5) (tr128 x6) (ix2 p q) := by
    rw [Cert.Spec.mm_apply]
    refine Finset.sum_congr rfl fun k _ => ?_
    rw [hl k, hr k] <;> rfl
  rw [hs, hb]
  exact add_assoc _ _ _

/-- The first column mean: the same column sum and quotient on both sides. -/
theorem mean1_eq :
    colMean (val_main_v54 (F := Ideal) x0 x1 x2 x3 x4 x5 x6 x7)
      = val_main_v57 (F := Ideal) x0 x1 x2 x3 x4 x5 x6 x7 := by
  unfold colMean val_main_v57 val_main_v55 val_main_v56 val_main_cst_10 val_main_cst_11
  rfl

/-- The first column variance about that mean: the same subtraction, square, column sum and quotient on both sides. -/
theorem var1_eq :
    colVar (val_main_v54 (F := Ideal) x0 x1 x2 x3 x4 x5 x6 x7) (val_main_v57 (F := Ideal) x0 x1 x2 x3 x4 x5 x6 x7)
      = val_main_v64 (F := Ideal) x0 x1 x2 x3 x4 x5 x6 x7 := by
  unfold colVar rowsOf val_main_v64 val_main_v62 val_main_v63 val_main_v61 val_main_v60 val_main_v59 val_main_v58
    val_main_cst_12 val_main_cst_13
  rfl

/-- The second column mean. -/
theorem mean2_eq :
    colMean (val_main_v91 (F := Ideal) x0 x1 x2 x3 x4 x5 x6 x7 x8 x9 x10 x11 x12 x13)
      = val_main_v94 (F := Ideal) x0 x1 x2 x3 x4 x5 x6 x7 x8 x9 x10 x11 x12 x13 := by
  unfold colMean val_main_v94 val_main_v92 val_main_v93 val_main_cst_15 val_main_cst_16
  rfl

/-- The second column variance about that mean. -/
theorem var2_eq :
    colVar (val_main_v91 (F := Ideal) x0 x1 x2 x3 x4 x5 x6 x7 x8 x9 x10 x11 x12 x13)
        (val_main_v94 (F := Ideal) x0 x1 x2 x3 x4 x5 x6 x7 x8 x9 x10 x11 x12 x13)
      = val_main_v101 (F := Ideal) x0 x1 x2 x3 x4 x5 x6 x7 x8 x9 x10 x11 x12 x13 := by
  unfold colVar rowsOf val_main_v101 val_main_v99 val_main_v100 val_main_v98 val_main_v97 val_main_v96 val_main_v95
    val_main_cst_17 val_main_cst_18
  rfl

/-- The output: (x - mean) * rsqrt (var + eps) * gamma + beta, entry by entry, the column statistics and the two
    parameter vectors read through their repetition over the rows. -/
theorem out_eq :
    Cert.Spec.G4 (val_main_v91 (F := Ideal) x0 x1 x2 x3 x4 x5 x6 x7 x8 x9 x10 x11 x12 x13)
        (val_main_v94 (F := Ideal) x0 x1 x2 x3 x4 x5 x6 x7 x8 x9 x10 x11 x12 x13)
        (val_main_v101 (F := Ideal) x0 x1 x2 x3 x4 x5 x6 x7 x8 x9 x10 x11 x12 x13) x14 x15
      = val_main_v116 (F := Ideal) x0 x1 x2 x3 x4 x5 x6 x7 x8 x9 x10 x11 x12 x13 x14 x15 := by
  funext i
  obtain ⟨p, q, rfl⟩ : ∃ (p : Fin 50000) (q : Fin 128), i = ix2 p q := ⟨i 0, i 1, eq_ix2 i⟩
  rw [val_main_v116_apply, val_main_v113_apply, val_main_v110_apply, val_main_v104_apply, val_main_v103_apply,
    val_main_v102_apply, val_main_v109_apply, val_main_v108_apply, val_main_v107_apply, val_main_v106_apply,
    val_main_v105_apply, val_main_cst_19_apply, val_main_v112_apply, val_main_v111_apply, val_main_v115_apply,
    val_main_v114_apply]
  have h1 : idx_main_v102 (idx_main_v103 (ix2 p q)) = ix1 q :=
    funext fun a => Fin.ext (by match a with | ⟨0, _⟩ => rfl)
  have h2 : idx_main_v108 (idx_main_v109 (ix2 p q)) = ix1 q :=
    funext fun a => Fin.ext (by match a with | ⟨0, _⟩ => rfl)
  have h3 : idx_main_v111 (idx_main_v112 (ix2 p q)) = ix1 q :=
    funext fun a => Fin.ext (by match a with | ⟨0, _⟩ => rfl)
  have h4 : idx_main_v114 (idx_main_v115 (ix2 p q)) = ix1 q :=
    funext fun a => Fin.ext (by match a with | ⟨0, _⟩ => rfl)
  rw [h1, h2, h3, h4]
  rfl

end Cert.Bridge

end
-- ==== Proof.BridgeFfn.lean ====
/-
  The second half of the layer read index by index: the batch normalisation of the attention block's output with its
  column statistics, (x - mean) * rsqrt (var + eps) * gamma + beta, then the feed-forward block
  relu (h W1ᵀ + b1) W2ᵀ + b2 and its residual. Both programs associate every sum and product the same way, so once each
  side is read at row p and column q, and the broadcast, transpose and contraction indices are named by their
  coordinates, the two expressions coincide.
-/
import proofs.«420532_j35407710388433_1_alg».proof.Proof.BridgeTerms
import proofs.«420532_j35407710388433_1_alg».proof.Proof.Gen.ReferenceIdeal.Read
import Idealize.ShloMosaic.PureOps.Ideal
import Idealize.ShloMosaic.Lib.ValueIdx
import Idealize.ShloMosaic.Lib.Pipeline.Value

noncomputable section

namespace Cert.Bridge

open Cert.ReferenceIdeal Idealize.ShloMosaic Idealize.ShloMosaic.TcCoe Idealize.ShloMosaic.ValueIdx

/-! ## Indices by coordinates

A length-128 vector broadcast to one row and then over the 50000 rows is read, at (p, q), at q; a contraction's
operands at (p, q) and summation index k are read at (p, k) and (k, q); a transposed matrix at (a, b) is the matrix at
(b, a). -/

/-- The column mean under its two broadcasts. -/
theorem idx_v65_v66 (p : Fin 50000) (q : Fin 128) : Read.idx_main_v65 (Read.idx_main_v66 (ix2 p q)) = ix1 q :=
  funext fun a => Fin.ext (by match a with | ⟨0, _⟩ => rfl)
/-- The reciprocal standard deviation under its two broadcasts. -/
theorem idx_v71_v72 (p : Fin 50000) (q : Fin 128) : Read.idx_main_v71 (Read.idx_main_v72 (ix2 p q)) = ix1 q :=
  funext fun a => Fin.ext (by match a with | ⟨0, _⟩ => rfl)
/-- The scale under its two broadcasts. -/
theorem idx_v74_v75 (p : Fin 50000) (q : Fin 128) : Read.idx_main_v74 (Read.idx_main_v75 (ix2 p q)) = ix1 q :=
  funext fun a => Fin.ext (by match a with | ⟨0, _⟩ => rfl)
/-- The shift under its two broadcasts. -/
theorem idx_v77_v78 (p : Fin 50000) (q : Fin 128) : Read.idx_main_v77 (Read.idx_main_v78 (ix2 p q)) = ix1 q :=
  funext fun a => Fin.ext (by match a with | ⟨0, _⟩ => rfl)
/-- The second bias under its two broadcasts. -/
theorem idx_v88_v89 (p : Fin 50000) (q : Fin 128) : Read.idx_main_v88 (Read.idx_main_v89 (ix2 p q)) = ix1 q :=
  funext fun a => Fin.ext (by match a with | ⟨0, _⟩ => rfl)
/-- The first bias under its two broadcasts, at the hidden unit k of row p. -/
theorem idx_v82_v83 (p : Fin 50000) (q : Fin 128) (k : Fin 256) :
    Read.idx_main_v82 (Read.idx_main_v83 (Read.lidx_main_v87 (ix2 p q) k)) = ix1 k :=
  funext fun a => Fin.ext (by match a with | ⟨0, _⟩ => rfl)
/-- The second contraction reads the second transposed weight at (k, q), that is the weight at (q, k). -/
theorem idx_v86 (p : Fin 50000) (q : Fin 128) (k : Fin 256) :
    Read.idx_main_v86 (Read.ridx_main_v87 (ix2 p q) k) = ix2 q k :=
  funext fun a => Fin.ext (by match a with | ⟨0, _⟩ => rfl | ⟨1, _⟩ => rfl)
/-- The first contraction, for the hidden unit k of row p, reads the normalised row p at c. -/
theorem lidx_v81 (p : Fin 50000) (q : Fin 128) (k : Fin 256) (c : Fin 128) :
    Read.lidx_main_v81 (Read.lidx_main_v87 (ix2 p q) k) c = ix2 p c :=
  funext fun a => Fin.ext (by match a with | ⟨0, _⟩ => rfl | ⟨1, _⟩ => rfl)
/-- The first contraction reads the first transposed weight at (c, k), that is the weight at (k, c). -/
theorem idx_v80 (p : Fin 50000) (q : Fin 128) (k : Fin 256) (c : Fin 128) :
    Read.idx_main_v80 (Read.ridx_main_v81 (Read.lidx_main_v87 (ix2 p q) k) c) = ix2 k c :=
  funext fun a => Fin.ext (by match a with | ⟨0, _⟩ => rfl | ⟨1, _⟩ => rfl)

/-- The transposed first weight at (a, b) is the weight at (b, a). -/
theorem trW1_apply (x8 : (⟨S256x128, .f32⟩ : BufTy).Contents (Elt Ideal)) (a : Fin 128) (b : Fin 256) : trW1 x8 (ix2 a b) = x8 (ix2 b a) := by
  unfold trW1
  exact transpose_apply [1, 0] x8 _ (ix2 a b) (ix2 b a) (fun c => match c with
    | ⟨0, _⟩ => rfl
    | ⟨1, _⟩ => rfl)

/-- The transposed second weight at (a, b) is the weight at (b, a). -/
theorem trW2_apply (x10 : (⟨S128x256, .f32⟩ : BufTy).Contents (Elt Ideal)) (a : Fin 256) (b : Fin 128) : trW2 x10 (ix2 a b) = x10 (ix2 b a) := by
  unfold trW2
  exact transpose_apply [1, 0] x10 _ (ix2 a b) (ix2 b a) (fun c => match c with
    | ⟨0, _⟩ => rfl
    | ⟨1, _⟩ => rfl)

/-! ## Batch normalisation 1 -/

/-- The first batch normalisation: ((x - mean) * rsqrt (var + eps)) * gamma + beta, with the reference's own column
    mean and variance of x. -/
theorem bn1_eq (x0 : (⟨S50000x128, .f32⟩ : BufTy).Contents (Elt Ideal)) (x1 x2 : (⟨S640000, .i32⟩ : BufTy).Contents (Elt Ideal)) (x3 x4 x5 x6 : (⟨S128x128, .f32⟩ : BufTy).Contents (Elt Ideal)) (x7 x12 x13 : (⟨S128, .f32⟩ : BufTy).Contents (Elt Ideal)) :
    Cert.Spec.bn (Read.val_main_v54 (F := Ideal) x0 x1 x2 x3 x4 x5 x6 x7) (Read.val_main_v57 (F := Ideal) x0 x1 x2 x3 x4 x5 x6 x7)
        (Read.val_main_v64 (F := Ideal) x0 x1 x2 x3 x4 x5 x6 x7) x12 x13
      = Read.val_main_v79 (F := Ideal) x0 x1 x2 x3 x4 x5 x6 x7 x12 x13 := by
  funext i
  obtain ⟨p, q, rfl⟩ : ∃ (p : Fin 50000) (q : Fin 128), i = ix2 p q := ⟨i 0, i 1, eq_ix2 i⟩
  rw [Read.val_main_v79_apply, Read.val_main_v76_apply, Read.val_main_v73_apply, Read.val_main_v67_apply,
    Read.val_main_v66_apply, Read.val_main_v65_apply, Read.val_main_v72_apply, Read.val_main_v71_apply,
    Read.val_main_v70_apply, Read.val_main_v69_apply, Read.val_main_v68_apply, Read.val_main_cst_14_apply,
    Read.val_main_v75_apply, Read.val_main_v74_apply, Read.val_main_v78_apply, Read.val_main_v77_apply,
    idx_v65_v66, idx_v71_v72, idx_v74_v75, idx_v77_v78]
  generalize Read.val_main_v54 (F := Ideal) x0 x1 x2 x3 x4 x5 x6 x7 = xa
  generalize Read.val_main_v57 (F := Ideal) x0 x1 x2 x3 x4 x5 x6 x7 = mu
  generalize Read.val_main_v64 (F := Ideal) x0 x1 x2 x3 x4 x5 x6 x7 = var
  rfl

/-! ## The feed-forward block -/

/-- The kernel's feed-forward block over the two transposed weights, at row p and column q. -/
theorem ffn_apply (y : Cert.Spec.A2 50000 128) (x8 : (⟨S256x128, .f32⟩ : BufTy).Contents (Elt Ideal)) (x9 : (⟨S256, .f32⟩ : BufTy).Contents (Elt Ideal)) (x10 : (⟨S128x256, .f32⟩ : BufTy).Contents (Elt Ideal)) (x11 : (⟨S128, .f32⟩ : BufTy).Contents (Elt Ideal))
    (p : Fin 50000) (q : Fin 128) :
    Cert.Spec.ffn y (trW1 x8) x9 (trW2 x10) x11 (ix2 p q)
      = (∑ k : Fin 256, max ((∑ c : Fin 128, y (ix2 p c) * x8 (ix2 k c)) + x9 (ix1 k))
            (Ideal.ofBits .f32 0x00000000#32) * x10 (ix2 q k)) + x11 (ix1 q) := by
  show (∑ k : Fin 256, max ((∑ c : Fin 128, y (ix2 p c) * trW1 x8 (ix2 c k)) + x9 (ix1 k))
            (Ideal.ofBits .f32 0x00000000#32) * trW2 x10 (ix2 k q)) + x11 (ix1 q) = _
  simp only [trW1_apply, trW2_apply]

/-- The reference's feed-forward block of its normalised array, at row p and column q. -/
theorem ffn_ref (x0 : (⟨S50000x128, .f32⟩ : BufTy).Contents (Elt Ideal)) (x1 x2 : (⟨S640000, .i32⟩ : BufTy).Contents (Elt Ideal)) (x3 x4 x5 x6 : (⟨S128x128, .f32⟩ : BufTy).Contents (Elt Ideal)) (x7 : (⟨S128, .f32⟩ : BufTy).Contents (Elt Ideal)) (x8 : (⟨S256x128, .f32⟩ : BufTy).Contents (Elt Ideal)) (x9 : (⟨S256, .f32⟩ : BufTy).Contents (Elt Ideal))
    (x10 : (⟨S128x256, .f32⟩ : BufTy).Contents (Elt Ideal)) (x11 x12 x13 : (⟨S128, .f32⟩ : BufTy).Contents (Elt Ideal)) (p : Fin 50000) (q : Fin 128) :
    Read.val_main_v90 (F := Ideal) x0 x1 x2 x3 x4 x5 x6 x7 x8 x9 x10 x11 x12 x13 (ix2 p q)
      = (∑ k : Fin 256, max ((∑ c : Fin 128, Read.val_main_v79 (F := Ideal) x0 x1 x2 x3 x4 x5 x6 x7 x12 x13 (ix2 p c) * x8 (ix2 k c))
              + x9 (ix1 k)) (Ideal.ofBits .f32 0x00000000#32) * x10 (ix2 q k)) + x11 (ix1 q) := by
  rw [Read.val_main_v90_apply, Read.val_main_v87_apply, Read.val_main_v89_apply, Read.val_main_v88_apply,
    idx_v88_v89]
  simp only [Read.val_main_v85_apply, Read.val_main_v84_apply, Read.val_main_v81_apply, Read.val_main_v80_apply,
    Read.val_main_v83_apply, Read.val_main_v82_apply, Read.val_main_v86_apply, Read.val_main_call1_v0_apply,
    Read.val_main_call1_cst_apply, lidx_v81, idx_v80, idx_v82_v83, idx_v86]
  rfl

/-! ## Region 3 -/

/-- Region 3 on the reference's first residual sum and its column statistics is the reference's second residual sum:
    the normalised rows plus their feed-forward block. -/
theorem h2pre_eq (x0 : (⟨S50000x128, .f32⟩ : BufTy).Contents (Elt Ideal)) (x1 x2 : (⟨S640000, .i32⟩ : BufTy).Contents (Elt Ideal)) (x3 x4 x5 x6 : (⟨S128x128, .f32⟩ : BufTy).Contents (Elt Ideal)) (x7 : (⟨S128, .f32⟩ : BufTy).Contents (Elt Ideal)) (x8 : (⟨S256x128, .f32⟩ : BufTy).Contents (Elt Ideal)) (x9 : (⟨S256, .f32⟩ : BufTy).Contents (Elt Ideal))
    (x10 : (⟨S128x256, .f32⟩ : BufTy).Contents (Elt Ideal)) (x11 x12 x13 : (⟨S128, .f32⟩ : BufTy).Contents (Elt Ideal)) :
    Cert.Spec.G3 (Read.val_main_v54 (F := Ideal) x0 x1 x2 x3 x4 x5 x6 x7) (Read.val_main_v57 (F := Ideal) x0 x1 x2 x3 x4 x5 x6 x7)
        (Read.val_main_v64 (F := Ideal) x0 x1 x2 x3 x4 x5 x6 x7) x12 x13 (trW1 x8) x9 (trW2 x10) x11
      = Read.val_main_v91 (F := Ideal) x0 x1 x2 x3 x4 x5 x6 x7 x8 x9 x10 x11 x12 x13 := by
  funext i
  obtain ⟨p, q, rfl⟩ : ∃ (p : Fin 50000) (q : Fin 128), i = ix2 p q := ⟨i 0, i 1, eq_ix2 i⟩
  rw [Read.val_main_v91_apply, ffn_ref, ← bn1_eq]
  show Cert.Spec.bn (Read.val_main_v54 (F := Ideal) x0 x1 x2 x3 x4 x5 x6 x7) (Read.val_main_v57 (F := Ideal) x0 x1 x2 x3 x4 x5 x6 x7)
        (Read.val_main_v64 (F := Ideal) x0 x1 x2 x3 x4 x5 x6 x7) x12 x13 (ix2 p q)
      + Cert.Spec.ffn (Cert.Spec.bn (Read.val_main_v54 (F := Ideal) x0 x1 x2 x3 x4 x5 x6 x7) (Read.val_main_v57 (F := Ideal) x0 x1 x2 x3 x4 x5 x6 x7)
        (Read.val_main_v64 (F := Ideal) x0 x1 x2 x3 x4 x5 x6 x7) x12 x13) (trW1 x8) x9 (trW2 x10) x11 (ix2 p q) = _
  rw [ffn_apply]
  generalize Cert.Spec.bn (Read.val_main_v54 (F := Ideal) x0 x1 x2 x3 x4 x5 x6 x7) (Read.val_main_v57 (F := Ideal) x0 x1 x2 x3 x4 x5 x6 x7)
        (Read.val_main_v64 (F := Ideal) x0 x1 x2 x3 x4 x5 x6 x7) x12 x13 = y
  rfl

end Cert.Bridge

end
-- ==== Proof.BridgeAll.lean ====
/-
  The kernel program's closed result term equals the reference's, stage by stage: the three projections, the attention
  quotient (under the index ranges), the residual after the output projection, its column statistics, the feed-forward
  block after the first normalisation, its column statistics, and the second normalisation.
-/
import proofs.«420532_j35407710388433_1_alg».proof.Proof.BridgeChainTerms
import proofs.«420532_j35407710388433_1_alg».proof.Proof.BridgeQKV
import proofs.«420532_j35407710388433_1_alg».proof.Proof.BridgeAttn
import proofs.«420532_j35407710388433_1_alg».proof.Proof.BridgeDense
import proofs.«420532_j35407710388433_1_alg».proof.Proof.BridgeFfn

noncomputable section

namespace Cert.Bridge

open Idealize.ShloMosaic

theorem out_bridge (x0 : FVec Ideal Cert.KernelIdeal.S50000x128 .f32) (x1 x2 : IVec Cert.KernelIdeal.S640000 32)
    (x3 x4 x5 x6 : FVec Ideal Cert.KernelIdeal.S128x128 .f32) (x7 : FVec Ideal Cert.KernelIdeal.S128 .f32)
    (x8 : FVec Ideal Cert.KernelIdeal.S256x128 .f32) (x9 : FVec Ideal Cert.KernelIdeal.S256 .f32)
    (x10 : FVec Ideal Cert.KernelIdeal.S128x256 .f32) (x11 x12 x13 x14 x15 : FVec Ideal Cert.KernelIdeal.S128 .f32)
    (hs : ∀ e, 0 ≤ (x1 e).toInt ∧ (x1 e).toInt < 50000) (hd : ∀ e, 0 ≤ (x2 e).toInt ∧ (x2 e).toInt < 50000) :
    outT x0 x1 x2 x3 x4 x5 x6 x7 x8 x9 x10 x11 x12 x13 x14 x15 = Cert.ReferenceIdeal.Read.val_main_v116 (F := Ideal) x0 x1 x2 x3 x4 x5 x6 x7 x8 x9 x10 x11 x12 x13 x14 x15 := by
  have hattn : attnT x0 x1 x2 x3 x4 x5 = Cert.ReferenceIdeal.Read.val_main_v48 (F := Ideal) x0 x1 x2 x3 x4 x5 := by
    unfold attnT qkvT
    rw [k_eq x0 x3 x4 x5, q_eq x0 x3 x4 x5, v_eq x0 x3 x4 x5]
    exact attn_eq x0 x1 x2 x3 x4 x5 hs hd
  have hh1 : h1T x0 x1 x2 x3 x4 x5 x6 x7 = Cert.ReferenceIdeal.Read.val_main_v54 (F := Ideal) x0 x1 x2 x3 x4 x5 x6 x7 := by
    unfold h1T
    rw [hattn]
    exact h1pre_eq x0 x1 x2 x3 x4 x5 x6 x7
  have hh2 : h2T x0 x1 x2 x3 x4 x5 x6 x7 x8 x9 x10 x11 x12 x13 = Cert.ReferenceIdeal.Read.val_main_v91 (F := Ideal) x0 x1 x2 x3 x4 x5 x6 x7 x8 x9 x10 x11 x12 x13 := by
    unfold h2T
    rw [hh1, mean1_eq x0 x1 x2 x3 x4 x5 x6 x7, var1_eq x0 x1 x2 x3 x4 x5 x6 x7]
    exact h2pre_eq x0 x1 x2 x3 x4 x5 x6 x7 x8 x9 x10 x11 x12 x13
  unfold outT
  rw [hh2, mean2_eq x0 x1 x2 x3 x4 x5 x6 x7 x8 x9 x10 x11 x12 x13, var2_eq x0 x1 x2 x3 x4 x5 x6 x7 x8 x9 x10 x11 x12 x13]
  exact out_eq x0 x1 x2 x3 x4 x5 x6 x7 x8 x9 x10 x11 x12 x13 x14 x15

end Cert.Bridge

end
-- ==== Proof.PreRange.lean ====
/-
  The precondition read back on the two index arrays. The precondition is one conjunction of truth values, the last two
  of which say: every entry `w` of the source-index array, and every entry of the destination-index array, satisfies
  `0 ≤ w` and `w < 50000` as signed 32-bit words. Each of the two is an "all" over the 640000 entries: a reduction by
  `and`, started at 1, of the entrywise conjunction of the two signed comparisons against the broadcast constants.
  From the whole conjunction being 1 we read off: both reductions are 1; hence every entry of each compared array is 1;
  hence both comparisons hold at every entry, which as integers is `0 ≤ toInt w < 50000`.
  The float conjuncts (all the earlier ones) are carried along as one opaque truth value and never opened.
-/
import proofs.«420532_j35407710388433_1_alg».proof.Pre_finite_inputs
import Idealize.ShloMosaic.Lib.ReduceAll
import Idealize.ShloMosaic.Lib.ValueIdx
import Idealize.ShloMosaic.Lib.StableHlo.Predicate
import Idealize.ShloMosaic.PureOps.Ideal

namespace Cert.Bridge

open Idealize.ShloMosaic Cert.Pre_finite_inputs

/-- The rank-0 shape has exactly one index. -/
instance preRange_subsingleton_idx : Subsingleton S_.Idx := ⟨fun a b => funext fun d => d.elim0⟩

variable [Cert.Pre_finite_inputs.Facts]

/-- One "all entries lie in [0, 50000)" conjunct, read back: if the `and`-reduction over all 640000 entries of
    `(a ≥ₛ 0) ∧ (a <ₛ 50000)` is 1, then every entry of `a` is, as a signed integer, in `[0, 50000)`. -/
theorem range_of_all (a : IVec S640000 32) (j : S_.Idx)
    (h : Host.reduce IntOp.andi
          (andi (cmpi .sge a (broadcastInDim S640000 ![] Facts.bcast_S_S640000 (constantI S_ 32 0#32)))
                (cmpi .slt a (broadcastInDim S640000 ![] Facts.bcast_S_S640000 (constantI S_ 32 50000#32))))
          (constantI S_ 1 1#1) Facts.reducesTo_S640000_S_d0 Facts.h_S_ j = 1#1) :
    ∀ e, 0 ≤ (a e).toInt ∧ (a e).toInt < 50000 := by
  intro e
  -- the reduction is 1, so the reduced array is 1 at e
  have he := Host.reduce_andi_all _ _ _ _ j h e
  -- a conjunction of truth values is 1 iff both are
  obtain ⟨h1, h2⟩ := IntOp.andi_eq_one.1 he
  -- a signed comparison that is 1 is the inequality of the signed values
  have h1' := IntOp.cmpi_sge.1 h1
  have h2' := IntOp.cmpi_slt.1 h2
  -- a broadcast rank-0 constant reads the constant at every index
  change (0#32 : BitVec 32).toInt ≤ (a e).toInt at h1'
  change (a e).toInt < (50000#32 : BitVec 32).toInt at h2'
  have z0 : (0#32 : BitVec 32).toInt = 0 := by decide
  have z1 : (50000#32 : BitVec 32).toInt = 50000 := by decide
  rw [z0] at h1'
  rw [z1] at h2'
  exact ⟨h1', h2'⟩

/-- The last stretch of the precondition is `((X ∧ Y) ∧ all-src-in-range) ∧ all-dst-in-range` with `X`, `Y` the
    earlier (float) conjuncts; when it is 1, both index arrays are in range. -/
theorem part4_ranges (a1 a2 : IVec S640000 32) (X Y : IVec S_ 1) (j : S_.Idx)
    (h : fn_part4 (F := Ideal) a1 a2 X Y j = 1#1) :
    (∀ e, 0 ≤ (a1 e).toInt ∧ (a1 e).toInt < 50000) ∧ (∀ e, 0 ≤ (a2 e).toInt ∧ (a2 e).toInt < 50000) := by
  unfold fn_part4 at h
  dsimp only at h
  obtain ⟨h12, hd⟩ := IntOp.andi_eq_one.1 h
  obtain ⟨_, hs⟩ := IntOp.andi_eq_one.1 h12
  exact ⟨range_of_all a1 j hs, range_of_all a2 j hd⟩

/-- The whole precondition, unfolded one part at a time down to its last stretch; the float conjuncts stay closed. -/
theorem tail_split (a0 : FVec Ideal S50000x128 .f32) (a1 : IVec S640000 32) (a2 : IVec S640000 32)
    (a3 : FVec Ideal S128x128 .f32) (a4 : FVec Ideal S128x128 .f32) (a5 : FVec Ideal S128x128 .f32)
    (a6 : FVec Ideal S128x128 .f32) (a7 : FVec Ideal S128 .f32) (a8 : FVec Ideal S256x128 .f32)
    (a9 : FVec Ideal S256 .f32) (a10 : FVec Ideal S128x256 .f32) (a11 : FVec Ideal S128 .f32)
    (a12 : FVec Ideal S128 .f32) (a13 : FVec Ideal S128 .f32) (a14 : FVec Ideal S128 .f32)
    (a15 : FVec Ideal S128 .f32)
    (h : Cert.Pre_finite_inputs.fn (F := Ideal) a0 a1 a2 a3 a4 a5 a6 a7 a8 a9 a10 a11 a12 a13 a14 a15 = fun _ => 1#1) :
    ∃ X Y : IVec S_ 1, fn_part4 (F := Ideal) a1 a2 X Y ValueIdx.ix0 = 1#1 := by
  have h0 := congrFun h ValueIdx.ix0
  unfold fn at h0
  dsimp only at h0
  unfold fn_part1 at h0
  dsimp only at h0
  unfold fn_part2 at h0
  dsimp only at h0
  unfold fn_part3 at h0
  dsimp only at h0
  exact ⟨_, _, h0⟩

/-- Under the precondition every source index is in `[0, 50000)`. -/
theorem src_range (a0 : FVec Ideal S50000x128 .f32) (a1 : IVec S640000 32) (a2 : IVec S640000 32)
    (a3 : FVec Ideal S128x128 .f32) (a4 : FVec Ideal S128x128 .f32) (a5 : FVec Ideal S128x128 .f32)
    (a6 : FVec Ideal S128x128 .f32) (a7 : FVec Ideal S128 .f32) (a8 : FVec Ideal S256x128 .f32)
    (a9 : FVec Ideal S256 .f32) (a10 : FVec Ideal S128x256 .f32) (a11 : FVec Ideal S128 .f32)
    (a12 : FVec Ideal S128 .f32) (a13 : FVec Ideal S128 .f32) (a14 : FVec Ideal S128 .f32)
    (a15 : FVec Ideal S128 .f32)
    (h : Cert.Pre_finite_inputs.fn (F := Ideal) a0 a1 a2 a3 a4 a5 a6 a7 a8 a9 a10 a11 a12 a13 a14 a15 = fun _ => 1#1) :
    ∀ e, 0 ≤ (a1 e).toInt ∧ (a1 e).toInt < 50000 := by
  obtain ⟨X, Y, hXY⟩ := tail_split a0 a1 a2 a3 a4 a5 a6 a7 a8 a9 a10 a11 a12 a13 a14 a15 h
  exact (part4_ranges a1 a2 X Y _ hXY).1

/-- Under the precondition every destination index is in `[0, 50000)`. -/
theorem dst_range (a0 : FVec Ideal S50000x128 .f32) (a1 : IVec S640000 32) (a2 : IVec S640000 32)
    (a3 : FVec Ideal S128x128 .f32) (a4 : FVec Ideal S128x128 .f32) (a5 : FVec Ideal S128x128 .f32)
    (a6 : FVec Ideal S128x128 .f32) (a7 : FVec Ideal S128 .f32) (a8 : FVec Ideal S256x128 .f32)
    (a9 : FVec Ideal S256 .f32) (a10 : FVec Ideal S128x256 .f32) (a11 : FVec Ideal S128 .f32)
    (a12 : FVec Ideal S128 .f32) (a13 : FVec Ideal S128 .f32) (a14 : FVec Ideal S128 .f32)
    (a15 : FVec Ideal S128 .f32)
    (h : Cert.Pre_finite_inputs.fn (F := Ideal) a0 a1 a2 a3 a4 a5 a6 a7 a8 a9 a10 a11 a12 a13 a14 a15 = fun _ => 1#1) :
    ∀ e, 0 ≤ (a2 e).toInt ∧ (a2 e).toInt < 50000 := by
  obtain ⟨X, Y, hXY⟩ := tail_split a0 a1 a2 a3 a4 a5 a6 a7 a8 a9 a10 a11 a12 a13 a14 a15 h
  exact (part4_ranges a1 a2 X Y _ hXY).2

end Cert.Bridge
-- ==== Proof.lean ====
/-
  The kernel (a graph-transformer layer in five Pallas kernels: the fused Q/K/V projection, the per-edge attention scores
  and weighted values, the output projection with residual and bias, batch norm 1 with the feed-forward block, batch
  norm 2; jnp.take gathers, segment sums and column statistics between them) against its jnp reference, over the
  extended reals, for finite float inputs and source and destination indices inside [0, 50000).

  The three frames: each kernel region runs its body at every grid point from whole blocks to whole blocks, the host
  stretches between them never write an argument, and the reference is a straight line of host operations. The value:
  every region's output array is one whole-array function of its inputs (a row-blocked matrix product, the clipped and
  exponentiated per-head scores, the normalisations); composing them through the host stretches gives one closed term of
  the sixteen arguments, and that term is the reference's, stage by stage: the stacked projection sliced back into Q, K
  and V; the per-head dot product through the 0/1 grouping matrix is the sum over the head's sixteen columns, the scale
  by 1/4 is the quotient by 4, and for in-range indices the filling gather is the plain row gather, so the segment sums
  and their quotient agree; (x + y) + b = x + (y + b); the column statistics are the same host operations on equal arrays.
-/
import proofs.«420532_j35407710388433_1_alg».proof.Defs
import proofs.«420532_j35407710388433_1_alg».proof.Proof.Gen.Kernel
import proofs.«420532_j35407710388433_1_alg».proof.Proof.Gen.KernelIdeal
import proofs.«420532_j35407710388433_1_alg».proof.Proof.Gen.ReferenceIdeal
import proofs.«420532_j35407710388433_1_alg».proof.Proof.Gen.Pre_finite_inputs
import proofs.«420532_j35407710388433_1_alg».proof.Proof.Gen.ReferenceIdeal.Run
import proofs.«420532_j35407710388433_1_alg».proof.Proof.Gen.ReferenceIdeal.Read
import proofs.«420532_j35407710388433_1_alg».proof.Proof.KB.Run
import proofs.«420532_j35407710388433_1_alg».proof.Proof.KI.Run
import proofs.«420532_j35407710388433_1_alg».proof.Proof.KI.Chain
import proofs.«420532_j35407710388433_1_alg».proof.Proof.KI.Val0
import proofs.«420532_j35407710388433_1_alg».proof.Proof.KI.Val1
import proofs.«420532_j35407710388433_1_alg».proof.Proof.KI.Val2
import proofs.«420532_j35407710388433_1_alg».proof.Proof.KI.Val3
import proofs.«420532_j35407710388433_1_alg».proof.Proof.KI.Val4
import proofs.«420532_j35407710388433_1_alg».proof.Proof.BridgeAll
import proofs.«420532_j35407710388433_1_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two idealized programs end with the same result array: the kernel program's closed term of the arguments (the
    run through the five regions) is the reference's last stage (the stage-by-stage bridge), the index ranges read out of
    the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Bridge.outT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ⟨?_, ?_⟩) (Cert.KernelIdeal.Hand.run_all m ρ)
    · exact (h c _ (Cert.KernelIdeal.Hand.mem_uc Cert.KernelIdeal.main_v44 (by decide))).trans
        (Cert.KernelIdeal.Hand.v44_eq m ρ c Cert.KernelIdeal.Hand.final0_2 Cert.KernelIdeal.Hand.final1_5
          Cert.KernelIdeal.Hand.final1_6 Cert.KernelIdeal.Hand.final2_4 Cert.KernelIdeal.Hand.final3_9
          Cert.KernelIdeal.Hand.final4_5)
    · exact ⟨(h c _ (Cert.KernelIdeal.Hand.mem_uc Cert.KernelIdeal.main_arg0 (by decide))).trans (Cert.KernelIdeal.Hand.W13_main_arg0 m ρ c),
        (h c _ (Cert.KernelIdeal.Hand.mem_uc Cert.KernelIdeal.main_arg1 (by decide))).trans (Cert.KernelIdeal.Hand.W13_main_arg1 m ρ c),
        (h c _ (Cert.KernelIdeal.Hand.mem_uc Cert.KernelIdeal.main_arg2 (by decide))).trans (Cert.KernelIdeal.Hand.W13_main_arg2 m ρ c),
        (h c _ (Cert.KernelIdeal.Hand.mem_uc Cert.KernelIdeal.main_arg3 (by decide))).trans (Cert.KernelIdeal.Hand.W13_main_arg3 m ρ c),
        (h c _ (Cert.KernelIdeal.Hand.mem_uc Cert.KernelIdeal.main_arg4 (by decide))).trans (Cert.KernelIdeal.Hand.W13_main_arg4 m ρ c),
        (h c _ (Cert.KernelIdeal.Hand.mem_uc Cert.KernelIdeal.main_arg5 (by decide))).trans (Cert.KernelIdeal.Hand.W13_main_arg5 m ρ c),
        (h c _ (Cert.KernelIdeal.Hand.mem_uc Cert.KernelIdeal.main_arg6 (by decide))).trans (Cert.KernelIdeal.Hand.W13_main_arg6 m ρ c),
        (h c _ (Cert.KernelIdeal.Hand.mem_uc Cert.KernelIdeal.main_arg7 (by decide))).trans (Cert.KernelIdeal.Hand.W13_main_arg7 m ρ c),
        (h c _ (Cert.KernelIdeal.Hand.mem_uc Cert.KernelIdeal.main_arg8 (by decide))).trans (Cert.KernelIdeal.Hand.W13_main_arg8 m ρ c),
        (h c _ (Cert.KernelIdeal.Hand.mem_uc Cert.KernelIdeal.main_arg9 (by decide))).trans (Cert.KernelIdeal.Hand.W13_main_arg9 m ρ c),
        (h c _ (Cert.KernelIdeal.Hand.mem_uc Cert.KernelIdeal.main_arg10 (by decide))).trans (Cert.KernelIdeal.Hand.W13_main_arg10 m ρ c),
        (h c _ (Cert.KernelIdeal.Hand.mem_uc Cert.KernelIdeal.main_arg11 (by decide))).trans (Cert.KernelIdeal.Hand.W13_main_arg11 m ρ c),
        (h c _ (Cert.KernelIdeal.Hand.mem_uc Cert.KernelIdeal.main_arg12 (by decide))).trans (Cert.KernelIdeal.Hand.W13_main_arg12 m ρ c),
        (h c _ (Cert.KernelIdeal.Hand.mem_uc Cert.KernelIdeal.main_arg13 (by decide))).trans (Cert.KernelIdeal.Hand.W13_main_arg13 m ρ c),
        (h c _ (Cert.KernelIdeal.Hand.mem_uc Cert.KernelIdeal.main_arg14 (by decide))).trans (Cert.KernelIdeal.Hand.W13_main_arg14 m ρ c),
        (h c _ (Cert.KernelIdeal.Hand.mem_uc Cert.KernelIdeal.main_arg15 (by decide))).trans (Cert.KernelIdeal.Hand.W13_main_arg15 m ρ c)⟩
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.ReferenceIdeal.Read.val_main_v116_eq, e0, e1, e2, e3, e4, e5, e6, e7, e8, e9, e10, e11, e12, e13, e14, e15]
    exact (Cert.Bridge.out_bridge (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      (Cert.Bridge.src_range _ _ _ _ _ _ _ _ _ _ _ _ _ _ _ _ (hpre c))
      (Cert.Bridge.dst_range _ _ _ _ _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
